-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4 : Shape := ⟨2, ![512, 4]⟩
abbrev S3x32000x1024 : Shape := ⟨3, ![3, 32000, 1024]⟩
abbrev S1024 : Shape := ⟨1, ![1024]⟩
abbrev S1024x32000 : Shape := ⟨2, ![1024, 32000]⟩
abbrev S32000 : Shape := ⟨1, ![32000]⟩
abbrev S_ : Shape := ⟨0, ![]⟩

class Facts : Prop where
  bcast_S_S3x32000x1024 : S_.BroadcastsInDim S3x32000x1024 (![] : Fin 0 → Fin S3x32000x1024.rank)
  reducesTo_S3x32000x1024_S_d0_1_2 : S3x32000x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x32000 : S_.BroadcastsInDim S1024x32000 (![] : Fin 0 → Fin S1024x32000.rank)
  reducesTo_S1024x32000_S_d0_1 : S1024x32000.ReducesTo [0, 1] S_
  bcast_S_S32000 : S_.BroadcastsInDim S32000 (![] : Fin 0 → Fin S32000.rank)
  reducesTo_S32000_S_d0 : S32000.ReducesTo [0] S_
  bcast_S_S512x4 : S_.BroadcastsInDim S512x4 (![] : Fin 0 → Fin S512x4.rank)
  reducesTo_S512x4_S_d0_1 : S512x4.ReducesTo [0, 1] S_

variable [Facts]

def fn_part1 {F : FTy → Type} [FloatOps F] (main_arg0 : IVec S512x4 32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_c_6 : IVec S_ 32 := constantI S_ 32 0#32
  let main_v19 : IVec S512x4 32 := broadcastInDim S512x4 ![] bcast_S_S512x4 main_c_6
  let main_v20 : IVec S512x4 1 := cmpi .sge main_arg0 main_v19
  let main_c_7 : IVec S_ 1 := constantI S_ 1 1#1
  let main_v21 : IVec S_ 1 := (fun x v => Host.reduce IntOp.andi x v reducesTo_S512x4_S_d0_1 h_S_) main_v20 main_c_7
  let main_v22 : IVec S_ 1 := andi main_v18 main_v21
  let main_c_8 : IVec S_ 32 := constantI S_ 32 32000#32
  let main_v23 : IVec S512x4 32 := broadcastInDim S512x4 ![] bcast_S_S512x4 main_c_8
  let main_v24 : IVec S512x4 1 := cmpi .slt main_arg0 main_v23
  let main_c_9 : IVec S_ 1 := constantI S_ 1 1#1
  let main_v25 : IVec S_ 1 := (fun x v => Host.reduce IntOp.andi x v reducesTo_S512x4_S_d0_1 h_S_) main_v24 main_c_9
  let main_v26 : IVec S_ 1 := andi main_v22 main_v25
  main_v26

def fn {F : FTy → Type} [FloatOps F] (main_arg0 : IVec S512x4 32) (main_arg1 : FVec F S3x32000x1024 .f32) (main_arg2 : FVec F S1024 .f32) (main_arg3 : FVec F S1024x32000 .f32) (main_arg4 : FVec F S32000 .f32) : IVec S_ 1 :=
  let main_v0 : FVec F S3x32000x1024 .f32 := Host.absf main_arg1
  let main_cst : FVec F S_ .f32 := constant S_ .f32 0x7F800000#32
  let main_v1 : FVec F S3x32000x1024 .f32 := broadcastInDim S3x32000x1024 ![] bcast_S_S3x32000x1024 main_cst
  let main_v2 : IVec S3x32000x1024 1 := cmpf .olt main_v0 main_v1
  let main_c : IVec S_ 1 := constantI S_ 1 1#1
  let main_v3 : IVec S_ 1 := (fun x v => Host.reduce IntOp.andi x v reducesTo_S3x32000x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32000 .f32 := Host.absf main_arg3
  let main_cst_2 : FVec F S_ .f32 := constant S_ .f32 0x7F800000#32
  let main_v10 : FVec F S1024x32000 .f32 := broadcastInDim S1024x32000 ![] bcast_S_S1024x32000 main_cst_2
  let main_v11 : IVec S1024x32000 1 := cmpf .olt main_v9 main_v10
  let main_c_3 : IVec S_ 1 := constantI S_ 1 1#1
  let main_v12 : IVec S_ 1 := (fun x v => Host.reduce IntOp.andi x v reducesTo_S1024x32000_S_d0_1 h_S_) main_v11 main_c_3
  let main_v13 : IVec S_ 1 := andi main_v8 main_v12
  let main_v14 : FVec F S32000 .f32 := Host.absf main_arg4
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg0 main_v13 main_v16
-- ==== Kernel.lean ====
abbrev S512x4 : Shape := ⟨2, ![512, 4]⟩
abbrev S3x32000x1024 : Shape := ⟨3, ![3, 32000, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S3x4 : Shape := ⟨2, ![3, 4]⟩
abbrev S515x4 : Shape := ⟨2, ![515, 4]⟩
abbrev S512x4x1 : Shape := ⟨3, ![512, 4, 1]⟩
abbrev S512x4x3 : Shape := ⟨3, ![512, 4, 3]⟩
abbrev S2048x3 : Shape := ⟨2, ![2048, 3]⟩
abbrev S3x2048 : Shape := ⟨2, ![3, 2048]⟩
abbrev S1x32000x1024 : Shape := ⟨3, ![1, 32000, 1024]⟩
abbrev S32000x1024 : Shape := ⟨2, ![32000, 1024]⟩
abbrev S32000x8x128 : Shape := ⟨3, ![32000, 8, 128]⟩
abbrev S1x8x128 : Shape := ⟨3, ![1, 8, 128]⟩
abbrev S2048x8x128 : Shape := ⟨3, ![2048, 8, 128]⟩
abbrev S64x8x128 : Shape := ⟨3, ![64, 8, 128]⟩
abbrev S1x1 : Shape := ⟨2, ![1, 1]⟩
abbrev S8x128 : Shape := ⟨2, ![8, 128]⟩
abbrev S2048x1024 : Shape := ⟨2, ![2048, 1024]⟩
abbrev S1x32000 : Shape := ⟨2, ![1, 32000]⟩
abbrev S2048x32000 : Shape := ⟨2, ![2048, 32000]⟩
abbrev S1024x640 : Shape := ⟨2, ![1024, 640]⟩
abbrev S1x640 : Shape := ⟨2, ![1, 640]⟩
abbrev S2048x640 : Shape := ⟨2, ![2048, 640]⟩
abbrev S512x4x32000 : Shape := ⟨3, ![512, 4, 32000]⟩

abbrev nBuf : Space → Nat
  | .hbm => 39
  | .vmem => 13
  | .smem => 1
  | _ => 0

abbrev bufTy : (tb : Table) → Fin (tcTables nBuf tb) → BufTy
  | .hbm, ⟨0, _⟩ => ⟨S512x4, .i32⟩
  | .hbm, ⟨1, _⟩ => ⟨S3x32000x1024, .f32⟩
  | .hbm, ⟨2, _⟩ => ⟨S1024, .f32⟩
  | .hbm, ⟨3, _⟩ => ⟨S1024x32000, .f32⟩
  | .hbm, ⟨4, _⟩ => ⟨S32000, .f32⟩
  | .hbm, ⟨5, _⟩ => ⟨S_, .i32⟩
  | .hbm, ⟨6, _⟩ => ⟨S3x4, .i32⟩
  | .hbm, ⟨7, _⟩ => ⟨S515x4, .i32⟩
  | .hbm, ⟨8, _⟩ => ⟨S512x4, .i32⟩
  | .hbm, ⟨9, _⟩ => ⟨S512x4, .i32⟩
  | .hbm, ⟨10, _⟩ => ⟨S512x4, .i32⟩
  | .hbm, ⟨11, _⟩ => ⟨S512x4x1, .i32⟩
  | .hbm, ⟨12, _⟩ => ⟨S512x4x1, .i32⟩
  | .hbm, ⟨13, _⟩ => ⟨S512x4x1, .i32⟩
  | .hbm, ⟨14, _⟩ => ⟨S512x4x3, .i32⟩
  | .hbm, ⟨15, _⟩ => ⟨S2048x3, .i32⟩
  | .hbm, ⟨16, _⟩ => ⟨S3x2048, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S3x2048, .i32⟩
  | .hbm, ⟨21, _⟩ => ⟨S3x2048, .i32⟩
  | .hbm, ⟨22, _⟩ => ⟨S_, .i32⟩
  | .hbm, ⟨23, _⟩ => ⟨S3x2048, .i32⟩
  | .hbm, ⟨24, _⟩ => ⟨S1x32000x1024, .f32⟩
  | .hbm, ⟨25, _⟩ => ⟨S32000x1024, .f32⟩
  | .hbm, ⟨26, _⟩ => ⟨S32000x8x128, .f32⟩
  | .hbm, ⟨27, _⟩ => ⟨S1x32000x1024, .f32⟩
  | .hbm, ⟨28, _⟩ => ⟨S32000x1024, .f32⟩
  | .hbm, ⟨29, _⟩ => ⟨S32000x8x128, .f32⟩
  | .hbm, ⟨30, _⟩ => ⟨S1x32000x1024, .f32⟩
  | .hbm, ⟨31, _⟩ => ⟨S32000x1024, .f32⟩
  | .hbm, ⟨32, _⟩ => ⟨S32000x8x128, .f32⟩
  | .hbm, ⟨33, _⟩ => ⟨S1x8x128, .f32⟩
  | .hbm, ⟨34, _⟩ => ⟨S2048x8x128, .bf16⟩
  | .hbm, ⟨35, _⟩ => ⟨S2048x1024, .bf16⟩
  | .hbm, ⟨36, _⟩ => ⟨S1x32000, .f32⟩
  | .hbm, ⟨37, _⟩ => ⟨S2048x32000, .f32⟩
  | .hbm, ⟨38, _⟩ => ⟨S512x4x32000, .f32⟩
  | .local _ .vmem, ⟨0, _⟩ => ⟨S1x8x128, .f32⟩
  | .local _ .vmem, ⟨1, _⟩ => ⟨S64x8x128, .bf16⟩
  | .local _ .vmem, ⟨2, _⟩ => ⟨S64x8x128, .bf16⟩
  | .local _ .vmem, ⟨3, _⟩ => ⟨S64x8x128, .f32⟩
  | .local _ .vmem, ⟨4, _⟩ => ⟨S64x8x128, .f32⟩
  | .local _ .vmem, ⟨5, _⟩ => ⟨S64x8x128, .f32⟩
  | .local _ .vmem, ⟨6, _⟩ => ⟨S2048x1024, .bf16⟩
  | .local _ .vmem, ⟨7, _⟩ => ⟨S1024x640, .f32⟩
  | .local _ .vmem, ⟨8, _⟩ => ⟨S1024x640, .f32⟩
  | .local _ .vmem, ⟨9, _⟩ => ⟨S1x640, .f32⟩
  | .local _ .vmem, ⟨10, _⟩ => ⟨S1x640, .f32⟩
  | .local _ .vmem, ⟨11, _⟩ => ⟨S2048x640, .f32⟩
  | .local _ .vmem, ⟨12, _⟩ => ⟨S2048x640, .f32⟩
  | .local _ .smem, ⟨0, _⟩ => ⟨S3x2048, .i32⟩
  | _, _ => ⟨S512x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32_0 : BitVec 32 := 64#32
  let v1 : BitVec 32 := Scalar.addi c0_i32 c64_i32_0
  let c1_i32 : BitVec 32 := 1#32
  ⟨c0_i32, v1, c1_i32⟩
def k0_off1 (i : grid0.Coords) (k0_t1 : Fin k0_t1_loop.trips) : Fin 2 → Nat :=
  let c0_22 : Index := 0#32
  let arg0 : BitVec 32 := BitVec.ofNat 32 (i 0).val
  let c64_i32 : BitVec 32 := 64#32
  let v0 : BitVec 32 := Scalar.muli arg0 c64_i32
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v16 : BitVec 32 := Scalar.muli arg13 c1_i32_20
  let v17 : BitVec 32 := Scalar.addi c0_i32_21 v16
  let v18 : BitVec 32 := Scalar.addi v0 v17
  let v19 : Index := Scalar.indexCast v18
  ![0, v19.toNat]
def k0_off2 (i : grid0.Coords) (k0_t1 : Fin k0_t1_loop.trips) : Fin 2 → Nat :=
  let c1 : Index := 1#32
  let arg0 : BitVec 32 := BitVec.ofNat 32 (i 0).val
  let c64_i32 : BitVec 32 := 64#32
  let v0 : BitVec 32 := Scalar.muli arg0 c64_i32
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v16 : BitVec 32 := Scalar.muli arg13 c1_i32_20
  let v17 : BitVec 32 := Scalar.addi c0_i32_21 v16
  let v18 : BitVec 32 := Scalar.addi v0 v17
  let v21 : Index := Scalar.indexCast v18
  ![1, v21.toNat]
def k0_off3 (i : grid0.Coords) (k0_t1 : Fin k0_t1_loop.trips) : Fin 2 → Nat :=
  let c2 : Index := 2#32
  let arg0 : BitVec 32 := BitVec.ofNat 32 (i 0).val
  let c64_i32 : BitVec 32 := 64#32
  let v0 : BitVec 32 := Scalar.muli arg0 c64_i32
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v16 : BitVec 32 := Scalar.muli arg13 c1_i32_20
  let v17 : BitVec 32 := Scalar.addi c0_i32_21 v16
  let v18 : BitVec 32 := Scalar.addi v0 v17
  let v23 : Index := Scalar.indexCast v18
  ![2, v23.toNat]
def k0_off4 (k0_t1 : Fin k0_t1_loop.trips) : Fin 3 → Nat :=
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v16 : BitVec 32 := Scalar.muli arg13 c1_i32_20
  let v17 : BitVec 32 := Scalar.addi c0_i32_21 v16
  let c0_i32_23 : BitVec 32 := 0#32
  let c0_i32_24 : BitVec 32 := 0#32
  ![v17.toNat, 0, 0]
def k0_off5 (v20 : BitVec 32) : Fin 3 → Nat :=
  let c0_i32_25 : BitVec 32 := 0#32
  let c0_i32_26 : BitVec 32 := 0#32
  ![v20.toNat, 0, 0]

def k0_chk1 (v20 : BitVec 32) : Prop :=
  (∀ a, (k0_off5 v20) a + S1x8x128.size a ≤ S32000x8x128.size a)
instance k0_chk1.dec : ∀ (v20 : BitVec 32), Decidable (k0_chk1 v20) := fun v20 => decidable_of_iff' _ (Iff.of_eq (k0_chk1.eq_1 v20))
theorem k0_off5_inb : ∀ (v20 : BitVec 32) (k0_hw1 : k0_chk1 v20), ∀ a, (k0_off5 v20) a + S1x8x128.size a ≤ S32000x8x128.size a := fun v20 k0_hw1 => k0_hw1

def k0_off6 (k0_t1 : Fin k0_t1_loop.trips) : Fin 3 → Nat :=
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v16 : BitVec 32 := Scalar.muli arg13 c1_i32_20
  let v17 : BitVec 32 := Scalar.addi c0_i32_21 v16
  let c0_i32_27 : BitVec 32 := 0#32
  let c0_i32_28 : BitVec 32 := 0#32
  ![v17.toNat, 0, 0]
def k0_off7 (v22 : BitVec 32) : Fin 3 → Nat :=
  let c0_i32_29 : BitVec 32 := 0#32
  let c0_i32_30 : BitVec 32 := 0#32
  ![v22.toNat, 0, 0]

def k0_chk2 (v22 : BitVec 32) : Prop :=
  (∀ a, (k0_off7 v22) a + S1x8x128.size a ≤ S32000x8x128.size a)
instance k0_chk2.dec : ∀ (v22 : BitVec 32), Decidable (k0_chk2 v22) := fun v22 => decidable_of_iff' _ (Iff.of_eq (k0_chk2.eq_1 v22))
theorem k0_off7_inb : ∀ (v22 : BitVec 32) (k0_hw2 : k0_chk2 v22), ∀ a, (k0_off7 v22) a + S1x8x128.size a ≤ S32000x8x128.size a := fun v22 k0_hw2 => k0_hw2

def k0_off8 (k0_t1 : Fin k0_t1_loop.trips) : Fin 3 → Nat :=
  let c0_i32_21 : BitVec 32 := 0#32
  let c0_i32 : BitVec 32 := 0#32
  let c1_i32 : BitVec 32 := 1#32
  let arg13 : BitVec 32 := Scf.iv c0_i32 c1_i32 k0_t1
  let c1_i32_20 : BitVec 32 := 1#32
  let v16 : BitVec 32 := Scalar.muli arg13 c1_i32_20
  let v17 : BitVec 32 := Scalar.addi c0_i32_21 v16
  let c0_i32_31 : BitVec 32 := 0#32
  let c0_i32_32 : BitVec 32 := 0#32
  ![v17.toNat, 0, 0]
def k0_off9 (v24 : BitVec 32) : Fin 3 → Nat :=
  let c0_i32_33 : BitVec 32 := 0#32
  let c0_i32_34 : BitVec 32 := 0#32
  ![v24.toNat, 0, 0]

def k0_chk3 (v24 : BitVec 32) : Prop :=
  (∀ a, (k0_off9 v24) a + S1x8x128.size a ≤ S32000x8x128.size a)
instance k0_chk3.dec : ∀ (v24 : BitVec 32), Decidable (k0_chk3 v24) := fun v24 => decidable_of_iff' _ (Iff.of_eq (k0_chk3.eq_1 v24))
theorem k0_off9_inb : ∀ (v24 : BitVec 32) (k0_hw3 : k0_chk3 v24), ∀ a, (k0_off9 v24) a + S1x8x128.size a ≤ S32000x8x128.size a := fun v24 k0_hw3 => k0_hw3

@[reducible] def k0_t2_loop : Scf.Loop 32 :=
  let c0_i32_2 : BitVec 32 := 0#32
  let c64_i32_3 : BitVec 32 := 64#32
  let v2 : BitVec 32 := Scalar.addi c0_i32_2 c64_i32_3
  let c1_i32_4 : BitVec 32 := 1#32
  ⟨c0_i32_2, v2, c1_i32_4⟩
def k0_off10 (k0_t2 : Fin k0_t2_loop.trips) : Fin 3 → Nat :=
  let c0_i32_21 : BitVec 32 := 0#32
  let c0_i32_2 : BitVec 32 := 0#32
  let c1_i32_4 : BitVec 32 := 1#32
  let arg13 : BitVec 32 := Scf.iv c0_i32_2 c1_i32_4 k0_t2
  let c1_i32_20 : BitVec 32 := 1#32
  let v16 : BitVec 32 := Scalar.muli arg13 c1_i32_20
  let v17 : BitVec 32 := Scalar.addi c0_i32_21 v16
  let c0_i32_23 : BitVec 32 := 0#32
  let c0_i32_24 : BitVec 32 := 0#32
  ![v17.toNat, 0, 0]
def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3x4 : S_.BroadcastsInDim S3x4 (![] : Fin 0 → Fin S3x4.rank)
  concatenates_S3x4_S512x4_S515x4_d0 : Shape.Concatenates [S3x4, S512x4] S515x4 0
  slices_S515x4_S512x4_0_0 : S515x4.Slices ![0, 0] S512x4
  slices_S515x4_S512x4_1_0 : S515x4.Slices ![1, 0] S512x4
  slices_S515x4_S512x4_2_0 : S515x4.Slices ![2, 0] S512x4
  bcast_S512x4_S512x4x1_0_1 : S512x4.BroadcastsInDim S512x4x1 (![0, 1] : Fin 2 → Fin S512x4x1.rank)
  concatenates_S512x4x1_S512x4x1_S512x4x1_S512x4x3_d2 : Shape.Concatenates [S512x4x1, S512x4x1, S512x4x1] S512x4x3 2
  shapeCasts_S512x4x3_S2048x3 : S512x4x3.ShapeCasts S2048x3
  transposes_S2048x3_S3x2048_1_0 : S2048x3.Transposes [1, 0] S3x2048
  bcast_S_S3x2048 : S_.BroadcastsInDim S3x2048 (![] : Fin 0 → Fin S3x2048.rank)
  slices_S3x32000x1024_S1x32000x1024_0_0_0 : S3x32000x1024.Slices ![0, 0, 0] S1x32000x1024
  shapeCasts_S1x32000x1024_S32000x1024 : S1x32000x1024.ShapeCasts S32000x1024
  shapeCasts_S32000x1024_S32000x8x128 : S32000x1024.ShapeCasts S32000x8x128
  slices_S3x32000x1024_S1x32000x1024_1_0_0 : S3x32000x1024.Slices ![1, 0, 0] S1x32000x1024
  slices_S3x32000x1024_S1x32000x1024_2_0_0 : S3x32000x1024.Slices ![2, 0, 0] S1x32000x1024
  shapeCasts_S1024_S1x8x128 : S1024.ShapeCasts S1x8x128
  numel1_S1x1 : S1x1.numel = 1
  squeezes_S1x8x128_S8x128 : S1x8x128.Squeezes S8x128
  inb_S32000x8x128_S1x8x128_0_0_0 : ∀ a, (![0, 0, 0] : Fin 3 → Nat) a + S1x8x128.size a ≤ S32000x8x128.size a
  inb_S64x8x128_S64x8x128_0_0_0 : ∀ a, (![0, 0, 0] : Fin 3 → Nat) a + S64x8x128.size a ≤ S64x8x128.size a
  h_S64x8x128 : 0 < S64x8x128.numel
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  broadcasts_S1x8x128_S64x8x128 : S1x8x128.Broadcasts S64x8x128
  bitsLt_bf16_f32 : FTy.bits .bf16 < FTy.bits .f32
  packedbf16_S64x8x128_S64x8x128_0_0_0 : (Rect.unit (s := S64x8x128) ![0, 0, 0] S64x8x128.size inb_S64x8x128_S64x8x128_0_0_0).PackedRows (EltTy.packing .bf16)
  shapeCasts_S2048x8x128_S2048x1024 : S2048x8x128.ShapeCasts S2048x1024
  shapeCasts_S32000_S1x32000 : S32000.ShapeCasts S1x32000
  inb_S1024x640_S1024x640_0_0 : ∀ a, (![0, 0] : Fin 2 → Nat) a + S1024x640.size a ≤ S1024x640.size a
  h_S1024x640 : 0 < S1024x640.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  inb_S2048x640_S2048x640_0_0 : ∀ a, (![0, 0] : Fin 2 → Nat) a + S2048x640.size a ≤ S2048x640.size a
  h_S2048x640 : 0 < S2048x640.numel
  shapeCasts_S2048x32000_S512x4x32000 : S2048x32000.ShapeCasts S512x4x32000
  dot_S2048x1024_S1024x640_S2048x640_1_0_0_1_n_n_wf : DotDims.WF S2048x1024 S1024x640 S2048x640 [1] [0] [0] [1] [] []
  hcc0_scratch3 : 3 + S_.numel ≤ 13
  hcc0_scratch4 : 4 + S_.numel ≤ 13
  hcc0_scratch5 : 5 + S_.numel ≤ 13
  hrank0 : 0 < grid0.rank
  k0_t1_ok : k0_t1_loop.OK
  k0_off1_inb : ∀ (i : grid0.Coords) (k0_t1 : Fin k0_t1_loop.trips), ∀ a, (k0_off1 i k0_t1) a + S1x1.size a ≤ S3x2048.size a
  k0_off2_inb : ∀ (i : grid0.Coords) (k0_t1 : Fin k0_t1_loop.trips), ∀ a, (k0_off2 i k0_t1) a + S1x1.size a ≤ S3x2048.size a
  k0_off3_inb : ∀ (i : grid0.Coords) (k0_t1 : Fin k0_t1_loop.trips), ∀ a, (k0_off3 i k0_t1) a + S1x1.size a ≤ S3x2048.size a
  k0_off4_inb : ∀ k0_t1 : Fin k0_t1_loop.trips, ∀ a, (k0_off4 k0_t1) a + S1x8x128.size a ≤ S64x8x128.size a
  k0_off6_inb : ∀ k0_t1 : Fin k0_t1_loop.trips, ∀ a, (k0_off6 k0_t1) a + S1x8x128.size a ≤ S64x8x128.size a
  k0_off8_inb : ∀ k0_t1 : Fin k0_t1_loop.trips, ∀ a, (k0_off8 k0_t1) a + S1x8x128.size a ≤ S64x8x128.size a
  k0_t2_ok : k0_t2_loop.OK
  k0_off10_inb : ∀ k0_t2 : Fin k0_t2_loop.trips, ∀ a, (k0_off10 k0_t2) a + S1x8x128.size a ≤ S64x8x128.size a
  hstage0_0 : ∀ j, (stage0_0 j).IsWhole
  nbuf0_0 : grid0.bufCount reads0_0 true = 1
  hreads0_0 : ∀ i i' : grid0.Coords, (∀ a, reads0_0 a = true → i a = i' a) → cc0_transform_3 i = cc0_transform_3 i'
  hinb0_0 : ∀ (i : grid0.Coords) a, (cc0_transform_3 i a + 1) * S1x8x128.size a ≤ S1x8x128.size a
  hwx0_0 : ∀ i : grid0.Coords, EltTy.bits .f32 = 32 ∨ (Rect.block (s := S1x8x128) S1x8x128.size (cc0_transform_3 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_4 i = cc0_transform_4 i'
  hinb0_1 : ∀ (i : grid0.Coords) a, (cc0_transform_4 i a + 1) * S64x8x128.size a ≤ S2048x8x128.size a
  hwx0_1 : ∀ i : grid0.Coords, EltTy.bits .bf16 = 32 ∨ (Rect.block (s := S2048x8x128) S64x8x128.size (cc0_transform_4 i) (hinb0_1 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x1024.size a
  hwx1_0 : ∀ i : grid1.Coords, EltTy.bits .bf16 = 32 ∨ (Rect.block (s := S2048x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x640.size a ≤ S1024x32000.size a
  hwx1_1 : ∀ i : grid1.Coords, EltTy.bits .f32 = 32 ∨ (Rect.block (s := S1024x32000) S1024x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x32000.size a
  hwx1_2 : ∀ i : grid1.Coords, EltTy.bits .f32 = 32 ∨ (Rect.block (s := S1x32000) S1x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x640.size a ≤ S2048x32000.size a
  hwx1_3 : ∀ i : grid1.Coords, EltTy.bits .f32 = 32 ∨ (Rect.block (s := S2048x32000) S2048x640.size (cc1_transform_3 i) (hinb1_3 i)).WholeWords (EltTy.packing .f32)

variable [Facts₀]

abbrev cc0_scratch3 : DmaSems sig S_ := SemArray.consecutive 3 S_ hcc0_scratch3
abbrev cc0_scratch4 : DmaSems sig S_ := SemArray.consecutive 4 S_ hcc0_scratch4
abbrev cc0_scratch5 : DmaSems sig S_ := SemArray.consecutive 5 S_ hcc0_scratch5
def dot_S2048x1024_S1024x640_S2048x640_1_0_0_1_n_n : DotDims S2048x1024 S1024x640 S2048x640 where
  lhsContracting := [1]
  rhsContracting := [0]
  lhsNonContracting := [0]
  rhsNonContracting := [1]
  lhsBatch := []
  rhsBatch := []
  wf := dot_S2048x1024_S1024x640_S2048x640_1_0_0_1_n_n_wf

abbrev spec0_0 : Pipeline.WinSpec sig grid0.rank :=
  Pipeline.WinSpec.ofSpec (Memref.whole main_v21) S1x8x128.size reads0_0 false true 1 stage0_0 sem0_0 nbuf0_0 hstage0_0

abbrev spec0_1 : Pipeline.WinSpec sig grid0.rank :=
  Pipeline.WinSpec.ofSpec (Memref.whole main_v22) S64x8x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_3 | 1 => cc0_transform_4 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev win1_0 : Pipeline.Window sig grid1 :=
  Pipeline.Window.ofSpec (Memref.whole main_v23) S2048x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2048x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  harr0 : ∀ w, (spec0 w).arr.IsWhole

variable [Facts]
-- ==== ReferenceIdeal.lean ====
abbrev S512x4 : Shape := ⟨2, ![512, 4]⟩
abbrev S3x32000x1024 : Shape := ⟨3, ![3, 32000, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S3x4 : Shape := ⟨2, ![3, 4]⟩
abbrev S515x4 : Shape := ⟨2, ![515, 4]⟩
abbrev S512x4x1 : Shape := ⟨3, ![512, 4, 1]⟩
abbrev S512x4x3 : Shape := ⟨3, ![512, 4, 3]⟩
abbrev S3 : Shape := ⟨1, ![3]⟩
abbrev S512x4x3x1 : Shape := ⟨4, ![512, 4, 3, 1]⟩
abbrev S512x4x3x2 : Shape := ⟨4, ![512, 4, 3, 2]⟩
abbrev S512x4x3x1024 : Shape := ⟨4, ![512, 4, 3, 1024]⟩
abbrev S512x4x1024 : Shape := ⟨3, ![512, 4, 1024]⟩
abbrev S1x1x1024 : Shape := ⟨3, ![1, 1, 1024]⟩
abbrev S512x4x32000 : Shape := ⟨3, ![512, 4, 32000]⟩
abbrev S1x1x32000 : Shape := ⟨3, ![1, 1, 32000]⟩

abbrev nBuf : Space → Nat
  | .hbm => 53
  | .vmem => 0
  | .smem => 0
  | _ => 0

abbrev bufTy : (tb : Table) → Fin (tcTables nBuf tb) → BufTy
  | .hbm, ⟨0, _⟩ => ⟨S512x4, .i32⟩
  | .hbm, ⟨1, _⟩ => ⟨S3x32000x1024, .f32⟩
  | .hbm, ⟨2, _⟩ => ⟨S1024, .f32⟩
  | .hbm, ⟨3, _⟩ => ⟨S1024x32000, .f32⟩
  | .hbm, ⟨4, _⟩ => ⟨S32000, .f32⟩
  | .hbm, ⟨5, _⟩ => ⟨S_, .i32⟩
  | .hbm, ⟨6, _⟩ => ⟨S3x4, .i32⟩
  | .hbm, ⟨7, _⟩ => ⟨S515x4, .i32⟩
  | .hbm, ⟨8, _⟩ => ⟨S512x4, .i32⟩
  | .hbm, ⟨9, _⟩ => ⟨S512x4, .i32⟩
  | .hbm, ⟨10, _⟩ => ⟨S512x4, .i32⟩
  | .hbm, ⟨11, _⟩ => ⟨S512x4x1, .i32⟩
  | .hbm, ⟨12, _⟩ => ⟨S512x4x1, .i32⟩
  | .hbm, ⟨13, _⟩ => ⟨S512x4x1, .i32⟩
  | .hbm, ⟨14, _⟩ => ⟨S512x4x3, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S3, .i1⟩
  | .hbm, ⟨19, _⟩ => ⟨S_, .i32⟩
  | .hbm, ⟨20, _⟩ => ⟨S3, .i32⟩
  | .hbm, ⟨21, _⟩ => ⟨S3, .i32⟩
  | .hbm, ⟨22, _⟩ => ⟨S3, .i32⟩
  | .hbm, ⟨23, _⟩ => ⟨S_, .i32⟩
  | .hbm, ⟨24, _⟩ => ⟨S512x4x3, .i32⟩
  | .hbm, ⟨25, _⟩ => ⟨S512x4x3, .i1⟩
  | .hbm, ⟨26, _⟩ => ⟨S_, .i32⟩
  | .hbm, ⟨27, _⟩ => ⟨S512x4x3, .i32⟩
  | .hbm, ⟨28, _⟩ => ⟨S512x4x3, .i32⟩
  | .hbm, ⟨29, _⟩ => ⟨S512x4x3, .i32⟩
  | .hbm, ⟨30, _⟩ => ⟨S512x4x3, .i32⟩
  | .hbm, ⟨31, _⟩ => ⟨S512x4x3x1, .i32⟩
  | .hbm, ⟨32, _⟩ => ⟨S512x4x3x1, .i32⟩
  | .hbm, ⟨33, _⟩ => ⟨S512x4x3x2, .i32⟩
  | .hbm, ⟨34, _⟩ => ⟨S512x4x3x1024, .f32⟩
  | .hbm, ⟨35, _⟩ => ⟨S_, .f32⟩
  | .hbm, ⟨36, _⟩ => ⟨S512x4x1024, .f32⟩
  | .hbm, ⟨37, _⟩ => ⟨S1x1x1024, .f32⟩
  | .hbm, ⟨38, _⟩ => ⟨S512x4x1024, .f32⟩
  | .hbm, ⟨39, _⟩ => ⟨S512x4x1024, .f32⟩
  | .hbm, ⟨40, _⟩ => ⟨S512x4x1024, .f32⟩
  | .hbm, ⟨41, _⟩ => ⟨S512x4x1024, .f32⟩
  | .hbm, ⟨42, _⟩ => ⟨S_, .f32⟩
  | .hbm, ⟨43, _⟩ => ⟨S512x4x1024, .f32⟩
  | .hbm, ⟨44, _⟩ => ⟨S512x4x1024, .f32⟩
  | .hbm, ⟨45, _⟩ => ⟨S_, .f32⟩
  | .hbm, ⟨46, _⟩ => ⟨S512x4x1024, .f32⟩
  | .hbm, ⟨47, _⟩ => ⟨S512x4x1024, .f32⟩
  | .hbm, ⟨48, _⟩ => ⟨S512x4x1024, .f32⟩
  | .hbm, ⟨49, _⟩ => ⟨S512x4x32000, .f32⟩
  | .hbm, ⟨50, _⟩ => ⟨S1x1x32000, .f32⟩
  | .hbm, ⟨51, _⟩ => ⟨S512x4x32000, .f32⟩
  | .hbm, ⟨52, _⟩ => ⟨S512x4x32000, .f32⟩
  | _, _ => ⟨S512x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S3x4 : S_.BroadcastsInDim S3x4 (![] : Fin 0 → Fin S3x4.rank)
  concatenates_S3x4_S512x4_S515x4_d0 : Shape.Concatenates [S3x4, S512x4] S515x4 0
  slices_S515x4_S512x4_0_0 : S515x4.Slices ![0, 0] S512x4
  slices_S515x4_S512x4_1_0 : S515x4.Slices ![1, 0] S512x4
  slices_S515x4_S512x4_2_0 : S515x4.Slices ![2, 0] S512x4
  bcast_S512x4_S512x4x1_0_1 : S512x4.BroadcastsInDim S512x4x1 (![0, 1] : Fin 2 → Fin S512x4x1.rank)
  concatenates_S512x4x1_S512x4x1_S512x4x1_S512x4x3_d2 : Shape.Concatenates [S512x4x1, S512x4x1, S512x4x1] S512x4x3 2
  bcast_S_S3 : S_.BroadcastsInDim S3 (![] : Fin 0 → Fin S3.rank)
  bcast_S_S512x4x3 : S_.BroadcastsInDim S512x4x3 (![] : Fin 0 → Fin S512x4x3.rank)
  bcast_S3_S512x4x3_2 : S3.BroadcastsInDim S512x4x3 (![2] : Fin 1 → Fin S512x4x3.rank)
  bcast_S512x4x3_S512x4x3x1_0_1_2 : S512x4x3.BroadcastsInDim S512x4x3x1 (![0, 1, 2] : Fin 3 → Fin S512x4x3x1.rank)
  concatenates_S512x4x3x1_S512x4x3x1_S512x4x3x2_d3 : Shape.Concatenates [S512x4x3x1, S512x4x3x1] S512x4x3x2 3
  reducesTo_S512x4x3x1024_S512x4x1024_d2 : S512x4x3x1024.ReducesTo [2] S512x4x1024
  h_S_ : 0 < S_.numel
  bcast_S1024_S1x1x1024_2 : S1024.BroadcastsInDim S1x1x1024 (![2] : Fin 1 → Fin S1x1x1024.rank)
  bcast_S1x1x1024_S512x4x1024_0_1_2 : S1x1x1024.BroadcastsInDim S512x4x1024 (![0, 1, 2] : Fin 3 → Fin S512x4x1024.rank)
  bcast_S_S512x4x1024 : S_.BroadcastsInDim S512x4x1024 (![] : Fin 0 → Fin S512x4x1024.rank)
  bcast_S32000_S1x1x32000_2 : S32000.BroadcastsInDim S1x1x32000 (![2] : Fin 1 → Fin S1x1x32000.rank)
  bcast_S1x1x32000_S512x4x32000_0_1_2 : S1x1x32000.BroadcastsInDim S512x4x32000 (![0, 1, 2] : Fin 3 → Fin S512x4x32000.rank)
  gather_S3x32000x1024_S512x4x3x2_S512x4x3x1024_3_01_n_n_01_3_111024_wf : GatherDims.WF S3x32000x1024 S512x4x3x2 S512x4x3x1024 [3] [0, 1] [] [0, 1] [] 3 ![1, 1, 1024]
  dot_S512x4x1024_S1024x32000_S512x4x32000_2_0_01_1_n_n_wf : DotDims.WF S512x4x1024 S1024x32000 S512x4x32000 [2] [0] [0, 1] [1] [] []

variable [Facts₀]

def gather_S3x32000x1024_S512x4x3x2_S512x4x3x1024_3_01_n_n_01_3_111024 : GatherDims S3x32000x1024 S512x4x3x2 S512x4x3x1024 where
  offsetDims := [3]
  collapsedSliceDims := [0, 1]
  operandBatchingDims := []
  startIndicesBatchingDims := []
  startIndexMap := [0, 1]
  indexVectorDim := 3
  sliceSizes := ![1, 1, 1024]
  wf := gather_S3x32000x1024_S512x4x3x2_S512x4x3x1024_3_01_n_n_01_3_111024_wf
def dot_S512x4x1024_S1024x32000_S512x4x32000_2_0_01_1_n_n : DotDims S512x4x1024 S1024x32000 S512x4x32000 where
  lhsContracting := [2]
  rhsContracting := [0]
  lhsNonContracting := [0, 1]
  rhsNonContracting := [1]
  lhsBatch := []
  rhsBatch := []
  wf := dot_S512x4x1024_S1024x32000_S512x4x32000_2_0_01_1_n_n_wf

class Facts : Prop extends Facts₀ where

variable [Facts]
-- ==== Proof.Spec.lean ====
/-
  The function both programs compute, index by index, over the extended reals.

  A position `(s, b)` of the token sequence has a context of three token ids: the sequence padded in front with three
  zeros, read at rows `s`, `s + 1`, `s + 2` (so slot `j` holds the token `3 - j` positions back, or `0` before
  the sequence starts). Slot `j`'s id selects a row of the `j`-th embedding table; the three rows are summed with the
  bias, passed through `x ↦ x · σ(x)` (σ the logistic function) and multiplied into the output matrix, whose bias is
  added last:

    logits (s, b, v) = Σ_e act (W1 (0, row₀, e) + W1 (1, row₁, e) + W1 (2, row₂, e) + b1 e) · W2 (e, v) + b2 v.

  A token id in `[0, 32000)` selects its own row; `rowOf` is total (it saturates) so that the function is defined
  on every word, and both programs are compared with it on ids in range (`InRange`).
-/
import Idealize.ShloMosaic.PureOps.Ideal
import Idealize.ShloMosaic.Lib.ValueIdx

noncomputable section

open scoped BigOperators

namespace Cert.Spec

open Idealize.ShloMosaic Idealize.ShloMosaic.ValueIdx

abbrev STok : Shape := ⟨2, ![512, 4]⟩
abbrev SW1 : Shape := ⟨3, ![3, 32000, 1024]⟩
abbrev SB1 : Shape := ⟨1, ![1024]⟩
abbrev SW2 : Shape := ⟨2, ![1024, 32000]⟩
abbrev SB2 : Shape := ⟨1, ![32000]⟩
abbrev SOut : Shape := ⟨3, ![512, 4, 32000]⟩

/-- Every token id is a row number of the vocabulary axis (as a signed word: `0 ≤ id < 32000`). -/
def InRange (tok : STok.Idx → BitVec 32) : Prop := ∀ i, (tok i).toNat < 32000

/-- The token id in slot `j` of the context of position `(s, b)`: row `s + j` of the sequence padded in front with
    three rows of zeros. -/
def ctxTok (tok : STok.Idx → BitVec 32) (j : Fin 3) (s : Fin 512) (b : Fin 4) : BitVec 32 :=
  if h : 3 ≤ s.val + j.val then tok (ix2 (⟨s.val + j.val - 3, by omega⟩ : Fin 512) b) else 0#32

/-- The table row a token id selects: itself when it is a row number, the last row beyond. -/
def rowOf (w : BitVec 32) : Fin 32000 := ⟨min w.toNat 31999, by omega⟩

theorem rowOf_val_of_lt {w : BitVec 32} (h : w.toNat < 32000) : (rowOf w).val = w.toNat := by
  unfold rowOf; simp only []; omega

/-- A context slot of in-range tokens is in range: a token of the sequence, or the padding's zero. -/
theorem ctxTok_lt {tok : STok.Idx → BitVec 32} (h : InRange tok) (j : Fin 3) (s : Fin 512) (b : Fin 4) :
    (ctxTok tok j s b).toNat < 32000 := by
  unfold ctxTok; split
  · exact h _
  · decide

/-- The hidden pre-activation at position `(s, b)`, feature `e`: the three selected rows, then the bias. -/
def hidden (tok : STok.Idx → BitVec 32) (W1 : SW1.Idx → EReal) (b1 : SB1.Idx → EReal) (s : Fin 512) (b : Fin 4)
    (e : Fin 1024) : EReal :=
  W1 (ix3 (0 : Fin 3) (rowOf (ctxTok tok 0 s b)) e) + W1 (ix3 (1 : Fin 3) (rowOf (ctxTok tok 1 s b)) e)
    + W1 (ix3 (2 : Fin 3) (rowOf (ctxTok tok 2 s b)) e) + b1 (ix1 e)

/-- The activation `x · σ(x)`. -/
def act (x : EReal) : EReal := x * Ideal.logistic x

/-- One logit. -/
def logitAt (tok : STok.Idx → BitVec 32) (W1 : SW1.Idx → EReal) (b1 : SB1.Idx → EReal) (W2 : SW2.Idx → EReal)
    (b2 : SB2.Idx → EReal) (s : Fin 512) (b : Fin 4) (v : Fin 32000) : EReal :=
  (∑ e : Fin 1024, act (hidden tok W1 b1 s b e) * W2 (ix2 e v)) + b2 (ix1 v)

/-- The whole result array. -/
def logits (tok : STok.Idx → BitVec 32) (W1 : SW1.Idx → EReal) (b1 : SB1.Idx → EReal) (W2 : SW2.Idx → EReal)
    (b2 : SB2.Idx → EReal) : SOut.Idx → EReal :=
  fun i => logitAt tok W1 b1 W2 b2 (i 0) (i 1) (i 2)

end Cert.Spec

end
-- ==== Proof.PreDecode.lean ====
/-
  Decoding the precondition. The precondition's word is the conjunction of six whole-array tests: the four float
  arguments finite, every token id nonnegative (signed), every token id below 32000 (signed). From the last two, each
  token id, read unsigned, is below 32000: a word that is nonnegative signed reads the same signed and unsigned.

  Two word facts follow for such an id w (0 ≤ w < 32000): clamping it to [0, 31999] leaves it unchanged, and it does not
  test negative.
-/
import proofs.«403403_j35476429865350_3_alg».proof.Pre_finite_inputs
import proofs.«403403_j35476429865350_3_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- The rank-0 shape has one index. -/
instance : Subsingleton Cert.Pre_finite_inputs.S_.Idx := ⟨fun a b => funext fun d => d.elim0⟩

/-- A word that is nonnegative and below n (n < 2³¹), both signed, is below n unsigned. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have h32 := w.isLt
  rw [IntOp.cmpi_sge, show (0#32 : BitVec 32).toInt = 0 from by decide] at h0
  rw [IntOp.cmpi_slt, StableHlo.Predicate.toInt_ofNat_small n hn] at h1
  have hpos : 2 * w.toNat < 2 ^ 32 := BitVec.toInt_pos_iff.1 h0
  rw [StableHlo.Predicate.toInt_eq_toNat_of_lt (by omega)] at h1
  omega

/-- Under the precondition every token id is in [0, 32000). -/
theorem inRange_of_pre {F : FTy → Type} [FloatOps F] [Cert.Pre_finite_inputs.Facts]
    (tok : IVec Cert.Pre_finite_inputs.S512x4 32) (W1 : FVec F Cert.Pre_finite_inputs.S3x32000x1024 .f32)
    (b1 : FVec F Cert.Pre_finite_inputs.S1024 .f32) (W2 : FVec F Cert.Pre_finite_inputs.S1024x32000 .f32)
    (b2 : FVec F Cert.Pre_finite_inputs.S32000 .f32)
    (h : Cert.Pre_finite_inputs.fn (F := F) tok W1 b1 W2 b2 = fun _ => 1#1) : Cert.Spec.InRange tok := by
  intro i
  have h' := congrFun h ix0
  dsimp only [Cert.Pre_finite_inputs.fn, Cert.Pre_finite_inputs.fn_part1, andi] at h'
  obtain ⟨h22, h25⟩ := IntOp.andi_eq_one.1 h'
  obtain ⟨-, h21⟩ := IntOp.andi_eq_one.1 h22
  have e0 := Host.reduce_andi_all _ _ _ _ _ h21 i
  have e1 := Host.reduce_andi_all _ _ _ _ _ h25 i
  exact toNat_lt_of_signed (tok i) 32000 (by norm_num) e0 e1

/-- Clamping an id already in [0, 32000) to [0, 31999] (maximum with 0, then minimum with 31999) returns it. -/
theorem clip_id {w : BitVec 32} (h : w.toNat < 32000) : IntOp.minsi 31999#32 (IntOp.maxsi 0#32 w) = w := by
  have hti : w.toInt = w.toNat := StableHlo.Predicate.toInt_eq_toNat_of_lt (by omega)
  have h0 : (0#32 : BitVec 32).toInt = 0 := by decide
  have hh : (31999#32 : BitVec 32).toInt = 31999 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, hh, decide_eq_true_eq]; omega

/-- An id in [0, 32000) does not test negative. -/
theorem not_neg {w : BitVec 32} (h : w.toNat < 32000) : IntOp.cmpi .slt w 0#32 = 0#1 := by
  have hti : w.toInt = w.toNat := StableHlo.Predicate.toInt_eq_toNat_of_lt (by omega)
  have h0 : (0#32 : BitVec 32).toInt = 0 := by decide
  unfold IntOp.cmpi
  simp only [BitVec.slt, hti, h0]
  rw [decide_eq_false (by omega)]; rfl

end Cert.PreDecode

end
-- ==== Proof.K.Common.lean ====
/-
  What the kernel program's frame and value modules share: the resource algebra, and the first kernel's own
  DMA semaphores.

  The first kernel gathers its rows by copies it issues itself, three per row, each kind of copy counted on a
  semaphore of its own. A proof about such copies keeps, beside the algebra the pipeline's staging cells are funded
  from, a copy of the exclusive counters the copies' invariants take their tokens from; so every statement about
  this program is made over the product of the two.
-/
import proofs.«403403_j35476429865350_3_alg».proof.Proof.Gen.Kernel.Launch
import proofs.«403403_j35476429865350_3_alg».proof.Proof.Gen.Kernel.Skeleton
import proofs.«403403_j35476429865350_3_alg».proof.Proof.Gen.Kernel.Points
import proofs.«403403_j35476429865350_3_alg».proof.Proof.Gen.Kernel.Loops
import Idealize.ShloMosaic.Lib.Tactic
import Idealize.ShloMosaic.Lib.Pipeline.Kit

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the staging cells' rounds beside the copies' counters. -/
abbrev UU (nD : Nat) (τ : Topo) : Type := UR sig nD τ × Counters

local notation "𝕄" => MT nD τ sig Unit (Elt F) ℕ (UU nD τ) ℕ

/-- The contents type of memref `M`'s buffer on core `c`, and that buffer held whole at `f`. -/
abbrev BufOf (c : Dev nD) {sp : Space} {S : Shape} {e : EltTy} (M : Memref sig .tc sp S e) : Type :=
  Buf (Elt F) (M.view.loc (c : Thread nD τ))
abbrev whole (c : Dev nD) {sp : Space} {S : Shape} {e : EltTy} (M : Memref sig .tc sp S e) (f : BufOf (F := F) c M) : sProp 𝕄 :=
  M.view.loc (c : Thread nD τ) ↦{fullShare} f

/-- The first kernel's own semaphores: one per table its rows are copied from. -/
abbrev osem : Fin 3 → SemLoc sig := fun | 0 => .dma 3 | 1 => .dma 4 | 2 => .dma 5

/-- Their counters at zero. -/
abbrev sems0 (c : Dev nD) : sProp 𝕄 :=
  iprop(semVal ((c : Thread nD τ), osem 0) 0 ∗ semVal ((c : Thread nD τ), osem 1) 0 ∗ semVal ((c : Thread nD τ), osem 2) 0)

end Cert.Kernel.Hand

end
-- ==== Proof.K.Body0Defs.lean ====
/-
  The first kernel's body at one grid point: what it computes.

  Grid point `p` handles the 64 positions `64 p … 64 p + 63`. For each of them it reads the three context token
  ids from the table, starts one copy per id — row `id` of the matching embedding table into row `r` of the matching
  scratch buffer, each kind of copy counted on its own semaphore — and only after all 192 copies have been started
  does it wait, 64 times on each semaphore. Every copy has been waited for before any scratch row is read, so when the
  three scratch buffers are loaded row `r` of scratch `j` is row `table (j, 64 p + r)` of table `j` (`gathered`);
  the output block is then the sum of the three scratch buffers and the bias block, passed through `x ↦ x · σ(x)`
  (`outBlock0`).
-/
import proofs.«403403_j35476429865350_3_alg».proof.Proof.K.Common
import proofs.«403403_j35476429865350_3_alg».proof.Proof.Spec
import Idealize.ShloMosaic.Lib.Pipeline.FrameBody
import Idealize.ShloMosaic.Lib.ValueIdx

set_option maxRecDepth 16384

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the copies leave, and what the body stores -/

/-- Position `r` of grid point `p`, as a column of the table. -/
def posOf (p : Fin 32) (r : Fin 64) : Fin 2048 := ⟨64 * p.val + r.val, by have := p.isLt; have := r.isLt; omega⟩

/-- Scratch `j` once the copies of grid point `p` have landed: row `r` is the table's row selected by the id in
    slot `j` of position `64 p + r`. -/
def gathered (w : S32000x8x128.Idx → Elt F .f32) (tbl : S3x2048.Idx → BitVec 32) (j : Fin 3) (p : Fin 32) :
    Vec F S64x8x128 .f32 :=
  fun y => w (ix3 (Cert.Spec.rowOf (tbl (ix2 j (posOf p (y 0))))) (y 1) (y 2))

/-- The whole block of a scratch buffer or of the output's staging buffer, and of the bias's. -/
abbrev rAll : Rect S64x8x128 := Rect.unit (s := S64x8x128) ![0, 0, 0] S64x8x128.size inb_S64x8x128_S64x8x128_0_0_0
abbrev rBias : Rect S1x8x128 := Rect.unit (s := S1x8x128) ![0, 0, 0] S1x8x128.size inb_S1x8x128_S1x8x128_0_0_0

/-- The output's staging buffer after the body: its one store, of the activation of the three gathered buffers and the
    bias block. -/
def outBlock0 (x0 : Vec F S1x8x128 .f32) (g0 g1 g2 : Vec F S64x8x128 .f32) : Vec F S64x8x128 .bf16 :=
  View.canon [⟨rAll, k0_pay1 (View.ld g0 rAll) (View.ld g1 rAll) (View.ld g2 rAll) (View.ld x0 rBias)⟩]

/-- The store covers the buffer. -/
theorem cover0 (p0 : Vec F S64x8x128 .bf16) (y : S64x8x128.Idx) :
    ∃ pc ∈ ([⟨rAll, p0⟩] : List (View.Piece (Elt F) S64x8x128 .bf16)), y ∈ pc.1.set :=
  View.cover_of_tiled [⟨rAll, p0⟩] S64x8x128.size (by rfl) y

/-! ## What the body holds beside its staged windows -/

/-- What the body holds beside its two staged windows, before and after: the table and the three embedding tables as
    they are, the three scratch buffers at anything, its three semaphores at zero, nothing owed. -/
def bodyRest (c : Dev nD) (tbl : BufOf (F := F) c (Memref.whole main_v11)) (w0 : BufOf (F := F) c (Memref.whole main_v14))
    (w1 : BufOf (F := F) c (Memref.whole main_v17)) (w2 : BufOf (F := F) c (Memref.whole main_v20)) : sProp 𝕄 :=
  iprop(whole c (Memref.whole main_v11) tbl ∗ whole c (Memref.whole main_v14) w0 ∗ whole c (Memref.whole main_v17) w1
    ∗ whole c (Memref.whole main_v20) w2
    ∗ (∃ f, whole c (Memref.whole cc0_scratch0) f) ∗ (∃ f, whole c (Memref.whole cc0_scratch1) f)
    ∗ (∃ f, whole c (Memref.whole cc0_scratch2) f) ∗ sems0 c
    ∗ ∃ W, owes (c : Thread nD τ) (0 : CellTallies nD τ sig Unit) W)

end Cert.Kernel.Hand

end
-- ==== Proof.K.CopyDefs.lean ====
/-
  The first kernel's copies: 64 rows of each of three embedding tables, copied into the rows of three scratch buffers by
  copies the body starts itself, each kind counted on a semaphore of its own.

  Trip `k` of the first loop reads the three table words of position `64 p + k`, checks each is a row number, and
  starts three copies: row `word` of table `j` into row `k` of scratch `j`. The second loop waits 64 times on each
  semaphore. With several copies outstanding on one semaphore a wait tells nothing about any single copy; only the
  last wait on a semaphore says that every copy counted on it has landed. So the proof keeps, per semaphore, the 64
  copies as ONE batch whose deliveries — "row `k` of the scratch holds the source row, and the source row's read token
  is back" — are all handed over at that last wait; until then neither a destination row nor a source row is touched.
  A source row is whichever row the table word names, and two positions may name the same row: each copy therefore
  borrows its row under a read token of the whole table (`lendRows`), never the row outright.
-/
import proofs.«403403_j35476429865350_3_alg».proof.Proof.K.Body0Defs
import Idealize.ShloMosaic.Lib.Batch
import Idealize.ShloMosaic.Lib.Ring

set_option maxRecDepth 16384

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Rows, as the body spells them -/

/-- Row `k` of scratch 0 / 1 / 2: the destination of trip `k`'s copies, as the body spells it. -/
def dRow0 (k : Fin k0_t1_loop.trips) : Memref sig .tc .vmem S8x128 .f32 :=
  ((Memref.whole cc0_scratch0 : Memref sig .tc .vmem S64x8x128 .f32).slice (Rect.unit (s := S64x8x128) (k0_off4 k) S1x8x128.size (k0_off4_inb k)) (fun _ => rfl)).squeeze S8x128 squeezes_S1x8x128_S8x128
def dRow1 (k : Fin k0_t1_loop.trips) : Memref sig .tc .vmem S8x128 .f32 :=
  ((Memref.whole cc0_scratch1 : Memref sig .tc .vmem S64x8x128 .f32).slice (Rect.unit (s := S64x8x128) (k0_off6 k) S1x8x128.size (k0_off6_inb k)) (fun _ => rfl)).squeeze S8x128 squeezes_S1x8x128_S8x128
def dRow2 (k : Fin k0_t1_loop.trips) : Memref sig .tc .vmem S8x128 .f32 :=
  ((Memref.whole cc0_scratch2 : Memref sig .tc .vmem S64x8x128 .f32).slice (Rect.unit (s := S64x8x128) (k0_off8 k) S1x8x128.size (k0_off8_inb k)) (fun _ => rfl)).squeeze S8x128 squeezes_S1x8x128_S8x128
/-- Row `v` of table 0 / 1 / 2 in HBM: a copy's source, as the body spells it. -/
def sRow0 (v : BitVec 32) (h : k0_chk1 v) : Memref sig .tc .hbm S8x128 .f32 :=
  ((Memref.whole main_v14 : Memref sig .tc .hbm S32000x8x128 .f32).slice (Rect.unit (s := S32000x8x128) (k0_off5 v) S1x8x128.size (k0_off5_inb v h)) (fun _ => rfl)).squeeze S8x128 squeezes_S1x8x128_S8x128
def sRow1 (v : BitVec 32) (h : k0_chk2 v) : Memref sig .tc .hbm S8x128 .f32 :=
  ((Memref.whole main_v17 : Memref sig .tc .hbm S32000x8x128 .f32).slice (Rect.unit (s := S32000x8x128) (k0_off7 v) S1x8x128.size (k0_off7_inb v h)) (fun _ => rfl)).squeeze S8x128 squeezes_S1x8x128_S8x128
def sRow2 (v : BitVec 32) (h : k0_chk3 v) : Memref sig .tc .hbm S8x128 .f32 :=
  ((Memref.whole main_v20 : Memref sig .tc .hbm S32000x8x128 .f32).slice (Rect.unit (s := S32000x8x128) (k0_off9 v) S1x8x128.size (k0_off9_inb v h)) (fun _ => rfl)).squeeze S8x128 squeezes_S1x8x128_S8x128

/-- A memref's own elements held at share q. -/
abbrev heldOwn (c : Dev nD) {sp : Space} {S : Shape} {e : EltTy} (M : Memref sig .tc sp S e) (q : PosShare TreeShare) (f : BufOf (F := F) c M) : sProp 𝕄 :=
  M.view.loc (c : Thread nD τ) ↦[M.view.set]{q} f

/-- A word below the table's height passes the body's check on it: the row it names is a row. -/
theorem chk1_of_lt (v : BitVec 32) (h : v.toNat < 32000) : k0_chk1 v := by
  intro a; fin_cases a
  · show v.toNat + 1 ≤ 32000; omega
  · show 0 + 8 ≤ 8; omega
  · show 0 + 128 ≤ 128; omega
theorem chk2_of_lt (v : BitVec 32) (h : v.toNat < 32000) : k0_chk2 v := by
  intro a; fin_cases a
  · show v.toNat + 1 ≤ 32000; omega
  · show 0 + 8 ≤ 8; omega
  · show 0 + 128 ≤ 128; omega
theorem chk3_of_lt (v : BitVec 32) (h : v.toNat < 32000) : k0_chk3 v := by
  intro a; fin_cases a
  · show v.toNat + 1 ≤ 32000; omega
  · show 0 + 8 ≤ 8; omega
  · show 0 + 128 ≤ 128; omega

/-- The table word trip k reads for slot 0 / 1 / 2, as a read of the table's contents. -/
def tw0 (c : Dev nD) (i : grid0.Coords) (k : Fin k0_t1_loop.trips) (tbl : BufOf (F := F) c (Memref.whole main_v11)) : BitVec 32 :=
  View.readAt (Elt F) (Memref.whole main_v11).view (Rect.unit (s := S3x2048) (k0_off1 i k) S1x1.size (k0_off1_inb i k)).toLoadRect tbl (Shape.Idx.first (show (0:ℕ) < 1 from Nat.zero_lt_one))
def tw1 (c : Dev nD) (i : grid0.Coords) (k : Fin k0_t1_loop.trips) (tbl : BufOf (F := F) c (Memref.whole main_v11)) : BitVec 32 :=
  View.readAt (Elt F) (Memref.whole main_v11).view (Rect.unit (s := S3x2048) (k0_off2 i k) S1x1.size (k0_off2_inb i k)).toLoadRect tbl (Shape.Idx.first (show (0:ℕ) < 1 from Nat.zero_lt_one))
def tw2 (c : Dev nD) (i : grid0.Coords) (k : Fin k0_t1_loop.trips) (tbl : BufOf (F := F) c (Memref.whole main_v11)) : BitVec 32 :=
  View.readAt (Elt F) (Memref.whole main_v11).view (Rect.unit (s := S3x2048) (k0_off3 i k) S1x1.size (k0_off3_inb i k)).toLoadRect tbl (Shape.Idx.first (show (0:ℕ) < 1 from Nat.zero_lt_one))

/-! ## Trip counts and offsets in closed form -/

theorem trips1 : k0_t1_loop.trips = 64 := by decide
theorem trips2 : k0_t2_loop.trips = 64 := by decide
theorem lt64 (k : Fin k0_t1_loop.trips) : k.val < 64 := lt_of_lt_of_eq k.isLt trips1

/-- The loop's counter at trip `k`, as the body computes the row number from it: `k` itself. -/
theorem rowWord_toNat (k : ℕ) (hk : k < 64) : (Scalar.addi (0#32) (Scalar.muli (Scf.iv (0#32) (1#32) k) (1#32))).toNat = k := by
  simp only [Scf.iv, Scalar.muli, Scalar.addi, IntOp.muli, IntOp.addi, BitVec.mul_one, BitVec.zero_add, BitVec.toNat_ofNat]
  omega

theorem off4_eq (k : Fin k0_t1_loop.trips) : k0_off4 k = ![k.val, 0, 0] := by
  unfold k0_off4; simp only [rowWord_toNat k.val (lt64 k)]
theorem off6_eq (k : Fin k0_t1_loop.trips) : k0_off6 k = ![k.val, 0, 0] := by
  unfold k0_off6; simp only [rowWord_toNat k.val (lt64 k)]
theorem off8_eq (k : Fin k0_t1_loop.trips) : k0_off8 k = ![k.val, 0, 0] := by
  unfold k0_off8; simp only [rowWord_toNat k.val (lt64 k)]

/-- The position trip `k` of grid point `p` handles, as the body computes it: `64 p + k`. -/
theorem posWord_toNat (p k : ℕ) (hp : p < 32) (hk : k < 64) :
    (Scalar.indexCast (Scalar.addi (Scalar.muli (BitVec.ofNat 32 p) (64#32)) (Scalar.addi (0#32) (Scalar.muli (Scf.iv (0#32) (1#32) k) (1#32))))).toNat = 64 * p + k := by
  simp only [Scf.iv, Scalar.muli, Scalar.addi, Scalar.indexCast, IntOp.muli, IntOp.addi, BitVec.mul_one, BitVec.zero_add, BitVec.toNat_ofNat, BitVec.toNat_add, BitVec.toNat_mul]
  omega

theorem off1_eq (i : grid0.Coords) (k : Fin k0_t1_loop.trips) : k0_off1 i k = ![0, 64 * (i 0).val + k.val] := by
  have hi : (i 0).val < 32 := (i 0).isLt
  unfold k0_off1; simp only [posWord_toNat (i 0).val k.val hi (lt64 k)]
theorem off2_eq (i : grid0.Coords) (k : Fin k0_t1_loop.trips) : k0_off2 i k = ![1, 64 * (i 0).val + k.val] := by
  have hi : (i 0).val < 32 := (i 0).isLt
  unfold k0_off2; simp only [posWord_toNat (i 0).val k.val hi (lt64 k)]
theorem off3_eq (i : grid0.Coords) (k : Fin k0_t1_loop.trips) : k0_off3 i k = ![2, 64 * (i 0).val + k.val] := by
  have hi : (i 0).val < 32 := (i 0).isLt
  unfold k0_off3; simp only [posWord_toNat (i 0).val k.val hi (lt64 k)]

/-! ## The rows of a scratch buffer: pairwise disjoint, and together the buffer -/

theorem rowInb (b : ℕ) (hb : b < 64) : ∀ a, (![b, 0, 0] : Fin 3 → Nat) a + S1x8x128.size a ≤ S64x8x128.size a := by
  intro a; fin_cases a
  · show b + 1 ≤ 64; omega
  · show 0 + 8 ≤ 8; omega
  · show 0 + 128 ≤ 128; omega

/-- The elements of row `b` of a [64, 8, 128] buffer. -/
abbrev rowSet (b : ℕ) (hb : b < 64) : Finset S64x8x128.Idx := (Rect.unit (s := S64x8x128) ![b, 0, 0] S1x8x128.size (rowInb b hb)).set

theorem mem_rowSet (b : ℕ) (hb : b < 64) (y : S64x8x128.Idx) : y ∈ rowSet b hb ↔ (y 0).val = b := by
  rw [Rect.mem_set_unit]
  have h1 : (y 1).val < 8 := (y 1).isLt
  have h2 : (y 2).val < 128 := (y 2).isLt
  constructor
  · intro H; have a0 : b ≤ (y 0).val ∧ (y 0).val < b + 1 := H 0; omega
  · intro H a; fin_cases a
    · show b ≤ (y 0).val ∧ (y 0).val < b + 1; omega
    · show 0 ≤ (y 1).val ∧ (y 1).val < 0 + 8; omega
    · show 0 ≤ (y 2).val ∧ (y 2).val < 0 + 128; omega

/-- A rectangle's element set depends on its offsets only. -/
theorem unit_set_congr {s : Shape} {off off' : Fin s.rank → Nat} (size : Fin s.rank → Nat) (h : off = off')
    (p : ∀ a, off a + size a ≤ s.size a) (p' : ∀ a, off' a + size a ≤ s.size a) :
    (Rect.unit (s := s) off size p).set = (Rect.unit (s := s) off' size p').set := by
  subst h; rfl

/-- The rows as trip numbers index them. -/
abbrev rowSetT (t : Fin k0_t1_loop.trips) : Finset S64x8x128.Idx := rowSet t.val (lt64 t)

theorem rowSetT_disjoint : ∀ t t' : Fin k0_t1_loop.trips, t ≠ t' → Disjoint (rowSetT t) (rowSetT t') := fun t t' hne => by
  rw [Finset.disjoint_left]; intro y hy hy'; rw [mem_rowSet] at hy hy'; exact hne (Fin.ext (by omega))
theorem rowSetT_cover : Finset.univ.biUnion rowSetT = Finset.univ := by
  ext y; simp only [Finset.mem_biUnion, Finset.mem_univ, true_and, iff_true]
  have hy : (y 0).val < 64 := (y 0).isLt
  exact ⟨⟨(y 0).val, by rw [trips1]; exact hy⟩, (mem_rowSet _ _ _).mpr rfl⟩

theorem dRow0_set (t : Fin k0_t1_loop.trips) : (dRow0 t).view.set = rowSetT t := by
  unfold dRow0; exact ((View.set_reshape _ _).trans (View.set_slice_whole _ _)).trans (unit_set_congr _ (off4_eq t) _ _)
theorem dRow1_set (t : Fin k0_t1_loop.trips) : (dRow1 t).view.set = rowSetT t := by
  unfold dRow1; exact ((View.set_reshape _ _).trans (View.set_slice_whole _ _)).trans (unit_set_congr _ (off6_eq t) _ _)
theorem dRow2_set (t : Fin k0_t1_loop.trips) : (dRow2 t).view.set = rowSetT t := by
  unfold dRow2; exact ((View.set_reshape _ _).trans (View.set_slice_whole _ _)).trans (unit_set_congr _ (off8_eq t) _ _)

/-! ## Lending rows of a buffer held whole -/

section Lend

variable {ℓ : Loc nD τ sig}

/-- A buffer held whole is what is left after `n` read tokens, and per token a chosen set of elements and the rest of
    the buffer: what lets `n` copies each borrow the row it reads, whichever rows those are. -/
theorem lendRows (f : Buf (Elt F) ℓ) (n : ℕ) (R : Fin n → Finset (Idx ℓ)) :
    (ℓ ↦{fullShare} f : sProp 𝕄)
      = iprop((ℓ ↦[Finset.univ]{Transfers.shareDrop fullShare n} f)
          ∗ (bigSep Finset.univ fun t : Fin n => ℓ ↦[R t]{Transfers.shareTok fullShare n t} f)
          ∗ bigSep Finset.univ fun t : Fin n => ℓ ↦[Finset.univ \ R t]{Transfers.shareTok fullShare n t} f) := by
  have h1 := Transfers.pointsTo_toks (ℓ := ℓ) (S := Finset.univ) (f := f) (Ix := Unit) (Name := ℕ) (U := UU nD τ) (Lvl := ℕ) fullShare n
  rw [BI.equiv_iff.mp ⟨h1.1, h1.2⟩]
  refine congrArg (fun X : sProp 𝕄 => iprop((ℓ ↦[Finset.univ]{Transfers.shareDrop fullShare n} f) ∗ X)) ?_
  refine (BI.bigSep_congr fun t _ => ?_).trans (BI.bigSep_sep _ _ _)
  have h2 := pointsTo_split_subset (ℓ := ℓ) (f := f) (q := Transfers.shareTok fullShare n t) (Ix := Unit) (Name := ℕ) (U := UU nD τ) (Lvl := ℕ) (Finset.subset_univ (R t))
  exact BI.equiv_iff.mp ⟨h2.1, h2.2⟩

end Lend

/-! ## The copies: what each delivers -/

section Body

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- The source of trip `t`'s copy from table 0 / 1 / 2: the row its table word names. -/
abbrev src0 (t : Fin k0_t1_loop.trips) : Memref sig .tc .hbm S8x128 .f32 := sRow0 (tw0 c i t tbl) (chk1_of_lt _ (htbl _))
abbrev src1 (t : Fin k0_t1_loop.trips) : Memref sig .tc .hbm S8x128 .f32 := sRow1 (tw1 c i t tbl) (chk2_of_lt _ (htbl _))
abbrev src2 (t : Fin k0_t1_loop.trips) : Memref sig .tc .hbm S8x128 .f32 := sRow2 (tw2 c i t tbl) (chk3_of_lt _ (htbl _))

/-- Row `t` of a scratch buffer once its copy has landed: the source row written over what the buffer held. -/
abbrev landed0 (t : Fin k0_t1_loop.trips) : BufOf (F := F) c (dRow0 t) :=
  (dRow0 t).view.writes (Elt F) f0 [⟨Rect.whole S8x128, ReadAs.same.apply ((src0 c i tbl htbl t).view.read (Elt F) w0)⟩]
abbrev landed1 (t : Fin k0_t1_loop.trips) : BufOf (F := F) c (dRow1 t) :=
  (dRow1 t).view.writes (Elt F) f1 [⟨Rect.whole S8x128, ReadAs.same.apply ((src1 c i tbl htbl t).view.read (Elt F) w1)⟩]
abbrev landed2 (t : Fin k0_t1_loop.trips) : BufOf (F := F) c (dRow2 t) :=
  (dRow2 t).view.writes (Elt F) f2 [⟨Rect.whole S8x128, ReadAs.same.apply ((src2 c i tbl htbl t).view.read (Elt F) w2)⟩]

/-- What copy `t` hands back when it has landed: the destination row at the source row's values, and the source row's
    read token. -/
abbrev deliv0 (t : Fin k0_t1_loop.trips) : sProp 𝕄 :=
  iprop(heldOwn c (dRow0 t) fullShare (landed0 c i tbl htbl w0 f0 t) ∗ heldOwn c (src0 c i tbl htbl t) (Transfers.shareTokN fullShare t.val) w0)
abbrev deliv1 (t : Fin k0_t1_loop.trips) : sProp 𝕄 :=
  iprop(heldOwn c (dRow1 t) fullShare (landed1 c i tbl htbl w1 f1 t) ∗ heldOwn c (src1 c i tbl htbl t) (Transfers.shareTokN fullShare t.val) w1)
abbrev deliv2 (t : Fin k0_t1_loop.trips) : sProp 𝕄 :=
  iprop(heldOwn c (dRow2 t) fullShare (landed2 c i tbl htbl w2 f2 t) ∗ heldOwn c (src2 c i tbl htbl t) (Transfers.shareTokN fullShare t.val) w2)

/-- One row's copy credits 128 units. -/
abbrev NN : ℕ := 128

/-- The 64 copies from table 0 / 1 / 2, `k` of them started and `u` units waited for. -/
abbrev batch0 (k u : ℕ) : sProp 𝕄 :=
  Transfers.Batch (countersEmb (U := UU nD τ)) (c : Thread nD τ) (.dma cc0_scratch3.sem) () NN (deliv0 c i tbl htbl w0 f0) k u
abbrev batch1 (k u : ℕ) : sProp 𝕄 :=
  Transfers.Batch (countersEmb (U := UU nD τ)) (c : Thread nD τ) (.dma cc0_scratch4.sem) () NN (deliv1 c i tbl htbl w1 f1) k u
abbrev batch2 (k u : ℕ) : sProp 𝕄 :=
  Transfers.Batch (countersEmb (U := UU nD τ)) (c : Thread nD τ) (.dma cc0_scratch5.sem) () NN (deliv2 c i tbl htbl w2 f2) k u

/-- The destination rows and source tokens of the trips from `k` on, still in hand. -/
abbrev dsts0 (k : ℕ) : sProp 𝕄 := bigSep (Ring.rangeSet k0_t1_loop.trips k k0_t1_loop.trips) fun t => heldOwn c (dRow0 t) fullShare f0
abbrev dsts1 (k : ℕ) : sProp 𝕄 := bigSep (Ring.rangeSet k0_t1_loop.trips k k0_t1_loop.trips) fun t => heldOwn c (dRow1 t) fullShare f1
abbrev dsts2 (k : ℕ) : sProp 𝕄 := bigSep (Ring.rangeSet k0_t1_loop.trips k k0_t1_loop.trips) fun t => heldOwn c (dRow2 t) fullShare f2
abbrev srcs0 (k : ℕ) : sProp 𝕄 := bigSep (Ring.rangeSet k0_t1_loop.trips k k0_t1_loop.trips) fun t => heldOwn c (src0 c i tbl htbl t) (Transfers.shareTokN fullShare t.val) w0
abbrev srcs1 (k : ℕ) : sProp 𝕄 := bigSep (Ring.rangeSet k0_t1_loop.trips k k0_t1_loop.trips) fun t => heldOwn c (src1 c i tbl htbl t) (Transfers.shareTokN fullShare t.val) w1
abbrev srcs2 (k : ℕ) : sProp 𝕄 := bigSep (Ring.rangeSet k0_t1_loop.trips k k0_t1_loop.trips) fun t => heldOwn c (src2 c i tbl htbl t) (Transfers.shareTokN fullShare t.val) w2

end Body

end Cert.Kernel.Hand

end
-- ==== Proof.K.CopyLoops.lean ====
/-
  The first kernel's two loops, one trip each: the loop that starts the copies (three per trip, each taken off the
  head of its kind's rows and tokens) and the loop that waits for them (three waits per trip; in the last trip each
  wait is the last on its semaphore and hands back that kind's 64 deliveries).
-/
import proofs.«403403_j35476429865350_3_alg».proof.Proof.K.CopyDefs

set_option maxRecDepth 16384

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-! ## The loop that starts the copies -/

/-- Before trip `k`: the table as it is; `k` copies of each kind started, none waited for; the rows and tokens of the
    trips still to come. -/
def issueAt (k : ℕ) (_ : Unit) : sProp 𝕄 :=
  iprop(whole c (Memref.whole main_v11) tbl
    ∗ batch0 c i tbl htbl w0 f0 k 0 ∗ batch1 c i tbl htbl w1 f1 k 0 ∗ batch2 c i tbl htbl w2 f2 k 0
    ∗ dsts0 c f0 k ∗ srcs0 c i tbl htbl w0 k ∗ dsts1 c f1 k ∗ srcs1 c i tbl htbl w1 k ∗ dsts2 c f2 k ∗ srcs2 c i tbl htbl w2 k)

set_option maxHeartbeats 4000000 in
/-- One trip: the three table words are read and found to be row numbers, and each kind's copy `k` is started from the
    row and the token at the head of its range. -/
theorem issue_step (arg5 : Memref sig .tc .vmem S1x8x128 .f32) (harg5 : arg5.IsWhole)
    (arg6 : Memref sig .tc .vmem S64x8x128 .bf16) (harg6 : arg6.IsWhole) (k : Fin k0_t1_loop.trips) (acc : Unit) :
    issueAt c i tbl htbl w0 w1 w2 f0 f1 f2 k acc
      ⊢ wp frame (wpE (defs₀ (F := F)) Variants.none c none) Set.univ
          (k0_t1_body i (Memref.whole main_v11) (Memref.isWhole_whole _) (Memref.whole main_v14) (Memref.isWhole_whole _)
            (Memref.whole main_v17) (Memref.isWhole_whole _) (Memref.whole main_v20) (Memref.isWhole_whole _) arg5 harg5 arg6 harg6
            (Memref.whole cc0_scratch0) (Memref.isWhole_whole _) (Memref.whole cc0_scratch1) (Memref.isWhole_whole _)
            (Memref.whole cc0_scratch2) (Memref.isWhole_whole _) cc0_scratch3 cc0_scratch4 cc0_scratch5 k acc)
          (issueAt c i tbl htbl w0 w1 w2 f0 f1 f2 (k.val + 1)) := by
  have hk := k.isLt
  unfold issueAt dsts0 dsts1 dsts2 srcs0 srcs1 srcs2
  rw [Ring.bigSep_rangeSet_head (Φ := fun t => heldOwn c (dRow0 t) fullShare f0) hk hk,
    Ring.bigSep_rangeSet_head (Φ := fun t => heldOwn c (dRow1 t) fullShare f1) hk hk,
    Ring.bigSep_rangeSet_head (Φ := fun t => heldOwn c (dRow2 t) fullShare f2) hk hk,
    Ring.bigSep_rangeSet_head (Φ := fun t => heldOwn c (src0 c i tbl htbl t) (Transfers.shareTokN fullShare t.val) w0) hk hk,
    Ring.bigSep_rangeSet_head (Φ := fun t => heldOwn c (src1 c i tbl htbl t) (Transfers.shareTokN fullShare t.val) w1) hk hk,
    Ring.bigSep_rangeSet_head (Φ := fun t => heldOwn c (src2 c i tbl htbl t) (Transfers.shareTokN fullShare t.val) w2) hk hk]
  iintro ⟨HT, HB0, HB1, HB2, ⟨HD0, HD0s⟩, ⟨HS0, HS0s⟩, ⟨HD1, HD1s⟩, ⟨HS1, HS1s⟩, ⟨HD2, HD2s⟩, ⟨HS2, HS2s⟩⟩
  sl_unfold [k0_t1_body]
  sl_exec (disch := first | exact chk1_of_lt _ (htbl _) | exact chk2_of_lt _ (htbl _) | exact chk3_of_lt _ (htbl _) | omega)
  sl_step
  isplitl [HT]; · iexact HT
  isplitl [HB0]; · iexact HB0
  isplitl [HB1]; · iexact HB1
  isplitl [HB2]; · iexact HB2
  isplitl [HD0s]; · iexact HD0s
  isplitl [HS0s]; · iexact HS0s
  isplitl [HD1s]; · iexact HD1s
  isplitl [HS1s]; · iexact HS1s
  isplitl [HD2s]; · iexact HD2s
  iexact HS2s

end Body

/-! ## The loop that waits -/

section Drain

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- A semaphore's counter at zero. -/
abbrev cellAt0 (sm : DmaSem sig) : sProp 𝕄 := semVal ((c : Thread nD τ), SemLoc.dma sm) 0

/-- Before trip `k` of the waiting loop: every copy started; the waits so far recorded; and either (a trip is still to
    come) `k` rows' worth of units waited for on each semaphore, or (all 64 trips done) each semaphore's counter back at
    zero with EVERY copy's delivery in hand — a wait says nothing about any one copy until the last wait on its
    semaphore, which says all of that kind have landed. -/
def drainAt (k : ℕ) (_ : Unit) : sProp 𝕄 :=
  iprop(⌜k ≤ k0_t2_loop.trips⌝ ∗ (∃ W, owes (c : Thread nD τ) (0 : CellTallies nD τ sig Unit) W)
    ∗ (if k < k0_t2_loop.trips then
         iprop(batch0 c i tbl htbl w0 f0 k0_t1_loop.trips (k * NN) ∗ batch1 c i tbl htbl w1 f1 k0_t1_loop.trips (k * NN)
           ∗ batch2 c i tbl htbl w2 f2 k0_t1_loop.trips (k * NN))
       else
         iprop((cellAt0 c cc0_scratch3.sem ∗ bigSep Finset.univ (deliv0 c i tbl htbl w0 f0))
           ∗ (cellAt0 c cc0_scratch4.sem ∗ bigSep Finset.univ (deliv1 c i tbl htbl w1 f1))
           ∗ (cellAt0 c cc0_scratch5.sem ∗ bigSep Finset.univ (deliv2 c i tbl htbl w2 f2)))))

set_option maxHeartbeats 4000000 in
/-- One trip: a wait on each semaphore. Before the last trip the three waits hand back nothing; in the last trip each is
    the last wait on its semaphore and hands back that kind's 64 deliveries. -/
theorem drain_step (arg5 : Memref sig .tc .vmem S1x8x128 .f32) (harg5 : arg5.IsWhole)
    (arg6 : Memref sig .tc .vmem S64x8x128 .bf16) (harg6 : arg6.IsWhole) (k : Fin k0_t2_loop.trips) (acc : Unit) :
    drainAt c i tbl htbl w0 w1 w2 f0 f1 f2 k acc
      ⊢ wp frame (wpE (defs₀ (F := F)) Variants.none c none) Set.univ
          (k0_t2_body i (Memref.whole main_v11) (Memref.isWhole_whole _) (Memref.whole main_v14) (Memref.isWhole_whole _)
            (Memref.whole main_v17) (Memref.isWhole_whole _) (Memref.whole main_v20) (Memref.isWhole_whole _) arg5 harg5 arg6 harg6
            (Memref.whole cc0_scratch0) (Memref.isWhole_whole _) (Memref.whole cc0_scratch1) (Memref.isWhole_whole _)
            (Memref.whole cc0_scratch2) (Memref.isWhole_whole _) cc0_scratch3 cc0_scratch4 cc0_scratch5 k acc)
          (drainAt c i tbl htbl w0 w1 w2 f0 f1 f2 (k.val + 1)) := by
  have hk : k.val < k0_t2_loop.trips := k.isLt
  have h1 := trips1
  have h2 := trips2
  unfold drainAt
  simp only [if_pos hk]
  rcases Nat.lt_or_ge (k.val + 1) k0_t2_loop.trips with hlt | hge
  · simp only [if_pos hlt]
    iintro ⟨-, ⟨%W, HO⟩, HB0, HB1, HB2⟩
    sl_unfold [k0_t2_body]
    sl_exec
    sl_step
    isplitr; · ipureintro; omega
    isplitl [HO]; · iexists _; iexact HO
    rw [show (k.val + 1) * NN = k.val * NN + NN by simp only [NN]; omega]
    isplitl [HB0]; · iexact HB0
    isplitl [HB1]; · iexact HB1
    iexact HB2
  · simp only [if_neg (Nat.not_lt.mpr hge)]
    iintro ⟨-, ⟨%W, HO⟩, HB0, HB1, HB2⟩
    sl_unfold [k0_t2_body]
    sl_exec
    sl_step
    isplitr; · ipureintro; omega
    isplitl [HO]; · iexists _; iexact HO
    isplitl [HB0 HB0_all]
    · isplitl [HB0]; · iexact HB0
      iexact HB0_all
    isplitl [HB1 HB1_all]
    · isplitl [HB1]; · iexact HB1
      iexact HB1_all
    isplitl [HB2]; · iexact HB2
    iexact HB2_all

end Drain

end Cert.Kernel.Hand

end
-- ==== Proof.K.Landed.lean ====
/-
  What the first kernel's copies deliver, as a function of the tables.

  Trip `t` of grid point `p` reads, for each slot `j`, the table word at row `j`, position `64 p + t` (the body's
  offset arithmetic in closed form), and copies the row of embedding table `j` that word names into row `t` of
  scratch `j`. The copy's one write covers row `t`: the element at `(t, a, b)` of the scratch then holds the element
  at `(word, a, b)` of the table, and a word below 32000 is its own row number. So, every row holding what its copy
  delivered, scratch `j` read whole is `gathered`: row `r` is the table row the id in slot `j` of position
  `64 p + r` selects. Pure facts about indices and contents; nothing depends on the number family.
-/
import proofs.«403403_j35476429865350_3_alg».proof.Proof.K.CopyDefs
import Idealize.ShloMosaic.Lib.ValueLayout
import Idealize.ShloMosaic.Lib.ValueIdx

set_option maxRecDepth 16384

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The table word trip `t` reads for slot 0 is the table's entry at row 0, position `64 p + t`. -/
theorem tw0_eq (c : Dev nD) (i : grid0.Coords) (t : Fin k0_t1_loop.trips) (tbl : BufOf (F := F) c (Memref.whole main_v11)) :
    tw0 c i t tbl = (tbl : S3x2048.Idx → BitVec 32) (ix2 (0 : Fin 3) (posOf (i 0) ⟨t.val, lt64 t⟩)) := by
  have hidx : (Rect.unit (s := S3x2048) (k0_off1 i t) S1x1.size (k0_off1_inb i t)).toLoadRect.idx (Shape.Idx.first (show (0:ℕ) < 1 from Nat.zero_lt_one))
      = ix2 (0 : Fin 3) (posOf (i 0) ⟨t.val, lt64 t⟩) := by
    have e0 := off1_eq i t
    funext a; apply Fin.ext
    show k0_off1 i t a + 1 * 0 = _
    rw [e0]
    match a with
    | ⟨0, _⟩ => rfl
    | ⟨1, _⟩ => show 64 * (i 0).val + t.val + 1 * 0 = 64 * (i 0).val + t.val; omega
  exact congrArg (tbl : S3x2048.Idx → BitVec 32) hidx

/-- Row `t` of scratch 0 once its copy has landed holds, at each of its elements, the entry `gathered` names: the
    copy's one write covers the row, and what it wrote there is the source row's entry in the same place — the source
    row being the table row the id in slot 0 of position `64 p + t` selects. -/
theorem landed0_apply [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w0 : BufOf (F := F) c (Memref.whole main_v14)) (f0 : BufOf (F := F) c (Memref.whole cc0_scratch0))
    (t : Fin k0_t1_loop.trips) (y : S64x8x128.Idx) (hy : (y 0).val = t.val) :
    (landed0 c i tbl htbl w0 f0 t : S64x8x128.Idx → Elt F .f32) y
      = gathered (w0 : S32000x8x128.Idx → Elt F .f32) (tbl : S3x2048.Idx → BitVec 32) 0 (i 0) y := by
  obtain ⟨a0, a1, a2, rfl⟩ : ∃ (a0 : Fin 64) (a1 : Fin 8) (a2 : Fin 128), y = ix3 a0 a1 a2 := ⟨y 0, y 1, y 2, eq_ix3 y⟩
  change a0.val = t.val at hy
  -- the element at (a1, a2) of the row sits at (t, a1, a2) of the scratch buffer
  have hdst : ((dRow0 t).view.slice (Rect.whole S8x128)).emb (ix2 a1 a2) = ix3 a0 a1 a2 := by
    funext a; apply Fin.ext
    show k0_off4 t a + 1 * ((Shape.reshapeEquiv squeezes_S1x8x128_S8x128.numel_eq ((Rect.whole S8x128).emb (ix2 a1 a2))) a).val = (ix3 a0 a1 a2 a).val
    rw [Rect.emb_whole_apply, reshapeEquiv_ix2_1ab, off4_eq]
    match a with
    | ⟨0, _⟩ => show t.val + 1 * 0 = a0.val; omega
    | ⟨1, _⟩ => show 0 + 1 * a1.val = a1.val; omega
    | ⟨2, _⟩ => show 0 + 1 * a2.val = a2.val; omega
  -- the element at (a1, a2) of the source row sits at (row, a1, a2) of the table, the row the id selects
  have hpos : posOf (i 0) ⟨t.val, lt64 t⟩ = posOf (i 0) a0 := by
    have : (⟨t.val, lt64 t⟩ : Fin 64) = a0 := Fin.ext hy.symm
    rw [this]
  have hrow : (tw0 c i t tbl).toNat = (Cert.Spec.rowOf ((tbl : S3x2048.Idx → BitVec 32) (ix2 (0 : Fin 3) (posOf (i 0) a0)))).val := by
    rw [tw0_eq, hpos, Cert.Spec.rowOf_val_of_lt (htbl _)]
  have hsrc : (src0 c i tbl htbl t).view.emb (ix2 a1 a2)
      = ix3 (Cert.Spec.rowOf ((tbl : S3x2048.Idx → BitVec 32) (ix2 (0 : Fin 3) (posOf (i 0) a0)))) a1 a2 := by
    funext a; apply Fin.ext
    show k0_off5 (tw0 c i t tbl) a + 1 * ((Shape.reshapeEquiv squeezes_S1x8x128_S8x128.numel_eq (ix2 a1 a2)) a).val = _
    rw [reshapeEquiv_ix2_1ab]
    match a with
    | ⟨0, _⟩ => show (tw0 c i t tbl).toNat + 1 * 0 = _; rw [hrow]; rfl
    | ⟨1, _⟩ => show 0 + 1 * a1.val = a1.val; omega
    | ⟨2, _⟩ => show 0 + 1 * a2.val = a2.val; omega
  have hw := View.write_emb_of_mem (v := (dRow0 t).view.slice (Rect.whole S8x128)) (Val := Elt F) f0
    (ReadAs.same.apply ((src0 c i tbl htbl t).view.read (Elt F) w0)) (Finset.mem_univ (ix2 a1 a2))
  rw [hdst] at hw
  refine hw.trans ?_
  show (w0 : S32000x8x128.Idx → Elt F .f32) ((src0 c i tbl htbl t).view.emb (ix2 a1 a2)) = _
  rw [hsrc]
  rfl

/-- Scratch 0, once every row holds what its copy delivered, reads as `gathered`. -/
theorem joined0_read [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w0 : BufOf (F := F) c (Memref.whole main_v14)) (f0 : BufOf (F := F) c (Memref.whole cc0_scratch0))
    (G : BufOf (F := F) c (Memref.whole cc0_scratch0))
    (hG : ∀ t : Fin k0_t1_loop.trips, ∀ y ∈ rowSetT t,
      (G : S64x8x128.Idx → Elt F .f32) y = (landed0 c i tbl htbl w0 f0 t : S64x8x128.Idx → Elt F .f32) y) :
    (Memref.whole cc0_scratch0 : Memref sig .tc .vmem S64x8x128 .f32).view.read (Elt F) G
      = gathered (w0 : S32000x8x128.Idx → Elt F .f32) (tbl : S3x2048.Idx → BitVec 32) 0 (i 0) := by
  funext y
  have hy : (y 0).val < 64 := (y 0).isLt
  have hmem : y ∈ rowSetT ⟨(y 0).val, by rw [trips1]; exact hy⟩ := (mem_rowSet _ _ _).mpr rfl
  show (G : S64x8x128.Idx → Elt F .f32) y = _
  rw [hG _ y hmem]
  exact landed0_apply c i tbl htbl w0 f0 _ y rfl

/-- The table word trip `t` reads for slot 1 is the table's entry at row 1, position `64 p + t`. -/
theorem tw1_eq (c : Dev nD) (i : grid0.Coords) (t : Fin k0_t1_loop.trips) (tbl : BufOf (F := F) c (Memref.whole main_v11)) :
    tw1 c i t tbl = (tbl : S3x2048.Idx → BitVec 32) (ix2 (1 : Fin 3) (posOf (i 0) ⟨t.val, lt64 t⟩)) := by
  have hidx : (Rect.unit (s := S3x2048) (k0_off2 i t) S1x1.size (k0_off2_inb i t)).toLoadRect.idx (Shape.Idx.first (show (0:ℕ) < 1 from Nat.zero_lt_one))
      = ix2 (1 : Fin 3) (posOf (i 0) ⟨t.val, lt64 t⟩) := by
    have e0 := off2_eq i t
    funext a; apply Fin.ext
    show k0_off2 i t a + 1 * 0 = _
    rw [e0]
    match a with
    | ⟨0, _⟩ => rfl
    | ⟨1, _⟩ => show 64 * (i 0).val + t.val + 1 * 0 = 64 * (i 0).val + t.val; omega
  exact congrArg (tbl : S3x2048.Idx → BitVec 32) hidx

/-- Row `t` of scratch 1 once its copy has landed holds, at each of its elements, the entry `gathered` names: the
    copy's one write covers the row, and what it wrote there is the source row's entry in the same place — the source
    row being the table row the id in slot 1 of position `64 p + t` selects. -/
theorem landed1_apply [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w1 : BufOf (F := F) c (Memref.whole main_v17)) (f1 : BufOf (F := F) c (Memref.whole cc0_scratch1))
    (t : Fin k0_t1_loop.trips) (y : S64x8x128.Idx) (hy : (y 0).val = t.val) :
    (landed1 c i tbl htbl w1 f1 t : S64x8x128.Idx → Elt F .f32) y
      = gathered (w1 : S32000x8x128.Idx → Elt F .f32) (tbl : S3x2048.Idx → BitVec 32) 1 (i 0) y := by
  obtain ⟨a0, a1, a2, rfl⟩ : ∃ (a0 : Fin 64) (a1 : Fin 8) (a2 : Fin 128), y = ix3 a0 a1 a2 := ⟨y 0, y 1, y 2, eq_ix3 y⟩
  change a0.val = t.val at hy
  -- the element at (a1, a2) of the row sits at (t, a1, a2) of the scratch buffer
  have hdst : ((dRow1 t).view.slice (Rect.whole S8x128)).emb (ix2 a1 a2) = ix3 a0 a1 a2 := by
    funext a; apply Fin.ext
    show k0_off6 t a + 1 * ((Shape.reshapeEquiv squeezes_S1x8x128_S8x128.numel_eq ((Rect.whole S8x128).emb (ix2 a1 a2))) a).val = (ix3 a0 a1 a2 a).val
    rw [Rect.emb_whole_apply, reshapeEquiv_ix2_1ab, off6_eq]
    match a with
    | ⟨0, _⟩ => show t.val + 1 * 0 = a0.val; omega
    | ⟨1, _⟩ => show 0 + 1 * a1.val = a1.val; omega
    | ⟨2, _⟩ => show 0 + 1 * a2.val = a2.val; omega
  -- the element at (a1, a2) of the source row sits at (row, a1, a2) of the table, the row the id selects
  have hpos : posOf (i 0) ⟨t.val, lt64 t⟩ = posOf (i 0) a0 := by
    have : (⟨t.val, lt64 t⟩ : Fin 64) = a0 := Fin.ext hy.symm
    rw [this]
  have hrow : (tw1 c i t tbl).toNat = (Cert.Spec.rowOf ((tbl : S3x2048.Idx → BitVec 32) (ix2 (1 : Fin 3) (posOf (i 0) a0)))).val := by
    rw [tw1_eq, hpos, Cert.Spec.rowOf_val_of_lt (htbl _)]
  have hsrc : (src1 c i tbl htbl t).view.emb (ix2 a1 a2)
      = ix3 (Cert.Spec.rowOf ((tbl : S3x2048.Idx → BitVec 32) (ix2 (1 : Fin 3) (posOf (i 0) a0)))) a1 a2 := by
    funext a; apply Fin.ext
    show k0_off7 (tw1 c i t tbl) a + 1 * ((Shape.reshapeEquiv squeezes_S1x8x128_S8x128.numel_eq (ix2 a1 a2)) a).val = _
    rw [reshapeEquiv_ix2_1ab]
    match a with
    | ⟨0, _⟩ => show (tw1 c i t tbl).toNat + 1 * 0 = _; rw [hrow]; rfl
    | ⟨1, _⟩ => show 0 + 1 * a1.val = a1.val; omega
    | ⟨2, _⟩ => show 0 + 1 * a2.val = a2.val; omega
  have hw := View.write_emb_of_mem (v := (dRow1 t).view.slice (Rect.whole S8x128)) (Val := Elt F) f1
    (ReadAs.same.apply ((src1 c i tbl htbl t).view.read (Elt F) w1)) (Finset.mem_univ (ix2 a1 a2))
  rw [hdst] at hw
  refine hw.trans ?_
  show (w1 : S32000x8x128.Idx → Elt F .f32) ((src1 c i tbl htbl t).view.emb (ix2 a1 a2)) = _
  rw [hsrc]
  rfl

/-- Scratch 1, once every row holds what its copy delivered, reads as `gathered`. -/
theorem joined1_read [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w1 : BufOf (F := F) c (Memref.whole main_v17)) (f1 : BufOf (F := F) c (Memref.whole cc0_scratch1))
    (G : BufOf (F := F) c (Memref.whole cc0_scratch1))
    (hG : ∀ t : Fin k0_t1_loop.trips, ∀ y ∈ rowSetT t,
      (G : S64x8x128.Idx → Elt F .f32) y = (landed1 c i tbl htbl w1 f1 t : S64x8x128.Idx → Elt F .f32) y) :
    (Memref.whole cc0_scratch1 : Memref sig .tc .vmem S64x8x128 .f32).view.read (Elt F) G
      = gathered (w1 : S32000x8x128.Idx → Elt F .f32) (tbl : S3x2048.Idx → BitVec 32) 1 (i 0) := by
  funext y
  have hy : (y 0).val < 64 := (y 0).isLt
  have hmem : y ∈ rowSetT ⟨(y 0).val, by rw [trips1]; exact hy⟩ := (mem_rowSet _ _ _).mpr rfl
  show (G : S64x8x128.Idx → Elt F .f32) y = _
  rw [hG _ y hmem]
  exact landed1_apply c i tbl htbl w1 f1 _ y rfl

/-- The table word trip `t` reads for slot 2 is the table's entry at row 2, position `64 p + t`. -/
theorem tw2_eq (c : Dev nD) (i : grid0.Coords) (t : Fin k0_t1_loop.trips) (tbl : BufOf (F := F) c (Memref.whole main_v11)) :
    tw2 c i t tbl = (tbl : S3x2048.Idx → BitVec 32) (ix2 (2 : Fin 3) (posOf (i 0) ⟨t.val, lt64 t⟩)) := by
  have hidx : (Rect.unit (s := S3x2048) (k0_off3 i t) S1x1.size (k0_off3_inb i t)).toLoadRect.idx (Shape.Idx.first (show (0:ℕ) < 1 from Nat.zero_lt_one))
      = ix2 (2 : Fin 3) (posOf (i 0) ⟨t.val, lt64 t⟩) := by
    have e0 := off3_eq i t
    funext a; apply Fin.ext
    show k0_off3 i t a + 1 * 0 = _
    rw [e0]
    match a with
    | ⟨0, _⟩ => rfl
    | ⟨1, _⟩ => show 64 * (i 0).val + t.val + 1 * 0 = 64 * (i 0).val + t.val; omega
  exact congrArg (tbl : S3x2048.Idx → BitVec 32) hidx

/-- Row `t` of scratch 2 once its copy has landed holds, at each of its elements, the entry `gathered` names: the
    copy's one write covers the row, and what it wrote there is the source row's entry in the same place — the source
    row being the table row the id in slot 2 of position `64 p + t` selects. -/
theorem landed2_apply [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w2 : BufOf (F := F) c (Memref.whole main_v20)) (f2 : BufOf (F := F) c (Memref.whole cc0_scratch2))
    (t : Fin k0_t1_loop.trips) (y : S64x8x128.Idx) (hy : (y 0).val = t.val) :
    (landed2 c i tbl htbl w2 f2 t : S64x8x128.Idx → Elt F .f32) y
      = gathered (w2 : S32000x8x128.Idx → Elt F .f32) (tbl : S3x2048.Idx → BitVec 32) 2 (i 0) y := by
  obtain ⟨a0, a1, a2, rfl⟩ : ∃ (a0 : Fin 64) (a1 : Fin 8) (a2 : Fin 128), y = ix3 a0 a1 a2 := ⟨y 0, y 1, y 2, eq_ix3 y⟩
  change a0.val = t.val at hy
  -- the element at (a1, a2) of the row sits at (t, a1, a2) of the scratch buffer
  have hdst : ((dRow2 t).view.slice (Rect.whole S8x128)).emb (ix2 a1 a2) = ix3 a0 a1 a2 := by
    funext a; apply Fin.ext
    show k0_off8 t a + 1 * ((Shape.reshapeEquiv squeezes_S1x8x128_S8x128.numel_eq ((Rect.whole S8x128).emb (ix2 a1 a2))) a).val = (ix3 a0 a1 a2 a).val
    rw [Rect.emb_whole_apply, reshapeEquiv_ix2_1ab, off8_eq]
    match a with
    | ⟨0, _⟩ => show t.val + 1 * 0 = a0.val; omega
    | ⟨1, _⟩ => show 0 + 1 * a1.val = a1.val; omega
    | ⟨2, _⟩ => show 0 + 1 * a2.val = a2.val; omega
  -- the element at (a1, a2) of the source row sits at (row, a1, a2) of the table, the row the id selects
  have hpos : posOf (i 0) ⟨t.val, lt64 t⟩ = posOf (i 0) a0 := by
    have : (⟨t.val, lt64 t⟩ : Fin 64) = a0 := Fin.ext hy.symm
    rw [this]
  have hrow : (tw2 c i t tbl).toNat = (Cert.Spec.rowOf ((tbl : S3x2048.Idx → BitVec 32) (ix2 (2 : Fin 3) (posOf (i 0) a0)))).val := by
    rw [tw2_eq, hpos, Cert.Spec.rowOf_val_of_lt (htbl _)]
  have hsrc : (src2 c i tbl htbl t).view.emb (ix2 a1 a2)
      = ix3 (Cert.Spec.rowOf ((tbl : S3x2048.Idx → BitVec 32) (ix2 (2 : Fin 3) (posOf (i 0) a0)))) a1 a2 := by
    funext a; apply Fin.ext
    show k0_off9 (tw2 c i t tbl) a + 1 * ((Shape.reshapeEquiv squeezes_S1x8x128_S8x128.numel_eq (ix2 a1 a2)) a).val = _
    rw [reshapeEquiv_ix2_1ab]
    match a with
    | ⟨0, _⟩ => show (tw2 c i t tbl).toNat + 1 * 0 = _; rw [hrow]; rfl
    | ⟨1, _⟩ => show 0 + 1 * a1.val = a1.val; omega
    | ⟨2, _⟩ => show 0 + 1 * a2.val = a2.val; omega
  have hw := View.write_emb_of_mem (v := (dRow2 t).view.slice (Rect.whole S8x128)) (Val := Elt F) f2
    (ReadAs.same.apply ((src2 c i tbl htbl t).view.read (Elt F) w2)) (Finset.mem_univ (ix2 a1 a2))
  rw [hdst] at hw
  refine hw.trans ?_
  show (w2 : S32000x8x128.Idx → Elt F .f32) ((src2 c i tbl htbl t).view.emb (ix2 a1 a2)) = _
  rw [hsrc]
  rfl

/-- Scratch 2, once every row holds what its copy delivered, reads as `gathered`. -/
theorem joined2_read [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w2 : BufOf (F := F) c (Memref.whole main_v20)) (f2 : BufOf (F := F) c (Memref.whole cc0_scratch2))
    (G : BufOf (F := F) c (Memref.whole cc0_scratch2))
    (hG : ∀ t : Fin k0_t1_loop.trips, ∀ y ∈ rowSetT t,
      (G : S64x8x128.Idx → Elt F .f32) y = (landed2 c i tbl htbl w2 f2 t : S64x8x128.Idx → Elt F .f32) y) :
    (Memref.whole cc0_scratch2 : Memref sig .tc .vmem S64x8x128 .f32).view.read (Elt F) G
      = gathered (w2 : S32000x8x128.Idx → Elt F .f32) (tbl : S3x2048.Idx → BitVec 32) 2 (i 0) := by
  funext y
  have hy : (y 0).val < 64 := (y 0).isLt
  have hmem : y ∈ rowSetT ⟨(y 0).val, by rw [trips1]; exact hy⟩ := (mem_rowSet _ _ _).mpr rfl
  show (G : S64x8x128.Idx → Elt F .f32) y = _
  rw [hG _ y hmem]
  exact landed2_apply c i tbl htbl w2 f2 _ y rfl

end Cert.Kernel.Hand

end
-- ==== Proof.K.Body0.lean ====
/-
  The first kernel's body at one grid point: its triple.

  The body starts 192 copies, waits for all of them, and only then reads the three scratch buffers; so the proof
  splits each scratch buffer into its 64 rows and lends each table under 64 read tokens, runs the two loops over the
  three batches of copies, takes every delivery back at the last waits, joins the rows (now the gathered table rows)
  and the tokens back into whole buffers, and runs the loads, the sum with the bias, the activation and the store.
-/
import proofs.«403403_j35476429865350_3_alg».proof.Proof.K.CopyLoops
import proofs.«403403_j35476429865350_3_alg».proof.Proof.K.Landed

set_option maxRecDepth 16384

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The scratch buffers row by row, the tables under read tokens -/

section Pieces

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- A scratch buffer held whole is its 64 rows, each held by its own elements. -/
theorem scratch0_rows : (whole c (Memref.whole cc0_scratch0) f0 : sProp 𝕄) = bigSep Finset.univ fun t : Fin k0_t1_loop.trips => heldOwn c (dRow0 t) fullShare f0 :=
  Ring.pointsTo_blocks (ℓ := (Memref.whole cc0_scratch0 : Memref sig .tc .vmem S64x8x128 .f32).view.loc (c : Thread nD τ)) (q := fullShare)
    (fun t : Fin k0_t1_loop.trips => (dRow0 t).view.set) (fun t t' h => by rw [dRow0_set, dRow0_set]; exact rowSetT_disjoint t t' h)
    (by simp only [dRow0_set]; exact rowSetT_cover) f0
theorem scratch1_rows : (whole c (Memref.whole cc0_scratch1) f1 : sProp 𝕄) = bigSep Finset.univ fun t : Fin k0_t1_loop.trips => heldOwn c (dRow1 t) fullShare f1 :=
  Ring.pointsTo_blocks (ℓ := (Memref.whole cc0_scratch1 : Memref sig .tc .vmem S64x8x128 .f32).view.loc (c : Thread nD τ)) (q := fullShare)
    (fun t : Fin k0_t1_loop.trips => (dRow1 t).view.set) (fun t t' h => by rw [dRow1_set, dRow1_set]; exact rowSetT_disjoint t t' h)
    (by simp only [dRow1_set]; exact rowSetT_cover) f1
theorem scratch2_rows : (whole c (Memref.whole cc0_scratch2) f2 : sProp 𝕄) = bigSep Finset.univ fun t : Fin k0_t1_loop.trips => heldOwn c (dRow2 t) fullShare f2 :=
  Ring.pointsTo_blocks (ℓ := (Memref.whole cc0_scratch2 : Memref sig .tc .vmem S64x8x128 .f32).view.loc (c : Thread nD τ)) (q := fullShare)
    (fun t : Fin k0_t1_loop.trips => (dRow2 t).view.set) (fun t t' h => by rw [dRow2_set, dRow2_set]; exact rowSetT_disjoint t t' h)
    (by simp only [dRow2_set]; exact rowSetT_cover) f2

/-- Rows held at contents of their own join to the buffer held whole, at contents that agree with each row's on
    that row. -/
theorem scratch0_join (g : (t : Fin k0_t1_loop.trips) → BufOf (F := F) c (dRow0 t)) :
    (bigSep Finset.univ fun t : Fin k0_t1_loop.trips => heldOwn c (dRow0 t) fullShare (g t))
      ⊢ (iprop(∃ G : BufOf (F := F) c (Memref.whole cc0_scratch0), ⌜∀ t : Fin k0_t1_loop.trips, ∀ y ∈ rowSetT t, (G : S64x8x128.Idx → Elt F .f32) y = (g t : S64x8x128.Idx → Elt F .f32) y⌝
          ∗ whole c (Memref.whole cc0_scratch0) G) : sProp 𝕄) := by
  have h := pointsTo_biUnion_join (ℓ := (Memref.whole cc0_scratch0 : Memref sig .tc .vmem S64x8x128 .f32).view.loc (c : Thread nD τ)) (q := fullShare)
    (Ix := Unit) (Name := ℕ) (U := UU nD τ) (Lvl := ℕ)
    Finset.univ (fun t : Fin k0_t1_loop.trips => (dRow0 t).view.set) g (Memref.whole cc0_scratch0 : Memref sig .tc .vmem S64x8x128 .f32).view.junk
    (fun t _ t' _ hne => by rw [dRow0_set, dRow0_set]; exact rowSetT_disjoint t t' hne)
  refine h.trans ?_
  iintro ⟨%G, %hG, H⟩
  iexists G
  isplitr
  · ipureintro; intro t y hy; exact hG t (Finset.mem_univ t) y (by have e := dRow0_set t; rw [e]; exact hy)
  · have e1 := pointsTo_biUnion (ℓ := (Memref.whole cc0_scratch0 : Memref sig .tc .vmem S64x8x128 .f32).view.loc (c : Thread nD τ)) (q := fullShare) (f := G)
      (Ix := Unit) (Name := ℕ) (U := UU nD τ) (Lvl := ℕ)
      Finset.univ (fun t : Fin k0_t1_loop.trips => (dRow0 t).view.set)
      (fun t _ t' _ hne => by rw [dRow0_set, dRow0_set]; exact rowSetT_disjoint t t' hne)
    iapply (Entails.of_eq (e1.trans (scratch0_rows c G).symm))
    iexact H
theorem scratch1_join (g : (t : Fin k0_t1_loop.trips) → BufOf (F := F) c (dRow1 t)) :
    (bigSep Finset.univ fun t : Fin k0_t1_loop.trips => heldOwn c (dRow1 t) fullShare (g t))
      ⊢ (iprop(∃ G : BufOf (F := F) c (Memref.whole cc0_scratch1), ⌜∀ t : Fin k0_t1_loop.trips, ∀ y ∈ rowSetT t, (G : S64x8x128.Idx → Elt F .f32) y = (g t : S64x8x128.Idx → Elt F .f32) y⌝
          ∗ whole c (Memref.whole cc0_scratch1) G) : sProp 𝕄) := by
  have h := pointsTo_biUnion_join (ℓ := (Memref.whole cc0_scratch1 : Memref sig .tc .vmem S64x8x128 .f32).view.loc (c : Thread nD τ)) (q := fullShare)
    (Ix := Unit) (Name := ℕ) (U := UU nD τ) (Lvl := ℕ)
    Finset.univ (fun t : Fin k0_t1_loop.trips => (dRow1 t).view.set) g (Memref.whole cc0_scratch1 : Memref sig .tc .vmem S64x8x128 .f32).view.junk
    (fun t _ t' _ hne => by rw [dRow1_set, dRow1_set]; exact rowSetT_disjoint t t' hne)
  refine h.trans ?_
  iintro ⟨%G, %hG, H⟩
  iexists G
  isplitr
  · ipureintro; intro t y hy; exact hG t (Finset.mem_univ t) y (by have e := dRow1_set t; rw [e]; exact hy)
  · have e1 := pointsTo_biUnion (ℓ := (Memref.whole cc0_scratch1 : Memref sig .tc .vmem S64x8x128 .f32).view.loc (c : Thread nD τ)) (q := fullShare) (f := G)
      (Ix := Unit) (Name := ℕ) (U := UU nD τ) (Lvl := ℕ)
      Finset.univ (fun t : Fin k0_t1_loop.trips => (dRow1 t).view.set)
      (fun t _ t' _ hne => by rw [dRow1_set, dRow1_set]; exact rowSetT_disjoint t t' hne)
    iapply (Entails.of_eq (e1.trans (scratch1_rows c G).symm))
    iexact H
theorem scratch2_join (g : (t : Fin k0_t1_loop.trips) → BufOf (F := F) c (dRow2 t)) :
    (bigSep Finset.univ fun t : Fin k0_t1_loop.trips => heldOwn c (dRow2 t) fullShare (g t))
      ⊢ (iprop(∃ G : BufOf (F := F) c (Memref.whole cc0_scratch2), ⌜∀ t : Fin k0_t1_loop.trips, ∀ y ∈ rowSetT t, (G : S64x8x128.Idx → Elt F .f32) y = (g t : S64x8x128.Idx → Elt F .f32) y⌝
          ∗ whole c (Memref.whole cc0_scratch2) G) : sProp 𝕄) := by
  have h := pointsTo_biUnion_join (ℓ := (Memref.whole cc0_scratch2 : Memref sig .tc .vmem S64x8x128 .f32).view.loc (c : Thread nD τ)) (q := fullShare)
    (Ix := Unit) (Name := ℕ) (U := UU nD τ) (Lvl := ℕ)
    Finset.univ (fun t : Fin k0_t1_loop.trips => (dRow2 t).view.set) g (Memref.whole cc0_scratch2 : Memref sig .tc .vmem S64x8x128 .f32).view.junk
    (fun t _ t' _ hne => by rw [dRow2_set, dRow2_set]; exact rowSetT_disjoint t t' hne)
  refine h.trans ?_
  iintro ⟨%G, %hG, H⟩
  iexists G
  isplitr
  · ipureintro; intro t y hy; exact hG t (Finset.mem_univ t) y (by have e := dRow2_set t; rw [e]; exact hy)
  · have e1 := pointsTo_biUnion (ℓ := (Memref.whole cc0_scratch2 : Memref sig .tc .vmem S64x8x128 .f32).view.loc (c : Thread nD τ)) (q := fullShare) (f := G)
      (Ix := Unit) (Name := ℕ) (U := UU nD τ) (Lvl := ℕ)
      Finset.univ (fun t : Fin k0_t1_loop.trips => (dRow2 t).view.set)
      (fun t _ t' _ hne => by rw [dRow2_set, dRow2_set]; exact rowSetT_disjoint t t' hne)
    iapply (Entails.of_eq (e1.trans (scratch2_rows c G).symm))
    iexact H

/-- A table held whole: the remainder after 64 read tokens, each copy's source row under its token, and what is left
    of each token. -/
theorem table0_lend : (whole c (Memref.whole main_v14) w0 : sProp 𝕄)
    = iprop(((Memref.whole main_v14 : Memref sig .tc .hbm S32000x8x128 .f32).view.loc (c : Thread nD τ) ↦[Finset.univ]{Transfers.shareDrop fullShare k0_t1_loop.trips} w0)
        ∗ (bigSep Finset.univ fun t : Fin k0_t1_loop.trips => heldOwn c (src0 c i tbl htbl t) (Transfers.shareTokN fullShare t.val) w0)
        ∗ bigSep Finset.univ fun t : Fin k0_t1_loop.trips => (Memref.whole main_v14 : Memref sig .tc .hbm S32000x8x128 .f32).view.loc (c : Thread nD τ) ↦[Finset.univ \ (src0 c i tbl htbl t).view.set]{Transfers.shareTokN fullShare t.val} w0) :=
  lendRows w0 k0_t1_loop.trips fun t => (src0 c i tbl htbl t).view.set
theorem table1_lend : (whole c (Memref.whole main_v17) w1 : sProp 𝕄)
    = iprop(((Memref.whole main_v17 : Memref sig .tc .hbm S32000x8x128 .f32).view.loc (c : Thread nD τ) ↦[Finset.univ]{Transfers.shareDrop fullShare k0_t1_loop.trips} w1)
        ∗ (bigSep Finset.univ fun t : Fin k0_t1_loop.trips => heldOwn c (src1 c i tbl htbl t) (Transfers.shareTokN fullShare t.val) w1)
        ∗ bigSep Finset.univ fun t : Fin k0_t1_loop.trips => (Memref.whole main_v17 : Memref sig .tc .hbm S32000x8x128 .f32).view.loc (c : Thread nD τ) ↦[Finset.univ \ (src1 c i tbl htbl t).view.set]{Transfers.shareTokN fullShare t.val} w1) :=
  lendRows w1 k0_t1_loop.trips fun t => (src1 c i tbl htbl t).view.set
theorem table2_lend : (whole c (Memref.whole main_v20) w2 : sProp 𝕄)
    = iprop(((Memref.whole main_v20 : Memref sig .tc .hbm S32000x8x128 .f32).view.loc (c : Thread nD τ) ↦[Finset.univ]{Transfers.shareDrop fullShare k0_t1_loop.trips} w2)
        ∗ (bigSep Finset.univ fun t : Fin k0_t1_loop.trips => heldOwn c (src2 c i tbl htbl t) (Transfers.shareTokN fullShare t.val) w2)
        ∗ bigSep Finset.univ fun t : Fin k0_t1_loop.trips => (Memref.whole main_v20 : Memref sig .tc .hbm S32000x8x128 .f32).view.loc (c : Thread nD τ) ↦[Finset.univ \ (src2 c i tbl htbl t).view.set]{Transfers.shareTokN fullShare t.val} w2) :=
  lendRows w2 k0_t1_loop.trips fun t => (src2 c i tbl htbl t).view.set

end Pieces

/-! ## The deliveries may sit in an invariant -/

/-- Two buffers' elements held, each at its share, may sit in an invariant. -/
theorem storable_two {ℓ ℓ' : Loc nD τ sig} (S : Finset (Idealize.ShloMosaic.Idx ℓ)) (S' : Finset (Idealize.ShloMosaic.Idx ℓ'))
    (q q' : PosShare TreeShare) (f : Buf (Elt F) ℓ) (g : Buf (Elt F) ℓ') :
    BI.Storable (upEmb : UEmb _ 𝕄) (iprop((ℓ ↦[S]{q} f) ∗ (ℓ' ↦[S']{q'} g)) : sProp 𝕄) := inferInstance

section Stor

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

instance deliv0_storable (t : Fin k0_t1_loop.trips) : BI.Storable (upEmb : UEmb _ 𝕄) (deliv0 c i tbl htbl w0 f0 t) :=
  storable_two _ _ _ _ _ _
instance deliv1_storable (t : Fin k0_t1_loop.trips) : BI.Storable (upEmb : UEmb _ 𝕄) (deliv1 c i tbl htbl w1 f1 t) :=
  storable_two _ _ _ _ _ _
instance deliv2_storable (t : Fin k0_t1_loop.trips) : BI.Storable (upEmb : UEmb _ 𝕄) (deliv2 c i tbl htbl w2 f2 t) :=
  storable_two _ _ _ _ _ _

end Stor

/-! ## The body's triple -/

section Whole

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- After the last trip of the first loop every copy has been started and nothing else of the invariant is left. -/
theorem issueAt_exit (acc : Unit) :
    issueAt c i tbl htbl w0 w1 w2 f0 f1 f2 k0_t1_loop.trips acc
      ⊢ iprop(whole c (Memref.whole main_v11) tbl ∗ batch0 c i tbl htbl w0 f0 k0_t1_loop.trips 0
          ∗ batch1 c i tbl htbl w1 f1 k0_t1_loop.trips 0 ∗ batch2 c i tbl htbl w2 f2 k0_t1_loop.trips 0) := by
  unfold issueAt
  iintro ⟨HT, HB0, HB1, HB2, -⟩
  isplitl [HT]; · iexact HT
  isplitl [HB0]; · iexact HB0
  isplitl [HB1]; · iexact HB1
  iexact HB2

/-- After the last trip of the second loop: the waits recorded, each semaphore back at zero, every delivery in hand. -/
theorem drainAt_exit (acc : Unit) :
    drainAt c i tbl htbl w0 w1 w2 f0 f1 f2 k0_t2_loop.trips acc
      ⊢ iprop((∃ W, owes (c : Thread nD τ) (0 : CellTallies nD τ sig Unit) W)
          ∗ (cellAt0 c cc0_scratch3.sem ∗ bigSep Finset.univ (deliv0 c i tbl htbl w0 f0))
          ∗ (cellAt0 c cc0_scratch4.sem ∗ bigSep Finset.univ (deliv1 c i tbl htbl w1 f1))
          ∗ (cellAt0 c cc0_scratch5.sem ∗ bigSep Finset.univ (deliv2 c i tbl htbl w2 f2))) := by
  unfold drainAt
  rw [if_neg (Nat.lt_irrefl _)]
  iintro ⟨-, HO, H⟩
  isplitl [HO]; · iexact HO
  iexact H

end Whole

set_option maxHeartbeats 8000000 in
/-- The body at grid point `i`: from the bias block staged at `x0`, the output's staging buffer at anything and
    `bodyRest` — every table entry a row number — it runs to its return with the output's staging buffer at
    `outBlock0` of the bias block and the three gathered buffers, everything else as it was. -/
theorem sound_kernel0 [∀ e, Nonempty (Elt F e)] (c : Dev nD) (i : grid0.Coords)
    (arg5 : Memref sig .tc .vmem S1x8x128 .f32) (harg5 : arg5.IsWhole)
    (arg6 : Memref sig .tc .vmem S64x8x128 .bf16) (harg6 : arg6.IsWhole)
    (x0 : Vec F S1x8x128 .f32)
    (tbl : BufOf (F := F) c (Memref.whole main_v11)) (w0 : BufOf (F := F) c (Memref.whole main_v14))
    (w1 : BufOf (F := F) c (Memref.whole main_v17)) (w2 : BufOf (F := F) c (Memref.whole main_v20))
    (htbl : ∀ (j : Fin 3) (r : Fin 2048), (tbl (ix2 j r)).toNat < 32000)
    (K : PUnit → sProp 𝕄) :
    iprop(owns (c : Thread nD τ) arg5 fullShare x0 ∗ (∃ d, owns (c : Thread nD τ) arg6 fullShare d)
        ∗ bodyRest c tbl w0 w1 w2
        ∗ (iprop(owns (c : Thread nD τ) arg5 fullShare x0
              ∗ owns (c : Thread nD τ) arg6 fullShare
                  (outBlock0 x0 (gathered w0 tbl 0 (i 0)) (gathered w1 tbl 1 (i 0)) (gathered w2 tbl 2 (i 0)))
              ∗ bodyRest c tbl w0 w1 w2) -∗ K ⟨⟩))
      ⊢ wp frame (wpE (defs₀ (F := F)) Variants.none c none) Set.univ
          (cc0__gather_mlp1_kernel i (Memref.whole main_v11) (Memref.isWhole_whole _) (Memref.whole main_v14) (Memref.isWhole_whole _)
            (Memref.whole main_v17) (Memref.isWhole_whole _) (Memref.whole main_v20) (Memref.isWhole_whole _) arg5 harg5 arg6 harg6
            (Memref.whole cc0_scratch0) (Memref.isWhole_whole _) (Memref.whole cc0_scratch1) (Memref.isWhole_whole _)
            (Memref.whole cc0_scratch2) (Memref.isWhole_whole _) cc0_scratch3 cc0_scratch4 cc0_scratch5) K := by
  have htbl' : ∀ (y : S3x2048.Idx), ((tbl : S3x2048.Idx → BitVec 32) y).toNat < 32000 := fun y => by
    rw [eq_ix2 y]; exact htbl _ _
  have hT1 := trips1
  have hT2 := trips2
  have hr : Ring.rangeSet k0_t1_loop.trips 0 k0_t1_loop.trips = Finset.univ := Ring.rangeSet_univ
  simp only [cc0__gather_mlp1_kernel_eq_skeleton]; unfold cc0__gather_mlp1_kernel_skel
  unfold bodyRest sems0 owns
  iintro ⟨⟨%f5, %hf5, H5⟩, ⟨%d6, %f6, -, H6⟩, ⟨HT, HW0, HW1, HW2, ⟨%f0, HF0⟩, ⟨%f1, HF1⟩, ⟨%f2, HF2⟩, ⟨Hc0, Hc1, Hc2⟩, ⟨%W, HO⟩⟩, Hk⟩
  subst hf5
  -- the scratch buffers row by row, the tables under read tokens
  ihave HF0 := (Entails.of_eq (scratch0_rows c f0)) $$ HF0
  ihave HF1 := (Entails.of_eq (scratch1_rows c f1)) $$ HF1
  ihave HF2 := (Entails.of_eq (scratch2_rows c f2)) $$ HF2
  ihave HW0 := (Entails.of_eq (table0_lend c i tbl htbl' w0)) $$ HW0
  ihave HW1 := (Entails.of_eq (table1_lend c i tbl htbl' w1)) $$ HW1
  ihave HW2 := (Entails.of_eq (table2_lend c i tbl htbl' w2)) $$ HW2
  icases HW0 with ⟨HW0r, HW0s, HW0c⟩
  icases HW1 with ⟨HW1r, HW1s, HW1c⟩
  icases HW2 with ⟨HW2r, HW2s, HW2c⟩
  -- the body's own spelling of its three semaphores
  have hs0 : (semVal ((c : Thread nD τ), osem 0) 0 : sProp 𝕄) = semVal ((c : Thread nD τ), SemLoc.dma cc0_scratch3.sem) 0 := rfl
  have hs1 : (semVal ((c : Thread nD τ), osem 1) 0 : sProp 𝕄) = semVal ((c : Thread nD τ), SemLoc.dma cc0_scratch4.sem) 0 := rfl
  have hs2 : (semVal ((c : Thread nD τ), osem 2) 0 : sProp 𝕄) = semVal ((c : Thread nD τ), SemLoc.dma cc0_scratch5.sem) 0 := rfl
  ihave Hc0 := (Entails.of_eq hs0) $$ Hc0
  ihave Hc1 := (Entails.of_eq hs1) $$ Hc1
  ihave Hc2 := (Entails.of_eq hs2) $$ Hc2
  -- the three batches, their deliveries stated
  haveI hst0 : ∀ t, BI.Storable (upEmb : UEmb _ 𝕄) (deliv0 c i tbl htbl' w0 f0 t) := fun t => deliv0_storable c i tbl htbl' w0 f0 t
  haveI hst1 : ∀ t, BI.Storable (upEmb : UEmb _ 𝕄) (deliv1 c i tbl htbl' w1 f1 t) := fun t => deliv1_storable c i tbl htbl' w1 f1 t
  haveI hst2 : ∀ t, BI.Storable (upEmb : UEmb _ 𝕄) (deliv2 c i tbl htbl' w2 f2 t) := fun t => deliv2_storable c i tbl htbl' w2 f2 t
  imod (Transfers.batch_alloc' (Lvl := ℕ) (countersEmb (U := UU nD τ)) (c : Thread nD τ) () NN (deliv0 c i tbl htbl' w0 f0) (sm := .dma cc0_scratch3.sem) (E := Set.univ)) $$ Hc0 with HB0
  imod (Transfers.batch_alloc' (Lvl := ℕ) (countersEmb (U := UU nD τ)) (c : Thread nD τ) () NN (deliv1 c i tbl htbl' w1 f1) (sm := .dma cc0_scratch4.sem) (E := Set.univ)) $$ Hc1 with HB1
  imod (Transfers.batch_alloc' (Lvl := ℕ) (countersEmb (U := UU nD τ)) (c : Thread nD τ) () NN (deliv2 c i tbl htbl' w2 f2) (sm := .dma cc0_scratch5.sem) (E := Set.univ)) $$ Hc2 with HB2
  -- the loop that starts the copies
  sl_for (issueAt c i tbl htbl' w0 w1 w2 f0 f1 f2) $$ [HT HB0 HB1 HB2 HF0 HW0s HF1 HW1s HF2 HW2s]
  · intro k acc; exact issue_step c i tbl htbl' w0 w1 w2 f0 f1 f2 arg5 harg5 arg6 harg6 k acc
  · unfold issueAt dsts0 dsts1 dsts2 srcs0 srcs1 srcs2
    irw [hr]
    isplitl [HT]; · iexact HT
    isplitl [HB0]; · iexact HB0
    isplitl [HB1]; · iexact HB1
    isplitl [HB2]; · iexact HB2
    isplitl [HF0]; · iexact HF0
    isplitl [HW0s]; · iexact HW0s
    isplitl [HF1]; · iexact HF1
    isplitl [HW1s]; · iexact HW1s
    isplitl [HF2]; · iexact HF2
    iexact HW2s
  iintro %acc HI
  ihave HI := (issueAt_exit c i tbl htbl' w0 w1 w2 f0 f1 f2 acc) $$ HI
  icases HI with ⟨HT, HB0, HB1, HB2⟩
  -- the loop that waits
  sl_for (drainAt c i tbl htbl' w0 w1 w2 f0 f1 f2) $$ [HB0 HB1 HB2 HO]
  · intro k acc; exact drain_step c i tbl htbl' w0 w1 w2 f0 f1 f2 arg5 harg5 arg6 harg6 k acc
  · unfold drainAt
    rw [if_pos (show 0 < k0_t2_loop.trips by rw [hT2]; decide)]
    isplitr; · ipureintro; omega
    isplitl [HO]; · iexists _; iexact HO
    rw [show 0 * NN = 0 from rfl]
    isplitl [HB0]; · iexact HB0
    isplitl [HB1]; · iexact HB1
    iexact HB2
  iintro %acc' HL
  ihave HL := (drainAt_exit c i tbl htbl' w0 w1 w2 f0 f1 f2 acc') $$ HL
  icases HL with ⟨⟨%W', HO⟩, ⟨Hc0, HA0⟩, ⟨Hc1, HA1⟩, ⟨Hc2, HA2⟩⟩
  -- each kind's deliveries: the rows apart from the tokens
  have hd0 : (bigSep Finset.univ (deliv0 c i tbl htbl' w0 f0) : sProp 𝕄)
      = iprop((bigSep Finset.univ fun t : Fin k0_t1_loop.trips => heldOwn c (dRow0 t) fullShare (landed0 c i tbl htbl' w0 f0 t))
          ∗ bigSep Finset.univ fun t : Fin k0_t1_loop.trips => heldOwn c (src0 c i tbl htbl' t) (Transfers.shareTokN fullShare t.val) w0) :=
    BI.bigSep_sep _ _ _
  ihave HA0 := (Entails.of_eq hd0) $$ HA0
  have hd1 : (bigSep Finset.univ (deliv1 c i tbl htbl' w1 f1) : sProp 𝕄)
      = iprop((bigSep Finset.univ fun t : Fin k0_t1_loop.trips => heldOwn c (dRow1 t) fullShare (landed1 c i tbl htbl' w1 f1 t))
          ∗ bigSep Finset.univ fun t : Fin k0_t1_loop.trips => heldOwn c (src1 c i tbl htbl' t) (Transfers.shareTokN fullShare t.val) w1) :=
    BI.bigSep_sep _ _ _
  ihave HA1 := (Entails.of_eq hd1) $$ HA1
  have hd2 : (bigSep Finset.univ (deliv2 c i tbl htbl' w2 f2) : sProp 𝕄)
      = iprop((bigSep Finset.univ fun t : Fin k0_t1_loop.trips => heldOwn c (dRow2 t) fullShare (landed2 c i tbl htbl' w2 f2 t))
          ∗ bigSep Finset.univ fun t : Fin k0_t1_loop.trips => heldOwn c (src2 c i tbl htbl' t) (Transfers.shareTokN fullShare t.val) w2) :=
    BI.bigSep_sep _ _ _
  ihave HA2 := (Entails.of_eq hd2) $$ HA2
  icases HA0 with ⟨HR0, HS0⟩
  icases HA1 with ⟨HR1, HS1⟩
  icases HA2 with ⟨HR2, HS2⟩
  -- the scratch buffers whole again, at the gathered rows
  ihave HG0 := (scratch0_join c (landed0 c i tbl htbl' w0 f0)) $$ HR0
  ihave HG1 := (scratch1_join c (landed1 c i tbl htbl' w1 f1)) $$ HR1
  ihave HG2 := (scratch2_join c (landed2 c i tbl htbl' w2 f2)) $$ HR2
  icases HG0 with ⟨%G0, %hG0, HG0⟩
  icases HG1 with ⟨%G1, %hG1, HG1⟩
  icases HG2 with ⟨%G2, %hG2, HG2⟩
  have e0 := joined0_read c i tbl htbl' w0 f0 G0 hG0
  have e1 := joined1_read c i tbl htbl' w1 f1 G1 hG1
  have e2 := joined2_read c i tbl htbl' w2 f2 G2 hG2
  -- the tables whole again
  ihave HW0 := (Entails.of_eq (table0_lend c i tbl htbl' w0).symm) $$ [HW0r HS0 HW0c]
  · isplitl [HW0r]; · iexact HW0r
    isplitl [HS0]; · iexact HS0
    iexact HW0c
  ihave HW1 := (Entails.of_eq (table1_lend c i tbl htbl' w1).symm) $$ [HW1r HS1 HW1c]
  · isplitl [HW1r]; · iexact HW1r
    isplitl [HS1]; · iexact HS1
    iexact HW1c
  ihave HW2 := (Entails.of_eq (table2_lend c i tbl htbl' w2).symm) $$ [HW2r HS2 HW2c]
  · isplitl [HW2r]; · iexact HW2r
    isplitl [HS2]; · iexact HS2
    iexact HW2c
  -- the loads, the sum, the store
  sl_exec
  sl_step
  iapply Hk
  isplitl [H5]
  · iexists f5; isplitr; · ipureintro; rfl
    iexact H5
  isplitl [H6]
  · iexists _; isplitr
    swap; · iexact H6
    ipureintro
    rw [← e0, ← e1, ← e2]
    exact View.read_writes_eq_canon _ _ _ (cover0 _)
  isplitl [HT]; · iexact HT
  isplitl [HW0]; · iexact HW0
  isplitl [HW1]; · iexact HW1
  isplitl [HW2]; · iexact HW2
  isplitl [HG0]; · iexists _; iexact HG0
  isplitl [HG1]; · iexists _; iexact HG1
  isplitl [HG2]; · iexists _; iexact HG2
  isplitl [Hc0 Hc1 Hc2]
  · isplitl [Hc0]; · iapply (Entails.of_eq hs0.symm); iexact Hc0
    isplitl [Hc1]; · iapply (Entails.of_eq hs1.symm); iexact Hc1
    iapply (Entails.of_eq hs2.symm); iexact Hc2
  iexists _; iexact HO

end Cert.Kernel.Hand

end
-- ==== Proof.K.Region0.lean ====
/-
  The first kernel of the program as a pipeline region: the gather and the hidden layer.

  The kernel runs on a grid of 32 points with one prefetched table, the 3 × 2048 array of context token ids. At point
  `p` the pipeline stages the bias block (window 0, the same block at every point) and the `p`-th 64 × 8 × 128 block
  of the output (window 1); the three embedding tables are not windows: they stay in place and the body copies rows
  out of them itself, counting the copies on three semaphores of its own. Stated here at a parameter `V`, the buffer
  contents when the region is entered: the table's contents and the pipeline at them, the bias window's block, the
  invariant between the region's ends (the table, the three embedding tables, the semaphores at zero, the scoped
  buffers no window stages), the proof data (after the body the output's buffer holds the activation of the three
  gathered buffers and the bias block), the body obligation at every point — from the body's triple, for a table whose
  entries are row numbers —, and the region's ends: of the unscoped buffers that are no window's array the table goes
  to the pipeline, the three embedding tables enter the invariant with the semaphores, every other one bypasses the
  region; at the end they are put back as found. Nothing depends on the number family the values are taken in.
-/
import proofs.«403403_j35476429865350_3_alg».proof.Proof.K.Body0
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation cellOf)

section Region0
-- the TensorCore's buffer contents when the region is entered
variable (V : (c : Dev nD) → (b : Ref sig .tc) → Buf (Elt F) ((c : Thread nD τ).loc b))

/-! ## The table, the pipeline at it, the bias window's block -/

/-- The table's contents as the region finds them (the program runs on one core); any contents are admissible. -/
def adm0 : (pcfg0 (F := F)).Adm := ⟨fun k => V 0 (pre0.ref k), trivial⟩

/-- On each core they are that core's. -/
theorem adm0_fst (c : Dev nD) : (adm0 V).1 = (fun k => V c (pre0.ref k) : pre0.Contents (Elt F)) := by
  obtain rfl : c = 0 := Subsingleton.elim _ _
  rfl

/-- The bias window's block at point `t`, read off its array as the region finds it. -/
def iblk0 (c : Dev nD) (t : Fin (cfg0 (adm0 V)).N) :
    (((cfg0 (adm0 V)).win (0 : Fin 2)).xblock ((cfg0 (adm0 V)).grid.coords t)).Idx → Elt F ((cfg0 (adm0 V)).win (0 : Fin 2)).elt :=
  (((cfg0 (adm0 V)).win (0 : Fin 2)).blk t).view.read (Elt F) (V c (Pipeline.arrRef spec0 (0 : Fin 2)))

/-! ## The invariant and the proof data -/

/-- The invariant between the region's ends: the table and the three embedding tables as the region finds them, the
    kernel's three semaphores at zero, and the scoped buffers no window stages (the three scratch buffers first). -/
def Φ0 (c : Dev nD) : sProp 𝕄 :=
  iprop(whole c (Memref.whole main_v11) (V c main_v11) ∗ whole c (Memref.whole main_v14) (V c main_v14)
    ∗ whole c (Memref.whole main_v17) (V c main_v17) ∗ whole c (Memref.whole main_v20) (V c main_v20)
    ∗ sems0 c ∗ Pipeline.scopedRest (Ix := Unit) (Name := ℕ) (U := UU nD τ) (Lvl := ℕ) (Val := Elt F) spec0 c)

/-- The proof data on core `c`: the arrays as the region finds them; after the body at point `t` the bias buffer at
    its block and the output's at the activation of the three gathered buffers and the bias block; the invariant;
    nothing owed; full shares. -/
def dat0 (c : Dev nD) : Dat τ (Elt F) Unit ℕ (UU nD τ) ℕ (cfg0 (adm0 V)) c where
  A w := V c (Pipeline.arrRef spec0 w)
  after w t := match w with
    | ⟨0, _⟩ => iblk0 V c t
    | ⟨1, _⟩ => outBlock0 (iblk0 V c t) (gathered (V c main_v14) (V c main_v11) 0 (((cfg0 (adm0 V)).grid.coords t) 0))
        (gathered (V c main_v17) (V c main_v11) 1 (((cfg0 (adm0 V)).grid.coords t) 0))
        (gathered (V c main_v20) (V c main_v11) 2 (((cfg0 (adm0 V)).grid.coords t) 0))
  Φ _ := Φ0 V c
  q _ := fullShare
  owed _ := 0

/-- The proof data's arrays are the region-entry contents. -/
theorem A_eq0 (c : Dev nD) (w : Fin (cfg0 (adm0 V)).W) : (dat0 V c).A w = V c (Pipeline.arrRef spec0 w) := by
  dsimp only [dat0]

/-- What the body leaves, window by window. -/
theorem after0_0 (c : Dev nD) (t : Fin (cfg0 (adm0 V)).N) : (dat0 V c).after (0 : Fin 2) t = iblk0 V c t := by dsimp only [dat0]
theorem after0_1 (c : Dev nD) (t : Fin (cfg0 (adm0 V)).N) :
    (dat0 V c).after (1 : Fin 2) t = outBlock0 (iblk0 V c t) (gathered (V c main_v14) (V c main_v11) 0 (((cfg0 (adm0 V)).grid.coords t) 0))
        (gathered (V c main_v17) (V c main_v11) 1 (((cfg0 (adm0 V)).grid.coords t) 0))
        (gathered (V c main_v20) (V c main_v11) 2 (((cfg0 (adm0 V)).grid.coords t) 0)) := by dsimp only [dat0]

/-- The bias window's staging buffer holds its block at every point, fetched there or not. -/
theorem before0_0 (c : Dev nD) (t : Fin (cfg0 (adm0 V)).N) (d) : (dat0 V c).before (0 : Fin 2) t d = iblk0 V c t :=
  ((dat0 V c).before_in_eq_fetched (0 : Fin 2) rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The kernel's own semaphores -/

/-- They are scoped, distinct, and no staging semaphore. -/
theorem ownSemFacts0 : Pipeline.OwnSemFacts spec0 osem := by decide

/-- At zero, listed. -/
theorem ownSems0_eq0 (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2] (by decide) (by decide)

/-! ## The body obligation -/

/-- The current staging memrefs at point `t`, and the body as the pipeline calls it there. -/
abbrev st0_0 (t : Fin (cfg0 (adm0 V)).N) := ((cfg0 (adm0 V)).win (0 : Fin 2)).stage ((cfg0 (adm0 V)).slots t (0 : Fin 2))
abbrev st0_1 (t : Fin (cfg0 (adm0 V)).N) := ((cfg0 (adm0 V)).win (1 : Fin 2)).stage ((cfg0 (adm0 V)).slots t (1 : Fin 2))

abbrev bodyAt0 (t : Fin (cfg0 (adm0 V)).N) : Prog (TpuEff nD τ sig (Elt F) Λ₀ .tc) PUnit :=
  cc0__gather_mlp1_kernel ((cfg0 (adm0 V)).grid.coords t) (Memref.whole main_v11) (Memref.isWhole_whole _) (Memref.whole main_v14) (Memref.isWhole_whole _)
    (Memref.whole main_v17) (Memref.isWhole_whole _) (Memref.whole main_v20) (Memref.isWhole_whole _)
    (spec0_0.stage ((cfg0 (adm0 V)).slots t (0 : Fin 2))) (hstage0_0 (((cfg0 (adm0 V)).slots t (0 : Fin 2)).cast nbuf0_0))
    (spec0_1.stage ((cfg0 (adm0 V)).slots t (1 : Fin 2))) (hstage0_1 (((cfg0 (adm0 V)).slots t (1 : Fin 2)).cast nbuf0_1))
    (Memref.whole cc0_scratch0) (Memref.isWhole_whole _) (Memref.whole cc0_scratch1) (Memref.isWhole_whole _)
    (Memref.whole cc0_scratch2) (Memref.isWhole_whole _) cc0_scratch3 cc0_scratch4 cc0_scratch5

/-- What the body is called with at point `t`, -/
def bodyPre0 (c : Dev nD) (t : Fin (cfg0 (adm0 V)).N) : sProp 𝕄 :=
  iprop((dat0 V c).Φ t.castSucc ∗ (dat0 V c).owesAt () t.castSucc
    ∗ (∃ d, owns (c : Thread nD τ) (st0_0 V t) fullShare ((dat0 V c).before (0 : Fin 2) t d))
    ∗ (∃ d, owns (c : Thread nD τ) (st0_1 V t) fullShare ((dat0 V c).before (1 : Fin 2) t d)))

/-- and what it returns. -/
def bodyPost0 (c : Dev nD) (t : Fin (cfg0 (adm0 V)).N) : sProp 𝕄 :=
  iprop((dat0 V c).Φ t.succ ∗ (dat0 V c).owesAt () t.succ
    ∗ owns (c : Thread nD τ) (st0_0 V t) fullShare ((dat0 V c).after (0 : Fin 2) t)
    ∗ owns (c : Thread nD τ) (st0_1 V t) fullShare ((dat0 V c).after (1 : Fin 2) t))

theorem sound_body0 [∀ e, Nonempty (Elt F e)] (c : Dev nD)
    (htbl : ∀ (j : Fin 3) (r : Fin 2048), ((V c main_v11 : S3x2048.Idx → BitVec 32) (ix2 j r)).toNat < 32000)
    (t : Fin (cfg0 (adm0 V)).N) :
    bodyPre0 V c t ⊢ wp frame (wpE (defs₀ (F := F)) Variants.none c none) Set.univ
      (bodyAt0 V t) (fun _ => bodyPost0 V c t) := by
  unfold bodyPre0 bodyPost0 bodyAt0
  simp only [before0_0]
  rw [show (dat0 V c).Φ t.succ = Φ0 V c from rfl, show (dat0 V c).Φ t.castSucc = Φ0 V c from rfl, after0_0, after0_1]
  unfold Φ0 Dat.owesAt Pipeline.owesWithin; rw [scopedRest0_eq]
  rw [show (dat0 V c).owed t.castSucc = 0 from rfl, show (dat0 V c).owed t.succ = 0 from rfl]
  iintro ⟨⟨Ht, H14, H17, H20, Hsems, Hs0, Hs1, Hs2, Hrest⟩, ⟨%W, %hW, HO⟩, ⟨%d0, H0⟩, ⟨%d1, H1⟩⟩
  iapply (sound_kernel0 c ((cfg0 (adm0 V)).grid.coords t) _ _ _ _ (iblk0 V c t) (V c main_v11) (V c main_v14) (V c main_v17) (V c main_v20) htbl _)
  isplitl [H0]; · iexact H0
  isplitl [H1]; · iexists _; iexact H1
  isplitl [Ht H14 H17 H20 Hsems Hs0 Hs1 Hs2 HO]
  · unfold bodyRest
    isplitl [Ht]; · iexact Ht
    isplitl [H14]; · iexact H14
    isplitl [H17]; · iexact H17
    isplitl [H20]; · iexact H20
    isplitl [Hs0]; · iexact Hs0
    isplitl [Hs1]; · iexact Hs1
    isplitl [Hs2]; · iexact Hs2
    isplitl [Hsems]; · iexact Hsems
    iexists W; iexact HO
  iintro ⟨H0, H1, Hb⟩
  unfold bodyRest
  icases Hb with ⟨Ht, H14, H17, H20, Hs0, Hs1, Hs2, Hsems, ⟨%W', HO⟩⟩
  isplitl [Ht H14 H17 H20 Hsems Hs0 Hs1 Hs2 Hrest]
  · isplitl [Ht]; · iexact Ht
    isplitl [H14]; · iexact H14
    isplitl [H17]; · iexact H17
    isplitl [H20]; · iexact H20
    isplitl [Hsems]; · iexact Hsems
    isplitl [Hs0]; · iexact Hs0
    isplitl [Hs1]; · iexact Hs1
    isplitl [Hs2]; · iexact Hs2
    iexact Hrest
  isplitl [HO]
  · iexists W'; isplitr; · ipureintro; exact fun _ _ => Or.inl trivial
    iexact HO
  isplitl [H0]; · iexact H0
  iexact H1

/-- The library's body obligation, at every point. -/
theorem body_obligation0 [∀ e, Nonempty (Elt F e)] (c : Dev nD)
    (htbl : ∀ (j : Fin 3) (r : Fin 2048), ((V c main_v11 : S3x2048.Idx → BitVec 32) (ix2 j r)).toNat < 32000) :
    BodyObligation (dat0 (F := F) V c) (defs₀ (F := F)) Variants.none () Set.univ := fun t => by
  rw [bigSep_W0, bigSep_W0]
  exact sound_body0 V c htbl t

/-! ## The region's ends -/

/-- The three embedding tables, left in place for the kernel's own copies. -/
abbrev tabs : List (Ref sig .tc) := [main_v14, main_v17, main_v20]

/-- What enters the invariant beside the table: the three embedding tables and the kernel's semaphores at zero; -/
def X0 (c : Dev nD) : sProp 𝕄 :=
  iprop(whole c (Memref.whole main_v14) (V c main_v14) ∗ whole c (Memref.whole main_v17) (V c main_v17)
    ∗ whole c (Memref.whole main_v20) (V c main_v20) ∗ sems0 c)

/-- what the invariant gives back: the table and the three embedding tables, as found; -/
def Y0 (c : Dev nD) : sProp 𝕄 :=
  iprop(whole c (Memref.whole main_v11) (V c main_v11) ∗ whole c (Memref.whole main_v14) (V c main_v14)
    ∗ whole c (Memref.whole main_v17) (V c main_v17) ∗ whole c (Memref.whole main_v20) (V c main_v20))

/-- what bypasses the region: every other unscoped buffer that is no window's array. -/
def Z0 (c : Dev nD) : sProp 𝕄 :=
  bigSep ((((Finset.univ.filter fun b : Ref sig .tc => ¬ b.isScoped) \ Finset.univ.image (Pipeline.arrRef spec0)) \ Finset.univ.image pre0.ref) \ tabs.toFinset)
    fun b => ((c : Thread nD τ).loc b) ↦{fullShare} V c b

/-- The table held at the region-entry contents is its buffer held whole at them. -/
theorem prefHeld0_eq (c : Dev nD) :
    (Pipeline.prefHeld pre0 c (fun _ => fullShare) (adm0 V).1 : sProp 𝕄) = whole c (Memref.whole main_v11) (V c main_v11) := by
  rw [adm0_fst V c]
  unfold Pipeline.prefHeld
  rw [bigSep_univ_eq_bigSepL [(0 : Fin 1)] (by decide) (by decide)]
  rfl

/-- The unscoped buffers that are neither a window's array nor the table: the three embedding tables, and the rest. -/
theorem unscopedRestP0_split (c : Dev nD) :
    (Pipeline.unscopedRestP pre0 spec0 c (V c) : sProp 𝕄)
      = iprop((whole c (Memref.whole main_v14) (V c main_v14) ∗ whole c (Memref.whole main_v17) (V c main_v17)
          ∗ whole c (Memref.whole main_v20) (V c main_v20)) ∗ Z0 V c) := by
  unfold Pipeline.unscopedRestP Z0
  rw [bigSep_sdiff_split (t := tabs.toFinset) (by decide), bigSep_eq_bigSepL tabs (by decide)]
  rfl

/-- The unscoped buffers that are no window's array: the table, the three embedding tables, the rest. -/
theorem unscopedRest0_eq (c : Dev nD) :
    (Pipeline.unscopedRest spec0 c (V c) : sProp 𝕄)
      = iprop(whole c (Memref.whole main_v11) (V c main_v11)
          ∗ (whole c (Memref.whole main_v14) (V c main_v14) ∗ whole c (Memref.whole main_v17) (V c main_v17)
            ∗ whole c (Memref.whole main_v20) (V c main_v20)) ∗ Z0 V c) := by
  rw [Pipeline.unscopedRest_split preFacts0 c (V c), ← adm0_fst V c, prefHeld0_eq, unscopedRestP0_split]

/-- ENTRY: the table, what enters the invariant, what bypasses. -/
theorem hentry0 (c : Dev nD) :
    iprop(Pipeline.unscopedRest spec0 c (V c) ∗ Pipeline.ownSems0 osem c)
      ⊢ (|={Set.univ}=> iprop(Pipeline.prefHeld pre0 c (fun _ => fullShare) (adm0 V).1 ∗ X0 V c ∗ Z0 V c) : sProp 𝕄) := by
  rw [unscopedRest0_eq, ownSems0_eq0, prefHeld0_eq]; unfold X0
  iintro ⟨⟨Ht, ⟨H14, H17, H20⟩, Hz⟩, Hs⟩
  imodintro
  isplitl [Ht]; · iexact Ht
  isplitr [Hz]
  · isplitl [H14]; · iexact H14
    isplitl [H17]; · iexact H17
    isplitl [H20]; · iexact H20
    iexact Hs
  iexact Hz

/-- The invariant at the first point. -/
theorem hin0 (c : Dev nD) :
    iprop(X0 V c ∗ Pipeline.prefHeld pre0 c (fun _ => fullShare) (adm0 V).1 ∗ Pipeline.scopedRest (cfg0 (adm0 V)).spec c)
      ⊢ ((dat0 V c).Φ 0 : sProp 𝕄) := by
  rw [prefHeld0_eq, show (dat0 V c).Φ 0 = Φ0 V c from rfl]; unfold X0 Φ0
  iintro ⟨⟨H14, H17, H20, Hs⟩, Ht, Hr⟩
  isplitl [Ht]; · iexact Ht
  isplitl [H14]; · iexact H14
  isplitl [H17]; · iexact H17
  isplitl [H20]; · iexact H20
  isplitl [Hs]; · iexact Hs
  iexact Hr

/-- The invariant at the last point gives back the four tables, the semaphores at zero and the scoped rest. -/
theorem hout0 (c : Dev nD) :
    ((dat0 V c).Φ (Fin.last (cfg0 (adm0 V)).N) : sProp 𝕄)
      ⊢ iprop(Y0 V c ∗ Pipeline.ownSems0 osem c ∗ Pipeline.scopedRest (cfg0 (adm0 V)).spec c) := by
  rw [ownSems0_eq0, show (dat0 V c).Φ (Fin.last (cfg0 (adm0 V)).N) = Φ0 V c from rfl]; unfold Y0 Φ0
  iintro ⟨Ht, H14, H17, H20, Hs, Hr⟩
  isplitl [Ht H14 H17 H20]
  · isplitl [Ht]; · iexact Ht
    isplitl [H14]; · iexact H14
    isplitl [H17]; · iexact H17
    iexact H20
  isplitl [Hs]; · iexact Hs
  iexact Hr

/-- EXIT: the tables and what bypassed are the unscoped buffers that are no window's array, as found. -/
theorem hexit0 (c : Dev nD) :
    iprop(Y0 V c ∗ Z0 V c) ⊢ (|={Set.univ}=> Pipeline.unscopedRest spec0 c (V c) : sProp 𝕄) := by
  rw [unscopedRest0_eq]; unfold Y0
  iintro ⟨⟨Ht, H14, H17, H20⟩, Hz⟩
  imodintro
  isplitl [Ht]; · iexact Ht
  isplitr [Hz]
  · isplitl [H14]; · iexact H14
    isplitl [H17]; · iexact H17
    iexact H20
  iexact Hz

end Region0

end Cert.Kernel.Hand

end
-- ==== Proof.K.Region1.lean ====
/-
  The second kernel of the program as a pipeline region: the output projection.

  The kernel runs on a grid of 50 column tiles. At tile `t` it holds the whole hidden activation `h`
  (2048 × 1024, fetched once at the first tile and kept), the `t`-th 1024 × 640 tile of the output matrix and the
  `t`-th 1 × 640 tile of the output bias, and stores into its 2048 × 640 output tile

    h · round(W2 tile) + (the bias row, repeated down the rows),

  in one store that covers the tile. Stated here at a parameter `V`, the buffer contents when the region is entered:
  each window's block at a tile read off `V`, what the body leaves in the output tile as a function of the three
  input blocks, the body's triple, and the pipeline's body obligation at every tile. Nothing depends on the
  number family the values are taken in.
-/
import proofs.«403403_j35476429865350_3_alg».proof.Proof.K.Common
import Idealize.ShloMosaic.Lib.Pipeline.FrameBody
import Idealize.ShloMosaic.Lib.Pipeline.Frame
import Idealize.ShloMosaic.Lib.Tactic

-- membership in a rectangle of these extents is looked at once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Region1
-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden activation's buffer holds the whole activation at every tile, though it is fetched at the first
    only: where it is not fetched its block index has not moved, and the body leaves it in place. For any proof
    data whose array is `V`'s and whose body leaves the block in place. -/
theorem before1_0_of {c : Dev nD} (dat : Dat τ (Elt F) Unit ℕ (UU nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix tile's buffer holds the tile of the point, fetched at every point. -/
theorem before1_1_of {c : Dev nD} (dat : Dat τ (Elt F) Unit ℕ (UU nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias tile's buffer holds the tile of the point, fetched at every point. -/
theorem before1_2_of {c : Dev nD} (dat : Dat τ (Elt F) Unit ℕ (UU nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x1024 := Rect.unit (s := S2048x1024) ![0, 0] S2048x1024.size inb_S2048x1024_S2048x1024_0_0
abbrev r1_1 : Rect S1024x640 := Rect.unit (s := S1024x640) ![0, 0] S1024x640.size inb_S1024x640_S1024x640_0_0
abbrev r1_2 : Rect S1x640 := Rect.unit (s := S1x640) ![0, 0] S1x640.size inb_S1x640_S1x640_0_0
abbrev r1_3 : Rect S2048x640 := Rect.unit (s := S2048x640) ![0, 0] S2048x640.size inb_S2048x640_S2048x640_0_0

/-! ## What the body leaves in the output tile -/

/-- The output tile after the body, from the three input blocks (`x0` the activation, `x1` the matrix tile, `x2`
    the bias tile): its one store, of the product plus the repeated bias row. -/
def out1_3 (x0 : Vec F S2048x1024 .bf16) (x1 : Vec F S1024x640 .f32) (x2 : Vec F S1x640 .f32) : Vec F S2048x640 .f32 :=
  View.canon [⟨r1_3, k1_pay1 (View.ld x1 r1_1) (View.ld x0 r1_0) (View.ld x2 r1_2)⟩]

/-- The store covers the tile. -/
theorem cover1_3 (p0 : Vec F S2048x640 .f32) (y : S2048x640.Idx) :
    ∃ pc ∈ ([⟨r1_3, p0⟩] : List (View.Piece (Elt F) S2048x640 .f32)), y ∈ pc.1.set :=
  View.cover_of_tiled [⟨r1_3, p0⟩] S2048x640.size (by rfl) y

/-! ## The body's triple -/

set_option maxHeartbeats 1000000 in
/-- The kernel body on whole staging memrefs, the inputs' at read contents `x0`, `x1`, `x2` and the output's at
    anything, runs to the continuation holding the inputs' as they were and the output's at `out1_3` of them. -/
theorem sound_kernel1 (c : Dev nD) (E : Set ℕ) (i : grid1.Coords)
    (arg1 : Memref sig .tc .vmem S2048x1024 .bf16) (harg1 : arg1.IsWhole) (arg2 : Memref sig .tc .vmem S1024x640 .f32) (harg2 : arg2.IsWhole)
    (arg3 : Memref sig .tc .vmem S1x640 .f32) (harg3 : arg3.IsWhole) (arg4 : Memref sig .tc .vmem S2048x640 .f32) (harg4 : arg4.IsWhole)
    (x0 : Vec F S2048x1024 .bf16) (x1 : Vec F S1024x640 .f32) (x2 : Vec F S1x640 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at tile `t`
    each input's buffer at its block and the output's at `out1_3` of the input blocks; the invariant the scoped rest
    and the random-number register, untouched; nothing owed; full shares. -/
def dat1 (c : Dev nD) : Dat τ (Elt F) Unit ℕ (UU nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every tile, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any tile: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Frame.lean ====
/-
  The run of the whole kernel program.

  The program is seven stretches in order: three stretches of array operations on the host side (the token ids
  padded, clamped and laid out as the three context columns; the bias laid out), the first kernel (the gather of
  the embedding rows, their sum, the bias and the activation), two more array operations (the activation and the
  output bias reshaped), the second kernel (the output projection, tile by tile), and a last reshape of the
  logits. The contents of every buffer at each of the eight boundaries are written down as a chain: a stretch of
  array operations takes the contents to what the operations compute from them, and a kernel changes only its
  pipeline's arrays, which end at what the pipeline's write-backs leave. Each stretch and each kernel is then a
  segment of the program from one boundary's contents to the next, and the launch of the whole program follows
  from the segments: every fair execution terminates, and at the end every buffer holds the last boundary's
  contents. The five arguments are written by no stretch and by no kernel, so they end as launched.
-/
import proofs.«403403_j35476429865350_3_alg».proof.Proof.K.Region0
import proofs.«403403_j35476429865350_3_alg».proof.Proof.K.Region1
import proofs.«403403_j35476429865350_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic
import Idealize.ShloMosaic.Lib.ValueIdx

noncomputable section

namespace Cert.Kernel.Hand

open Cert.Kernel Cert.Kernel.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the program's. -/
abbrev EP : Emb (UR sig nD τ) (MT nD τ sig Unit (Elt F) ℕ (UU nD τ) ℕ) := embL

variable (m : (ℓ : Loc nD τ sig) → Buf (Elt F) ℓ) (ρ : Dev nD → PrngReg)

/-! ## The buffers' contents at the eight boundaries -/

/-- Core `c`'s buffers at launch. -/
abbrev W0 : Dev nD → Valuation τ sig (Elt F) := fun c b => (s₀ m ρ).mem ((c : Dev nD), b)
/-- After the first stretch of array operations. -/
abbrev W1 : Dev nD → Valuation τ sig (Elt F) := fun c => StableHlo.after hostOps0 (W0 m ρ c)
/-- After the clamp of the token ids. -/
abbrev W2 : Dev nD → Valuation τ sig (Elt F) := fun c => StableHlo.after hostOps0_1 (W1 m ρ c)
/-- After the third stretch: what the first kernel is entered with. -/
abbrev W3 : Dev nD → Valuation τ sig (Elt F) := fun c => StableHlo.after hostOps0_2 (W2 m ρ c)
/-- The same, read at the TensorCore's references. -/
abbrev V0 : (c : Dev nD) → (b : Ref sig .tc) → Buf (Elt F) ((c : Thread nD τ).loc b) := fun c b => W0 m ρ c b
abbrev V1 : (c : Dev nD) → (b : Ref sig .tc) → Buf (Elt F) ((c : Thread nD τ).loc b) := fun c b => W1 m ρ c b
abbrev V2 : (c : Dev nD) → (b : Ref sig .tc) → Buf (Elt F) ((c : Thread nD τ).loc b) := fun c b => W2 m ρ c b
abbrev V3 : (c : Dev nD) → (b : Ref sig .tc) → Buf (Elt F) ((c : Thread nD τ).loc b) := fun c b => W3 m ρ c b

/-- When the first kernel returns: its pipeline's arrays at what the write-backs leave (an input as entered), every
    other buffer as entered. -/
def W4 (c : Dev nD) : Valuation τ sig (Elt F) :=
  Pipeline.withArrays spec0 c (W3 m ρ c) fun w => (dat0 (V3 m ρ) c).arrAt w (cfg0 (adm0 (V3 m ρ))).N
theorem W4_arr (c : Dev nD) (w : Fin (cfg0 (adm0 (V3 m ρ))).W) :
    W4 m ρ c (Proc.devRef .tc (Pipeline.arrRef spec0 w)) = (dat0 (V3 m ρ) c).arrAt w (cfg0 (adm0 (V3 m ρ))).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At the first kernel's return each of its arrays holds what the pipeline leaves, and every other buffer what it
    held at entry. -/
theorem hF0 (c : Dev nD) (w : Fin (cfg0 (adm0 (V3 m ρ))).W) :
    (dat0 (V3 m ρ) c).arrAt w (cfg0 (adm0 (V3 m ρ))).N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the two reshapes: what the second kernel is entered with. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- When the second kernel returns: its arrays at what the write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 (launch1 (F := F)).win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the last reshape: the contents at the return. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-! ### The arguments end as launched: no array operation writes one, and a kernel reads one at most through an
    input window -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
/-- The output matrix is the second kernel's second window, an input: the pipeline leaves it as entered. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) :=
        (W6_arr m ρ c 1).trans (((dat1 (V5 m ρ) c).arrAt_in 1 rfl _).trans (A_eq1 (V5 m ρ) c 1))
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-! ## The proof data family and the thread state -/

/-- The prefetched tables' admissible contents: the first kernel's context table as that kernel is entered; the
    second kernel has no table. -/
def adm : (p : Fin 2) → (pcfgs (F := F) p).Adm
  | ⟨0, _⟩ => adm0 (V3 m ρ)
  | ⟨1, _⟩ => cfg1.toPCfg_adm
/-- Each pipeline's proof data, at its kernel's entry contents. -/
def pdats : (p : Fin 2) → (c : Dev nD) → Dat τ (Elt F) Unit ℕ (UU nD τ) ℕ (Pipeline.pin (pcfgs (F := F)) (adm m ρ) p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its
    debt, at nothing. -/
abbrev R (c : Dev nD) : sProp 𝕄 := iprop((∃ r, prngReg c r) ∗ ∃ W, owes (c : Thread nD τ) (0 : CellTallies nD τ sig Unit) W)
/-- A stretch of array operations as a segment: over every unscoped buffer, from the contents `W`, to what the
    operations compute from them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the random-number
    register at some state. -/
abbrev Tₙ (c : Dev nD) : sProp 𝕄 := iprop(StableHlo.held (c : Thread nD τ) (Pipeline.ucRefs τ sig) (W7 m ρ c) ∗ ∃ r, prngReg c r)

/-- The last stretch leaves the last thread state beside the core's debt, at nothing. -/
theorem last_split (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The kernels as segments -/

set_option backward.isDefEq.respectTransparency.types false in
/-- THE SECOND KERNEL over the thread state: entered from every unscoped buffer at `W5`, left at `W6`. Its arrays are
    split out of the unscoped buffers and put back at the exit contents; the random-number register goes into the
    pipeline's invariant and comes out; nothing owed; no semaphore of the kernel's own. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UU nD τ) (Lvl := ℕ) spec1 c (V5 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UU nD τ) (Lvl := ℕ)
      (launch1 (F := F)).win (launch1 (F := F)).arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The context table the first kernel is entered with holds row numbers of the embedding tables. -/
abbrev TblOk : Prop := ∀ (c : Dev nD) (j : Fin 3) (r : Fin 2048), ((V3 m ρ c main_v11 : S3x2048.Idx → BitVec 32) (ix2 j r)).toNat < 32000

set_option backward.isDefEq.respectTransparency.types false in
/-- THE FIRST KERNEL over the thread state: entered from every unscoped buffer at `W3`, left at `W4`. Its pipeline's
    arrays are split out of the unscoped buffers and put back at the exit contents; of the rest, the context table is
    lent to the pipeline, the three embedding tables and the kernel's three semaphores go into the kernel's invariant
    and come out as they went in, and the others pass by; the random-number register passes by; nothing owed. -/
def reg0 (htbl : TblOk m ρ) : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := Fin 3
  osem := osem
  ho := ownSemFacts0
  hbody c := (body_obligation0 (V3 m ρ) c (htbl c)).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := X0 (V3 m ρ) c
  Y c := Y0 (V3 m ρ) c
  Z c := iprop(Z0 (V3 m ρ) c ∗ ∃ r, prngReg c r)
  hentry c := by
    have hsplit := Pipeline.arrays_of_unscopedBufs (p := 0) (pcfgs (F := F)) (adm m ρ) (pdats m ρ) (launch0 (F := F)).win (launch0 (F := F)).arr_whole c
      ((pdats m ρ 0 c).share_full fun _ => rfl) (V3 m ρ c) fun _ => rfl
    rw [Pipeline.unscopedBufs_held] at hsplit
    iintro ⟨⟨Hub, Hp, HO⟩, Hos, -⟩
    ihave H := hsplit $$ Hub
    icases H with ⟨Ha, Hrest⟩
    imod (hentry0 (V3 m ρ) c) $$ [Hrest Hos] with ⟨Hpre, HX, HZ⟩
    · isplitl [Hrest]; · iexact Hrest
      iexact Hos
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [HX]; · iexact HX
    isplitl [HZ]; · iexact HZ
    iexact Hp
  hin c := hin0 (V3 m ρ) c
  hout c := hout0 (V3 m ρ) c
  hexit c := by
    have hjoin := Pipeline.unscopedBufs_of_arrays (p := 0) (pcfgs (F := F)) (adm m ρ) (Ix := Unit) (Name := ℕ) (U := UU nD τ) (Lvl := ℕ)
      (launch0 (F := F)).win (launch0 (F := F)).arr_whole c (pdats m ρ) ((pdats m ρ 0 c).share_full fun _ => rfl)
      (V3 m ρ c) (V4 m ρ c) ((pdats m ρ 0 c).arrAt · (cfg0 (adm0 (V3 m ρ))).N) (hF0 m ρ c) (hrest0 m ρ c)
    rw [Pipeline.unscopedBufs_held] at hjoin
    iintro ⟨Ha, HO, HY, HZ, Hp⟩
    imod (hexit0 (V3 m ρ) c) $$ [HY HZ] with Hrest
    · isplitl [HY]; · iexact HY
      iexact HZ
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

/-- The program's seven segments in order. -/
abbrev segs (htbl : TblOk m ρ) : List (Pipeline.Seg (pcfgs (F := F)) (adm m ρ) (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ htbl),
    .host (hseg hostOps1 hostOps1_sub hostOps1_fresh (W4 m ρ)),
    .region (reg1 m ρ),
    .host (hseg hostOps2 hostOps2_sub hostOps2_fresh (W6 m ρ)) ]
/-- The program IS the run of the segments. -/
theorem main_run (htbl : TblOk m ρ) (c : Dev nD) : main (F := F) c = Pipeline.Seg.run (segs m ρ htbl) :=
  (main_chain c).trans (by chain_rfl)

set_option backward.isDefEq.respectTransparency.types false in
/-- THE RUN: at the compiled mesh, from any memory with zero counters, if the context table the first kernel is
    entered with holds row numbers, every fair execution of the program terminates and every final state has every
    unscoped buffer at the last boundary's contents. -/
theorem run_all (htbl : TblOk m ρ) :
    θ_run defs (onTc (τ := τ) (main (F := F))) ⟨m, fun _ => 0, ρ⟩
      (fun r => ∀ c : Dev nD, ∀ b ∈ Pipeline.ucRefs τ sig, r.2.mem ((c : Thread nD τ).1, b) = W7 m ρ c b) :=
  Pipeline.θ_run_regions_kit (pcfgs (F := F)) (adm m ρ) (pdats m ρ) () (cellOf_inj (adm m ρ)) EP defs₀ 𝒱₀ L lv m ρ main (segs m ρ htbl)
    (fun c Q => by rw [main_run m ρ htbl c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ)))
      (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_split m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.K.HostReads.lean ====
/-
  What the host operations of the kernel program leave in the buffers they write, read at one index.

  Between its two kernels the program only moves data: it pads the token sequence in front with three rows of
  zeros, reads the three windows of it that start at rows 0, 1, 2, stacks them as the three context slots of every
  position, flattens the positions and transposes; it clamps the ids into the vocabulary; it cuts the three
  embedding tables out of their stack and folds each row of 1024 features into 8 groups of 128; and it folds or
  unfolds the leading axes of the intermediate results. Each such array, at an index, is one entry of an array the
  stretch of operations started from; on ids that are in range the clamp changes nothing.
-/
import proofs.«403403_j35476429865350_3_alg».proof.Proof.Gen.Kernel.Launch
import proofs.«403403_j35476429865350_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.Kernel.Hand

open Cert.Kernel Cert.Kernel.Gen Idealize.ShloMosaic Idealize.ShloMosaic.TcCoe Idealize.ShloMosaic.ValueIdx

variable {F : FTy → Type} [FloatOps F]

/-- The hidden activations flattened: row `r`, feature `e` is group `e / 128`, lane `e % 128` of row `r`. -/
theorem hflat_read (W : Valuation τ sig (Elt F)) (r : Fin 2048) (e : Fin 1024) :
    (StableHlo.after hostOps1 W (Proc.devRef .tc main_v23) : S2048x1024.Idx → F .bf16) (ix2 r e)
      = (W (Proc.devRef .tc main_v22) : S2048x8x128.Idx → F .bf16)
          (ix3 r (⟨e.val / 128, by have := e.isLt; omega⟩ : Fin 8) (⟨e.val % 128, Nat.mod_lt _ (by decide)⟩ : Fin 128)) := by
  have e0 : (StableHlo.after hostOps1 W (Proc.devRef .tc main_v23) : S2048x1024.Idx → F .bf16)
      = shapeCast S2048x1024 (W (Proc.devRef .tc main_v22) : S2048x8x128.Idx → F .bf16) shapeCasts_S2048x8x128_S2048x1024 := by
    simp only [hostOps1]; after_results; rfl
  rw [e0]
  refine shapeCast_apply (s := S2048x8x128) (t := S2048x1024) _ _ _ _ ?_
  rw [Shape.rowMajor_val_three, Shape.rowMajor_val_two]
  show (r.val * 8 + e.val / 128) * 128 + e.val % 128 = r.val * 1024 + e.val
  omega

/-- The output bias as a one-row matrix. -/
theorem b2row_read (W : Valuation τ sig (Elt F)) (v : Fin 32000) :
    (StableHlo.after hostOps1 W (Proc.devRef .tc main_v24) : S1x32000.Idx → F .f32) (ix2 (0 : Fin 1) v)
      = (W (Proc.devRef .tc main_arg4) : S32000.Idx → F .f32) (ix1 v) := by
  have e0 : (StableHlo.after hostOps1 W (Proc.devRef .tc main_v24) : S1x32000.Idx → F .f32)
      = shapeCast S1x32000 (W (Proc.devRef .tc main_arg4) : S32000.Idx → F .f32) shapeCasts_S32000_S1x32000 := by
    simp only [hostOps1]; after_results; rfl
  rw [e0]
  refine shapeCast_apply (s := S32000) (t := S1x32000) _ _ _ _ ?_
  rw [Shape.rowMajor_val_one, Shape.rowMajor_val_two]
  show v.val = 0 * 32000 + v.val
  omega

/-- The logits with the positions unflattened: position `(s, b)` is row `4 s + b`. -/
theorem out_read (W : Valuation τ sig (Elt F)) (s : Fin 512) (b : Fin 4) (v : Fin 32000) :
    (StableHlo.after hostOps2 W (Proc.devRef .tc main_v26) : S512x4x32000.Idx → F .f32) (ix3 s b v)
      = (W (Proc.devRef .tc main_v25) : S2048x32000.Idx → F .f32)
          (ix2 (⟨s.val * 4 + b.val, by have := s.isLt; have := b.isLt; omega⟩ : Fin 2048) v) := by
  have e0 : (StableHlo.after hostOps2 W (Proc.devRef .tc main_v26) : S512x4x32000.Idx → F .f32)
      = shapeCast S512x4x32000 (W (Proc.devRef .tc main_v25) : S2048x32000.Idx → F .f32) shapeCasts_S2048x32000_S512x4x32000 := by
    simp only [hostOps2]; after_results; rfl
  rw [e0]
  refine shapeCast_apply (s := S2048x32000) (t := S512x4x32000) _ _ _ _ ?_
  rw [Shape.rowMajor_val_three, Shape.rowMajor_val_two]
  show (s.val * 4 + b.val) * 32000 + v.val = (s.val * 4 + b.val) * 32000 + v.val
  rfl

/-- Embedding table 0 with each row's 1024 features folded into 8 groups of 128: group `a`, lane `l` is feature `128 a + l`. -/
theorem wslice0_read (W : Valuation τ sig (Elt F)) (v : Fin 32000) (a : Fin 8) (l : Fin 128) :
    (StableHlo.after hostOps0_2 W (Proc.devRef .tc main_v14) : S32000x8x128.Idx → F .f32) (ix3 v a l)
      = (W (Proc.devRef .tc main_arg1) : S3x32000x1024.Idx → F .f32)
          (ix3 (0 : Fin 3) v (⟨a.val * 128 + l.val, by have := a.isLt; have := l.isLt; omega⟩ : Fin 1024)) := by
  have e0 : (StableHlo.after hostOps0_2 W (Proc.devRef .tc main_v14) : S32000x8x128.Idx → F .f32)
      = shapeCast S32000x8x128 (shapeCast S32000x1024
          (extractStridedSlice S1x32000x1024 ![0, 0, 0] (W (Proc.devRef .tc main_arg1) : S3x32000x1024.Idx → F .f32)
            slices_S3x32000x1024_S1x32000x1024_0_0_0)
          shapeCasts_S1x32000x1024_S32000x1024) shapeCasts_S32000x1024_S32000x8x128 := by
    simp only [hostOps0_2]; after_results; rfl
  have hf : a.val * 128 + l.val < 1024 := by have := a.isLt; have := l.isLt; omega
  rw [e0]
  refine (shapeCast_apply _ _ _ (ix2 v (⟨a.val * 128 + l.val, hf⟩ : Fin 1024)) ?_).trans ?_
  · rw [Shape.rowMajor_val_three, Shape.rowMajor_val_two]
    show v.val * 1024 + (a.val * 128 + l.val) = (v.val * 8 + a.val) * 128 + l.val
    omega
  refine (shapeCast_apply _ _ _ (ix3 (0 : Fin 1) v (⟨a.val * 128 + l.val, hf⟩ : Fin 1024)) ?_).trans ?_
  · rw [Shape.rowMajor_val_three, Shape.rowMajor_val_two]
    show (0 * 32000 + v.val) * 1024 + (a.val * 128 + l.val) = v.val * 1024 + (a.val * 128 + l.val)
    omega
  exact extractStridedSlice_apply _ _ _ _ _ (fun d => match d with
    | ⟨0, _⟩ => by show 0 = 0 + 0; rfl
    | ⟨1, _⟩ => by show v.val = 0 + v.val; omega
    | ⟨2, _⟩ => by show a.val * 128 + l.val = 0 + (a.val * 128 + l.val); omega)

/-- Embedding table 1 with each row's 1024 features folded into 8 groups of 128: group `a`, lane `l` is feature `128 a + l`. -/
theorem wslice1_read (W : Valuation τ sig (Elt F)) (v : Fin 32000) (a : Fin 8) (l : Fin 128) :
    (StableHlo.after hostOps0_2 W (Proc.devRef .tc main_v17) : S32000x8x128.Idx → F .f32) (ix3 v a l)
      = (W (Proc.devRef .tc main_arg1) : S3x32000x1024.Idx → F .f32)
          (ix3 (1 : Fin 3) v (⟨a.val * 128 + l.val, by have := a.isLt; have := l.isLt; omega⟩ : Fin 1024)) := by
  have e0 : (StableHlo.after hostOps0_2 W (Proc.devRef .tc main_v17) : S32000x8x128.Idx → F .f32)
      = shapeCast S32000x8x128 (shapeCast S32000x1024
          (extractStridedSlice S1x32000x1024 ![1, 0, 0] (W (Proc.devRef .tc main_arg1) : S3x32000x1024.Idx → F .f32)
            slices_S3x32000x1024_S1x32000x1024_1_0_0)
          shapeCasts_S1x32000x1024_S32000x1024) shapeCasts_S32000x1024_S32000x8x128 := by
    simp only [hostOps0_2]; after_results; rfl
  have hf : a.val * 128 + l.val < 1024 := by have := a.isLt; have := l.isLt; omega
  rw [e0]
  refine (shapeCast_apply _ _ _ (ix2 v (⟨a.val * 128 + l.val, hf⟩ : Fin 1024)) ?_).trans ?_
  · rw [Shape.rowMajor_val_three, Shape.rowMajor_val_two]
    show v.val * 1024 + (a.val * 128 + l.val) = (v.val * 8 + a.val) * 128 + l.val
    omega
  refine (shapeCast_apply _ _ _ (ix3 (0 : Fin 1) v (⟨a.val * 128 + l.val, hf⟩ : Fin 1024)) ?_).trans ?_
  · rw [Shape.rowMajor_val_three, Shape.rowMajor_val_two]
    show (0 * 32000 + v.val) * 1024 + (a.val * 128 + l.val) = v.val * 1024 + (a.val * 128 + l.val)
    omega
  exact extractStridedSlice_apply _ _ _ _ _ (fun d => match d with
    | ⟨0, _⟩ => by show 1 = 1 + 0; rfl
    | ⟨1, _⟩ => by show v.val = 0 + v.val; omega
    | ⟨2, _⟩ => by show a.val * 128 + l.val = 0 + (a.val * 128 + l.val); omega)

/-- Embedding table 2 with each row's 1024 features folded into 8 groups of 128: group `a`, lane `l` is feature `128 a + l`. -/
theorem wslice2_read (W : Valuation τ sig (Elt F)) (v : Fin 32000) (a : Fin 8) (l : Fin 128) :
    (StableHlo.after hostOps0_2 W (Proc.devRef .tc main_v20) : S32000x8x128.Idx → F .f32) (ix3 v a l)
      = (W (Proc.devRef .tc main_arg1) : S3x32000x1024.Idx → F .f32)
          (ix3 (2 : Fin 3) v (⟨a.val * 128 + l.val, by have := a.isLt; have := l.isLt; omega⟩ : Fin 1024)) := by
  have e0 : (StableHlo.after hostOps0_2 W (Proc.devRef .tc main_v20) : S32000x8x128.Idx → F .f32)
      = shapeCast S32000x8x128 (shapeCast S32000x1024
          (extractStridedSlice S1x32000x1024 ![2, 0, 0] (W (Proc.devRef .tc main_arg1) : S3x32000x1024.Idx → F .f32)
            slices_S3x32000x1024_S1x32000x1024_2_0_0)
          shapeCasts_S1x32000x1024_S32000x1024) shapeCasts_S32000x1024_S32000x8x128 := by
    simp only [hostOps0_2]; after_results; rfl
  have hf : a.val * 128 + l.val < 1024 := by have := a.isLt; have := l.isLt; omega
  rw [e0]
  refine (shapeCast_apply _ _ _ (ix2 v (⟨a.val * 128 + l.val, hf⟩ : Fin 1024)) ?_).trans ?_
  · rw [Shape.rowMajor_val_three, Shape.rowMajor_val_two]
    show v.val * 1024 + (a.val * 128 + l.val) = (v.val * 8 + a.val) * 128 + l.val
    omega
  refine (shapeCast_apply _ _ _ (ix3 (0 : Fin 1) v (⟨a.val * 128 + l.val, hf⟩ : Fin 1024)) ?_).trans ?_
  · rw [Shape.rowMajor_val_three, Shape.rowMajor_val_two]
    show (0 * 32000 + v.val) * 1024 + (a.val * 128 + l.val) = v.val * 1024 + (a.val * 128 + l.val)
    omega
  exact extractStridedSlice_apply _ _ _ _ _ (fun d => match d with
    | ⟨0, _⟩ => by show 2 = 2 + 0; rfl
    | ⟨1, _⟩ => by show v.val = 0 + v.val; omega
    | ⟨2, _⟩ => by show a.val * 128 + l.val = 0 + (a.val * 128 + l.val); omega)

/-- The hidden bias folded the same way. -/
theorem b1blk_read (W : Valuation τ sig (Elt F)) (a : Fin 8) (l : Fin 128) :
    (StableHlo.after hostOps0_2 W (Proc.devRef .tc main_v21) : S1x8x128.Idx → F .f32) (ix3 (0 : Fin 1) a l)
      = (W (Proc.devRef .tc main_arg2) : S1024.Idx → F .f32)
          (ix1 (⟨a.val * 128 + l.val, by have := a.isLt; have := l.isLt; omega⟩ : Fin 1024)) := by
  have e0 : (StableHlo.after hostOps0_2 W (Proc.devRef .tc main_v21) : S1x8x128.Idx → F .f32)
      = shapeCast S1x8x128 (W (Proc.devRef .tc main_arg2) : S1024.Idx → F .f32) shapeCasts_S1024_S1x8x128 := by
    simp only [hostOps0_2]; after_results; rfl
  rw [e0]
  refine shapeCast_apply (s := S1024) (t := S1x8x128) _ _ _ _ ?_
  rw [Shape.rowMajor_val_one, Shape.rowMajor_val_three]
  show a.val * 128 + l.val = (0 * 8 + a.val) * 128 + l.val
  omega

/-! ## The context table -/

/-- On a word below 32000 the signed clamp to `[0, 31999]` changes nothing: the word is not negative, so the
    lower bound leaves it, and it is at most 31999, so the upper bound leaves it. -/
theorem clamp_of_lt (w : BitVec 32) (h : w.toNat < 32000) : IntOp.minsi 31999#32 (IntOp.maxsi 0#32 w) = w := by
  have h0 : w.slt 0#32 = false := by
    simp only [BitVec.slt, BitVec.toInt_eq_toNat_cond]
    simp; omega
  have hm : IntOp.maxsi 0#32 w = w := by
    unfold IntOp.maxsi; rw [h0]; rfl
  have h1 : (31999#32).slt w = false := by
    simp only [BitVec.slt, BitVec.toInt_eq_toNat_cond]
    simp; omega
  rw [hm]; unfold IntOp.minsi; rw [h1]; rfl

/-- The sequence padded in front with three rows of zeros. -/
def padTok (tok : S512x4.Idx → BitVec 32) : S515x4.Idx → BitVec 32 :=
  concatenate S515x4 0 [⟨S3x4, broadcastInDim S3x4 ![] bcast_S_S3x4 (constantI S_ 32 0#32)⟩, ⟨S512x4, tok⟩]
    concatenates_S3x4_S512x4_S515x4_d0

/-- Context slot `j`: the window of the padded sequence that starts at row `j`, with a unit axis appended. -/
def slotTok (tok : S512x4.Idx → BitVec 32) : Fin 3 → (S512x4x1.Idx → BitVec 32)
  | ⟨0, _⟩ => broadcastInDim S512x4x1 ![0, 1] bcast_S512x4_S512x4x1_0_1
      (extractStridedSlice S512x4 ![0, 0] (padTok tok) slices_S515x4_S512x4_0_0)
  | ⟨1, _⟩ => broadcastInDim S512x4x1 ![0, 1] bcast_S512x4_S512x4x1_0_1
      (extractStridedSlice S512x4 ![1, 0] (padTok tok) slices_S515x4_S512x4_1_0)
  | ⟨2, _⟩ => broadcastInDim S512x4x1 ![0, 1] bcast_S512x4_S512x4x1_0_1
      (extractStridedSlice S512x4 ![2, 0] (padTok tok) slices_S515x4_S512x4_2_0)

/-- The three slots stacked on a last axis, the positions flattened, and the slot axis moved in front. -/
def ctxArr (tok : S512x4.Idx → BitVec 32) : S3x2048.Idx → BitVec 32 :=
  transpose S3x2048 [1, 0]
    (shapeCast S2048x3
      (concatenate S512x4x3 2 (List.ofFn fun n : Fin 3 => (⟨S512x4x1, slotTok tok n⟩ : (s : Shape) × (s.Idx → BitVec 32)))
        concatenates_S512x4x1_S512x4x1_S512x4x1_S512x4x3_d2)
      shapeCasts_S512x4x3_S2048x3)
    transposes_S2048x3_S3x2048_1_0

/-- The padded sequence at a row: zero on the first three rows, the sequence three rows up after them. -/
theorem padTok_read (tok : S512x4.Idx → BitVec 32) (p : Fin 515) (b : Fin 4) :
    padTok tok (ix2 p b) = if h : 3 ≤ p.val then tok (ix2 (⟨p.val - 3, by have := p.isLt; omega⟩ : Fin 512) b) else 0#32 := by
  unfold padTok
  by_cases h : 3 ≤ p.val
  · rw [dif_pos h]
    exact concatenate_pair_apply_right (t := S515x4) (s₁ := S3x4) (s₂ := S512x4) (0 : Fin 2)
      (broadcastInDim S3x4 ![] bcast_S_S3x4 (constantI S_ 32 0#32)) tok concatenates_S3x4_S512x4_S515x4_d0 (ix2 p b) rfl rfl
      (ix2 (⟨p.val - 3, by have := p.isLt; omega⟩ : Fin 512) b)
      (fun d hd => match d, hd with
        | ⟨0, _⟩, hd => absurd (Fin.ext rfl) hd
        | ⟨1, _⟩, _ => rfl)
      (by show (p.val - 3) + 3 = p.val; omega)
  · rw [dif_neg h]
    exact (concatenate_pair_apply_left (t := S515x4) (s₁ := S3x4) (s₂ := S512x4) (0 : Fin 2)
      (broadcastInDim S3x4 ![] bcast_S_S3x4 (constantI S_ 32 0#32)) tok concatenates_S3x4_S512x4_S515x4_d0 (ix2 p b) rfl
      (ix2 (⟨p.val, by omega⟩ : Fin 3) b) (fun d => match d with
        | ⟨0, _⟩ => rfl
        | ⟨1, _⟩ => rfl)).trans rfl

/-- Slot `j` at position `(s, b)` is row `s + j` of the padded sequence. -/
theorem slotTok_read (tok : S512x4.Idx → BitVec 32) (j : Fin 3) (s : Fin 512) (b : Fin 4) :
    slotTok tok j (ix3 s b (0 : Fin 1)) = padTok tok (ix2 (⟨s.val + j.val, by have := s.isLt; have := j.isLt; omega⟩ : Fin 515) b) := by
  match j with
  | ⟨0, _⟩ =>
    refine (broadcastInDim_apply _ bcast_S512x4_S512x4x1_0_1
      (extractStridedSlice S512x4 ![0, 0] (padTok tok) slices_S515x4_S512x4_0_0) (ix3 s b (0 : Fin 1)) (ix2 s b) (fun a => match a with
      | ⟨0, _⟩ => by show s.val = if (512 : Nat) = 1 then 0 else s.val; rw [if_neg (by decide)]
      | ⟨1, _⟩ => by show b.val = if (4 : Nat) = 1 then 0 else b.val; rw [if_neg (by decide)])).trans ?_
    exact extractStridedSlice_apply ![0, 0] (padTok tok) slices_S515x4_S512x4_0_0 (ix2 s b) _ (fun a => match a with
      | ⟨0, _⟩ => by show s.val + 0 = 0 + s.val; omega
      | ⟨1, _⟩ => by show b.val = 0 + b.val; omega)
  | ⟨1, _⟩ =>
    refine (broadcastInDim_apply _ bcast_S512x4_S512x4x1_0_1
      (extractStridedSlice S512x4 ![1, 0] (padTok tok) slices_S515x4_S512x4_1_0) (ix3 s b (0 : Fin 1)) (ix2 s b) (fun a => match a with
      | ⟨0, _⟩ => by show s.val = if (512 : Nat) = 1 then 0 else s.val; rw [if_neg (by decide)]
      | ⟨1, _⟩ => by show b.val = if (4 : Nat) = 1 then 0 else b.val; rw [if_neg (by decide)])).trans ?_
    exact extractStridedSlice_apply ![1, 0] (padTok tok) slices_S515x4_S512x4_1_0 (ix2 s b) _ (fun a => match a with
      | ⟨0, _⟩ => by show s.val + 1 = 1 + s.val; omega
      | ⟨1, _⟩ => by show b.val = 0 + b.val; omega)
  | ⟨2, _⟩ =>
    refine (broadcastInDim_apply _ bcast_S512x4_S512x4x1_0_1
      (extractStridedSlice S512x4 ![2, 0] (padTok tok) slices_S515x4_S512x4_2_0) (ix3 s b (0 : Fin 1)) (ix2 s b) (fun a => match a with
      | ⟨0, _⟩ => by show s.val = if (512 : Nat) = 1 then 0 else s.val; rw [if_neg (by decide)]
      | ⟨1, _⟩ => by show b.val = if (4 : Nat) = 1 then 0 else b.val; rw [if_neg (by decide)])).trans ?_
    exact extractStridedSlice_apply ![2, 0] (padTok tok) slices_S515x4_S512x4_2_0 (ix2 s b) _ (fun a => match a with
      | ⟨0, _⟩ => by show s.val + 2 = 2 + s.val; omega
      | ⟨1, _⟩ => by show b.val = 0 + b.val; omega)

/-- The context array at slot `j`, flattened position `r`: slot `j` of position `(r / 4, r % 4)`. -/
theorem ctxArr_read (tok : S512x4.Idx → BitVec 32) (j : Fin 3) (r : Fin 2048) :
    ctxArr tok (ix2 j r) = Cert.Spec.ctxTok tok j (⟨r.val / 4, by have := r.isLt; omega⟩ : Fin 512) (⟨r.val % 4, Nat.mod_lt _ (by decide)⟩ : Fin 4) := by
  have hs : r.val / 4 < 512 := by have := r.isLt; omega
  have hb : r.val % 4 < 4 := Nat.mod_lt _ (by decide)
  unfold ctxArr
  refine (transpose_apply [1, 0] _ transposes_S2048x3_S3x2048_1_0 (ix2 j r) (ix2 r j) (fun d => match d with
    | ⟨0, _⟩ => rfl
    | ⟨1, _⟩ => rfl)).trans ?_
  refine (shapeCast_apply (s := S512x4x3) (t := S2048x3) _ shapeCasts_S512x4x3_S2048x3 (ix2 r j)
    (ix3 (⟨r.val / 4, hs⟩ : Fin 512) (⟨r.val % 4, hb⟩ : Fin 4) j) ?_).trans ?_
  · rw [Shape.rowMajor_val_three, Shape.rowMajor_val_two]
    show (r.val / 4 * 4 + r.val % 4) * 3 + j.val = r.val * 3 + j.val
    omega
  refine (concatenate_ofFn_unit_apply (t := S512x4x3) (s₁ := S512x4x1) (2 : Fin 3) (slotTok tok) concatenates_S512x4x1_S512x4x1_S512x4x1_S512x4x3_d2 rfl rfl
    (ix3 (⟨r.val / 4, hs⟩ : Fin 512) (⟨r.val % 4, hb⟩ : Fin 4) j) j rfl
    (ix3 (⟨r.val / 4, hs⟩ : Fin 512) (⟨r.val % 4, hb⟩ : Fin 4) (0 : Fin 1)) (fun d hd => match d, hd with
      | ⟨0, _⟩, _ => rfl
      | ⟨1, _⟩, _ => rfl
      | ⟨2, _⟩, hd => absurd (Fin.ext rfl) hd)).trans ?_
  rw [slotTok_read, padTok_read]
  unfold Cert.Spec.ctxTok
  rfl

/-- What the first stretch leaves in the transposed context array. -/
theorem ctx_eq (W : Valuation τ sig (Elt F)) :
    (StableHlo.after hostOps0 W (Proc.devRef .tc main_v10) : S3x2048.Idx → BitVec 32)
      = ctxArr (W (Proc.devRef .tc main_arg0) : S512x4.Idx → BitVec 32) := by
  simp only [hostOps0]; after_results; rfl

/-- The table the first kernel reads its row numbers from: under the range hypothesis, the context slots themselves. -/
theorem tbl_read (W : Valuation τ sig (Elt F)) (hr : Cert.Spec.InRange (W (Proc.devRef .tc main_arg0) : S512x4.Idx → BitVec 32))
    (j : Fin 3) (r : Fin 2048) :
    (StableHlo.after hostOps0_1 (StableHlo.after hostOps0 W) (Proc.devRef .tc main_v11) : S3x2048.Idx → BitVec 32) (ix2 j r)
      = Cert.Spec.ctxTok (W (Proc.devRef .tc main_arg0) : S512x4.Idx → BitVec 32) j
          (⟨r.val / 4, by have := r.isLt; omega⟩ : Fin 512) (⟨r.val % 4, Nat.mod_lt _ (by decide)⟩ : Fin 4) := by
  have e1 : (StableHlo.after hostOps0_1 (StableHlo.after hostOps0 W) (Proc.devRef .tc main_v11) : S3x2048.Idx → BitVec 32)
      = minsi (broadcastInDim S3x2048 ![] bcast_S_S3x2048 (constantI S_ 32 31999#32))
          (maxsi (broadcastInDim S3x2048 ![] bcast_S_S3x2048 (constantI S_ 32 0#32))
            (StableHlo.after hostOps0 W (Proc.devRef .tc main_v10) : S3x2048.Idx → BitVec 32)) := by
    have c0 : (StableHlo.after hostOps0 W (Proc.devRef .tc main_c_0) : S_.Idx → BitVec 32) = constantI S_ 32 0#32 := by
      simp only [hostOps0]; after_results
    have c1 : (StableHlo.after hostOps0 W (Proc.devRef .tc main_c_1) : S_.Idx → BitVec 32) = constantI S_ 32 31999#32 := by
      simp only [hostOps0]; after_results
    rw [← c0, ← c1]
    generalize StableHlo.after hostOps0 W = V
    simp only [hostOps0_1]; after_results; rfl
  rw [e1, ctx_eq]
  show IntOp.minsi 31999#32 (IntOp.maxsi 0#32 (ctxArr _ (ix2 j r))) = _
  rw [ctxArr_read]
  exact clamp_of_lt _ (Cert.Spec.ctxTok_lt hr _ _ _)

/-- Every entry of that table is a row number of the vocabulary axis. -/
theorem tbl_lt (W : Valuation τ sig (Elt F)) (hr : Cert.Spec.InRange (W (Proc.devRef .tc main_arg0) : S512x4.Idx → BitVec 32))
    (j : Fin 3) (r : Fin 2048) :
    ((StableHlo.after hostOps0_1 (StableHlo.after hostOps0 W) (Proc.devRef .tc main_v11) : S3x2048.Idx → BitVec 32) (ix2 j r)).toNat
      < 32000 := by
  rw [tbl_read W hr]; exact Cert.Spec.ctxTok_lt hr _ _ _

end Cert.Kernel.Hand

end
-- ==== Proof.K.TblOk.lean ====
/-
  The context table the first kernel reads holds row numbers.

  The table is the 3 × 2048 array of context token ids: the token sequence padded in front with three zero rows, read
  at the three offsets, flattened and transposed, then clamped into the vocabulary. The stretch of array operations
  between the clamp and the first kernel does not write it, so the kernel is entered with what the clamp left; and when
  every token id of the launch memory is below 32000 so is every context id (a token of the sequence, or the padding's
  zero), and the clamp leaves it as it is.
-/
import proofs.«403403_j35476429865350_3_alg».proof.Proof.K.Frame
import proofs.«403403_j35476429865350_3_alg».proof.Proof.K.HostReads

noncomputable section

namespace Cert.Kernel.Hand

open Cert.Kernel Cert.Kernel.Gen

open Idealize.ShloMosaic Idealize.ShloMosaic.TcCoe Idealize.ShloMosaic.ValueIdx

variable {F : FTy → Type} [FloatOps F]

/-- If every token id the program is launched with is in `[0, 32000)`, every entry of the context table the first
    kernel is entered with is a row number of the embedding tables. -/
theorem tblOk_of_inRange (m : (ℓ : Loc nD τ sig) → Buf (Elt F) ℓ) (ρ : Dev nD → PrngReg)
    (hr : ∀ c : Dev nD, Cert.Spec.InRange (m ((c : Thread nD τ).loc main_arg0))) : TblOk m ρ := by
  intro c j r
  have h3 : (V3 m ρ c main_v11 : S3x2048.Idx → BitVec 32)
      = (StableHlo.after hostOps0_1 (StableHlo.after hostOps0 (W0 m ρ c)) (Proc.devRef .tc main_v11) : S3x2048.Idx → BitVec 32) :=
    StableHlo.after_of_writes_sub hostOps0_2 _ hostOps0_2_writes (by decide)
  show ((V3 m ρ c main_v11 : S3x2048.Idx → BitVec 32) (ix2 j r)).toNat < 32000
  rw [h3]
  exact tbl_lt (W0 m ρ c) (hr c) j r

end Cert.Kernel.Hand

end
-- ==== Proof.KI.Common.lean ====
/-
  What the kernel program's frame and value modules share: the resource algebra, and the first kernel's own
  DMA semaphores.

  The first kernel gathers its rows by copies it issues itself, three per row, each kind of copy counted on a
  semaphore of its own. A proof about such copies keeps, beside the algebra the pipeline's staging cells are funded
  from, a copy of the exclusive counters the copies' invariants take their tokens from; so every statement about
  this program is made over the product of the two.
-/
import proofs.«403403_j35476429865350_3_alg».proof.Proof.Gen.KernelIdeal.Launch
import proofs.«403403_j35476429865350_3_alg».proof.Proof.Gen.KernelIdeal.Skeleton
import proofs.«403403_j35476429865350_3_alg».proof.Proof.Gen.KernelIdeal.Points
import proofs.«403403_j35476429865350_3_alg».proof.Proof.Gen.KernelIdeal.Loops
import Idealize.ShloMosaic.Lib.Tactic
import Idealize.ShloMosaic.Lib.Pipeline.Kit

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the staging cells' rounds beside the copies' counters. -/
abbrev UU (nD : Nat) (τ : Topo) : Type := UR sig nD τ × Counters

local notation "𝕄" => MT nD τ sig Unit (Elt F) ℕ (UU nD τ) ℕ

/-- The contents type of memref `M`'s buffer on core `c`, and that buffer held whole at `f`. -/
abbrev BufOf (c : Dev nD) {sp : Space} {S : Shape} {e : EltTy} (M : Memref sig .tc sp S e) : Type :=
  Buf (Elt F) (M.view.loc (c : Thread nD τ))
abbrev whole (c : Dev nD) {sp : Space} {S : Shape} {e : EltTy} (M : Memref sig .tc sp S e) (f : BufOf (F := F) c M) : sProp 𝕄 :=
  M.view.loc (c : Thread nD τ) ↦{fullShare} f

/-- The first kernel's own semaphores: one per table its rows are copied from. -/
abbrev osem : Fin 3 → SemLoc sig := fun | 0 => .dma 3 | 1 => .dma 4 | 2 => .dma 5

/-- Their counters at zero. -/
abbrev sems0 (c : Dev nD) : sProp 𝕄 :=
  iprop(semVal ((c : Thread nD τ), osem 0) 0 ∗ semVal ((c : Thread nD τ), osem 1) 0 ∗ semVal ((c : Thread nD τ), osem 2) 0)

end Cert.KernelIdeal.Hand

end
-- ==== Proof.KI.Body0Defs.lean ====
/-
  The first kernel's body at one grid point: what it computes.

  Grid point `p` handles the 64 positions `64 p … 64 p + 63`. For each of them it reads the three context token
  ids from the table, starts one copy per id — row `id` of the matching embedding table into row `r` of the matching
  scratch buffer, each kind of copy counted on its own semaphore — and only after all 192 copies have been started
  does it wait, 64 times on each semaphore. Every copy has been waited for before any scratch row is read, so when the
  three scratch buffers are loaded row `r` of scratch `j` is row `table (j, 64 p + r)` of table `j` (`gathered`);
  the output block is then the sum of the three scratch buffers and the bias block, passed through `x ↦ x · σ(x)`
  (`outBlock0`).
-/
import proofs.«403403_j35476429865350_3_alg».proof.Proof.KI.Common
import proofs.«403403_j35476429865350_3_alg».proof.Proof.Spec
import Idealize.ShloMosaic.Lib.Pipeline.FrameBody
import Idealize.ShloMosaic.Lib.ValueIdx

set_option maxRecDepth 16384

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the copies leave, and what the body stores -/

/-- Position `r` of grid point `p`, as a column of the table. -/
def posOf (p : Fin 32) (r : Fin 64) : Fin 2048 := ⟨64 * p.val + r.val, by have := p.isLt; have := r.isLt; omega⟩

/-- Scratch `j` once the copies of grid point `p` have landed: row `r` is the table's row selected by the id in
    slot `j` of position `64 p + r`. -/
def gathered (w : S32000x8x128.Idx → Elt F .f32) (tbl : S3x2048.Idx → BitVec 32) (j : Fin 3) (p : Fin 32) :
    Vec F S64x8x128 .f32 :=
  fun y => w (ix3 (Cert.Spec.rowOf (tbl (ix2 j (posOf p (y 0))))) (y 1) (y 2))

/-- The whole block of a scratch buffer or of the output's staging buffer, and of the bias's. -/
abbrev rAll : Rect S64x8x128 := Rect.unit (s := S64x8x128) ![0, 0, 0] S64x8x128.size inb_S64x8x128_S64x8x128_0_0_0
abbrev rBias : Rect S1x8x128 := Rect.unit (s := S1x8x128) ![0, 0, 0] S1x8x128.size inb_S1x8x128_S1x8x128_0_0_0

/-- The output's staging buffer after the body: its one store, of the activation of the three gathered buffers and the
    bias block. -/
def outBlock0 (x0 : Vec F S1x8x128 .f32) (g0 g1 g2 : Vec F S64x8x128 .f32) : Vec F S64x8x128 .bf16 :=
  View.canon [⟨rAll, k0_pay1 (View.ld g0 rAll) (View.ld g1 rAll) (View.ld g2 rAll) (View.ld x0 rBias)⟩]

/-- The store covers the buffer. -/
theorem cover0 (p0 : Vec F S64x8x128 .bf16) (y : S64x8x128.Idx) :
    ∃ pc ∈ ([⟨rAll, p0⟩] : List (View.Piece (Elt F) S64x8x128 .bf16)), y ∈ pc.1.set :=
  View.cover_of_tiled [⟨rAll, p0⟩] S64x8x128.size (by rfl) y

/-! ## What the body holds beside its staged windows -/

/-- What the body holds beside its two staged windows, before and after: the table and the three embedding tables as
    they are, the three scratch buffers at anything, its three semaphores at zero, nothing owed. -/
def bodyRest (c : Dev nD) (tbl : BufOf (F := F) c (Memref.whole main_v11)) (w0 : BufOf (F := F) c (Memref.whole main_v14))
    (w1 : BufOf (F := F) c (Memref.whole main_v17)) (w2 : BufOf (F := F) c (Memref.whole main_v20)) : sProp 𝕄 :=
  iprop(whole c (Memref.whole main_v11) tbl ∗ whole c (Memref.whole main_v14) w0 ∗ whole c (Memref.whole main_v17) w1
    ∗ whole c (Memref.whole main_v20) w2
    ∗ (∃ f, whole c (Memref.whole cc0_scratch0) f) ∗ (∃ f, whole c (Memref.whole cc0_scratch1) f)
    ∗ (∃ f, whole c (Memref.whole cc0_scratch2) f) ∗ sems0 c
    ∗ ∃ W, owes (c : Thread nD τ) (0 : CellTallies nD τ sig Unit) W)

end Cert.KernelIdeal.Hand

end
-- ==== Proof.KI.CopyDefs.lean ====
/-
  The first kernel's copies: 64 rows of each of three embedding tables, copied into the rows of three scratch buffers by
  copies the body starts itself, each kind counted on a semaphore of its own.

  Trip `k` of the first loop reads the three table words of position `64 p + k`, checks each is a row number, and
  starts three copies: row `word` of table `j` into row `k` of scratch `j`. The second loop waits 64 times on each
  semaphore. With several copies outstanding on one semaphore a wait tells nothing about any single copy; only the
  last wait on a semaphore says that every copy counted on it has landed. So the proof keeps, per semaphore, the 64
  copies as ONE batch whose deliveries — "row `k` of the scratch holds the source row, and the source row's read token
  is back" — are all handed over at that last wait; until then neither a destination row nor a source row is touched.
  A source row is whichever row the table word names, and two positions may name the same row: each copy therefore
  borrows its row under a read token of the whole table (`lendRows`), never the row outright.
-/
import proofs.«403403_j35476429865350_3_alg».proof.Proof.KI.Body0Defs
import Idealize.ShloMosaic.Lib.Batch
import Idealize.ShloMosaic.Lib.Ring

set_option maxRecDepth 16384

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Rows, as the body spells them -/

/-- Row `k` of scratch 0 / 1 / 2: the destination of trip `k`'s copies, as the body spells it. -/
def dRow0 (k : Fin k0_t1_loop.trips) : Memref sig .tc .vmem S8x128 .f32 :=
  ((Memref.whole cc0_scratch0 : Memref sig .tc .vmem S64x8x128 .f32).slice (Rect.unit (s := S64x8x128) (k0_off4 k) S1x8x128.size (k0_off4_inb k)) (fun _ => rfl)).squeeze S8x128 squeezes_S1x8x128_S8x128
def dRow1 (k : Fin k0_t1_loop.trips) : Memref sig .tc .vmem S8x128 .f32 :=
  ((Memref.whole cc0_scratch1 : Memref sig .tc .vmem S64x8x128 .f32).slice (Rect.unit (s := S64x8x128) (k0_off6 k) S1x8x128.size (k0_off6_inb k)) (fun _ => rfl)).squeeze S8x128 squeezes_S1x8x128_S8x128
def dRow2 (k : Fin k0_t1_loop.trips) : Memref sig .tc .vmem S8x128 .f32 :=
  ((Memref.whole cc0_scratch2 : Memref sig .tc .vmem S64x8x128 .f32).slice (Rect.unit (s := S64x8x128) (k0_off8 k) S1x8x128.size (k0_off8_inb k)) (fun _ => rfl)).squeeze S8x128 squeezes_S1x8x128_S8x128
/-- Row `v` of table 0 / 1 / 2 in HBM: a copy's source, as the body spells it. -/
def sRow0 (v : BitVec 32) (h : k0_chk1 v) : Memref sig .tc .hbm S8x128 .f32 :=
  ((Memref.whole main_v14 : Memref sig .tc .hbm S32000x8x128 .f32).slice (Rect.unit (s := S32000x8x128) (k0_off5 v) S1x8x128.size (k0_off5_inb v h)) (fun _ => rfl)).squeeze S8x128 squeezes_S1x8x128_S8x128
def sRow1 (v : BitVec 32) (h : k0_chk2 v) : Memref sig .tc .hbm S8x128 .f32 :=
  ((Memref.whole main_v17 : Memref sig .tc .hbm S32000x8x128 .f32).slice (Rect.unit (s := S32000x8x128) (k0_off7 v) S1x8x128.size (k0_off7_inb v h)) (fun _ => rfl)).squeeze S8x128 squeezes_S1x8x128_S8x128
def sRow2 (v : BitVec 32) (h : k0_chk3 v) : Memref sig .tc .hbm S8x128 .f32 :=
  ((Memref.whole main_v20 : Memref sig .tc .hbm S32000x8x128 .f32).slice (Rect.unit (s := S32000x8x128) (k0_off9 v) S1x8x128.size (k0_off9_inb v h)) (fun _ => rfl)).squeeze S8x128 squeezes_S1x8x128_S8x128

/-- A memref's own elements held at share q. -/
abbrev heldOwn (c : Dev nD) {sp : Space} {S : Shape} {e : EltTy} (M : Memref sig .tc sp S e) (q : PosShare TreeShare) (f : BufOf (F := F) c M) : sProp 𝕄 :=
  M.view.loc (c : Thread nD τ) ↦[M.view.set]{q} f

/-- A word below the table's height passes the body's check on it: the row it names is a row. -/
theorem chk1_of_lt (v : BitVec 32) (h : v.toNat < 32000) : k0_chk1 v := by
  intro a; fin_cases a
  · show v.toNat + 1 ≤ 32000; omega
  · show 0 + 8 ≤ 8; omega
  · show 0 + 128 ≤ 128; omega
theorem chk2_of_lt (v : BitVec 32) (h : v.toNat < 32000) : k0_chk2 v := by
  intro a; fin_cases a
  · show v.toNat + 1 ≤ 32000; omega
  · show 0 + 8 ≤ 8; omega
  · show 0 + 128 ≤ 128; omega
theorem chk3_of_lt (v : BitVec 32) (h : v.toNat < 32000) : k0_chk3 v := by
  intro a; fin_cases a
  · show v.toNat + 1 ≤ 32000; omega
  · show 0 + 8 ≤ 8; omega
  · show 0 + 128 ≤ 128; omega

/-- The table word trip k reads for slot 0 / 1 / 2, as a read of the table's contents. -/
def tw0 (c : Dev nD) (i : grid0.Coords) (k : Fin k0_t1_loop.trips) (tbl : BufOf (F := F) c (Memref.whole main_v11)) : BitVec 32 :=
  View.readAt (Elt F) (Memref.whole main_v11).view (Rect.unit (s := S3x2048) (k0_off1 i k) S1x1.size (k0_off1_inb i k)).toLoadRect tbl (Shape.Idx.first (show (0:ℕ) < 1 from Nat.zero_lt_one))
def tw1 (c : Dev nD) (i : grid0.Coords) (k : Fin k0_t1_loop.trips) (tbl : BufOf (F := F) c (Memref.whole main_v11)) : BitVec 32 :=
  View.readAt (Elt F) (Memref.whole main_v11).view (Rect.unit (s := S3x2048) (k0_off2 i k) S1x1.size (k0_off2_inb i k)).toLoadRect tbl (Shape.Idx.first (show (0:ℕ) < 1 from Nat.zero_lt_one))
def tw2 (c : Dev nD) (i : grid0.Coords) (k : Fin k0_t1_loop.trips) (tbl : BufOf (F := F) c (Memref.whole main_v11)) : BitVec 32 :=
  View.readAt (Elt F) (Memref.whole main_v11).view (Rect.unit (s := S3x2048) (k0_off3 i k) S1x1.size (k0_off3_inb i k)).toLoadRect tbl (Shape.Idx.first (show (0:ℕ) < 1 from Nat.zero_lt_one))

/-! ## Trip counts and offsets in closed form -/

theorem trips1 : k0_t1_loop.trips = 64 := by decide
theorem trips2 : k0_t2_loop.trips = 64 := by decide
theorem lt64 (k : Fin k0_t1_loop.trips) : k.val < 64 := lt_of_lt_of_eq k.isLt trips1

/-- The loop's counter at trip `k`, as the body computes the row number from it: `k` itself. -/
theorem rowWord_toNat (k : ℕ) (hk : k < 64) : (Scalar.addi (0#32) (Scalar.muli (Scf.iv (0#32) (1#32) k) (1#32))).toNat = k := by
  simp only [Scf.iv, Scalar.muli, Scalar.addi, IntOp.muli, IntOp.addi, BitVec.mul_one, BitVec.zero_add, BitVec.toNat_ofNat]
  omega

theorem off4_eq (k : Fin k0_t1_loop.trips) : k0_off4 k = ![k.val, 0, 0] := by
  unfold k0_off4; simp only [rowWord_toNat k.val (lt64 k)]
theorem off6_eq (k : Fin k0_t1_loop.trips) : k0_off6 k = ![k.val, 0, 0] := by
  unfold k0_off6; simp only [rowWord_toNat k.val (lt64 k)]
theorem off8_eq (k : Fin k0_t1_loop.trips) : k0_off8 k = ![k.val, 0, 0] := by
  unfold k0_off8; simp only [rowWord_toNat k.val (lt64 k)]

/-- The position trip `k` of grid point `p` handles, as the body computes it: `64 p + k`. -/
theorem posWord_toNat (p k : ℕ) (hp : p < 32) (hk : k < 64) :
    (Scalar.indexCast (Scalar.addi (Scalar.muli (BitVec.ofNat 32 p) (64#32)) (Scalar.addi (0#32) (Scalar.muli (Scf.iv (0#32) (1#32) k) (1#32))))).toNat = 64 * p + k := by
  simp only [Scf.iv, Scalar.muli, Scalar.addi, Scalar.indexCast, IntOp.muli, IntOp.addi, BitVec.mul_one, BitVec.zero_add, BitVec.toNat_ofNat, BitVec.toNat_add, BitVec.toNat_mul]
  omega

theorem off1_eq (i : grid0.Coords) (k : Fin k0_t1_loop.trips) : k0_off1 i k = ![0, 64 * (i 0).val + k.val] := by
  have hi : (i 0).val < 32 := (i 0).isLt
  unfold k0_off1; simp only [posWord_toNat (i 0).val k.val hi (lt64 k)]
theorem off2_eq (i : grid0.Coords) (k : Fin k0_t1_loop.trips) : k0_off2 i k = ![1, 64 * (i 0).val + k.val] := by
  have hi : (i 0).val < 32 := (i 0).isLt
  unfold k0_off2; simp only [posWord_toNat (i 0).val k.val hi (lt64 k)]
theorem off3_eq (i : grid0.Coords) (k : Fin k0_t1_loop.trips) : k0_off3 i k = ![2, 64 * (i 0).val + k.val] := by
  have hi : (i 0).val < 32 := (i 0).isLt
  unfold k0_off3; simp only [posWord_toNat (i 0).val k.val hi (lt64 k)]

/-! ## The rows of a scratch buffer: pairwise disjoint, and together the buffer -/

theorem rowInb (b : ℕ) (hb : b < 64) : ∀ a, (![b, 0, 0] : Fin 3 → Nat) a + S1x8x128.size a ≤ S64x8x128.size a := by
  intro a; fin_cases a
  · show b + 1 ≤ 64; omega
  · show 0 + 8 ≤ 8; omega
  · show 0 + 128 ≤ 128; omega

/-- The elements of row `b` of a [64, 8, 128] buffer. -/
abbrev rowSet (b : ℕ) (hb : b < 64) : Finset S64x8x128.Idx := (Rect.unit (s := S64x8x128) ![b, 0, 0] S1x8x128.size (rowInb b hb)).set

theorem mem_rowSet (b : ℕ) (hb : b < 64) (y : S64x8x128.Idx) : y ∈ rowSet b hb ↔ (y 0).val = b := by
  rw [Rect.mem_set_unit]
  have h1 : (y 1).val < 8 := (y 1).isLt
  have h2 : (y 2).val < 128 := (y 2).isLt
  constructor
  · intro H; have a0 : b ≤ (y 0).val ∧ (y 0).val < b + 1 := H 0; omega
  · intro H a; fin_cases a
    · show b ≤ (y 0).val ∧ (y 0).val < b + 1; omega
    · show 0 ≤ (y 1).val ∧ (y 1).val < 0 + 8; omega
    · show 0 ≤ (y 2).val ∧ (y 2).val < 0 + 128; omega

/-- A rectangle's element set depends on its offsets only. -/
theorem unit_set_congr {s : Shape} {off off' : Fin s.rank → Nat} (size : Fin s.rank → Nat) (h : off = off')
    (p : ∀ a, off a + size a ≤ s.size a) (p' : ∀ a, off' a + size a ≤ s.size a) :
    (Rect.unit (s := s) off size p).set = (Rect.unit (s := s) off' size p').set := by
  subst h; rfl

/-- The rows as trip numbers index them. -/
abbrev rowSetT (t : Fin k0_t1_loop.trips) : Finset S64x8x128.Idx := rowSet t.val (lt64 t)

theorem rowSetT_disjoint : ∀ t t' : Fin k0_t1_loop.trips, t ≠ t' → Disjoint (rowSetT t) (rowSetT t') := fun t t' hne => by
  rw [Finset.disjoint_left]; intro y hy hy'; rw [mem_rowSet] at hy hy'; exact hne (Fin.ext (by omega))
theorem rowSetT_cover : Finset.univ.biUnion rowSetT = Finset.univ := by
  ext y; simp only [Finset.mem_biUnion, Finset.mem_univ, true_and, iff_true]
  have hy : (y 0).val < 64 := (y 0).isLt
  exact ⟨⟨(y 0).val, by rw [trips1]; exact hy⟩, (mem_rowSet _ _ _).mpr rfl⟩

theorem dRow0_set (t : Fin k0_t1_loop.trips) : (dRow0 t).view.set = rowSetT t := by
  unfold dRow0; exact ((View.set_reshape _ _).trans (View.set_slice_whole _ _)).trans (unit_set_congr _ (off4_eq t) _ _)
theorem dRow1_set (t : Fin k0_t1_loop.trips) : (dRow1 t).view.set = rowSetT t := by
  unfold dRow1; exact ((View.set_reshape _ _).trans (View.set_slice_whole _ _)).trans (unit_set_congr _ (off6_eq t) _ _)
theorem dRow2_set (t : Fin k0_t1_loop.trips) : (dRow2 t).view.set = rowSetT t := by
  unfold dRow2; exact ((View.set_reshape _ _).trans (View.set_slice_whole _ _)).trans (unit_set_congr _ (off8_eq t) _ _)

/-! ## Lending rows of a buffer held whole -/

section Lend

variable {ℓ : Loc nD τ sig}

/-- A buffer held whole is what is left after `n` read tokens, and per token a chosen set of elements and the rest of
    the buffer: what lets `n` copies each borrow the row it reads, whichever rows those are. -/
theorem lendRows (f : Buf (Elt F) ℓ) (n : ℕ) (R : Fin n → Finset (Idx ℓ)) :
    (ℓ ↦{fullShare} f : sProp 𝕄)
      = iprop((ℓ ↦[Finset.univ]{Transfers.shareDrop fullShare n} f)
          ∗ (bigSep Finset.univ fun t : Fin n => ℓ ↦[R t]{Transfers.shareTok fullShare n t} f)
          ∗ bigSep Finset.univ fun t : Fin n => ℓ ↦[Finset.univ \ R t]{Transfers.shareTok fullShare n t} f) := by
  have h1 := Transfers.pointsTo_toks (ℓ := ℓ) (S := Finset.univ) (f := f) (Ix := Unit) (Name := ℕ) (U := UU nD τ) (Lvl := ℕ) fullShare n
  rw [BI.equiv_iff.mp ⟨h1.1, h1.2⟩]
  refine congrArg (fun X : sProp 𝕄 => iprop((ℓ ↦[Finset.univ]{Transfers.shareDrop fullShare n} f) ∗ X)) ?_
  refine (BI.bigSep_congr fun t _ => ?_).trans (BI.bigSep_sep _ _ _)
  have h2 := pointsTo_split_subset (ℓ := ℓ) (f := f) (q := Transfers.shareTok fullShare n t) (Ix := Unit) (Name := ℕ) (U := UU nD τ) (Lvl := ℕ) (Finset.subset_univ (R t))
  exact BI.equiv_iff.mp ⟨h2.1, h2.2⟩

end Lend

/-! ## The copies: what each delivers -/

section Body

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- The source of trip `t`'s copy from table 0 / 1 / 2: the row its table word names. -/
abbrev src0 (t : Fin k0_t1_loop.trips) : Memref sig .tc .hbm S8x128 .f32 := sRow0 (tw0 c i t tbl) (chk1_of_lt _ (htbl _))
abbrev src1 (t : Fin k0_t1_loop.trips) : Memref sig .tc .hbm S8x128 .f32 := sRow1 (tw1 c i t tbl) (chk2_of_lt _ (htbl _))
abbrev src2 (t : Fin k0_t1_loop.trips) : Memref sig .tc .hbm S8x128 .f32 := sRow2 (tw2 c i t tbl) (chk3_of_lt _ (htbl _))

/-- Row `t` of a scratch buffer once its copy has landed: the source row written over what the buffer held. -/
abbrev landed0 (t : Fin k0_t1_loop.trips) : BufOf (F := F) c (dRow0 t) :=
  (dRow0 t).view.writes (Elt F) f0 [⟨Rect.whole S8x128, ReadAs.same.apply ((src0 c i tbl htbl t).view.read (Elt F) w0)⟩]
abbrev landed1 (t : Fin k0_t1_loop.trips) : BufOf (F := F) c (dRow1 t) :=
  (dRow1 t).view.writes (Elt F) f1 [⟨Rect.whole S8x128, ReadAs.same.apply ((src1 c i tbl htbl t).view.read (Elt F) w1)⟩]
abbrev landed2 (t : Fin k0_t1_loop.trips) : BufOf (F := F) c (dRow2 t) :=
  (dRow2 t).view.writes (Elt F) f2 [⟨Rect.whole S8x128, ReadAs.same.apply ((src2 c i tbl htbl t).view.read (Elt F) w2)⟩]

/-- What copy `t` hands back when it has landed: the destination row at the source row's values, and the source row's
    read token. -/
abbrev deliv0 (t : Fin k0_t1_loop.trips) : sProp 𝕄 :=
  iprop(heldOwn c (dRow0 t) fullShare (landed0 c i tbl htbl w0 f0 t) ∗ heldOwn c (src0 c i tbl htbl t) (Transfers.shareTokN fullShare t.val) w0)
abbrev deliv1 (t : Fin k0_t1_loop.trips) : sProp 𝕄 :=
  iprop(heldOwn c (dRow1 t) fullShare (landed1 c i tbl htbl w1 f1 t) ∗ heldOwn c (src1 c i tbl htbl t) (Transfers.shareTokN fullShare t.val) w1)
abbrev deliv2 (t : Fin k0_t1_loop.trips) : sProp 𝕄 :=
  iprop(heldOwn c (dRow2 t) fullShare (landed2 c i tbl htbl w2 f2 t) ∗ heldOwn c (src2 c i tbl htbl t) (Transfers.shareTokN fullShare t.val) w2)

/-- One row's copy credits 128 units. -/
abbrev NN : ℕ := 128

/-- The 64 copies from table 0 / 1 / 2, `k` of them started and `u` units waited for. -/
abbrev batch0 (k u : ℕ) : sProp 𝕄 :=
  Transfers.Batch (countersEmb (U := UU nD τ)) (c : Thread nD τ) (.dma cc0_scratch3.sem) () NN (deliv0 c i tbl htbl w0 f0) k u
abbrev batch1 (k u : ℕ) : sProp 𝕄 :=
  Transfers.Batch (countersEmb (U := UU nD τ)) (c : Thread nD τ) (.dma cc0_scratch4.sem) () NN (deliv1 c i tbl htbl w1 f1) k u
abbrev batch2 (k u : ℕ) : sProp 𝕄 :=
  Transfers.Batch (countersEmb (U := UU nD τ)) (c : Thread nD τ) (.dma cc0_scratch5.sem) () NN (deliv2 c i tbl htbl w2 f2) k u

/-- The destination rows and source tokens of the trips from `k` on, still in hand. -/
abbrev dsts0 (k : ℕ) : sProp 𝕄 := bigSep (Ring.rangeSet k0_t1_loop.trips k k0_t1_loop.trips) fun t => heldOwn c (dRow0 t) fullShare f0
abbrev dsts1 (k : ℕ) : sProp 𝕄 := bigSep (Ring.rangeSet k0_t1_loop.trips k k0_t1_loop.trips) fun t => heldOwn c (dRow1 t) fullShare f1
abbrev dsts2 (k : ℕ) : sProp 𝕄 := bigSep (Ring.rangeSet k0_t1_loop.trips k k0_t1_loop.trips) fun t => heldOwn c (dRow2 t) fullShare f2
abbrev srcs0 (k : ℕ) : sProp 𝕄 := bigSep (Ring.rangeSet k0_t1_loop.trips k k0_t1_loop.trips) fun t => heldOwn c (src0 c i tbl htbl t) (Transfers.shareTokN fullShare t.val) w0
abbrev srcs1 (k : ℕ) : sProp 𝕄 := bigSep (Ring.rangeSet k0_t1_loop.trips k k0_t1_loop.trips) fun t => heldOwn c (src1 c i tbl htbl t) (Transfers.shareTokN fullShare t.val) w1
abbrev srcs2 (k : ℕ) : sProp 𝕄 := bigSep (Ring.rangeSet k0_t1_loop.trips k k0_t1_loop.trips) fun t => heldOwn c (src2 c i tbl htbl t) (Transfers.shareTokN fullShare t.val) w2

end Body

end Cert.KernelIdeal.Hand

end
-- ==== Proof.KI.CopyLoops.lean ====
/-
  The first kernel's two loops, one trip each: the loop that starts the copies (three per trip, each taken off the
  head of its kind's rows and tokens) and the loop that waits for them (three waits per trip; in the last trip each
  wait is the last on its semaphore and hands back that kind's 64 deliveries).
-/
import proofs.«403403_j35476429865350_3_alg».proof.Proof.KI.CopyDefs

set_option maxRecDepth 16384

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-! ## The loop that starts the copies -/

/-- Before trip `k`: the table as it is; `k` copies of each kind started, none waited for; the rows and tokens of the
    trips still to come. -/
def issueAt (k : ℕ) (_ : Unit) : sProp 𝕄 :=
  iprop(whole c (Memref.whole main_v11) tbl
    ∗ batch0 c i tbl htbl w0 f0 k 0 ∗ batch1 c i tbl htbl w1 f1 k 0 ∗ batch2 c i tbl htbl w2 f2 k 0
    ∗ dsts0 c f0 k ∗ srcs0 c i tbl htbl w0 k ∗ dsts1 c f1 k ∗ srcs1 c i tbl htbl w1 k ∗ dsts2 c f2 k ∗ srcs2 c i tbl htbl w2 k)

set_option maxHeartbeats 4000000 in
/-- One trip: the three table words are read and found to be row numbers, and each kind's copy `k` is started from the
    row and the token at the head of its range. -/
theorem issue_step (arg5 : Memref sig .tc .vmem S1x8x128 .f32) (harg5 : arg5.IsWhole)
    (arg6 : Memref sig .tc .vmem S64x8x128 .bf16) (harg6 : arg6.IsWhole) (k : Fin k0_t1_loop.trips) (acc : Unit) :
    issueAt c i tbl htbl w0 w1 w2 f0 f1 f2 k acc
      ⊢ wp frame (wpE (defs₀ (F := F)) Variants.none c none) Set.univ
          (k0_t1_body i (Memref.whole main_v11) (Memref.isWhole_whole _) (Memref.whole main_v14) (Memref.isWhole_whole _)
            (Memref.whole main_v17) (Memref.isWhole_whole _) (Memref.whole main_v20) (Memref.isWhole_whole _) arg5 harg5 arg6 harg6
            (Memref.whole cc0_scratch0) (Memref.isWhole_whole _) (Memref.whole cc0_scratch1) (Memref.isWhole_whole _)
            (Memref.whole cc0_scratch2) (Memref.isWhole_whole _) cc0_scratch3 cc0_scratch4 cc0_scratch5 k acc)
          (issueAt c i tbl htbl w0 w1 w2 f0 f1 f2 (k.val + 1)) := by
  have hk := k.isLt
  unfold issueAt dsts0 dsts1 dsts2 srcs0 srcs1 srcs2
  rw [Ring.bigSep_rangeSet_head (Φ := fun t => heldOwn c (dRow0 t) fullShare f0) hk hk,
    Ring.bigSep_rangeSet_head (Φ := fun t => heldOwn c (dRow1 t) fullShare f1) hk hk,
    Ring.bigSep_rangeSet_head (Φ := fun t => heldOwn c (dRow2 t) fullShare f2) hk hk,
    Ring.bigSep_rangeSet_head (Φ := fun t => heldOwn c (src0 c i tbl htbl t) (Transfers.shareTokN fullShare t.val) w0) hk hk,
    Ring.bigSep_rangeSet_head (Φ := fun t => heldOwn c (src1 c i tbl htbl t) (Transfers.shareTokN fullShare t.val) w1) hk hk,
    Ring.bigSep_rangeSet_head (Φ := fun t => heldOwn c (src2 c i tbl htbl t) (Transfers.shareTokN fullShare t.val) w2) hk hk]
  iintro ⟨HT, HB0, HB1, HB2, ⟨HD0, HD0s⟩, ⟨HS0, HS0s⟩, ⟨HD1, HD1s⟩, ⟨HS1, HS1s⟩, ⟨HD2, HD2s⟩, ⟨HS2, HS2s⟩⟩
  sl_unfold [k0_t1_body]
  sl_exec (disch := first | exact chk1_of_lt _ (htbl _) | exact chk2_of_lt _ (htbl _) | exact chk3_of_lt _ (htbl _) | omega)
  sl_step
  isplitl [HT]; · iexact HT
  isplitl [HB0]; · iexact HB0
  isplitl [HB1]; · iexact HB1
  isplitl [HB2]; · iexact HB2
  isplitl [HD0s]; · iexact HD0s
  isplitl [HS0s]; · iexact HS0s
  isplitl [HD1s]; · iexact HD1s
  isplitl [HS1s]; · iexact HS1s
  isplitl [HD2s]; · iexact HD2s
  iexact HS2s

end Body

/-! ## The loop that waits -/

section Drain

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- A semaphore's counter at zero. -/
abbrev cellAt0 (sm : DmaSem sig) : sProp 𝕄 := semVal ((c : Thread nD τ), SemLoc.dma sm) 0

/-- Before trip `k` of the waiting loop: every copy started; the waits so far recorded; and either (a trip is still to
    come) `k` rows' worth of units waited for on each semaphore, or (all 64 trips done) each semaphore's counter back at
    zero with EVERY copy's delivery in hand — a wait says nothing about any one copy until the last wait on its
    semaphore, which says all of that kind have landed. -/
def drainAt (k : ℕ) (_ : Unit) : sProp 𝕄 :=
  iprop(⌜k ≤ k0_t2_loop.trips⌝ ∗ (∃ W, owes (c : Thread nD τ) (0 : CellTallies nD τ sig Unit) W)
    ∗ (if k < k0_t2_loop.trips then
         iprop(batch0 c i tbl htbl w0 f0 k0_t1_loop.trips (k * NN) ∗ batch1 c i tbl htbl w1 f1 k0_t1_loop.trips (k * NN)
           ∗ batch2 c i tbl htbl w2 f2 k0_t1_loop.trips (k * NN))
       else
         iprop((cellAt0 c cc0_scratch3.sem ∗ bigSep Finset.univ (deliv0 c i tbl htbl w0 f0))
           ∗ (cellAt0 c cc0_scratch4.sem ∗ bigSep Finset.univ (deliv1 c i tbl htbl w1 f1))
           ∗ (cellAt0 c cc0_scratch5.sem ∗ bigSep Finset.univ (deliv2 c i tbl htbl w2 f2)))))

set_option maxHeartbeats 4000000 in
/-- One trip: a wait on each semaphore. Before the last trip the three waits hand back nothing; in the last trip each is
    the last wait on its semaphore and hands back that kind's 64 deliveries. -/
theorem drain_step (arg5 : Memref sig .tc .vmem S1x8x128 .f32) (harg5 : arg5.IsWhole)
    (arg6 : Memref sig .tc .vmem S64x8x128 .bf16) (harg6 : arg6.IsWhole) (k : Fin k0_t2_loop.trips) (acc : Unit) :
    drainAt c i tbl htbl w0 w1 w2 f0 f1 f2 k acc
      ⊢ wp frame (wpE (defs₀ (F := F)) Variants.none c none) Set.univ
          (k0_t2_body i (Memref.whole main_v11) (Memref.isWhole_whole _) (Memref.whole main_v14) (Memref.isWhole_whole _)
            (Memref.whole main_v17) (Memref.isWhole_whole _) (Memref.whole main_v20) (Memref.isWhole_whole _) arg5 harg5 arg6 harg6
            (Memref.whole cc0_scratch0) (Memref.isWhole_whole _) (Memref.whole cc0_scratch1) (Memref.isWhole_whole _)
            (Memref.whole cc0_scratch2) (Memref.isWhole_whole _) cc0_scratch3 cc0_scratch4 cc0_scratch5 k acc)
          (drainAt c i tbl htbl w0 w1 w2 f0 f1 f2 (k.val + 1)) := by
  have hk : k.val < k0_t2_loop.trips := k.isLt
  have h1 := trips1
  have h2 := trips2
  unfold drainAt
  simp only [if_pos hk]
  rcases Nat.lt_or_ge (k.val + 1) k0_t2_loop.trips with hlt | hge
  · simp only [if_pos hlt]
    iintro ⟨-, ⟨%W, HO⟩, HB0, HB1, HB2⟩
    sl_unfold [k0_t2_body]
    sl_exec
    sl_step
    isplitr; · ipureintro; omega
    isplitl [HO]; · iexists _; iexact HO
    rw [show (k.val + 1) * NN = k.val * NN + NN by simp only [NN]; omega]
    isplitl [HB0]; · iexact HB0
    isplitl [HB1]; · iexact HB1
    iexact HB2
  · simp only [if_neg (Nat.not_lt.mpr hge)]
    iintro ⟨-, ⟨%W, HO⟩, HB0, HB1, HB2⟩
    sl_unfold [k0_t2_body]
    sl_exec
    sl_step
    isplitr; · ipureintro; omega
    isplitl [HO]; · iexists _; iexact HO
    isplitl [HB0 HB0_all]
    · isplitl [HB0]; · iexact HB0
      iexact HB0_all
    isplitl [HB1 HB1_all]
    · isplitl [HB1]; · iexact HB1
      iexact HB1_all
    isplitl [HB2]; · iexact HB2
    iexact HB2_all

end Drain

end Cert.KernelIdeal.Hand

end
-- ==== Proof.KI.Landed.lean ====
/-
  What the first kernel's copies deliver, as a function of the tables.

  Trip `t` of grid point `p` reads, for each slot `j`, the table word at row `j`, position `64 p + t` (the body's
  offset arithmetic in closed form), and copies the row of embedding table `j` that word names into row `t` of
  scratch `j`. The copy's one write covers row `t`: the element at `(t, a, b)` of the scratch then holds the element
  at `(word, a, b)` of the table, and a word below 32000 is its own row number. So, every row holding what its copy
  delivered, scratch `j` read whole is `gathered`: row `r` is the table row the id in slot `j` of position
  `64 p + r` selects. Pure facts about indices and contents; nothing depends on the number family.
-/
import proofs.«403403_j35476429865350_3_alg».proof.Proof.KI.CopyDefs
import Idealize.ShloMosaic.Lib.ValueLayout
import Idealize.ShloMosaic.Lib.ValueIdx

set_option maxRecDepth 16384

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The table word trip `t` reads for slot 0 is the table's entry at row 0, position `64 p + t`. -/
theorem tw0_eq (c : Dev nD) (i : grid0.Coords) (t : Fin k0_t1_loop.trips) (tbl : BufOf (F := F) c (Memref.whole main_v11)) :
    tw0 c i t tbl = (tbl : S3x2048.Idx → BitVec 32) (ix2 (0 : Fin 3) (posOf (i 0) ⟨t.val, lt64 t⟩)) := by
  have hidx : (Rect.unit (s := S3x2048) (k0_off1 i t) S1x1.size (k0_off1_inb i t)).toLoadRect.idx (Shape.Idx.first (show (0:ℕ) < 1 from Nat.zero_lt_one))
      = ix2 (0 : Fin 3) (posOf (i 0) ⟨t.val, lt64 t⟩) := by
    have e0 := off1_eq i t
    funext a; apply Fin.ext
    show k0_off1 i t a + 1 * 0 = _
    rw [e0]
    match a with
    | ⟨0, _⟩ => rfl
    | ⟨1, _⟩ => show 64 * (i 0).val + t.val + 1 * 0 = 64 * (i 0).val + t.val; omega
  exact congrArg (tbl : S3x2048.Idx → BitVec 32) hidx

/-- Row `t` of scratch 0 once its copy has landed holds, at each of its elements, the entry `gathered` names: the
    copy's one write covers the row, and what it wrote there is the source row's entry in the same place — the source
    row being the table row the id in slot 0 of position `64 p + t` selects. -/
theorem landed0_apply [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w0 : BufOf (F := F) c (Memref.whole main_v14)) (f0 : BufOf (F := F) c (Memref.whole cc0_scratch0))
    (t : Fin k0_t1_loop.trips) (y : S64x8x128.Idx) (hy : (y 0).val = t.val) :
    (landed0 c i tbl htbl w0 f0 t : S64x8x128.Idx → Elt F .f32) y
      = gathered (w0 : S32000x8x128.Idx → Elt F .f32) (tbl : S3x2048.Idx → BitVec 32) 0 (i 0) y := by
  obtain ⟨a0, a1, a2, rfl⟩ : ∃ (a0 : Fin 64) (a1 : Fin 8) (a2 : Fin 128), y = ix3 a0 a1 a2 := ⟨y 0, y 1, y 2, eq_ix3 y⟩
  change a0.val = t.val at hy
  -- the element at (a1, a2) of the row sits at (t, a1, a2) of the scratch buffer
  have hdst : ((dRow0 t).view.slice (Rect.whole S8x128)).emb (ix2 a1 a2) = ix3 a0 a1 a2 := by
    funext a; apply Fin.ext
    show k0_off4 t a + 1 * ((Shape.reshapeEquiv squeezes_S1x8x128_S8x128.numel_eq ((Rect.whole S8x128).emb (ix2 a1 a2))) a).val = (ix3 a0 a1 a2 a).val
    rw [Rect.emb_whole_apply, reshapeEquiv_ix2_1ab, off4_eq]
    match a with
    | ⟨0, _⟩ => show t.val + 1 * 0 = a0.val; omega
    | ⟨1, _⟩ => show 0 + 1 * a1.val = a1.val; omega
    | ⟨2, _⟩ => show 0 + 1 * a2.val = a2.val; omega
  -- the element at (a1, a2) of the source row sits at (row, a1, a2) of the table, the row the id selects
  have hpos : posOf (i 0) ⟨t.val, lt64 t⟩ = posOf (i 0) a0 := by
    have : (⟨t.val, lt64 t⟩ : Fin 64) = a0 := Fin.ext hy.symm
    rw [this]
  have hrow : (tw0 c i t tbl).toNat = (Cert.Spec.rowOf ((tbl : S3x2048.Idx → BitVec 32) (ix2 (0 : Fin 3) (posOf (i 0) a0)))).val := by
    rw [tw0_eq, hpos, Cert.Spec.rowOf_val_of_lt (htbl _)]
  have hsrc : (src0 c i tbl htbl t).view.emb (ix2 a1 a2)
      = ix3 (Cert.Spec.rowOf ((tbl : S3x2048.Idx → BitVec 32) (ix2 (0 : Fin 3) (posOf (i 0) a0)))) a1 a2 := by
    funext a; apply Fin.ext
    show k0_off5 (tw0 c i t tbl) a + 1 * ((Shape.reshapeEquiv squeezes_S1x8x128_S8x128.numel_eq (ix2 a1 a2)) a).val = _
    rw [reshapeEquiv_ix2_1ab]
    match a with
    | ⟨0, _⟩ => show (tw0 c i t tbl).toNat + 1 * 0 = _; rw [hrow]; rfl
    | ⟨1, _⟩ => show 0 + 1 * a1.val = a1.val; omega
    | ⟨2, _⟩ => show 0 + 1 * a2.val = a2.val; omega
  have hw := View.write_emb_of_mem (v := (dRow0 t).view.slice (Rect.whole S8x128)) (Val := Elt F) f0
    (ReadAs.same.apply ((src0 c i tbl htbl t).view.read (Elt F) w0)) (Finset.mem_univ (ix2 a1 a2))
  rw [hdst] at hw
  refine hw.trans ?_
  show (w0 : S32000x8x128.Idx → Elt F .f32) ((src0 c i tbl htbl t).view.emb (ix2 a1 a2)) = _
  rw [hsrc]
  rfl

/-- Scratch 0, once every row holds what its copy delivered, reads as `gathered`. -/
theorem joined0_read [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w0 : BufOf (F := F) c (Memref.whole main_v14)) (f0 : BufOf (F := F) c (Memref.whole cc0_scratch0))
    (G : BufOf (F := F) c (Memref.whole cc0_scratch0))
    (hG : ∀ t : Fin k0_t1_loop.trips, ∀ y ∈ rowSetT t,
      (G : S64x8x128.Idx → Elt F .f32) y = (landed0 c i tbl htbl w0 f0 t : S64x8x128.Idx → Elt F .f32) y) :
    (Memref.whole cc0_scratch0 : Memref sig .tc .vmem S64x8x128 .f32).view.read (Elt F) G
      = gathered (w0 : S32000x8x128.Idx → Elt F .f32) (tbl : S3x2048.Idx → BitVec 32) 0 (i 0) := by
  funext y
  have hy : (y 0).val < 64 := (y 0).isLt
  have hmem : y ∈ rowSetT ⟨(y 0).val, by rw [trips1]; exact hy⟩ := (mem_rowSet _ _ _).mpr rfl
  show (G : S64x8x128.Idx → Elt F .f32) y = _
  rw [hG _ y hmem]
  exact landed0_apply c i tbl htbl w0 f0 _ y rfl

/-- The table word trip `t` reads for slot 1 is the table's entry at row 1, position `64 p + t`. -/
theorem tw1_eq (c : Dev nD) (i : grid0.Coords) (t : Fin k0_t1_loop.trips) (tbl : BufOf (F := F) c (Memref.whole main_v11)) :
    tw1 c i t tbl = (tbl : S3x2048.Idx → BitVec 32) (ix2 (1 : Fin 3) (posOf (i 0) ⟨t.val, lt64 t⟩)) := by
  have hidx : (Rect.unit (s := S3x2048) (k0_off2 i t) S1x1.size (k0_off2_inb i t)).toLoadRect.idx (Shape.Idx.first (show (0:ℕ) < 1 from Nat.zero_lt_one))
      = ix2 (1 : Fin 3) (posOf (i 0) ⟨t.val, lt64 t⟩) := by
    have e0 := off2_eq i t
    funext a; apply Fin.ext
    show k0_off2 i t a + 1 * 0 = _
    rw [e0]
    match a with
    | ⟨0, _⟩ => rfl
    | ⟨1, _⟩ => show 64 * (i 0).val + t.val + 1 * 0 = 64 * (i 0).val + t.val; omega
  exact congrArg (tbl : S3x2048.Idx → BitVec 32) hidx

/-- Row `t` of scratch 1 once its copy has landed holds, at each of its elements, the entry `gathered` names: the
    copy's one write covers the row, and what it wrote there is the source row's entry in the same place — the source
    row being the table row the id in slot 1 of position `64 p + t` selects. -/
theorem landed1_apply [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w1 : BufOf (F := F) c (Memref.whole main_v17)) (f1 : BufOf (F := F) c (Memref.whole cc0_scratch1))
    (t : Fin k0_t1_loop.trips) (y : S64x8x128.Idx) (hy : (y 0).val = t.val) :
    (landed1 c i tbl htbl w1 f1 t : S64x8x128.Idx → Elt F .f32) y
      = gathered (w1 : S32000x8x128.Idx → Elt F .f32) (tbl : S3x2048.Idx → BitVec 32) 1 (i 0) y := by
  obtain ⟨a0, a1, a2, rfl⟩ : ∃ (a0 : Fin 64) (a1 : Fin 8) (a2 : Fin 128), y = ix3 a0 a1 a2 := ⟨y 0, y 1, y 2, eq_ix3 y⟩
  change a0.val = t.val at hy
  -- the element at (a1, a2) of the row sits at (t, a1, a2) of the scratch buffer
  have hdst : ((dRow1 t).view.slice (Rect.whole S8x128)).emb (ix2 a1 a2) = ix3 a0 a1 a2 := by
    funext a; apply Fin.ext
    show k0_off6 t a + 1 * ((Shape.reshapeEquiv squeezes_S1x8x128_S8x128.numel_eq ((Rect.whole S8x128).emb (ix2 a1 a2))) a).val = (ix3 a0 a1 a2 a).val
    rw [Rect.emb_whole_apply, reshapeEquiv_ix2_1ab, off6_eq]
    match a with
    | ⟨0, _⟩ => show t.val + 1 * 0 = a0.val; omega
    | ⟨1, _⟩ => show 0 + 1 * a1.val = a1.val; omega
    | ⟨2, _⟩ => show 0 + 1 * a2.val = a2.val; omega
  -- the element at (a1, a2) of the source row sits at (row, a1, a2) of the table, the row the id selects
  have hpos : posOf (i 0) ⟨t.val, lt64 t⟩ = posOf (i 0) a0 := by
    have : (⟨t.val, lt64 t⟩ : Fin 64) = a0 := Fin.ext hy.symm
    rw [this]
  have hrow : (tw1 c i t tbl).toNat = (Cert.Spec.rowOf ((tbl : S3x2048.Idx → BitVec 32) (ix2 (1 : Fin 3) (posOf (i 0) a0)))).val := by
    rw [tw1_eq, hpos, Cert.Spec.rowOf_val_of_lt (htbl _)]
  have hsrc : (src1 c i tbl htbl t).view.emb (ix2 a1 a2)
      = ix3 (Cert.Spec.rowOf ((tbl : S3x2048.Idx → BitVec 32) (ix2 (1 : Fin 3) (posOf (i 0) a0)))) a1 a2 := by
    funext a; apply Fin.ext
    show k0_off7 (tw1 c i t tbl) a + 1 * ((Shape.reshapeEquiv squeezes_S1x8x128_S8x128.numel_eq (ix2 a1 a2)) a).val = _
    rw [reshapeEquiv_ix2_1ab]
    match a with
    | ⟨0, _⟩ => show (tw1 c i t tbl).toNat + 1 * 0 = _; rw [hrow]; rfl
    | ⟨1, _⟩ => show 0 + 1 * a1.val = a1.val; omega
    | ⟨2, _⟩ => show 0 + 1 * a2.val = a2.val; omega
  have hw := View.write_emb_of_mem (v := (dRow1 t).view.slice (Rect.whole S8x128)) (Val := Elt F) f1
    (ReadAs.same.apply ((src1 c i tbl htbl t).view.read (Elt F) w1)) (Finset.mem_univ (ix2 a1 a2))
  rw [hdst] at hw
  refine hw.trans ?_
  show (w1 : S32000x8x128.Idx → Elt F .f32) ((src1 c i tbl htbl t).view.emb (ix2 a1 a2)) = _
  rw [hsrc]
  rfl

/-- Scratch 1, once every row holds what its copy delivered, reads as `gathered`. -/
theorem joined1_read [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w1 : BufOf (F := F) c (Memref.whole main_v17)) (f1 : BufOf (F := F) c (Memref.whole cc0_scratch1))
    (G : BufOf (F := F) c (Memref.whole cc0_scratch1))
    (hG : ∀ t : Fin k0_t1_loop.trips, ∀ y ∈ rowSetT t,
      (G : S64x8x128.Idx → Elt F .f32) y = (landed1 c i tbl htbl w1 f1 t : S64x8x128.Idx → Elt F .f32) y) :
    (Memref.whole cc0_scratch1 : Memref sig .tc .vmem S64x8x128 .f32).view.read (Elt F) G
      = gathered (w1 : S32000x8x128.Idx → Elt F .f32) (tbl : S3x2048.Idx → BitVec 32) 1 (i 0) := by
  funext y
  have hy : (y 0).val < 64 := (y 0).isLt
  have hmem : y ∈ rowSetT ⟨(y 0).val, by rw [trips1]; exact hy⟩ := (mem_rowSet _ _ _).mpr rfl
  show (G : S64x8x128.Idx → Elt F .f32) y = _
  rw [hG _ y hmem]
  exact landed1_apply c i tbl htbl w1 f1 _ y rfl

/-- The table word trip `t` reads for slot 2 is the table's entry at row 2, position `64 p + t`. -/
theorem tw2_eq (c : Dev nD) (i : grid0.Coords) (t : Fin k0_t1_loop.trips) (tbl : BufOf (F := F) c (Memref.whole main_v11)) :
    tw2 c i t tbl = (tbl : S3x2048.Idx → BitVec 32) (ix2 (2 : Fin 3) (posOf (i 0) ⟨t.val, lt64 t⟩)) := by
  have hidx : (Rect.unit (s := S3x2048) (k0_off3 i t) S1x1.size (k0_off3_inb i t)).toLoadRect.idx (Shape.Idx.first (show (0:ℕ) < 1 from Nat.zero_lt_one))
      = ix2 (2 : Fin 3) (posOf (i 0) ⟨t.val, lt64 t⟩) := by
    have e0 := off3_eq i t
    funext a; apply Fin.ext
    show k0_off3 i t a + 1 * 0 = _
    rw [e0]
    match a with
    | ⟨0, _⟩ => rfl
    | ⟨1, _⟩ => show 64 * (i 0).val + t.val + 1 * 0 = 64 * (i 0).val + t.val; omega
  exact congrArg (tbl : S3x2048.Idx → BitVec 32) hidx

/-- Row `t` of scratch 2 once its copy has landed holds, at each of its elements, the entry `gathered` names: the
    copy's one write covers the row, and what it wrote there is the source row's entry in the same place — the source
    row being the table row the id in slot 2 of position `64 p + t` selects. -/
theorem landed2_apply [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w2 : BufOf (F := F) c (Memref.whole main_v20)) (f2 : BufOf (F := F) c (Memref.whole cc0_scratch2))
    (t : Fin k0_t1_loop.trips) (y : S64x8x128.Idx) (hy : (y 0).val = t.val) :
    (landed2 c i tbl htbl w2 f2 t : S64x8x128.Idx → Elt F .f32) y
      = gathered (w2 : S32000x8x128.Idx → Elt F .f32) (tbl : S3x2048.Idx → BitVec 32) 2 (i 0) y := by
  obtain ⟨a0, a1, a2, rfl⟩ : ∃ (a0 : Fin 64) (a1 : Fin 8) (a2 : Fin 128), y = ix3 a0 a1 a2 := ⟨y 0, y 1, y 2, eq_ix3 y⟩
  change a0.val = t.val at hy
  -- the element at (a1, a2) of the row sits at (t, a1, a2) of the scratch buffer
  have hdst : ((dRow2 t).view.slice (Rect.whole S8x128)).emb (ix2 a1 a2) = ix3 a0 a1 a2 := by
    funext a; apply Fin.ext
    show k0_off8 t a + 1 * ((Shape.reshapeEquiv squeezes_S1x8x128_S8x128.numel_eq ((Rect.whole S8x128).emb (ix2 a1 a2))) a).val = (ix3 a0 a1 a2 a).val
    rw [Rect.emb_whole_apply, reshapeEquiv_ix2_1ab, off8_eq]
    match a with
    | ⟨0, _⟩ => show t.val + 1 * 0 = a0.val; omega
    | ⟨1, _⟩ => show 0 + 1 * a1.val = a1.val; omega
    | ⟨2, _⟩ => show 0 + 1 * a2.val = a2.val; omega
  -- the element at (a1, a2) of the source row sits at (row, a1, a2) of the table, the row the id selects
  have hpos : posOf (i 0) ⟨t.val, lt64 t⟩ = posOf (i 0) a0 := by
    have : (⟨t.val, lt64 t⟩ : Fin 64) = a0 := Fin.ext hy.symm
    rw [this]
  have hrow : (tw2 c i t tbl).toNat = (Cert.Spec.rowOf ((tbl : S3x2048.Idx → BitVec 32) (ix2 (2 : Fin 3) (posOf (i 0) a0)))).val := by
    rw [tw2_eq, hpos, Cert.Spec.rowOf_val_of_lt (htbl _)]
  have hsrc : (src2 c i tbl htbl t).view.emb (ix2 a1 a2)
      = ix3 (Cert.Spec.rowOf ((tbl : S3x2048.Idx → BitVec 32) (ix2 (2 : Fin 3) (posOf (i 0) a0)))) a1 a2 := by
    funext a; apply Fin.ext
    show k0_off9 (tw2 c i t tbl) a + 1 * ((Shape.reshapeEquiv squeezes_S1x8x128_S8x128.numel_eq (ix2 a1 a2)) a).val = _
    rw [reshapeEquiv_ix2_1ab]
    match a with
    | ⟨0, _⟩ => show (tw2 c i t tbl).toNat + 1 * 0 = _; rw [hrow]; rfl
    | ⟨1, _⟩ => show 0 + 1 * a1.val = a1.val; omega
    | ⟨2, _⟩ => show 0 + 1 * a2.val = a2.val; omega
  have hw := View.write_emb_of_mem (v := (dRow2 t).view.slice (Rect.whole S8x128)) (Val := Elt F) f2
    (ReadAs.same.apply ((src2 c i tbl htbl t).view.read (Elt F) w2)) (Finset.mem_univ (ix2 a1 a2))
  rw [hdst] at hw
  refine hw.trans ?_
  show (w2 : S32000x8x128.Idx → Elt F .f32) ((src2 c i tbl htbl t).view.emb (ix2 a1 a2)) = _
  rw [hsrc]
  rfl

/-- Scratch 2, once every row holds what its copy delivered, reads as `gathered`. -/
theorem joined2_read [∀ e, Nonempty (Elt F e)] (c : Dev nD) (i : grid0.Coords) (tbl : BufOf (F := F) c (Memref.whole main_v11))
    (htbl : ∀ (y : S3x2048.Idx), ((tbl : S3x2048.Idx → BitVec 32) y).toNat < 32000)
    (w2 : BufOf (F := F) c (Memref.whole main_v20)) (f2 : BufOf (F := F) c (Memref.whole cc0_scratch2))
    (G : BufOf (F := F) c (Memref.whole cc0_scratch2))
    (hG : ∀ t : Fin k0_t1_loop.trips, ∀ y ∈ rowSetT t,
      (G : S64x8x128.Idx → Elt F .f32) y = (landed2 c i tbl htbl w2 f2 t : S64x8x128.Idx → Elt F .f32) y) :
    (Memref.whole cc0_scratch2 : Memref sig .tc .vmem S64x8x128 .f32).view.read (Elt F) G
      = gathered (w2 : S32000x8x128.Idx → Elt F .f32) (tbl : S3x2048.Idx → BitVec 32) 2 (i 0) := by
  funext y
  have hy : (y 0).val < 64 := (y 0).isLt
  have hmem : y ∈ rowSetT ⟨(y 0).val, by rw [trips1]; exact hy⟩ := (mem_rowSet _ _ _).mpr rfl
  show (G : S64x8x128.Idx → Elt F .f32) y = _
  rw [hG _ y hmem]
  exact landed2_apply c i tbl htbl w2 f2 _ y rfl

end Cert.KernelIdeal.Hand

end
-- ==== Proof.KI.Body0.lean ====
/-
  The first kernel's body at one grid point: its triple.

  The body starts 192 copies, waits for all of them, and only then reads the three scratch buffers; so the proof
  splits each scratch buffer into its 64 rows and lends each table under 64 read tokens, runs the two loops over the
  three batches of copies, takes every delivery back at the last waits, joins the rows (now the gathered table rows)
  and the tokens back into whole buffers, and runs the loads, the sum with the bias, the activation and the store.
-/
import proofs.«403403_j35476429865350_3_alg».proof.Proof.KI.CopyLoops
import proofs.«403403_j35476429865350_3_alg».proof.Proof.KI.Landed

set_option maxRecDepth 16384

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The scratch buffers row by row, the tables under read tokens -/

section Pieces

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- A scratch buffer held whole is its 64 rows, each held by its own elements. -/
theorem scratch0_rows : (whole c (Memref.whole cc0_scratch0) f0 : sProp 𝕄) = bigSep Finset.univ fun t : Fin k0_t1_loop.trips => heldOwn c (dRow0 t) fullShare f0 :=
  Ring.pointsTo_blocks (ℓ := (Memref.whole cc0_scratch0 : Memref sig .tc .vmem S64x8x128 .f32).view.loc (c : Thread nD τ)) (q := fullShare)
    (fun t : Fin k0_t1_loop.trips => (dRow0 t).view.set) (fun t t' h => by rw [dRow0_set, dRow0_set]; exact rowSetT_disjoint t t' h)
    (by simp only [dRow0_set]; exact rowSetT_cover) f0
theorem scratch1_rows : (whole c (Memref.whole cc0_scratch1) f1 : sProp 𝕄) = bigSep Finset.univ fun t : Fin k0_t1_loop.trips => heldOwn c (dRow1 t) fullShare f1 :=
  Ring.pointsTo_blocks (ℓ := (Memref.whole cc0_scratch1 : Memref sig .tc .vmem S64x8x128 .f32).view.loc (c : Thread nD τ)) (q := fullShare)
    (fun t : Fin k0_t1_loop.trips => (dRow1 t).view.set) (fun t t' h => by rw [dRow1_set, dRow1_set]; exact rowSetT_disjoint t t' h)
    (by simp only [dRow1_set]; exact rowSetT_cover) f1
theorem scratch2_rows : (whole c (Memref.whole cc0_scratch2) f2 : sProp 𝕄) = bigSep Finset.univ fun t : Fin k0_t1_loop.trips => heldOwn c (dRow2 t) fullShare f2 :=
  Ring.pointsTo_blocks (ℓ := (Memref.whole cc0_scratch2 : Memref sig .tc .vmem S64x8x128 .f32).view.loc (c : Thread nD τ)) (q := fullShare)
    (fun t : Fin k0_t1_loop.trips => (dRow2 t).view.set) (fun t t' h => by rw [dRow2_set, dRow2_set]; exact rowSetT_disjoint t t' h)
    (by simp only [dRow2_set]; exact rowSetT_cover) f2

/-- Rows held at contents of their own join to the buffer held whole, at contents that agree with each row's on
    that row. -/
theorem scratch0_join (g : (t : Fin k0_t1_loop.trips) → BufOf (F := F) c (dRow0 t)) :
    (bigSep Finset.univ fun t : Fin k0_t1_loop.trips => heldOwn c (dRow0 t) fullShare (g t))
      ⊢ (iprop(∃ G : BufOf (F := F) c (Memref.whole cc0_scratch0), ⌜∀ t : Fin k0_t1_loop.trips, ∀ y ∈ rowSetT t, (G : S64x8x128.Idx → Elt F .f32) y = (g t : S64x8x128.Idx → Elt F .f32) y⌝
          ∗ whole c (Memref.whole cc0_scratch0) G) : sProp 𝕄) := by
  have h := pointsTo_biUnion_join (ℓ := (Memref.whole cc0_scratch0 : Memref sig .tc .vmem S64x8x128 .f32).view.loc (c : Thread nD τ)) (q := fullShare)
    (Ix := Unit) (Name := ℕ) (U := UU nD τ) (Lvl := ℕ)
    Finset.univ (fun t : Fin k0_t1_loop.trips => (dRow0 t).view.set) g (Memref.whole cc0_scratch0 : Memref sig .tc .vmem S64x8x128 .f32).view.junk
    (fun t _ t' _ hne => by rw [dRow0_set, dRow0_set]; exact rowSetT_disjoint t t' hne)
  refine h.trans ?_
  iintro ⟨%G, %hG, H⟩
  iexists G
  isplitr
  · ipureintro; intro t y hy; exact hG t (Finset.mem_univ t) y (by have e := dRow0_set t; rw [e]; exact hy)
  · have e1 := pointsTo_biUnion (ℓ := (Memref.whole cc0_scratch0 : Memref sig .tc .vmem S64x8x128 .f32).view.loc (c : Thread nD τ)) (q := fullShare) (f := G)
      (Ix := Unit) (Name := ℕ) (U := UU nD τ) (Lvl := ℕ)
      Finset.univ (fun t : Fin k0_t1_loop.trips => (dRow0 t).view.set)
      (fun t _ t' _ hne => by rw [dRow0_set, dRow0_set]; exact rowSetT_disjoint t t' hne)
    iapply (Entails.of_eq (e1.trans (scratch0_rows c G).symm))
    iexact H
theorem scratch1_join (g : (t : Fin k0_t1_loop.trips) → BufOf (F := F) c (dRow1 t)) :
    (bigSep Finset.univ fun t : Fin k0_t1_loop.trips => heldOwn c (dRow1 t) fullShare (g t))
      ⊢ (iprop(∃ G : BufOf (F := F) c (Memref.whole cc0_scratch1), ⌜∀ t : Fin k0_t1_loop.trips, ∀ y ∈ rowSetT t, (G : S64x8x128.Idx → Elt F .f32) y = (g t : S64x8x128.Idx → Elt F .f32) y⌝
          ∗ whole c (Memref.whole cc0_scratch1) G) : sProp 𝕄) := by
  have h := pointsTo_biUnion_join (ℓ := (Memref.whole cc0_scratch1 : Memref sig .tc .vmem S64x8x128 .f32).view.loc (c : Thread nD τ)) (q := fullShare)
    (Ix := Unit) (Name := ℕ) (U := UU nD τ) (Lvl := ℕ)
    Finset.univ (fun t : Fin k0_t1_loop.trips => (dRow1 t).view.set) g (Memref.whole cc0_scratch1 : Memref sig .tc .vmem S64x8x128 .f32).view.junk
    (fun t _ t' _ hne => by rw [dRow1_set, dRow1_set]; exact rowSetT_disjoint t t' hne)
  refine h.trans ?_
  iintro ⟨%G, %hG, H⟩
  iexists G
  isplitr
  · ipureintro; intro t y hy; exact hG t (Finset.mem_univ t) y (by have e := dRow1_set t; rw [e]; exact hy)
  · have e1 := pointsTo_biUnion (ℓ := (Memref.whole cc0_scratch1 : Memref sig .tc .vmem S64x8x128 .f32).view.loc (c : Thread nD τ)) (q := fullShare) (f := G)
      (Ix := Unit) (Name := ℕ) (U := UU nD τ) (Lvl := ℕ)
      Finset.univ (fun t : Fin k0_t1_loop.trips => (dRow1 t).view.set)
      (fun t _ t' _ hne => by rw [dRow1_set, dRow1_set]; exact rowSetT_disjoint t t' hne)
    iapply (Entails.of_eq (e1.trans (scratch1_rows c G).symm))
    iexact H
theorem scratch2_join (g : (t : Fin k0_t1_loop.trips) → BufOf (F := F) c (dRow2 t)) :
    (bigSep Finset.univ fun t : Fin k0_t1_loop.trips => heldOwn c (dRow2 t) fullShare (g t))
      ⊢ (iprop(∃ G : BufOf (F := F) c (Memref.whole cc0_scratch2), ⌜∀ t : Fin k0_t1_loop.trips, ∀ y ∈ rowSetT t, (G : S64x8x128.Idx → Elt F .f32) y = (g t : S64x8x128.Idx → Elt F .f32) y⌝
          ∗ whole c (Memref.whole cc0_scratch2) G) : sProp 𝕄) := by
  have h := pointsTo_biUnion_join (ℓ := (Memref.whole cc0_scratch2 : Memref sig .tc .vmem S64x8x128 .f32).view.loc (c : Thread nD τ)) (q := fullShare)
    (Ix := Unit) (Name := ℕ) (U := UU nD τ) (Lvl := ℕ)
    Finset.univ (fun t : Fin k0_t1_loop.trips => (dRow2 t).view.set) g (Memref.whole cc0_scratch2 : Memref sig .tc .vmem S64x8x128 .f32).view.junk
    (fun t _ t' _ hne => by rw [dRow2_set, dRow2_set]; exact rowSetT_disjoint t t' hne)
  refine h.trans ?_
  iintro ⟨%G, %hG, H⟩
  iexists G
  isplitr
  · ipureintro; intro t y hy; exact hG t (Finset.mem_univ t) y (by have e := dRow2_set t; rw [e]; exact hy)
  · have e1 := pointsTo_biUnion (ℓ := (Memref.whole cc0_scratch2 : Memref sig .tc .vmem S64x8x128 .f32).view.loc (c : Thread nD τ)) (q := fullShare) (f := G)
      (Ix := Unit) (Name := ℕ) (U := UU nD τ) (Lvl := ℕ)
      Finset.univ (fun t : Fin k0_t1_loop.trips => (dRow2 t).view.set)
      (fun t _ t' _ hne => by rw [dRow2_set, dRow2_set]; exact rowSetT_disjoint t t' hne)
    iapply (Entails.of_eq (e1.trans (scratch2_rows c G).symm))
    iexact H

/-- A table held whole: the remainder after 64 read tokens, each copy's source row under its token, and what is left
    of each token. -/
theorem table0_lend : (whole c (Memref.whole main_v14) w0 : sProp 𝕄)
    = iprop(((Memref.whole main_v14 : Memref sig .tc .hbm S32000x8x128 .f32).view.loc (c : Thread nD τ) ↦[Finset.univ]{Transfers.shareDrop fullShare k0_t1_loop.trips} w0)
        ∗ (bigSep Finset.univ fun t : Fin k0_t1_loop.trips => heldOwn c (src0 c i tbl htbl t) (Transfers.shareTokN fullShare t.val) w0)
        ∗ bigSep Finset.univ fun t : Fin k0_t1_loop.trips => (Memref.whole main_v14 : Memref sig .tc .hbm S32000x8x128 .f32).view.loc (c : Thread nD τ) ↦[Finset.univ \ (src0 c i tbl htbl t).view.set]{Transfers.shareTokN fullShare t.val} w0) :=
  lendRows w0 k0_t1_loop.trips fun t => (src0 c i tbl htbl t).view.set
theorem table1_lend : (whole c (Memref.whole main_v17) w1 : sProp 𝕄)
    = iprop(((Memref.whole main_v17 : Memref sig .tc .hbm S32000x8x128 .f32).view.loc (c : Thread nD τ) ↦[Finset.univ]{Transfers.shareDrop fullShare k0_t1_loop.trips} w1)
        ∗ (bigSep Finset.univ fun t : Fin k0_t1_loop.trips => heldOwn c (src1 c i tbl htbl t) (Transfers.shareTokN fullShare t.val) w1)
        ∗ bigSep Finset.univ fun t : Fin k0_t1_loop.trips => (Memref.whole main_v17 : Memref sig .tc .hbm S32000x8x128 .f32).view.loc (c : Thread nD τ) ↦[Finset.univ \ (src1 c i tbl htbl t).view.set]{Transfers.shareTokN fullShare t.val} w1) :=
  lendRows w1 k0_t1_loop.trips fun t => (src1 c i tbl htbl t).view.set
theorem table2_lend : (whole c (Memref.whole main_v20) w2 : sProp 𝕄)
    = iprop(((Memref.whole main_v20 : Memref sig .tc .hbm S32000x8x128 .f32).view.loc (c : Thread nD τ) ↦[Finset.univ]{Transfers.shareDrop fullShare k0_t1_loop.trips} w2)
        ∗ (bigSep Finset.univ fun t : Fin k0_t1_loop.trips => heldOwn c (src2 c i tbl htbl t) (Transfers.shareTokN fullShare t.val) w2)
        ∗ bigSep Finset.univ fun t : Fin k0_t1_loop.trips => (Memref.whole main_v20 : Memref sig .tc .hbm S32000x8x128 .f32).view.loc (c : Thread nD τ) ↦[Finset.univ \ (src2 c i tbl htbl t).view.set]{Transfers.shareTokN fullShare t.val} w2) :=
  lendRows w2 k0_t1_loop.trips fun t => (src2 c i tbl htbl t).view.set

end Pieces

/-! ## The deliveries may sit in an invariant -/

/-- Two buffers' elements held, each at its share, may sit in an invariant. -/
theorem storable_two {ℓ ℓ' : Loc nD τ sig} (S : Finset (Idealize.ShloMosaic.Idx ℓ)) (S' : Finset (Idealize.ShloMosaic.Idx ℓ'))
    (q q' : PosShare TreeShare) (f : Buf (Elt F) ℓ) (g : Buf (Elt F) ℓ') :
    BI.Storable (upEmb : UEmb _ 𝕄) (iprop((ℓ ↦[S]{q} f) ∗ (ℓ' ↦[S']{q'} g)) : sProp 𝕄) := inferInstance

section Stor

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

instance deliv0_storable (t : Fin k0_t1_loop.trips) : BI.Storable (upEmb : UEmb _ 𝕄) (deliv0 c i tbl htbl w0 f0 t) :=
  storable_two _ _ _ _ _ _
instance deliv1_storable (t : Fin k0_t1_loop.trips) : BI.Storable (upEmb : UEmb _ 𝕄) (deliv1 c i tbl htbl w1 f1 t) :=
  storable_two _ _ _ _ _ _
instance deliv2_storable (t : Fin k0_t1_loop.trips) : BI.Storable (upEmb : UEmb _ 𝕄) (deliv2 c i tbl htbl w2 f2 t) :=
  storable_two _ _ _ _ _ _

end Stor

/-! ## The body's triple -/

section Whole

variable [∀ e, Nonempty (Elt F e)] (c : Dev nD) (i : grid0.Coords) (tbl : BufOf (F := F) c (Memref.whole main_v11))
  (htbl : ∀ (y : S3x2048.Idx), ((tbl : S3x2048.Idx → BitVec 32) y).toNat < 32000)
  (w0 : BufOf (F := F) c (Memref.whole main_v14)) (w1 : BufOf (F := F) c (Memref.whole main_v17)) (w2 : BufOf (F := F) c (Memref.whole main_v20))
  (f0 : BufOf (F := F) c (Memref.whole cc0_scratch0)) (f1 : BufOf (F := F) c (Memref.whole cc0_scratch1)) (f2 : BufOf (F := F) c (Memref.whole cc0_scratch2))

/-- After the last trip of the first loop every copy has been started and nothing else of the invariant is left. -/
theorem issueAt_exit (acc : Unit) :
    issueAt c i tbl htbl w0 w1 w2 f0 f1 f2 k0_t1_loop.trips acc
      ⊢ iprop(whole c (Memref.whole main_v11) tbl ∗ batch0 c i tbl htbl w0 f0 k0_t1_loop.trips 0
          ∗ batch1 c i tbl htbl w1 f1 k0_t1_loop.trips 0 ∗ batch2 c i tbl htbl w2 f2 k0_t1_loop.trips 0) := by
  unfold issueAt
  iintro ⟨HT, HB0, HB1, HB2, -⟩
  isplitl [HT]; · iexact HT
  isplitl [HB0]; · iexact HB0
  isplitl [HB1]; · iexact HB1
  iexact HB2

/-- After the last trip of the second loop: the waits recorded, each semaphore back at zero, every delivery in hand. -/
theorem drainAt_exit (acc : Unit) :
    drainAt c i tbl htbl w0 w1 w2 f0 f1 f2 k0_t2_loop.trips acc
      ⊢ iprop((∃ W, owes (c : Thread nD τ) (0 : CellTallies nD τ sig Unit) W)
          ∗ (cellAt0 c cc0_scratch3.sem ∗ bigSep Finset.univ (deliv0 c i tbl htbl w0 f0))
          ∗ (cellAt0 c cc0_scratch4.sem ∗ bigSep Finset.univ (deliv1 c i tbl htbl w1 f1))
          ∗ (cellAt0 c cc0_scratch5.sem ∗ bigSep Finset.univ (deliv2 c i tbl htbl w2 f2))) := by
  unfold drainAt
  rw [if_neg (Nat.lt_irrefl _)]
  iintro ⟨-, HO, H⟩
  isplitl [HO]; · iexact HO
  iexact H

end Whole

set_option maxHeartbeats 8000000 in
/-- The body at grid point `i`: from the bias block staged at `x0`, the output's staging buffer at anything and
    `bodyRest` — every table entry a row number — it runs to its return with the output's staging buffer at
    `outBlock0` of the bias block and the three gathered buffers, everything else as it was. -/
theorem sound_kernel0 [∀ e, Nonempty (Elt F e)] (c : Dev nD) (i : grid0.Coords)
    (arg5 : Memref sig .tc .vmem S1x8x128 .f32) (harg5 : arg5.IsWhole)
    (arg6 : Memref sig .tc .vmem S64x8x128 .bf16) (harg6 : arg6.IsWhole)
    (x0 : Vec F S1x8x128 .f32)
    (tbl : BufOf (F := F) c (Memref.whole main_v11)) (w0 : BufOf (F := F) c (Memref.whole main_v14))
    (w1 : BufOf (F := F) c (Memref.whole main_v17)) (w2 : BufOf (F := F) c (Memref.whole main_v20))
    (htbl : ∀ (j : Fin 3) (r : Fin 2048), (tbl (ix2 j r)).toNat < 32000)
    (K : PUnit → sProp 𝕄) :
    iprop(owns (c : Thread nD τ) arg5 fullShare x0 ∗ (∃ d, owns (c : Thread nD τ) arg6 fullShare d)
        ∗ bodyRest c tbl w0 w1 w2
        ∗ (iprop(owns (c : Thread nD τ) arg5 fullShare x0
              ∗ owns (c : Thread nD τ) arg6 fullShare
                  (outBlock0 x0 (gathered w0 tbl 0 (i 0)) (gathered w1 tbl 1 (i 0)) (gathered w2 tbl 2 (i 0)))
              ∗ bodyRest c tbl w0 w1 w2) -∗ K ⟨⟩))
      ⊢ wp frame (wpE (defs₀ (F := F)) Variants.none c none) Set.univ
          (cc0__gather_mlp1_kernel i (Memref.whole main_v11) (Memref.isWhole_whole _) (Memref.whole main_v14) (Memref.isWhole_whole _)
            (Memref.whole main_v17) (Memref.isWhole_whole _) (Memref.whole main_v20) (Memref.isWhole_whole _) arg5 harg5 arg6 harg6
            (Memref.whole cc0_scratch0) (Memref.isWhole_whole _) (Memref.whole cc0_scratch1) (Memref.isWhole_whole _)
            (Memref.whole cc0_scratch2) (Memref.isWhole_whole _) cc0_scratch3 cc0_scratch4 cc0_scratch5) K := by
  have htbl' : ∀ (y : S3x2048.Idx), ((tbl : S3x2048.Idx → BitVec 32) y).toNat < 32000 := fun y => by
    rw [eq_ix2 y]; exact htbl _ _
  have hT1 := trips1
  have hT2 := trips2
  have hr : Ring.rangeSet k0_t1_loop.trips 0 k0_t1_loop.trips = Finset.univ := Ring.rangeSet_univ
  simp only [cc0__gather_mlp1_kernel_eq_skeleton]; unfold cc0__gather_mlp1_kernel_skel
  unfold bodyRest sems0 owns
  iintro ⟨⟨%f5, %hf5, H5⟩, ⟨%d6, %f6, -, H6⟩, ⟨HT, HW0, HW1, HW2, ⟨%f0, HF0⟩, ⟨%f1, HF1⟩, ⟨%f2, HF2⟩, ⟨Hc0, Hc1, Hc2⟩, ⟨%W, HO⟩⟩, Hk⟩
  subst hf5
  -- the scratch buffers row by row, the tables under read tokens
  ihave HF0 := (Entails.of_eq (scratch0_rows c f0)) $$ HF0
  ihave HF1 := (Entails.of_eq (scratch1_rows c f1)) $$ HF1
  ihave HF2 := (Entails.of_eq (scratch2_rows c f2)) $$ HF2
  ihave HW0 := (Entails.of_eq (table0_lend c i tbl htbl' w0)) $$ HW0
  ihave HW1 := (Entails.of_eq (table1_lend c i tbl htbl' w1)) $$ HW1
  ihave HW2 := (Entails.of_eq (table2_lend c i tbl htbl' w2)) $$ HW2
  icases HW0 with ⟨HW0r, HW0s, HW0c⟩
  icases HW1 with ⟨HW1r, HW1s, HW1c⟩
  icases HW2 with ⟨HW2r, HW2s, HW2c⟩
  -- the body's own spelling of its three semaphores
  have hs0 : (semVal ((c : Thread nD τ), osem 0) 0 : sProp 𝕄) = semVal ((c : Thread nD τ), SemLoc.dma cc0_scratch3.sem) 0 := rfl
  have hs1 : (semVal ((c : Thread nD τ), osem 1) 0 : sProp 𝕄) = semVal ((c : Thread nD τ), SemLoc.dma cc0_scratch4.sem) 0 := rfl
  have hs2 : (semVal ((c : Thread nD τ), osem 2) 0 : sProp 𝕄) = semVal ((c : Thread nD τ), SemLoc.dma cc0_scratch5.sem) 0 := rfl
  ihave Hc0 := (Entails.of_eq hs0) $$ Hc0
  ihave Hc1 := (Entails.of_eq hs1) $$ Hc1
  ihave Hc2 := (Entails.of_eq hs2) $$ Hc2
  -- the three batches, their deliveries stated
  haveI hst0 : ∀ t, BI.Storable (upEmb : UEmb _ 𝕄) (deliv0 c i tbl htbl' w0 f0 t) := fun t => deliv0_storable c i tbl htbl' w0 f0 t
  haveI hst1 : ∀ t, BI.Storable (upEmb : UEmb _ 𝕄) (deliv1 c i tbl htbl' w1 f1 t) := fun t => deliv1_storable c i tbl htbl' w1 f1 t
  haveI hst2 : ∀ t, BI.Storable (upEmb : UEmb _ 𝕄) (deliv2 c i tbl htbl' w2 f2 t) := fun t => deliv2_storable c i tbl htbl' w2 f2 t
  imod (Transfers.batch_alloc' (Lvl := ℕ) (countersEmb (U := UU nD τ)) (c : Thread nD τ) () NN (deliv0 c i tbl htbl' w0 f0) (sm := .dma cc0_scratch3.sem) (E := Set.univ)) $$ Hc0 with HB0
  imod (Transfers.batch_alloc' (Lvl := ℕ) (countersEmb (U := UU nD τ)) (c : Thread nD τ) () NN (deliv1 c i tbl htbl' w1 f1) (sm := .dma cc0_scratch4.sem) (E := Set.univ)) $$ Hc1 with HB1
  imod (Transfers.batch_alloc' (Lvl := ℕ) (countersEmb (U := UU nD τ)) (c : Thread nD τ) () NN (deliv2 c i tbl htbl' w2 f2) (sm := .dma cc0_scratch5.sem) (E := Set.univ)) $$ Hc2 with HB2
  -- the loop that starts the copies
  sl_for (issueAt c i tbl htbl' w0 w1 w2 f0 f1 f2) $$ [HT HB0 HB1 HB2 HF0 HW0s HF1 HW1s HF2 HW2s]
  · intro k acc; exact issue_step c i tbl htbl' w0 w1 w2 f0 f1 f2 arg5 harg5 arg6 harg6 k acc
  · unfold issueAt dsts0 dsts1 dsts2 srcs0 srcs1 srcs2
    irw [hr]
    isplitl [HT]; · iexact HT
    isplitl [HB0]; · iexact HB0
    isplitl [HB1]; · iexact HB1
    isplitl [HB2]; · iexact HB2
    isplitl [HF0]; · iexact HF0
    isplitl [HW0s]; · iexact HW0s
    isplitl [HF1]; · iexact HF1
    isplitl [HW1s]; · iexact HW1s
    isplitl [HF2]; · iexact HF2
    iexact HW2s
  iintro %acc HI
  ihave HI := (issueAt_exit c i tbl htbl' w0 w1 w2 f0 f1 f2 acc) $$ HI
  icases HI with ⟨HT, HB0, HB1, HB2⟩
  -- the loop that waits
  sl_for (drainAt c i tbl htbl' w0 w1 w2 f0 f1 f2) $$ [HB0 HB1 HB2 HO]
  · intro k acc; exact drain_step c i tbl htbl' w0 w1 w2 f0 f1 f2 arg5 harg5 arg6 harg6 k acc
  · unfold drainAt
    rw [if_pos (show 0 < k0_t2_loop.trips by rw [hT2]; decide)]
    isplitr; · ipureintro; omega
    isplitl [HO]; · iexists _; iexact HO
    rw [show 0 * NN = 0 from rfl]
    isplitl [HB0]; · iexact HB0
    isplitl [HB1]; · iexact HB1
    iexact HB2
  iintro %acc' HL
  ihave HL := (drainAt_exit c i tbl htbl' w0 w1 w2 f0 f1 f2 acc') $$ HL
  icases HL with ⟨⟨%W', HO⟩, ⟨Hc0, HA0⟩, ⟨Hc1, HA1⟩, ⟨Hc2, HA2⟩⟩
  -- each kind's deliveries: the rows apart from the tokens
  have hd0 : (bigSep Finset.univ (deliv0 c i tbl htbl' w0 f0) : sProp 𝕄)
      = iprop((bigSep Finset.univ fun t : Fin k0_t1_loop.trips => heldOwn c (dRow0 t) fullShare (landed0 c i tbl htbl' w0 f0 t))
          ∗ bigSep Finset.univ fun t : Fin k0_t1_loop.trips => heldOwn c (src0 c i tbl htbl' t) (Transfers.shareTokN fullShare t.val) w0) :=
    BI.bigSep_sep _ _ _
  ihave HA0 := (Entails.of_eq hd0) $$ HA0
  have hd1 : (bigSep Finset.univ (deliv1 c i tbl htbl' w1 f1) : sProp 𝕄)
      = iprop((bigSep Finset.univ fun t : Fin k0_t1_loop.trips => heldOwn c (dRow1 t) fullShare (landed1 c i tbl htbl' w1 f1 t))
          ∗ bigSep Finset.univ fun t : Fin k0_t1_loop.trips => heldOwn c (src1 c i tbl htbl' t) (Transfers.shareTokN fullShare t.val) w1) :=
    BI.bigSep_sep _ _ _
  ihave HA1 := (Entails.of_eq hd1) $$ HA1
  have hd2 : (bigSep Finset.univ (deliv2 c i tbl htbl' w2 f2) : sProp 𝕄)
      = iprop((bigSep Finset.univ fun t : Fin k0_t1_loop.trips => heldOwn c (dRow2 t) fullShare (landed2 c i tbl htbl' w2 f2 t))
          ∗ bigSep Finset.univ fun t : Fin k0_t1_loop.trips => heldOwn c (src2 c i tbl htbl' t) (Transfers.shareTokN fullShare t.val) w2) :=
    BI.bigSep_sep _ _ _
  ihave HA2 := (Entails.of_eq hd2) $$ HA2
  icases HA0 with ⟨HR0, HS0⟩
  icases HA1 with ⟨HR1, HS1⟩
  icases HA2 with ⟨HR2, HS2⟩
  -- the scratch buffers whole again, at the gathered rows
  ihave HG0 := (scratch0_join c (landed0 c i tbl htbl' w0 f0)) $$ HR0
  ihave HG1 := (scratch1_join c (landed1 c i tbl htbl' w1 f1)) $$ HR1
  ihave HG2 := (scratch2_join c (landed2 c i tbl htbl' w2 f2)) $$ HR2
  icases HG0 with ⟨%G0, %hG0, HG0⟩
  icases HG1 with ⟨%G1, %hG1, HG1⟩
  icases HG2 with ⟨%G2, %hG2, HG2⟩
  have e0 := joined0_read c i tbl htbl' w0 f0 G0 hG0
  have e1 := joined1_read c i tbl htbl' w1 f1 G1 hG1
  have e2 := joined2_read c i tbl htbl' w2 f2 G2 hG2
  -- the tables whole again
  ihave HW0 := (Entails.of_eq (table0_lend c i tbl htbl' w0).symm) $$ [HW0r HS0 HW0c]
  · isplitl [HW0r]; · iexact HW0r
    isplitl [HS0]; · iexact HS0
    iexact HW0c
  ihave HW1 := (Entails.of_eq (table1_lend c i tbl htbl' w1).symm) $$ [HW1r HS1 HW1c]
  · isplitl [HW1r]; · iexact HW1r
    isplitl [HS1]; · iexact HS1
    iexact HW1c
  ihave HW2 := (Entails.of_eq (table2_lend c i tbl htbl' w2).symm) $$ [HW2r HS2 HW2c]
  · isplitl [HW2r]; · iexact HW2r
    isplitl [HS2]; · iexact HS2
    iexact HW2c
  -- the loads, the sum, the store
  sl_exec
  sl_step
  iapply Hk
  isplitl [H5]
  · iexists f5; isplitr; · ipureintro; rfl
    iexact H5
  isplitl [H6]
  · iexists _; isplitr
    swap; · iexact H6
    ipureintro
    rw [← e0, ← e1, ← e2]
    exact View.read_writes_eq_canon _ _ _ (cover0 _)
  isplitl [HT]; · iexact HT
  isplitl [HW0]; · iexact HW0
  isplitl [HW1]; · iexact HW1
  isplitl [HW2]; · iexact HW2
  isplitl [HG0]; · iexists _; iexact HG0
  isplitl [HG1]; · iexists _; iexact HG1
  isplitl [HG2]; · iexists _; iexact HG2
  isplitl [Hc0 Hc1 Hc2]
  · isplitl [Hc0]; · iapply (Entails.of_eq hs0.symm); iexact Hc0
    isplitl [Hc1]; · iapply (Entails.of_eq hs1.symm); iexact Hc1
    iapply (Entails.of_eq hs2.symm); iexact Hc2
  iexists _; iexact HO

end Cert.KernelIdeal.Hand

end
-- ==== Proof.KI.Region0.lean ====
/-
  The first kernel of the program as a pipeline region: the gather and the hidden layer.

  The kernel runs on a grid of 32 points with one prefetched table, the 3 × 2048 array of context token ids. At point
  `p` the pipeline stages the bias block (window 0, the same block at every point) and the `p`-th 64 × 8 × 128 block
  of the output (window 1); the three embedding tables are not windows: they stay in place and the body copies rows
  out of them itself, counting the copies on three semaphores of its own. Stated here at a parameter `V`, the buffer
  contents when the region is entered: the table's contents and the pipeline at them, the bias window's block, the
  invariant between the region's ends (the table, the three embedding tables, the semaphores at zero, the scoped
  buffers no window stages), the proof data (after the body the output's buffer holds the activation of the three
  gathered buffers and the bias block), the body obligation at every point — from the body's triple, for a table whose
  entries are row numbers —, and the region's ends: of the unscoped buffers that are no window's array the table goes
  to the pipeline, the three embedding tables enter the invariant with the semaphores, every other one bypasses the
  region; at the end they are put back as found. Nothing depends on the number family the values are taken in.
-/
import proofs.«403403_j35476429865350_3_alg».proof.Proof.KI.Body0
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation cellOf)

section Region0
-- the TensorCore's buffer contents when the region is entered
variable (V : (c : Dev nD) → (b : Ref sig .tc) → Buf (Elt F) ((c : Thread nD τ).loc b))

/-! ## The table, the pipeline at it, the bias window's block -/

/-- The table's contents as the region finds them (the program runs on one core); any contents are admissible. -/
def adm0 : (pcfg0 (F := F)).Adm := ⟨fun k => V 0 (pre0.ref k), trivial⟩

/-- On each core they are that core's. -/
theorem adm0_fst (c : Dev nD) : (adm0 V).1 = (fun k => V c (pre0.ref k) : pre0.Contents (Elt F)) := by
  obtain rfl : c = 0 := Subsingleton.elim _ _
  rfl

/-- The bias window's block at point `t`, read off its array as the region finds it. -/
def iblk0 (c : Dev nD) (t : Fin (cfg0 (adm0 V)).N) :
    (((cfg0 (adm0 V)).win (0 : Fin 2)).xblock ((cfg0 (adm0 V)).grid.coords t)).Idx → Elt F ((cfg0 (adm0 V)).win (0 : Fin 2)).elt :=
  (((cfg0 (adm0 V)).win (0 : Fin 2)).blk t).view.read (Elt F) (V c (Pipeline.arrRef spec0 (0 : Fin 2)))

/-! ## The invariant and the proof data -/

/-- The invariant between the region's ends: the table and the three embedding tables as the region finds them, the
    kernel's three semaphores at zero, and the scoped buffers no window stages (the three scratch buffers first). -/
def Φ0 (c : Dev nD) : sProp 𝕄 :=
  iprop(whole c (Memref.whole main_v11) (V c main_v11) ∗ whole c (Memref.whole main_v14) (V c main_v14)
    ∗ whole c (Memref.whole main_v17) (V c main_v17) ∗ whole c (Memref.whole main_v20) (V c main_v20)
    ∗ sems0 c ∗ Pipeline.scopedRest (Ix := Unit) (Name := ℕ) (U := UU nD τ) (Lvl := ℕ) (Val := Elt F) spec0 c)

/-- The proof data on core `c`: the arrays as the region finds them; after the body at point `t` the bias buffer at
    its block and the output's at the activation of the three gathered buffers and the bias block; the invariant;
    nothing owed; full shares. -/
def dat0 (c : Dev nD) : Dat τ (Elt F) Unit ℕ (UU nD τ) ℕ (cfg0 (adm0 V)) c where
  A w := V c (Pipeline.arrRef spec0 w)
  after w t := match w with
    | ⟨0, _⟩ => iblk0 V c t
    | ⟨1, _⟩ => outBlock0 (iblk0 V c t) (gathered (V c main_v14) (V c main_v11) 0 (((cfg0 (adm0 V)).grid.coords t) 0))
        (gathered (V c main_v17) (V c main_v11) 1 (((cfg0 (adm0 V)).grid.coords t) 0))
        (gathered (V c main_v20) (V c main_v11) 2 (((cfg0 (adm0 V)).grid.coords t) 0))
  Φ _ := Φ0 V c
  q _ := fullShare
  owed _ := 0

/-- The proof data's arrays are the region-entry contents. -/
theorem A_eq0 (c : Dev nD) (w : Fin (cfg0 (adm0 V)).W) : (dat0 V c).A w = V c (Pipeline.arrRef spec0 w) := by
  dsimp only [dat0]

/-- What the body leaves, window by window. -/
theorem after0_0 (c : Dev nD) (t : Fin (cfg0 (adm0 V)).N) : (dat0 V c).after (0 : Fin 2) t = iblk0 V c t := by dsimp only [dat0]
theorem after0_1 (c : Dev nD) (t : Fin (cfg0 (adm0 V)).N) :
    (dat0 V c).after (1 : Fin 2) t = outBlock0 (iblk0 V c t) (gathered (V c main_v14) (V c main_v11) 0 (((cfg0 (adm0 V)).grid.coords t) 0))
        (gathered (V c main_v17) (V c main_v11) 1 (((cfg0 (adm0 V)).grid.coords t) 0))
        (gathered (V c main_v20) (V c main_v11) 2 (((cfg0 (adm0 V)).grid.coords t) 0)) := by dsimp only [dat0]

/-- The bias window's staging buffer holds its block at every point, fetched there or not. -/
theorem before0_0 (c : Dev nD) (t : Fin (cfg0 (adm0 V)).N) (d) : (dat0 V c).before (0 : Fin 2) t d = iblk0 V c t :=
  ((dat0 V c).before_in_eq_fetched (0 : Fin 2) rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The kernel's own semaphores -/

/-- They are scoped, distinct, and no staging semaphore. -/
theorem ownSemFacts0 : Pipeline.OwnSemFacts spec0 osem := by decide

/-- At zero, listed. -/
theorem ownSems0_eq0 (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2] (by decide) (by decide)

/-! ## The body obligation -/

/-- The current staging memrefs at point `t`, and the body as the pipeline calls it there. -/
abbrev st0_0 (t : Fin (cfg0 (adm0 V)).N) := ((cfg0 (adm0 V)).win (0 : Fin 2)).stage ((cfg0 (adm0 V)).slots t (0 : Fin 2))
abbrev st0_1 (t : Fin (cfg0 (adm0 V)).N) := ((cfg0 (adm0 V)).win (1 : Fin 2)).stage ((cfg0 (adm0 V)).slots t (1 : Fin 2))

abbrev bodyAt0 (t : Fin (cfg0 (adm0 V)).N) : Prog (TpuEff nD τ sig (Elt F) Λ₀ .tc) PUnit :=
  cc0__gather_mlp1_kernel ((cfg0 (adm0 V)).grid.coords t) (Memref.whole main_v11) (Memref.isWhole_whole _) (Memref.whole main_v14) (Memref.isWhole_whole _)
    (Memref.whole main_v17) (Memref.isWhole_whole _) (Memref.whole main_v20) (Memref.isWhole_whole _)
    (spec0_0.stage ((cfg0 (adm0 V)).slots t (0 : Fin 2))) (hstage0_0 (((cfg0 (adm0 V)).slots t (0 : Fin 2)).cast nbuf0_0))
    (spec0_1.stage ((cfg0 (adm0 V)).slots t (1 : Fin 2))) (hstage0_1 (((cfg0 (adm0 V)).slots t (1 : Fin 2)).cast nbuf0_1))
    (Memref.whole cc0_scratch0) (Memref.isWhole_whole _) (Memref.whole cc0_scratch1) (Memref.isWhole_whole _)
    (Memref.whole cc0_scratch2) (Memref.isWhole_whole _) cc0_scratch3 cc0_scratch4 cc0_scratch5

/-- What the body is called with at point `t`, -/
def bodyPre0 (c : Dev nD) (t : Fin (cfg0 (adm0 V)).N) : sProp 𝕄 :=
  iprop((dat0 V c).Φ t.castSucc ∗ (dat0 V c).owesAt () t.castSucc
    ∗ (∃ d, owns (c : Thread nD τ) (st0_0 V t) fullShare ((dat0 V c).before (0 : Fin 2) t d))
    ∗ (∃ d, owns (c : Thread nD τ) (st0_1 V t) fullShare ((dat0 V c).before (1 : Fin 2) t d)))

/-- and what it returns. -/
def bodyPost0 (c : Dev nD) (t : Fin (cfg0 (adm0 V)).N) : sProp 𝕄 :=
  iprop((dat0 V c).Φ t.succ ∗ (dat0 V c).owesAt () t.succ
    ∗ owns (c : Thread nD τ) (st0_0 V t) fullShare ((dat0 V c).after (0 : Fin 2) t)
    ∗ owns (c : Thread nD τ) (st0_1 V t) fullShare ((dat0 V c).after (1 : Fin 2) t))

theorem sound_body0 [∀ e, Nonempty (Elt F e)] (c : Dev nD)
    (htbl : ∀ (j : Fin 3) (r : Fin 2048), ((V c main_v11 : S3x2048.Idx → BitVec 32) (ix2 j r)).toNat < 32000)
    (t : Fin (cfg0 (adm0 V)).N) :
    bodyPre0 V c t ⊢ wp frame (wpE (defs₀ (F := F)) Variants.none c none) Set.univ
      (bodyAt0 V t) (fun _ => bodyPost0 V c t) := by
  unfold bodyPre0 bodyPost0 bodyAt0
  simp only [before0_0]
  rw [show (dat0 V c).Φ t.succ = Φ0 V c from rfl, show (dat0 V c).Φ t.castSucc = Φ0 V c from rfl, after0_0, after0_1]
  unfold Φ0 Dat.owesAt Pipeline.owesWithin; rw [scopedRest0_eq]
  rw [show (dat0 V c).owed t.castSucc = 0 from rfl, show (dat0 V c).owed t.succ = 0 from rfl]
  iintro ⟨⟨Ht, H14, H17, H20, Hsems, Hs0, Hs1, Hs2, Hrest⟩, ⟨%W, %hW, HO⟩, ⟨%d0, H0⟩, ⟨%d1, H1⟩⟩
  iapply (sound_kernel0 c ((cfg0 (adm0 V)).grid.coords t) _ _ _ _ (iblk0 V c t) (V c main_v11) (V c main_v14) (V c main_v17) (V c main_v20) htbl _)
  isplitl [H0]; · iexact H0
  isplitl [H1]; · iexists _; iexact H1
  isplitl [Ht H14 H17 H20 Hsems Hs0 Hs1 Hs2 HO]
  · unfold bodyRest
    isplitl [Ht]; · iexact Ht
    isplitl [H14]; · iexact H14
    isplitl [H17]; · iexact H17
    isplitl [H20]; · iexact H20
    isplitl [Hs0]; · iexact Hs0
    isplitl [Hs1]; · iexact Hs1
    isplitl [Hs2]; · iexact Hs2
    isplitl [Hsems]; · iexact Hsems
    iexists W; iexact HO
  iintro ⟨H0, H1, Hb⟩
  unfold bodyRest
  icases Hb with ⟨Ht, H14, H17, H20, Hs0, Hs1, Hs2, Hsems, ⟨%W', HO⟩⟩
  isplitl [Ht H14 H17 H20 Hsems Hs0 Hs1 Hs2 Hrest]
  · isplitl [Ht]; · iexact Ht
    isplitl [H14]; · iexact H14
    isplitl [H17]; · iexact H17
    isplitl [H20]; · iexact H20
    isplitl [Hsems]; · iexact Hsems
    isplitl [Hs0]; · iexact Hs0
    isplitl [Hs1]; · iexact Hs1
    isplitl [Hs2]; · iexact Hs2
    iexact Hrest
  isplitl [HO]
  · iexists W'; isplitr; · ipureintro; exact fun _ _ => Or.inl trivial
    iexact HO
  isplitl [H0]; · iexact H0
  iexact H1

/-- The library's body obligation, at every point. -/
theorem body_obligation0 [∀ e, Nonempty (Elt F e)] (c : Dev nD)
    (htbl : ∀ (j : Fin 3) (r : Fin 2048), ((V c main_v11 : S3x2048.Idx → BitVec 32) (ix2 j r)).toNat < 32000) :
    BodyObligation (dat0 (F := F) V c) (defs₀ (F := F)) Variants.none () Set.univ := fun t => by
  rw [bigSep_W0, bigSep_W0]
  exact sound_body0 V c htbl t

/-! ## The region's ends -/

/-- The three embedding tables, left in place for the kernel's own copies. -/
abbrev tabs : List (Ref sig .tc) := [main_v14, main_v17, main_v20]

/-- What enters the invariant beside the table: the three embedding tables and the kernel's semaphores at zero; -/
def X0 (c : Dev nD) : sProp 𝕄 :=
  iprop(whole c (Memref.whole main_v14) (V c main_v14) ∗ whole c (Memref.whole main_v17) (V c main_v17)
    ∗ whole c (Memref.whole main_v20) (V c main_v20) ∗ sems0 c)

/-- what the invariant gives back: the table and the three embedding tables, as found; -/
def Y0 (c : Dev nD) : sProp 𝕄 :=
  iprop(whole c (Memref.whole main_v11) (V c main_v11) ∗ whole c (Memref.whole main_v14) (V c main_v14)
    ∗ whole c (Memref.whole main_v17) (V c main_v17) ∗ whole c (Memref.whole main_v20) (V c main_v20))

/-- what bypasses the region: every other unscoped buffer that is no window's array. -/
def Z0 (c : Dev nD) : sProp 𝕄 :=
  bigSep ((((Finset.univ.filter fun b : Ref sig .tc => ¬ b.isScoped) \ Finset.univ.image (Pipeline.arrRef spec0)) \ Finset.univ.image pre0.ref) \ tabs.toFinset)
    fun b => ((c : Thread nD τ).loc b) ↦{fullShare} V c b

/-- The table held at the region-entry contents is its buffer held whole at them. -/
theorem prefHeld0_eq (c : Dev nD) :
    (Pipeline.prefHeld pre0 c (fun _ => fullShare) (adm0 V).1 : sProp 𝕄) = whole c (Memref.whole main_v11) (V c main_v11) := by
  rw [adm0_fst V c]
  unfold Pipeline.prefHeld
  rw [bigSep_univ_eq_bigSepL [(0 : Fin 1)] (by decide) (by decide)]
  rfl

/-- The unscoped buffers that are neither a window's array nor the table: the three embedding tables, and the rest. -/
theorem unscopedRestP0_split (c : Dev nD) :
    (Pipeline.unscopedRestP pre0 spec0 c (V c) : sProp 𝕄)
      = iprop((whole c (Memref.whole main_v14) (V c main_v14) ∗ whole c (Memref.whole main_v17) (V c main_v17)
          ∗ whole c (Memref.whole main_v20) (V c main_v20)) ∗ Z0 V c) := by
  unfold Pipeline.unscopedRestP Z0
  rw [bigSep_sdiff_split (t := tabs.toFinset) (by decide), bigSep_eq_bigSepL tabs (by decide)]
  rfl

/-- The unscoped buffers that are no window's array: the table, the three embedding tables, the rest. -/
theorem unscopedRest0_eq (c : Dev nD) :
    (Pipeline.unscopedRest spec0 c (V c) : sProp 𝕄)
      = iprop(whole c (Memref.whole main_v11) (V c main_v11)
          ∗ (whole c (Memref.whole main_v14) (V c main_v14) ∗ whole c (Memref.whole main_v17) (V c main_v17)
            ∗ whole c (Memref.whole main_v20) (V c main_v20)) ∗ Z0 V c) := by
  rw [Pipeline.unscopedRest_split preFacts0 c (V c), ← adm0_fst V c, prefHeld0_eq, unscopedRestP0_split]

/-- ENTRY: the table, what enters the invariant, what bypasses. -/
theorem hentry0 (c : Dev nD) :
    iprop(Pipeline.unscopedRest spec0 c (V c) ∗ Pipeline.ownSems0 osem c)
      ⊢ (|={Set.univ}=> iprop(Pipeline.prefHeld pre0 c (fun _ => fullShare) (adm0 V).1 ∗ X0 V c ∗ Z0 V c) : sProp 𝕄) := by
  rw [unscopedRest0_eq, ownSems0_eq0, prefHeld0_eq]; unfold X0
  iintro ⟨⟨Ht, ⟨H14, H17, H20⟩, Hz⟩, Hs⟩
  imodintro
  isplitl [Ht]; · iexact Ht
  isplitr [Hz]
  · isplitl [H14]; · iexact H14
    isplitl [H17]; · iexact H17
    isplitl [H20]; · iexact H20
    iexact Hs
  iexact Hz

/-- The invariant at the first point. -/
theorem hin0 (c : Dev nD) :
    iprop(X0 V c ∗ Pipeline.prefHeld pre0 c (fun _ => fullShare) (adm0 V).1 ∗ Pipeline.scopedRest (cfg0 (adm0 V)).spec c)
      ⊢ ((dat0 V c).Φ 0 : sProp 𝕄) := by
  rw [prefHeld0_eq, show (dat0 V c).Φ 0 = Φ0 V c from rfl]; unfold X0 Φ0
  iintro ⟨⟨H14, H17, H20, Hs⟩, Ht, Hr⟩
  isplitl [Ht]; · iexact Ht
  isplitl [H14]; · iexact H14
  isplitl [H17]; · iexact H17
  isplitl [H20]; · iexact H20
  isplitl [Hs]; · iexact Hs
  iexact Hr

/-- The invariant at the last point gives back the four tables, the semaphores at zero and the scoped rest. -/
theorem hout0 (c : Dev nD) :
    ((dat0 V c).Φ (Fin.last (cfg0 (adm0 V)).N) : sProp 𝕄)
      ⊢ iprop(Y0 V c ∗ Pipeline.ownSems0 osem c ∗ Pipeline.scopedRest (cfg0 (adm0 V)).spec c) := by
  rw [ownSems0_eq0, show (dat0 V c).Φ (Fin.last (cfg0 (adm0 V)).N) = Φ0 V c from rfl]; unfold Y0 Φ0
  iintro ⟨Ht, H14, H17, H20, Hs, Hr⟩
  isplitl [Ht H14 H17 H20]
  · isplitl [Ht]; · iexact Ht
    isplitl [H14]; · iexact H14
    isplitl [H17]; · iexact H17
    iexact H20
  isplitl [Hs]; · iexact Hs
  iexact Hr

/-- EXIT: the tables and what bypassed are the unscoped buffers that are no window's array, as found. -/
theorem hexit0 (c : Dev nD) :
    iprop(Y0 V c ∗ Z0 V c) ⊢ (|={Set.univ}=> Pipeline.unscopedRest spec0 c (V c) : sProp 𝕄) := by
  rw [unscopedRest0_eq]; unfold Y0
  iintro ⟨⟨Ht, H14, H17, H20⟩, Hz⟩
  imodintro
  isplitl [Ht]; · iexact Ht
  isplitr [Hz]
  · isplitl [H14]; · iexact H14
    isplitl [H17]; · iexact H17
    iexact H20
  iexact Hz

end Region0

end Cert.KernelIdeal.Hand

end
-- ==== Proof.KI.Region1.lean ====
/-
  The second kernel of the program as a pipeline region: the output projection.

  The kernel runs on a grid of 50 column tiles. At tile `t` it holds the whole hidden activation `h`
  (2048 × 1024, fetched once at the first tile and kept), the `t`-th 1024 × 640 tile of the output matrix and the
  `t`-th 1 × 640 tile of the output bias, and stores into its 2048 × 640 output tile

    h · round(W2 tile) + (the bias row, repeated down the rows),

  in one store that covers the tile. Stated here at a parameter `V`, the buffer contents when the region is entered:
  each window's block at a tile read off `V`, what the body leaves in the output tile as a function of the three
  input blocks, the body's triple, and the pipeline's body obligation at every tile. Nothing depends on the
  number family the values are taken in.
-/
import proofs.«403403_j35476429865350_3_alg».proof.Proof.KI.Common
import Idealize.ShloMosaic.Lib.Pipeline.FrameBody
import Idealize.ShloMosaic.Lib.Pipeline.Frame
import Idealize.ShloMosaic.Lib.Tactic

-- membership in a rectangle of these extents is looked at once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Region1
-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden activation's buffer holds the whole activation at every tile, though it is fetched at the first
    only: where it is not fetched its block index has not moved, and the body leaves it in place. For any proof
    data whose array is `V`'s and whose body leaves the block in place. -/
theorem before1_0_of {c : Dev nD} (dat : Dat τ (Elt F) Unit ℕ (UU nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix tile's buffer holds the tile of the point, fetched at every point. -/
theorem before1_1_of {c : Dev nD} (dat : Dat τ (Elt F) Unit ℕ (UU nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias tile's buffer holds the tile of the point, fetched at every point. -/
theorem before1_2_of {c : Dev nD} (dat : Dat τ (Elt F) Unit ℕ (UU nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x1024 := Rect.unit (s := S2048x1024) ![0, 0] S2048x1024.size inb_S2048x1024_S2048x1024_0_0
abbrev r1_1 : Rect S1024x640 := Rect.unit (s := S1024x640) ![0, 0] S1024x640.size inb_S1024x640_S1024x640_0_0
abbrev r1_2 : Rect S1x640 := Rect.unit (s := S1x640) ![0, 0] S1x640.size inb_S1x640_S1x640_0_0
abbrev r1_3 : Rect S2048x640 := Rect.unit (s := S2048x640) ![0, 0] S2048x640.size inb_S2048x640_S2048x640_0_0

/-! ## What the body leaves in the output tile -/

/-- The output tile after the body, from the three input blocks (`x0` the activation, `x1` the matrix tile, `x2`
    the bias tile): its one store, of the product plus the repeated bias row. -/
def out1_3 (x0 : Vec F S2048x1024 .bf16) (x1 : Vec F S1024x640 .f32) (x2 : Vec F S1x640 .f32) : Vec F S2048x640 .f32 :=
  View.canon [⟨r1_3, k1_pay1 (View.ld x1 r1_1) (View.ld x0 r1_0) (View.ld x2 r1_2)⟩]

/-- The store covers the tile. -/
theorem cover1_3 (p0 : Vec F S2048x640 .f32) (y : S2048x640.Idx) :
    ∃ pc ∈ ([⟨r1_3, p0⟩] : List (View.Piece (Elt F) S2048x640 .f32)), y ∈ pc.1.set :=
  View.cover_of_tiled [⟨r1_3, p0⟩] S2048x640.size (by rfl) y

/-! ## The body's triple -/

set_option maxHeartbeats 1000000 in
/-- The kernel body on whole staging memrefs, the inputs' at read contents `x0`, `x1`, `x2` and the output's at
    anything, runs to the continuation holding the inputs' as they were and the output's at `out1_3` of them. -/
theorem sound_kernel1 (c : Dev nD) (E : Set ℕ) (i : grid1.Coords)
    (arg1 : Memref sig .tc .vmem S2048x1024 .bf16) (harg1 : arg1.IsWhole) (arg2 : Memref sig .tc .vmem S1024x640 .f32) (harg2 : arg2.IsWhole)
    (arg3 : Memref sig .tc .vmem S1x640 .f32) (harg3 : arg3.IsWhole) (arg4 : Memref sig .tc .vmem S2048x640 .f32) (harg4 : arg4.IsWhole)
    (x0 : Vec F S2048x1024 .bf16) (x1 : Vec F S1024x640 .f32) (x2 : Vec F S1x640 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at tile `t`
    each input's buffer at its block and the output's at `out1_3` of the input blocks; the invariant the scoped rest
    and the random-number register, untouched; nothing owed; full shares. -/
def dat1 (c : Dev nD) : Dat τ (Elt F) Unit ℕ (UU nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every tile, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any tile: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Frame.lean ====
/-
  The run of the whole kernel program.

  The program is seven stretches in order: three stretches of array operations on the host side (the token ids
  padded, clamped and laid out as the three context columns; the bias laid out), the first kernel (the gather of
  the embedding rows, their sum, the bias and the activation), two more array operations (the activation and the
  output bias reshaped), the second kernel (the output projection, tile by tile), and a last reshape of the
  logits. The contents of every buffer at each of the eight boundaries are written down as a chain: a stretch of
  array operations takes the contents to what the operations compute from them, and a kernel changes only its
  pipeline's arrays, which end at what the pipeline's write-backs leave. Each stretch and each kernel is then a
  segment of the program from one boundary's contents to the next, and the launch of the whole program follows
  from the segments: every fair execution terminates, and at the end every buffer holds the last boundary's
  contents. The five arguments are written by no stretch and by no kernel, so they end as launched.
-/
import proofs.«403403_j35476429865350_3_alg».proof.Proof.KI.Region0
import proofs.«403403_j35476429865350_3_alg».proof.Proof.KI.Region1
import proofs.«403403_j35476429865350_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic
import Idealize.ShloMosaic.Lib.ValueIdx

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the program's. -/
abbrev EP : Emb (UR sig nD τ) (MT nD τ sig Unit (Elt F) ℕ (UU nD τ) ℕ) := embL

variable (m : (ℓ : Loc nD τ sig) → Buf (Elt F) ℓ) (ρ : Dev nD → PrngReg)

/-! ## The buffers' contents at the eight boundaries -/

/-- Core `c`'s buffers at launch. -/
abbrev W0 : Dev nD → Valuation τ sig (Elt F) := fun c b => (s₀ m ρ).mem ((c : Dev nD), b)
/-- After the first stretch of array operations. -/
abbrev W1 : Dev nD → Valuation τ sig (Elt F) := fun c => StableHlo.after hostOps0 (W0 m ρ c)
/-- After the clamp of the token ids. -/
abbrev W2 : Dev nD → Valuation τ sig (Elt F) := fun c => StableHlo.after hostOps0_1 (W1 m ρ c)
/-- After the third stretch: what the first kernel is entered with. -/
abbrev W3 : Dev nD → Valuation τ sig (Elt F) := fun c => StableHlo.after hostOps0_2 (W2 m ρ c)
/-- The same, read at the TensorCore's references. -/
abbrev V0 : (c : Dev nD) → (b : Ref sig .tc) → Buf (Elt F) ((c : Thread nD τ).loc b) := fun c b => W0 m ρ c b
abbrev V1 : (c : Dev nD) → (b : Ref sig .tc) → Buf (Elt F) ((c : Thread nD τ).loc b) := fun c b => W1 m ρ c b
abbrev V2 : (c : Dev nD) → (b : Ref sig .tc) → Buf (Elt F) ((c : Thread nD τ).loc b) := fun c b => W2 m ρ c b
abbrev V3 : (c : Dev nD) → (b : Ref sig .tc) → Buf (Elt F) ((c : Thread nD τ).loc b) := fun c b => W3 m ρ c b

/-- When the first kernel returns: its pipeline's arrays at what the write-backs leave (an input as entered), every
    other buffer as entered. -/
def W4 (c : Dev nD) : Valuation τ sig (Elt F) :=
  Pipeline.withArrays spec0 c (W3 m ρ c) fun w => (dat0 (V3 m ρ) c).arrAt w (cfg0 (adm0 (V3 m ρ))).N
theorem W4_arr (c : Dev nD) (w : Fin (cfg0 (adm0 (V3 m ρ))).W) :
    W4 m ρ c (Proc.devRef .tc (Pipeline.arrRef spec0 w)) = (dat0 (V3 m ρ) c).arrAt w (cfg0 (adm0 (V3 m ρ))).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At the first kernel's return each of its arrays holds what the pipeline leaves, and every other buffer what it
    held at entry. -/
theorem hF0 (c : Dev nD) (w : Fin (cfg0 (adm0 (V3 m ρ))).W) :
    (dat0 (V3 m ρ) c).arrAt w (cfg0 (adm0 (V3 m ρ))).N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the two reshapes: what the second kernel is entered with. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- When the second kernel returns: its arrays at what the write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 (launch1 (F := F)).win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the last reshape: the contents at the return. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-! ### The arguments end as launched: no array operation writes one, and a kernel reads one at most through an
    input window -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
/-- The output matrix is the second kernel's second window, an input: the pipeline leaves it as entered. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) :=
        (W6_arr m ρ c 1).trans (((dat1 (V5 m ρ) c).arrAt_in 1 rfl _).trans (A_eq1 (V5 m ρ) c 1))
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-! ## The proof data family and the thread state -/

/-- The prefetched tables' admissible contents: the first kernel's context table as that kernel is entered; the
    second kernel has no table. -/
def adm : (p : Fin 2) → (pcfgs (F := F) p).Adm
  | ⟨0, _⟩ => adm0 (V3 m ρ)
  | ⟨1, _⟩ => cfg1.toPCfg_adm
/-- Each pipeline's proof data, at its kernel's entry contents. -/
def pdats : (p : Fin 2) → (c : Dev nD) → Dat τ (Elt F) Unit ℕ (UU nD τ) ℕ (Pipeline.pin (pcfgs (F := F)) (adm m ρ) p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its
    debt, at nothing. -/
abbrev R (c : Dev nD) : sProp 𝕄 := iprop((∃ r, prngReg c r) ∗ ∃ W, owes (c : Thread nD τ) (0 : CellTallies nD τ sig Unit) W)
/-- A stretch of array operations as a segment: over every unscoped buffer, from the contents `W`, to what the
    operations compute from them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the random-number
    register at some state. -/
abbrev Tₙ (c : Dev nD) : sProp 𝕄 := iprop(StableHlo.held (c : Thread nD τ) (Pipeline.ucRefs τ sig) (W7 m ρ c) ∗ ∃ r, prngReg c r)

/-- The last stretch leaves the last thread state beside the core's debt, at nothing. -/
theorem last_split (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The kernels as segments -/

set_option backward.isDefEq.respectTransparency.types false in
/-- THE SECOND KERNEL over the thread state: entered from every unscoped buffer at `W5`, left at `W6`. Its arrays are
    split out of the unscoped buffers and put back at the exit contents; the random-number register goes into the
    pipeline's invariant and comes out; nothing owed; no semaphore of the kernel's own. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UU nD τ) (Lvl := ℕ) spec1 c (V5 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UU nD τ) (Lvl := ℕ)
      (launch1 (F := F)).win (launch1 (F := F)).arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The context table the first kernel is entered with holds row numbers of the embedding tables. -/
abbrev TblOk : Prop := ∀ (c : Dev nD) (j : Fin 3) (r : Fin 2048), ((V3 m ρ c main_v11 : S3x2048.Idx → BitVec 32) (ix2 j r)).toNat < 32000

set_option backward.isDefEq.respectTransparency.types false in
/-- THE FIRST KERNEL over the thread state: entered from every unscoped buffer at `W3`, left at `W4`. Its pipeline's
    arrays are split out of the unscoped buffers and put back at the exit contents; of the rest, the context table is
    lent to the pipeline, the three embedding tables and the kernel's three semaphores go into the kernel's invariant
    and come out as they went in, and the others pass by; the random-number register passes by; nothing owed. -/
def reg0 (htbl : TblOk m ρ) : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := Fin 3
  osem := osem
  ho := ownSemFacts0
  hbody c := (body_obligation0 (V3 m ρ) c (htbl c)).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := X0 (V3 m ρ) c
  Y c := Y0 (V3 m ρ) c
  Z c := iprop(Z0 (V3 m ρ) c ∗ ∃ r, prngReg c r)
  hentry c := by
    have hsplit := Pipeline.arrays_of_unscopedBufs (p := 0) (pcfgs (F := F)) (adm m ρ) (pdats m ρ) (launch0 (F := F)).win (launch0 (F := F)).arr_whole c
      ((pdats m ρ 0 c).share_full fun _ => rfl) (V3 m ρ c) fun _ => rfl
    rw [Pipeline.unscopedBufs_held] at hsplit
    iintro ⟨⟨Hub, Hp, HO⟩, Hos, -⟩
    ihave H := hsplit $$ Hub
    icases H with ⟨Ha, Hrest⟩
    imod (hentry0 (V3 m ρ) c) $$ [Hrest Hos] with ⟨Hpre, HX, HZ⟩
    · isplitl [Hrest]; · iexact Hrest
      iexact Hos
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [HX]; · iexact HX
    isplitl [HZ]; · iexact HZ
    iexact Hp
  hin c := hin0 (V3 m ρ) c
  hout c := hout0 (V3 m ρ) c
  hexit c := by
    have hjoin := Pipeline.unscopedBufs_of_arrays (p := 0) (pcfgs (F := F)) (adm m ρ) (Ix := Unit) (Name := ℕ) (U := UU nD τ) (Lvl := ℕ)
      (launch0 (F := F)).win (launch0 (F := F)).arr_whole c (pdats m ρ) ((pdats m ρ 0 c).share_full fun _ => rfl)
      (V3 m ρ c) (V4 m ρ c) ((pdats m ρ 0 c).arrAt · (cfg0 (adm0 (V3 m ρ))).N) (hF0 m ρ c) (hrest0 m ρ c)
    rw [Pipeline.unscopedBufs_held] at hjoin
    iintro ⟨Ha, HO, HY, HZ, Hp⟩
    imod (hexit0 (V3 m ρ) c) $$ [HY HZ] with Hrest
    · isplitl [HY]; · iexact HY
      iexact HZ
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

/-- The program's seven segments in order. -/
abbrev segs (htbl : TblOk m ρ) : List (Pipeline.Seg (pcfgs (F := F)) (adm m ρ) (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ htbl),
    .host (hseg hostOps1 hostOps1_sub hostOps1_fresh (W4 m ρ)),
    .region (reg1 m ρ),
    .host (hseg hostOps2 hostOps2_sub hostOps2_fresh (W6 m ρ)) ]
/-- The program IS the run of the segments. -/
theorem main_run (htbl : TblOk m ρ) (c : Dev nD) : main (F := F) c = Pipeline.Seg.run (segs m ρ htbl) :=
  (main_chain c).trans (by chain_rfl)

set_option backward.isDefEq.respectTransparency.types false in
/-- THE RUN: at the compiled mesh, from any memory with zero counters, if the context table the first kernel is
    entered with holds row numbers, every fair execution of the program terminates and every final state has every
    unscoped buffer at the last boundary's contents. -/
theorem run_all (htbl : TblOk m ρ) :
    θ_run defs (onTc (τ := τ) (main (F := F))) ⟨m, fun _ => 0, ρ⟩
      (fun r => ∀ c : Dev nD, ∀ b ∈ Pipeline.ucRefs τ sig, r.2.mem ((c : Thread nD τ).1, b) = W7 m ρ c b) :=
  Pipeline.θ_run_regions_kit (pcfgs (F := F)) (adm m ρ) (pdats m ρ) () (cellOf_inj (adm m ρ)) EP defs₀ 𝒱₀ L lv m ρ main (segs m ρ htbl)
    (fun c Q => by rw [main_run m ρ htbl c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ)))
      (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_split m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KI.HostReads.lean ====
/-
  What the host operations of the kernel program leave in the buffers they write, read at one index.

  Between its two kernels the program only moves data: it pads the token sequence in front with three rows of
  zeros, reads the three windows of it that start at rows 0, 1, 2, stacks them as the three context slots of every
  position, flattens the positions and transposes; it clamps the ids into the vocabulary; it cuts the three
  embedding tables out of their stack and folds each row of 1024 features into 8 groups of 128; and it folds or
  unfolds the leading axes of the intermediate results. Each such array, at an index, is one entry of an array the
  stretch of operations started from; on ids that are in range the clamp changes nothing.
-/
import proofs.«403403_j35476429865350_3_alg».proof.Proof.Gen.KernelIdeal.Launch
import proofs.«403403_j35476429865350_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- The hidden activations flattened: row `r`, feature `e` is group `e / 128`, lane `e % 128` of row `r`. -/
theorem hflat_read (W : Valuation τ sig (Elt F)) (r : Fin 2048) (e : Fin 1024) :
    (StableHlo.after hostOps1 W (Proc.devRef .tc main_v23) : S2048x1024.Idx → F .bf16) (ix2 r e)
      = (W (Proc.devRef .tc main_v22) : S2048x8x128.Idx → F .bf16)
          (ix3 r (⟨e.val / 128, by have := e.isLt; omega⟩ : Fin 8) (⟨e.val % 128, Nat.mod_lt _ (by decide)⟩ : Fin 128)) := by
  have e0 : (StableHlo.after hostOps1 W (Proc.devRef .tc main_v23) : S2048x1024.Idx → F .bf16)
      = shapeCast S2048x1024 (W (Proc.devRef .tc main_v22) : S2048x8x128.Idx → F .bf16) shapeCasts_S2048x8x128_S2048x1024 := by
    simp only [hostOps1]; after_results; rfl
  rw [e0]
  refine shapeCast_apply (s := S2048x8x128) (t := S2048x1024) _ _ _ _ ?_
  rw [Shape.rowMajor_val_three, Shape.rowMajor_val_two]
  show (r.val * 8 + e.val / 128) * 128 + e.val % 128 = r.val * 1024 + e.val
  omega

/-- The output bias as a one-row matrix. -/
theorem b2row_read (W : Valuation τ sig (Elt F)) (v : Fin 32000) :
    (StableHlo.after hostOps1 W (Proc.devRef .tc main_v24) : S1x32000.Idx → F .f32) (ix2 (0 : Fin 1) v)
      = (W (Proc.devRef .tc main_arg4) : S32000.Idx → F .f32) (ix1 v) := by
  have e0 : (StableHlo.after hostOps1 W (Proc.devRef .tc main_v24) : S1x32000.Idx → F .f32)
      = shapeCast S1x32000 (W (Proc.devRef .tc main_arg4) : S32000.Idx → F .f32) shapeCasts_S32000_S1x32000 := by
    simp only [hostOps1]; after_results; rfl
  rw [e0]
  refine shapeCast_apply (s := S32000) (t := S1x32000) _ _ _ _ ?_
  rw [Shape.rowMajor_val_one, Shape.rowMajor_val_two]
  show v.val = 0 * 32000 + v.val
  omega

/-- The logits with the positions unflattened: position `(s, b)` is row `4 s + b`. -/
theorem out_read (W : Valuation τ sig (Elt F)) (s : Fin 512) (b : Fin 4) (v : Fin 32000) :
    (StableHlo.after hostOps2 W (Proc.devRef .tc main_v26) : S512x4x32000.Idx → F .f32) (ix3 s b v)
      = (W (Proc.devRef .tc main_v25) : S2048x32000.Idx → F .f32)
          (ix2 (⟨s.val * 4 + b.val, by have := s.isLt; have := b.isLt; omega⟩ : Fin 2048) v) := by
  have e0 : (StableHlo.after hostOps2 W (Proc.devRef .tc main_v26) : S512x4x32000.Idx → F .f32)
      = shapeCast S512x4x32000 (W (Proc.devRef .tc main_v25) : S2048x32000.Idx → F .f32) shapeCasts_S2048x32000_S512x4x32000 := by
    simp only [hostOps2]; after_results; rfl
  rw [e0]
  refine shapeCast_apply (s := S2048x32000) (t := S512x4x32000) _ _ _ _ ?_
  rw [Shape.rowMajor_val_three, Shape.rowMajor_val_two]
  show (s.val * 4 + b.val) * 32000 + v.val = (s.val * 4 + b.val) * 32000 + v.val
  rfl

/-- Embedding table 0 with each row's 1024 features folded into 8 groups of 128: group `a`, lane `l` is feature `128 a + l`. -/
theorem wslice0_read (W : Valuation τ sig (Elt F)) (v : Fin 32000) (a : Fin 8) (l : Fin 128) :
    (StableHlo.after hostOps0_2 W (Proc.devRef .tc main_v14) : S32000x8x128.Idx → F .f32) (ix3 v a l)
      = (W (Proc.devRef .tc main_arg1) : S3x32000x1024.Idx → F .f32)
          (ix3 (0 : Fin 3) v (⟨a.val * 128 + l.val, by have := a.isLt; have := l.isLt; omega⟩ : Fin 1024)) := by
  have e0 : (StableHlo.after hostOps0_2 W (Proc.devRef .tc main_v14) : S32000x8x128.Idx → F .f32)
      = shapeCast S32000x8x128 (shapeCast S32000x1024
          (extractStridedSlice S1x32000x1024 ![0, 0, 0] (W (Proc.devRef .tc main_arg1) : S3x32000x1024.Idx → F .f32)
            slices_S3x32000x1024_S1x32000x1024_0_0_0)
          shapeCasts_S1x32000x1024_S32000x1024) shapeCasts_S32000x1024_S32000x8x128 := by
    simp only [hostOps0_2]; after_results; rfl
  have hf : a.val * 128 + l.val < 1024 := by have := a.isLt; have := l.isLt; omega
  rw [e0]
  refine (shapeCast_apply _ _ _ (ix2 v (⟨a.val * 128 + l.val, hf⟩ : Fin 1024)) ?_).trans ?_
  · rw [Shape.rowMajor_val_three, Shape.rowMajor_val_two]
    show v.val * 1024 + (a.val * 128 + l.val) = (v.val * 8 + a.val) * 128 + l.val
    omega
  refine (shapeCast_apply _ _ _ (ix3 (0 : Fin 1) v (⟨a.val * 128 + l.val, hf⟩ : Fin 1024)) ?_).trans ?_
  · rw [Shape.rowMajor_val_three, Shape.rowMajor_val_two]
    show (0 * 32000 + v.val) * 1024 + (a.val * 128 + l.val) = v.val * 1024 + (a.val * 128 + l.val)
    omega
  exact extractStridedSlice_apply _ _ _ _ _ (fun d => match d with
    | ⟨0, _⟩ => by show 0 = 0 + 0; rfl
    | ⟨1, _⟩ => by show v.val = 0 + v.val; omega
    | ⟨2, _⟩ => by show a.val * 128 + l.val = 0 + (a.val * 128 + l.val); omega)

/-- Embedding table 1 with each row's 1024 features folded into 8 groups of 128: group `a`, lane `l` is feature `128 a + l`. -/
theorem wslice1_read (W : Valuation τ sig (Elt F)) (v : Fin 32000) (a : Fin 8) (l : Fin 128) :
    (StableHlo.after hostOps0_2 W (Proc.devRef .tc main_v17) : S32000x8x128.Idx → F .f32) (ix3 v a l)
      = (W (Proc.devRef .tc main_arg1) : S3x32000x1024.Idx → F .f32)
          (ix3 (1 : Fin 3) v (⟨a.val * 128 + l.val, by have := a.isLt; have := l.isLt; omega⟩ : Fin 1024)) := by
  have e0 : (StableHlo.after hostOps0_2 W (Proc.devRef .tc main_v17) : S32000x8x128.Idx → F .f32)
      = shapeCast S32000x8x128 (shapeCast S32000x1024
          (extractStridedSlice S1x32000x1024 ![1, 0, 0] (W (Proc.devRef .tc main_arg1) : S3x32000x1024.Idx → F .f32)
            slices_S3x32000x1024_S1x32000x1024_1_0_0)
          shapeCasts_S1x32000x1024_S32000x1024) shapeCasts_S32000x1024_S32000x8x128 := by
    simp only [hostOps0_2]; after_results; rfl
  have hf : a.val * 128 + l.val < 1024 := by have := a.isLt; have := l.isLt; omega
  rw [e0]
  refine (shapeCast_apply _ _ _ (ix2 v (⟨a.val * 128 + l.val, hf⟩ : Fin 1024)) ?_).trans ?_
  · rw [Shape.rowMajor_val_three, Shape.rowMajor_val_two]
    show v.val * 1024 + (a.val * 128 + l.val) = (v.val * 8 + a.val) * 128 + l.val
    omega
  refine (shapeCast_apply _ _ _ (ix3 (0 : Fin 1) v (⟨a.val * 128 + l.val, hf⟩ : Fin 1024)) ?_).trans ?_
  · rw [Shape.rowMajor_val_three, Shape.rowMajor_val_two]
    show (0 * 32000 + v.val) * 1024 + (a.val * 128 + l.val) = v.val * 1024 + (a.val * 128 + l.val)
    omega
  exact extractStridedSlice_apply _ _ _ _ _ (fun d => match d with
    | ⟨0, _⟩ => by show 1 = 1 + 0; rfl
    | ⟨1, _⟩ => by show v.val = 0 + v.val; omega
    | ⟨2, _⟩ => by show a.val * 128 + l.val = 0 + (a.val * 128 + l.val); omega)

/-- Embedding table 2 with each row's 1024 features folded into 8 groups of 128: group `a`, lane `l` is feature `128 a + l`. -/
theorem wslice2_read (W : Valuation τ sig (Elt F)) (v : Fin 32000) (a : Fin 8) (l : Fin 128) :
    (StableHlo.after hostOps0_2 W (Proc.devRef .tc main_v20) : S32000x8x128.Idx → F .f32) (ix3 v a l)
      = (W (Proc.devRef .tc main_arg1) : S3x32000x1024.Idx → F .f32)
          (ix3 (2 : Fin 3) v (⟨a.val * 128 + l.val, by have := a.isLt; have := l.isLt; omega⟩ : Fin 1024)) := by
  have e0 : (StableHlo.after hostOps0_2 W (Proc.devRef .tc main_v20) : S32000x8x128.Idx → F .f32)
      = shapeCast S32000x8x128 (shapeCast S32000x1024
          (extractStridedSlice S1x32000x1024 ![2, 0, 0] (W (Proc.devRef .tc main_arg1) : S3x32000x1024.Idx → F .f32)
            slices_S3x32000x1024_S1x32000x1024_2_0_0)
          shapeCasts_S1x32000x1024_S32000x1024) shapeCasts_S32000x1024_S32000x8x128 := by
    simp only [hostOps0_2]; after_results; rfl
  have hf : a.val * 128 + l.val < 1024 := by have := a.isLt; have := l.isLt; omega
  rw [e0]
  refine (shapeCast_apply _ _ _ (ix2 v (⟨a.val * 128 + l.val, hf⟩ : Fin 1024)) ?_).trans ?_
  · rw [Shape.rowMajor_val_three, Shape.rowMajor_val_two]
    show v.val * 1024 + (a.val * 128 + l.val) = (v.val * 8 + a.val) * 128 + l.val
    omega
  refine (shapeCast_apply _ _ _ (ix3 (0 : Fin 1) v (⟨a.val * 128 + l.val, hf⟩ : Fin 1024)) ?_).trans ?_
  · rw [Shape.rowMajor_val_three, Shape.rowMajor_val_two]
    show (0 * 32000 + v.val) * 1024 + (a.val * 128 + l.val) = v.val * 1024 + (a.val * 128 + l.val)
    omega
  exact extractStridedSlice_apply _ _ _ _ _ (fun d => match d with
    | ⟨0, _⟩ => by show 2 = 2 + 0; rfl
    | ⟨1, _⟩ => by show v.val = 0 + v.val; omega
    | ⟨2, _⟩ => by show a.val * 128 + l.val = 0 + (a.val * 128 + l.val); omega)

/-- The hidden bias folded the same way. -/
theorem b1blk_read (W : Valuation τ sig (Elt F)) (a : Fin 8) (l : Fin 128) :
    (StableHlo.after hostOps0_2 W (Proc.devRef .tc main_v21) : S1x8x128.Idx → F .f32) (ix3 (0 : Fin 1) a l)
      = (W (Proc.devRef .tc main_arg2) : S1024.Idx → F .f32)
          (ix1 (⟨a.val * 128 + l.val, by have := a.isLt; have := l.isLt; omega⟩ : Fin 1024)) := by
  have e0 : (StableHlo.after hostOps0_2 W (Proc.devRef .tc main_v21) : S1x8x128.Idx → F .f32)
      = shapeCast S1x8x128 (W (Proc.devRef .tc main_arg2) : S1024.Idx → F .f32) shapeCasts_S1024_S1x8x128 := by
    simp only [hostOps0_2]; after_results; rfl
  rw [e0]
  refine shapeCast_apply (s := S1024) (t := S1x8x128) _ _ _ _ ?_
  rw [Shape.rowMajor_val_one, Shape.rowMajor_val_three]
  show a.val * 128 + l.val = (0 * 8 + a.val) * 128 + l.val
  omega

/-! ## The context table -/

/-- On a word below 32000 the signed clamp to `[0, 31999]` changes nothing: the word is not negative, so the
    lower bound leaves it, and it is at most 31999, so the upper bound leaves it. -/
theorem clamp_of_lt (w : BitVec 32) (h : w.toNat < 32000) : IntOp.minsi 31999#32 (IntOp.maxsi 0#32 w) = w := by
  have h0 : w.slt 0#32 = false := by
    simp only [BitVec.slt, BitVec.toInt_eq_toNat_cond]
    simp; omega
  have hm : IntOp.maxsi 0#32 w = w := by
    unfold IntOp.maxsi; rw [h0]; rfl
  have h1 : (31999#32).slt w = false := by
    simp only [BitVec.slt, BitVec.toInt_eq_toNat_cond]
    simp; omega
  rw [hm]; unfold IntOp.minsi; rw [h1]; rfl

/-- The sequence padded in front with three rows of zeros. -/
def padTok (tok : S512x4.Idx → BitVec 32) : S515x4.Idx → BitVec 32 :=
  concatenate S515x4 0 [⟨S3x4, broadcastInDim S3x4 ![] bcast_S_S3x4 (constantI S_ 32 0#32)⟩, ⟨S512x4, tok⟩]
    concatenates_S3x4_S512x4_S515x4_d0

/-- Context slot `j`: the window of the padded sequence that starts at row `j`, with a unit axis appended. -/
def slotTok (tok : S512x4.Idx → BitVec 32) : Fin 3 → (S512x4x1.Idx → BitVec 32)
  | ⟨0, _⟩ => broadcastInDim S512x4x1 ![0, 1] bcast_S512x4_S512x4x1_0_1
      (extractStridedSlice S512x4 ![0, 0] (padTok tok) slices_S515x4_S512x4_0_0)
  | ⟨1, _⟩ => broadcastInDim S512x4x1 ![0, 1] bcast_S512x4_S512x4x1_0_1
      (extractStridedSlice S512x4 ![1, 0] (padTok tok) slices_S515x4_S512x4_1_0)
  | ⟨2, _⟩ => broadcastInDim S512x4x1 ![0, 1] bcast_S512x4_S512x4x1_0_1
      (extractStridedSlice S512x4 ![2, 0] (padTok tok) slices_S515x4_S512x4_2_0)

/-- The three slots stacked on a last axis, the positions flattened, and the slot axis moved in front. -/
def ctxArr (tok : S512x4.Idx → BitVec 32) : S3x2048.Idx → BitVec 32 :=
  transpose S3x2048 [1, 0]
    (shapeCast S2048x3
      (concatenate S512x4x3 2 (List.ofFn fun n : Fin 3 => (⟨S512x4x1, slotTok tok n⟩ : (s : Shape) × (s.Idx → BitVec 32)))
        concatenates_S512x4x1_S512x4x1_S512x4x1_S512x4x3_d2)
      shapeCasts_S512x4x3_S2048x3)
    transposes_S2048x3_S3x2048_1_0

/-- The padded sequence at a row: zero on the first three rows, the sequence three rows up after them. -/
theorem padTok_read (tok : S512x4.Idx → BitVec 32) (p : Fin 515) (b : Fin 4) :
    padTok tok (ix2 p b) = if h : 3 ≤ p.val then tok (ix2 (⟨p.val - 3, by have := p.isLt; omega⟩ : Fin 512) b) else 0#32 := by
  unfold padTok
  by_cases h : 3 ≤ p.val
  · rw [dif_pos h]
    exact concatenate_pair_apply_right (t := S515x4) (s₁ := S3x4) (s₂ := S512x4) (0 : Fin 2)
      (broadcastInDim S3x4 ![] bcast_S_S3x4 (constantI S_ 32 0#32)) tok concatenates_S3x4_S512x4_S515x4_d0 (ix2 p b) rfl rfl
      (ix2 (⟨p.val - 3, by have := p.isLt; omega⟩ : Fin 512) b)
      (fun d hd => match d, hd with
        | ⟨0, _⟩, hd => absurd (Fin.ext rfl) hd
        | ⟨1, _⟩, _ => rfl)
      (by show (p.val - 3) + 3 = p.val; omega)
  · rw [dif_neg h]
    exact (concatenate_pair_apply_left (t := S515x4) (s₁ := S3x4) (s₂ := S512x4) (0 : Fin 2)
      (broadcastInDim S3x4 ![] bcast_S_S3x4 (constantI S_ 32 0#32)) tok concatenates_S3x4_S512x4_S515x4_d0 (ix2 p b) rfl
      (ix2 (⟨p.val, by omega⟩ : Fin 3) b) (fun d => match d with
        | ⟨0, _⟩ => rfl
        | ⟨1, _⟩ => rfl)).trans rfl

/-- Slot `j` at position `(s, b)` is row `s + j` of the padded sequence. -/
theorem slotTok_read (tok : S512x4.Idx → BitVec 32) (j : Fin 3) (s : Fin 512) (b : Fin 4) :
    slotTok tok j (ix3 s b (0 : Fin 1)) = padTok tok (ix2 (⟨s.val + j.val, by have := s.isLt; have := j.isLt; omega⟩ : Fin 515) b) := by
  match j with
  | ⟨0, _⟩ =>
    refine (broadcastInDim_apply _ bcast_S512x4_S512x4x1_0_1
      (extractStridedSlice S512x4 ![0, 0] (padTok tok) slices_S515x4_S512x4_0_0) (ix3 s b (0 : Fin 1)) (ix2 s b) (fun a => match a with
      | ⟨0, _⟩ => by show s.val = if (512 : Nat) = 1 then 0 else s.val; rw [if_neg (by decide)]
      | ⟨1, _⟩ => by show b.val = if (4 : Nat) = 1 then 0 else b.val; rw [if_neg (by decide)])).trans ?_
    exact extractStridedSlice_apply ![0, 0] (padTok tok) slices_S515x4_S512x4_0_0 (ix2 s b) _ (fun a => match a with
      | ⟨0, _⟩ => by show s.val + 0 = 0 + s.val; omega
      | ⟨1, _⟩ => by show b.val = 0 + b.val; omega)
  | ⟨1, _⟩ =>
    refine (broadcastInDim_apply _ bcast_S512x4_S512x4x1_0_1
      (extractStridedSlice S512x4 ![1, 0] (padTok tok) slices_S515x4_S512x4_1_0) (ix3 s b (0 : Fin 1)) (ix2 s b) (fun a => match a with
      | ⟨0, _⟩ => by show s.val = if (512 : Nat) = 1 then 0 else s.val; rw [if_neg (by decide)]
      | ⟨1, _⟩ => by show b.val = if (4 : Nat) = 1 then 0 else b.val; rw [if_neg (by decide)])).trans ?_
    exact extractStridedSlice_apply ![1, 0] (padTok tok) slices_S515x4_S512x4_1_0 (ix2 s b) _ (fun a => match a with
      | ⟨0, _⟩ => by show s.val + 1 = 1 + s.val; omega
      | ⟨1, _⟩ => by show b.val = 0 + b.val; omega)
  | ⟨2, _⟩ =>
    refine (broadcastInDim_apply _ bcast_S512x4_S512x4x1_0_1
      (extractStridedSlice S512x4 ![2, 0] (padTok tok) slices_S515x4_S512x4_2_0) (ix3 s b (0 : Fin 1)) (ix2 s b) (fun a => match a with
      | ⟨0, _⟩ => by show s.val = if (512 : Nat) = 1 then 0 else s.val; rw [if_neg (by decide)]
      | ⟨1, _⟩ => by show b.val = if (4 : Nat) = 1 then 0 else b.val; rw [if_neg (by decide)])).trans ?_
    exact extractStridedSlice_apply ![2, 0] (padTok tok) slices_S515x4_S512x4_2_0 (ix2 s b) _ (fun a => match a with
      | ⟨0, _⟩ => by show s.val + 2 = 2 + s.val; omega
      | ⟨1, _⟩ => by show b.val = 0 + b.val; omega)

/-- The context array at slot `j`, flattened position `r`: slot `j` of position `(r / 4, r % 4)`. -/
theorem ctxArr_read (tok : S512x4.Idx → BitVec 32) (j : Fin 3) (r : Fin 2048) :
    ctxArr tok (ix2 j r) = Cert.Spec.ctxTok tok j (⟨r.val / 4, by have := r.isLt; omega⟩ : Fin 512) (⟨r.val % 4, Nat.mod_lt _ (by decide)⟩ : Fin 4) := by
  have hs : r.val / 4 < 512 := by have := r.isLt; omega
  have hb : r.val % 4 < 4 := Nat.mod_lt _ (by decide)
  unfold ctxArr
  refine (transpose_apply [1, 0] _ transposes_S2048x3_S3x2048_1_0 (ix2 j r) (ix2 r j) (fun d => match d with
    | ⟨0, _⟩ => rfl
    | ⟨1, _⟩ => rfl)).trans ?_
  refine (shapeCast_apply (s := S512x4x3) (t := S2048x3) _ shapeCasts_S512x4x3_S2048x3 (ix2 r j)
    (ix3 (⟨r.val / 4, hs⟩ : Fin 512) (⟨r.val % 4, hb⟩ : Fin 4) j) ?_).trans ?_
  · rw [Shape.rowMajor_val_three, Shape.rowMajor_val_two]
    show (r.val / 4 * 4 + r.val % 4) * 3 + j.val = r.val * 3 + j.val
    omega
  refine (concatenate_ofFn_unit_apply (t := S512x4x3) (s₁ := S512x4x1) (2 : Fin 3) (slotTok tok) concatenates_S512x4x1_S512x4x1_S512x4x1_S512x4x3_d2 rfl rfl
    (ix3 (⟨r.val / 4, hs⟩ : Fin 512) (⟨r.val % 4, hb⟩ : Fin 4) j) j rfl
    (ix3 (⟨r.val / 4, hs⟩ : Fin 512) (⟨r.val % 4, hb⟩ : Fin 4) (0 : Fin 1)) (fun d hd => match d, hd with
      | ⟨0, _⟩, _ => rfl
      | ⟨1, _⟩, _ => rfl
      | ⟨2, _⟩, hd => absurd (Fin.ext rfl) hd)).trans ?_
  rw [slotTok_read, padTok_read]
  unfold Cert.Spec.ctxTok
  rfl

/-- What the first stretch leaves in the transposed context array. -/
theorem ctx_eq (W : Valuation τ sig (Elt F)) :
    (StableHlo.after hostOps0 W (Proc.devRef .tc main_v10) : S3x2048.Idx → BitVec 32)
      = ctxArr (W (Proc.devRef .tc main_arg0) : S512x4.Idx → BitVec 32) := by
  simp only [hostOps0]; after_results; rfl

/-- The table the first kernel reads its row numbers from: under the range hypothesis, the context slots themselves. -/
theorem tbl_read (W : Valuation τ sig (Elt F)) (hr : Cert.Spec.InRange (W (Proc.devRef .tc main_arg0) : S512x4.Idx → BitVec 32))
    (j : Fin 3) (r : Fin 2048) :
    (StableHlo.after hostOps0_1 (StableHlo.after hostOps0 W) (Proc.devRef .tc main_v11) : S3x2048.Idx → BitVec 32) (ix2 j r)
      = Cert.Spec.ctxTok (W (Proc.devRef .tc main_arg0) : S512x4.Idx → BitVec 32) j
          (⟨r.val / 4, by have := r.isLt; omega⟩ : Fin 512) (⟨r.val % 4, Nat.mod_lt _ (by decide)⟩ : Fin 4) := by
  have e1 : (StableHlo.after hostOps0_1 (StableHlo.after hostOps0 W) (Proc.devRef .tc main_v11) : S3x2048.Idx → BitVec 32)
      = minsi (broadcastInDim S3x2048 ![] bcast_S_S3x2048 (constantI S_ 32 31999#32))
          (maxsi (broadcastInDim S3x2048 ![] bcast_S_S3x2048 (constantI S_ 32 0#32))
            (StableHlo.after hostOps0 W (Proc.devRef .tc main_v10) : S3x2048.Idx → BitVec 32)) := by
    have c0 : (StableHlo.after hostOps0 W (Proc.devRef .tc main_c_0) : S_.Idx → BitVec 32) = constantI S_ 32 0#32 := by
      simp only [hostOps0]; after_results
    have c1 : (StableHlo.after hostOps0 W (Proc.devRef .tc main_c_1) : S_.Idx → BitVec 32) = constantI S_ 32 31999#32 := by
      simp only [hostOps0]; after_results
    rw [← c0, ← c1]
    generalize StableHlo.after hostOps0 W = V
    simp only [hostOps0_1]; after_results; rfl
  rw [e1, ctx_eq]
  show IntOp.minsi 31999#32 (IntOp.maxsi 0#32 (ctxArr _ (ix2 j r))) = _
  rw [ctxArr_read]
  exact clamp_of_lt _ (Cert.Spec.ctxTok_lt hr _ _ _)

/-- Every entry of that table is a row number of the vocabulary axis. -/
theorem tbl_lt (W : Valuation τ sig (Elt F)) (hr : Cert.Spec.InRange (W (Proc.devRef .tc main_arg0) : S512x4.Idx → BitVec 32))
    (j : Fin 3) (r : Fin 2048) :
    ((StableHlo.after hostOps0_1 (StableHlo.after hostOps0 W) (Proc.devRef .tc main_v11) : S3x2048.Idx → BitVec 32) (ix2 j r)).toNat
      < 32000 := by
  rw [tbl_read W hr]; exact Cert.Spec.ctxTok_lt hr _ _ _

end Cert.KernelIdeal.Hand

end
-- ==== Proof.KI.TblOk.lean ====
/-
  The context table the first kernel reads holds row numbers.

  The table is the 3 × 2048 array of context token ids: the token sequence padded in front with three zero rows, read
  at the three offsets, flattened and transposed, then clamped into the vocabulary. The stretch of array operations
  between the clamp and the first kernel does not write it, so the kernel is entered with what the clamp left; and when
  every token id of the launch memory is below 32000 so is every context id (a token of the sequence, or the padding's
  zero), and the clamp leaves it as it is.
-/
import proofs.«403403_j35476429865350_3_alg».proof.Proof.KI.Frame
import proofs.«403403_j35476429865350_3_alg».proof.Proof.KI.HostReads

noncomputable section

namespace Cert.KernelIdeal.Hand

open Cert.KernelIdeal Cert.KernelIdeal.Gen

open Idealize.ShloMosaic Idealize.ShloMosaic.TcCoe Idealize.ShloMosaic.ValueIdx

variable {F : FTy → Type} [FloatOps F]

/-- If every token id the program is launched with is in `[0, 32000)`, every entry of the context table the first
    kernel is entered with is a row number of the embedding tables. -/
theorem tblOk_of_inRange (m : (ℓ : Loc nD τ sig) → Buf (Elt F) ℓ) (ρ : Dev nD → PrngReg)
    (hr : ∀ c : Dev nD, Cert.Spec.InRange (m ((c : Thread nD τ).loc main_arg0))) : TblOk m ρ := by
  intro c j r
  have h3 : (V3 m ρ c main_v11 : S3x2048.Idx → BitVec 32)
      = (StableHlo.after hostOps0_1 (StableHlo.after hostOps0 (W0 m ρ c)) (Proc.devRef .tc main_v11) : S3x2048.Idx → BitVec 32) :=
    StableHlo.after_of_writes_sub hostOps0_2 _ hostOps0_2_writes (by decide)
  show ((V3 m ρ c main_v11 : S3x2048.Idx → BitVec 32) (ix2 j r)).toNat < 32000
  rw [h3]
  exact tbl_lt (W0 m ρ c) (hr c) j r

end Cert.KernelIdeal.Hand

end
-- ==== Proof.KI.Value.lean ====
/-
  The kernel program's values over the extended reals.

  The second kernel stores, tile by tile, the product of the hidden activations with a column tile of the output
  matrix plus the bias row; over the extended reals the rounding of the matrix tile is the identity and the product
  into a zero accumulator is a plain sum, so the 50 column tiles together hold one function of the arrays the
  region finds: `proj`. The first kernel stores, block by block, the activation `x ↦ x · σ(x)` of three gathered
  embedding rows plus the bias. Chained with the layout facts of the host operations between the kernels, these are
  the specified logits.
-/
import proofs.«403403_j35476429865350_3_alg».proof.Proof.KI.Region1
import proofs.«403403_j35476429865350_3_alg».proof.Proof.KI.Frame
import proofs.«403403_j35476429865350_3_alg».proof.Proof.KI.HostReads
import proofs.«403403_j35476429865350_3_alg».proof.Proof.Gen.KernelIdeal.Regions
import proofs.«403403_j35476429865350_3_alg».proof.Proof.Spec
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators
/-! ## The second kernel: the product of a row block with a column tile, plus the bias row -/

theorem lhs_proj_0 (i : S2048x640.Idx) (q : dot_S2048x1024_S1024x640_S2048x640_1_0_0_1_n_n.contr.Idx) :
    (dot_S2048x1024_S1024x640_S2048x640_1_0_0_1_n_n.lhsIdx i q 0).val = (i 0).val := by
  unfold DotDims.lhsIdx
  rw [dif_neg (show ¬(0 : Fin S2048x1024.rank) ∈ dot_S2048x1024_S1024x640_S2048x640_1_0_0_1_n_n.lhsBatch by decide), dif_pos (show (0 : Fin S2048x1024.rank) ∈ dot_S2048x1024_S1024x640_S2048x640_1_0_0_1_n_n.lhsNonContracting by decide)]
  rfl
theorem lhs_proj_1 (i : S2048x640.Idx) (q : dot_S2048x1024_S1024x640_S2048x640_1_0_0_1_n_n.contr.Idx) :
    (dot_S2048x1024_S1024x640_S2048x640_1_0_0_1_n_n.lhsIdx i q 1).val = (q ⟨0, by decide⟩).val :=
  dot_S2048x1024_S1024x640_S2048x640_1_0_0_1_n_n.lhsIdx_val_of_single rfl i q
theorem rhs_proj_0 (i : S2048x640.Idx) (q : dot_S2048x1024_S1024x640_S2048x640_1_0_0_1_n_n.contr.Idx) :
    (dot_S2048x1024_S1024x640_S2048x640_1_0_0_1_n_n.rhsIdx i q 0).val = (q ⟨0, by decide⟩).val :=
  dot_S2048x1024_S1024x640_S2048x640_1_0_0_1_n_n.rhsIdx_val_of_single rfl i q
theorem rhs_proj_1 (i : S2048x640.Idx) (q : dot_S2048x1024_S1024x640_S2048x640_1_0_0_1_n_n.contr.Idx) :
    (dot_S2048x1024_S1024x640_S2048x640_1_0_0_1_n_n.rhsIdx i q 1).val = (i 1).val := by
  unfold DotDims.rhsIdx
  rw [dif_neg (show ¬(1 : Fin S1024x640.rank) ∈ dot_S2048x1024_S1024x640_S2048x640_1_0_0_1_n_n.rhsBatch by decide), dif_pos (show (1 : Fin S1024x640.rank) ∈ dot_S2048x1024_S1024x640_S2048x640_1_0_0_1_n_n.rhsNonContracting by decide)]
  rfl

/-- The stored tile at row `p`, column `q`: the sum over the 1024 features of activation times matrix entry, plus the bias
    of the column. Over the extended reals the rounding of the matrix tile is the identity and the product into a zero
    accumulator is the plain sum. -/
theorem k1_pay1_apply (w : Vec Ideal S1024x640 .f32) (h : Vec Ideal S2048x1024 .bf16) (b : Vec Ideal S1x640 .f32)
    (p : Fin 2048) (q : Fin 640) :
    k1_pay1 (F := Ideal) w h b (ix2 p q) = (∑ e : Fin 1024, h (ix2 p e) * w (ix2 e q)) + b (ix2 (0 : Fin 1) q) := by
  unfold k1_pay1
  show addf (FloatOps.matmul dot_S2048x1024_S1024x640_S2048x640_1_0_0_1_n_n none
      (shapeCast S2048x1024 h shapeCasts_S2048x1024_S2048x1024) (truncf .bf16 w bitsLt_bf16_f32) (constant (F := Ideal) S2048x640 .f32 0x00000000#32))
    (broadcastTo S2048x640 (shapeCast S1x640 b shapeCasts_S1x640_S1x640) broadcasts_S1x640_S2048x640) (ix2 p q) = _
  rw [addf_apply, shapeCast_self, shapeCast_self, broadcastTo_1b_ab_apply, Ideal.matmul_constant_zero_apply,
    ← Equiv.sum_comp (ValueIdx.contrEquiv1 dot_S2048x1024_S1024x640_S2048x640_1_0_0_1_n_n 1024 rfl rfl).symm]
  congr 1
  refine Finset.sum_congr rfl fun k _ => ?_
  have hk := ValueIdx.contrEquiv1_symm_val dot_S2048x1024_S1024x640_S2048x640_1_0_0_1_n_n 1024 rfl rfl k
  have el : dot_S2048x1024_S1024x640_S2048x640_1_0_0_1_n_n.lhsIdx (ix2 p q) ((ValueIdx.contrEquiv1 dot_S2048x1024_S1024x640_S2048x640_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S2048x1024_S1024x640_S2048x640_1_0_0_1_n_n.rhsIdx (ix2 p q) ((ValueIdx.contrEquiv1 dot_S2048x1024_S1024x640_S2048x640_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]
  rfl

theorem zeros2 : (![0, 0] : Fin 2 → Nat) = fun _ => 0 := funext fun a => by fin_cases a <;> rfl

/-- The stored tile at any of its indices. -/
theorem k1_pay1_at (w : Vec Ideal S1024x640 .f32) (h : Vec Ideal S2048x1024 .bf16) (b : Vec Ideal S1x640 .f32) (y : S2048x640.Idx) :
    k1_pay1 (F := Ideal) w h b y = (∑ e : Fin 1024, h (ix2 (y 0) e) * w (ix2 e (y 1))) + b (ix2 (0 : Fin 1) (y 1)) := by
  obtain ⟨p, q, rfl⟩ : ∃ (p : Fin 2048) (q : Fin 640), y = ix2 p q := ⟨y 0, y 1, eq_ix2 y⟩
  exact k1_pay1_apply w h b p q

section Region1
variable (V : (c : Dev nD) → (b : Ref sig .tc) → Buf (Elt Ideal) ((c : Thread nD τ).loc b))

/-- The logits before the positions are unflattened: row `r`, column `v` is the activation row `r` times column `v` of
    the output matrix, plus the bias of `v`. -/
def projOf (h : S2048x1024.Idx → EReal) (W2 : S1024x32000.Idx → EReal) (b2 : S1x32000.Idx → EReal) : S2048x32000.Idx → EReal := fun i =>
  (∑ e : Fin 1024, h (ix2 (i 0) e) * W2 (ix2 e (i 1))) + b2 (ix2 (0 : Fin 1) (i 1))

/-- … of the arrays the region finds. -/
def proj (c : Dev nD) : S2048x32000.Idx → EReal := projOf (V c main_v23) (V c main_arg3) (V c main_v24)

/-- Where the windows' blocks sit at tile `t`: the activation is one block; the matrix, the bias row and the output are
    cut into column tiles, tile `t` at block column `t`. -/
theorem tiles1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- What tile `t` writes back is block `t` of `proj`. -/
theorem flushed1_eq (c : Dev nD) (t : Fin cfg1.N) :
    (dat1 (F := Ideal) V c).flushed 3 t = ((cfg1.win 3).blk t).view.read (Elt Ideal) (proj V c) := by
  show (cfg1.win 3).cut (grid1.coords t) ((dat1 V c).after 3 t) = _
  rw [after1_3]
  unfold out1_3
  rw [View.canon_unit_zero zeros2]
  simp only [View.ld_unit_zero (S := S2048x1024) zeros2, View.ld_unit_zero (S := S1024x640) zeros2, View.ld_unit_zero (S := S1x640) zeros2]
  obtain ⟨a0, a1, b0, b1, c0, c1, d0, d1⟩ := tiles1 t
  funext j
  refine (k1_pay1_at _ _ _ j).trans ?_
  rw [View.read_apply]
  unfold proj projOf
  have h0 : ∀ e : Fin 1024, (iblk1 V c 0 t : S2048x1024.Idx → EReal) (ix2 (j 0) e)
      = (V c main_v23 : S2048x1024.Idx → EReal) (ix2 ((((cfg1.win 3).blk t).view.emb j) 0) e) := fun e => by
    unfold iblk1
    rw [View.read_apply]
    show V c main_v23 _ = V c main_v23 _
    congr 1; funext a; apply Fin.ext
    match a with
    | ⟨0, _⟩ => show win1_0.index t (0 : Fin 2) * 2048 + 1 * (j 0).val = win1_3.index t (0 : Fin 2) * 2048 + 1 * (j 0).val; omega
    | ⟨1, _⟩ => show win1_0.index t (1 : Fin 2) * 1024 + 1 * e.val = e.val; omega
  have h1 : ∀ e : Fin 1024, (iblk1 V c 1 t : S1024x640.Idx → EReal) (ix2 e (j 1))
      = (V c main_arg3 : S1024x32000.Idx → EReal) (ix2 e ((((cfg1.win 3).blk t).view.emb j) 1)) := fun e => by
    unfold iblk1
    rw [View.read_apply]
    show V c main_arg3 _ = V c main_arg3 _
    congr 1; funext a; apply Fin.ext
    match a with
    | ⟨0, _⟩ => show win1_1.index t (0 : Fin 2) * 1024 + 1 * e.val = e.val; omega
    | ⟨1, _⟩ => show win1_1.index t (1 : Fin 2) * 640 + 1 * (j 1).val = win1_3.index t (1 : Fin 2) * 640 + 1 * (j 1).val; omega
  have h2 : (iblk1 V c 2 t : S1x640.Idx → EReal) (ix2 (0 : Fin 1) (j 1))
      = (V c main_v24 : S1x32000.Idx → EReal) (ix2 (0 : Fin 1) ((((cfg1.win 3).blk t).view.emb j) 1)) := by
    unfold iblk1
    rw [View.read_apply]
    show V c main_v24 _ = V c main_v24 _
    congr 1; funext a; apply Fin.ext
    match a with
    | ⟨0, _⟩ => show win1_2.index t (0 : Fin 2) * 1 + 1 * 0 = 0; omega
    | ⟨1, _⟩ => show win1_2.index t (1 : Fin 2) * 640 + 1 * (j 1).val = win1_3.index t (1 : Fin 2) * 640 + 1 * (j 1).val; omega
  rw [h2]
  exact congrArg (· + _) (Finset.sum_congr rfl fun e _ => by rw [h0 e, h1 e])

/-- An index of the output is in tile `t`'s block iff each coordinate is in the block's range on its axis. -/
theorem mem_blk1 (t : Fin cfg1.N) (i : S2048x32000.Idx) :
    i ∈ ((cfg1.win 3).blk t).view.set ↔ ∀ a : Fin 2, win1_3.index t a * S2048x640.size a ≤ (i a).val ∧ (i a).val < win1_3.index t a * S2048x640.size a + S2048x640.size a := by
  show i ∈ ((View.whole main_v25).slice (win1_3.rect t)).set ↔ _
  rw [View.set_slice_whole, Rect.mem_set_unit]
  exact Iff.rfl

/-- Every tile writes its block back. -/
theorem flush1 : ∀ t : Fin cfg1.N, (cfg1.win 3).flush t = true :=
  (by decide +kernel : ∀ t : Fin grid1.N, _)

/-- The column tiles cover the output: column `v` is in tile `v / 640`. -/
theorem cover1 (i : S2048x32000.Idx) : ∃ t : Fin cfg1.N, (cfg1.win 3).flush t = true ∧ i ∈ ((cfg1.win 3).blk t).view.set := by
  have hi0 : (i 0).val < 2048 := (i 0).isLt
  have hi1 : (i 1).val < 32000 := (i 1).isLt
  have hN : cfg1.N = 50 := N_1
  let t : Fin cfg1.N := ⟨(i 1).val / 640, by rw [hN]; omega⟩
  obtain ⟨a0, a1, b0, b1, c0, c1, d0, d1⟩ := tiles1 t
  refine ⟨t, flush1 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ =>
    show win1_3.index t (1 : Fin 2) * 640 ≤ (i 1).val ∧ (i 1).val < win1_3.index t (1 : Fin 2) * 640 + 640
    have ht : t.val = (i 1).val / 640 := rfl
    omega

/-- The output array after the region: `proj` of the arrays the region finds. -/
theorem region1_value (c : Dev nD) : (dat1 (F := Ideal) V c).arrAt 3 cfg1.N = proj V c :=
  (dat1 (F := Ideal) V c).arrAt_eq_of_cover 3 (proj V c) (fun t _ => flushed1_eq V c t) (cover1)

end Region1

/-! ## The first kernel: the three gathered rows and the bias, through the activation -/

theorem zeros3 : (![0, 0, 0] : Fin 3 → Nat) = fun _ => 0 := funext fun a => by fin_cases a <;> rfl

/-- A `[1, 8, 128]` block repeated along a leading axis of 64 reads, at `(r, a, l)`, its one slab at `(a, l)`. -/
theorem bcast_slab_apply {α : Type} (x : S1x8x128.Idx → α) (r : Fin 64) (a : Fin 8) (l : Fin 128) :
    broadcastTo S64x8x128 x broadcasts_S1x8x128_S64x8x128 (ix3 r a l) = x (ix3 (0 : Fin 1) a l) :=
  broadcastTo_apply x broadcasts_S1x8x128_S64x8x128 (ix3 r a l) (ix3 (0 : Fin 1) a l) fun d => match d with
    | ⟨0, _⟩ => by show (0 : Nat) = if (1 : Nat) = 1 then 0 else r.val; rw [if_pos rfl]
    | ⟨1, _⟩ => by show a.val = if (8 : Nat) = 1 then 0 else a.val; rw [if_neg (by decide)]
    | ⟨2, _⟩ => by show l.val = if (128 : Nat) = 1 then 0 else l.val; rw [if_neg (by decide)]

/-- The stored block at row `r`, group `a`, lane `l`: the activation of the three gathered entries plus the bias entry.
    Over the extended reals the final rounding is the identity. -/
theorem outBlock0_apply (x0 : Vec Ideal S1x8x128 .f32) (g0 g1 g2 : Vec Ideal S64x8x128 .f32) (r : Fin 64) (a : Fin 8) (l : Fin 128) :
    Cert.KernelIdeal.Hand.outBlock0 (F := Ideal) x0 g0 g1 g2 (ix3 r a l)
      = Cert.Spec.act (g0 (ix3 r a l) + g1 (ix3 r a l) + g2 (ix3 r a l) + x0 (ix3 (0 : Fin 1) a l)) := by
  unfold Cert.KernelIdeal.Hand.outBlock0
  rw [View.canon_unit_zero zeros3]
  simp only [View.ld_unit_zero (S := S64x8x128) zeros3, View.ld_unit_zero (S := S1x8x128) zeros3]
  unfold k0_pay1
  rw [shapeCast_self, truncf_apply, mulf_apply]
  show (addf (F := Ideal) (φ := .f32) (addf (F := Ideal) (φ := .f32) (addf (F := Ideal) (φ := .f32) g0 g1) g2)
        (broadcastTo S64x8x128 x0 broadcasts_S1x8x128_S64x8x128) (ix3 r a l))
      * Ideal.logistic (addf (F := Ideal) (φ := .f32) (addf (F := Ideal) (φ := .f32) (addf (F := Ideal) (φ := .f32) g0 g1) g2)
        (broadcastTo S64x8x128 x0 broadcasts_S1x8x128_S64x8x128) (ix3 r a l)) = _
  rw [addf_apply, addf_apply, addf_apply, bcast_slab_apply]
  rfl

/-! ## The first kernel's output array -/

/-- The stored block at any of its indices. -/
theorem outBlock0_at (x0 : Vec Ideal S1x8x128 .f32) (g0 g1 g2 : Vec Ideal S64x8x128 .f32) (y : S64x8x128.Idx) :
    Cert.KernelIdeal.Hand.outBlock0 (F := Ideal) x0 g0 g1 g2 y
      = Cert.Spec.act (g0 y + g1 y + g2 y + x0 (ix3 (0 : Fin 1) (y 1) (y 2))) := by
  obtain ⟨r, a, l, rfl⟩ : ∃ (r : Fin 64) (a : Fin 8) (l : Fin 128), y = ix3 r a l := ⟨y 0, y 1, y 2, eq_ix3 y⟩
  exact outBlock0_apply x0 g0 g1 g2 r a l

/-- The hidden activations row by row: the activation of the three embedding rows the table's ids select, plus the bias. -/
def hiddenOf (tbl : S3x2048.Idx → BitVec 32) (w0 w1 w2 : S32000x8x128.Idx → EReal) (bb : S1x8x128.Idx → EReal) :
    S2048x8x128.Idx → EReal := fun i =>
  Cert.Spec.act (w0 (ix3 (Cert.Spec.rowOf (tbl (ix2 (0 : Fin 3) (i 0)))) (i 1) (i 2))
    + w1 (ix3 (Cert.Spec.rowOf (tbl (ix2 (1 : Fin 3) (i 0)))) (i 1) (i 2))
    + w2 (ix3 (Cert.Spec.rowOf (tbl (ix2 (2 : Fin 3) (i 0)))) (i 1) (i 2)) + bb (ix3 (0 : Fin 1) (i 1) (i 2)))

/-- Where the two windows' blocks sit at grid point `t`: the bias is one block; the output is cut into 32 blocks of 64
    rows, point `t` at block `t`; and the point's one coordinate is `t`. -/
theorem tiles0 : ∀ t : Fin grid0.N, cc0_transform_3 (grid0.coords t) (0 : Fin 3) = 0 ∧ cc0_transform_3 (grid0.coords t) (1 : Fin 3) = 0
    ∧ cc0_transform_3 (grid0.coords t) (2 : Fin 3) = 0
    ∧ cc0_transform_4 (grid0.coords t) (0 : Fin 3) = t.val ∧ cc0_transform_4 (grid0.coords t) (1 : Fin 3) = 0
    ∧ cc0_transform_4 (grid0.coords t) (2 : Fin 3) = 0 ∧ ((grid0.coords t) (0 : Fin 1)).val = t.val := by
  decide +kernel

/-- The output's block index moves at every point. -/
theorem moves0 : ∀ (t : Fin grid0.N) (h : t.val + 1 < grid0.N),
    cc0_transform_4 (grid0.coords ⟨t.val + 1, h⟩) (0 : Fin 3) ≠ cc0_transform_4 (grid0.coords t) (0 : Fin 3) := by
  decide +kernel

section Region0
variable (V : (c : Dev nD) → (b : Ref sig .tc) → Buf (Elt Ideal) ((c : Thread nD τ).loc b))

/-- … of the arrays the region finds. -/
def hid (c : Dev nD) : S2048x8x128.Idx → EReal :=
  hiddenOf (V c main_v11) (V c main_v14) (V c main_v17) (V c main_v20) (V c main_v21)

/-- Every point writes its block back. -/
theorem flush0 (t : Fin (cfg0 (adm0 V)).N) : ((cfg0 (adm0 V)).win (1 : Fin 2)).flush t = true := by
  have hN : grid0.N = 32 := by decide
  unfold Pipeline.Window.flush
  show (true && (decide (t.val + 1 = grid0.N) || decide (∃ h : t.val + 1 < grid0.N,
    cc0_transform_4 (grid0.coords ⟨t.val + 1, h⟩) ≠ cc0_transform_4 (grid0.coords t)))) = true
  rw [Bool.true_and, Bool.or_eq_true, decide_eq_true_eq, decide_eq_true_eq]
  by_cases h : t.val + 1 < grid0.N
  · exact Or.inr ⟨h, fun e => moves0 t h (congrFun e 0)⟩
  · left
    have : t.val < grid0.N := t.isLt
    omega

/-- What point `t` writes back is block `t` of `hid`. -/
theorem flushed0_eq (c : Dev nD) (t : Fin (cfg0 (adm0 V)).N) :
    (dat0 (F := Ideal) V c).flushed (1 : Fin 2) t
      = (((cfg0 (adm0 V)).win (1 : Fin 2)).blk t).view.read (Elt Ideal) (hid V c) := by
  show ((cfg0 (adm0 V)).win (1 : Fin 2)).cut ((cfg0 (adm0 V)).grid.coords t) ((dat0 V c).after (1 : Fin 2) t) = _
  rw [after0_1]
  obtain ⟨a0, a1, a2, b0, b1, b2, hp⟩ := tiles0 t
  funext j
  refine (outBlock0_at _ _ _ _ j).trans ?_
  rw [View.read_apply]
  unfold hid hiddenOf gathered
  have hE0 : ((((cfg0 (adm0 V)).win (1 : Fin 2)).blk t).view.emb j) 0 = posOf ((grid0.coords t) (0 : Fin 1)) (j 0) := Fin.ext (by
    show cc0_transform_4 (grid0.coords t) (0 : Fin 3) * 64 + 1 * (j 0).val = 64 * ((grid0.coords t) (0 : Fin 1)).val + (j 0).val
    omega)
  have hE1 : ((((cfg0 (adm0 V)).win (1 : Fin 2)).blk t).view.emb j) 1 = j 1 := Fin.ext (by
    show cc0_transform_4 (grid0.coords t) (1 : Fin 3) * 8 + 1 * (j 1).val = (j 1).val
    omega)
  have hE2 : ((((cfg0 (adm0 V)).win (1 : Fin 2)).blk t).view.emb j) 2 = j 2 := Fin.ext (by
    show cc0_transform_4 (grid0.coords t) (2 : Fin 3) * 128 + 1 * (j 2).val = (j 2).val
    omega)
  have hb : (iblk0 V c t : S1x8x128.Idx → EReal) (ix3 (0 : Fin 1) (j 1) (j 2))
      = (V c main_v21 : S1x8x128.Idx → EReal) (ix3 (0 : Fin 1) (j 1) (j 2)) := by
    unfold iblk0
    rw [View.read_apply]
    show V c main_v21 _ = V c main_v21 _
    congr 1; funext a; apply Fin.ext
    match a with
    | ⟨0, _⟩ => show cc0_transform_3 (grid0.coords t) (0 : Fin 3) * 1 + 1 * 0 = 0; omega
    | ⟨1, _⟩ => show cc0_transform_3 (grid0.coords t) (1 : Fin 3) * 8 + 1 * (j 1).val = (j 1).val; omega
    | ⟨2, _⟩ => show cc0_transform_3 (grid0.coords t) (2 : Fin 3) * 128 + 1 * (j 2).val = (j 2).val; omega
  rw [hE0, hE1, hE2, hb]
  rfl

/-- An index of the output is in point `t`'s block iff each coordinate is in the block's range on its axis. -/
theorem mem_blk0 (t : Fin (cfg0 (adm0 V)).N) (i : S2048x8x128.Idx) :
    i ∈ (((cfg0 (adm0 V)).win (1 : Fin 2)).blk t).view.set ↔ ∀ a : Fin 3, cc0_transform_4 (grid0.coords t) a * S64x8x128.size a ≤ (i a).val
      ∧ (i a).val < cc0_transform_4 (grid0.coords t) a * S64x8x128.size a + S64x8x128.size a := by
  show i ∈ ((View.whole main_v22).slice (((cfg0 (adm0 V)).win (1 : Fin 2)).rect t)).set ↔ _
  rw [View.set_slice_whole, Rect.mem_set_unit]
  exact Iff.rfl

/-- The row blocks cover the output: row `r` is in block `r / 64`. -/
theorem cover0 (i : S2048x8x128.Idx) :
    ∃ t : Fin (cfg0 (adm0 V)).N, ((cfg0 (adm0 V)).win (1 : Fin 2)).flush t = true ∧ i ∈ (((cfg0 (adm0 V)).win (1 : Fin 2)).blk t).view.set := by
  have hi0 : (i 0).val < 2048 := (i 0).isLt
  have hi1 : (i 1).val < 8 := (i 1).isLt
  have hi2 : (i 2).val < 128 := (i 2).isLt
  have hN : grid0.N = 32 := by decide
  let t : Fin grid0.N := ⟨(i 0).val / 64, by rw [hN]; omega⟩
  obtain ⟨a0, a1, a2, b0, b1, b2, hp⟩ := tiles0 t
  refine ⟨t, flush0 V t, ?_⟩
  rw [mem_blk0]
  intro a
  have ht : t.val = (i 0).val / 64 := rfl
  match a with
  | ⟨0, _⟩ => show cc0_transform_4 (grid0.coords t) (0 : Fin 3) * 64 ≤ (i 0).val ∧ (i 0).val < cc0_transform_4 (grid0.coords t) (0 : Fin 3) * 64 + 64; omega
  | ⟨1, _⟩ => show cc0_transform_4 (grid0.coords t) (1 : Fin 3) * 8 ≤ (i 1).val ∧ (i 1).val < cc0_transform_4 (grid0.coords t) (1 : Fin 3) * 8 + 8; omega
  | ⟨2, _⟩ => show cc0_transform_4 (grid0.coords t) (2 : Fin 3) * 128 ≤ (i 2).val ∧ (i 2).val < cc0_transform_4 (grid0.coords t) (2 : Fin 3) * 128 + 128; omega

/-- The output array after the region: `hid` of the arrays the region finds. -/
theorem region0_value (c : Dev nD) : (dat0 (F := Ideal) V c).arrAt (1 : Fin 2) (cfg0 (adm0 V)).N = hid V c :=
  (dat0 (F := Ideal) V c).arrAt_eq_of_cover (1 : Fin 2) (hid V c) (fun t _ => flushed0_eq V c t) (cover0 V)

end Region0

/-! ## From the reads to the specification -/

/-- The whole chain, as arithmetic on arrays: a table of context ids, three embedding tables and a bias folded into
    groups of 128 lanes, the hidden activations computed from them row by row and flattened, the projection with its
    bias row, and the rows unflattened to positions — together they are the specified logits. Position `(s, b)` is row
    `4 s + b`, and feature `e` is lane `e % 128` of group `e / 128`. -/
theorem logits_of_reads
    (tok : Cert.Spec.STok.Idx → BitVec 32) (W1 : Cert.Spec.SW1.Idx → EReal) (b1 : Cert.Spec.SB1.Idx → EReal)
    (W2 : Cert.Spec.SW2.Idx → EReal) (b2 : Cert.Spec.SB2.Idx → EReal)
    (tbl : S3x2048.Idx → BitVec 32) (w0 w1 w2 : S32000x8x128.Idx → EReal) (bb : S1x8x128.Idx → EReal)
    (h3 : S2048x8x128.Idx → EReal) (hf : S2048x1024.Idx → EReal) (b2r : S1x32000.Idx → EReal)
    (o2 : S2048x32000.Idx → EReal) (o : S512x4x32000.Idx → EReal)
    (htbl : ∀ (j : Fin 3) (r : Fin 2048), tbl (ix2 j r)
      = Cert.Spec.ctxTok tok j (⟨r.val / 4, by have := r.isLt; omega⟩ : Fin 512) (⟨r.val % 4, Nat.mod_lt _ (by decide)⟩ : Fin 4))
    (hw0 : ∀ (v : Fin 32000) (a : Fin 8) (l : Fin 128), w0 (ix3 v a l)
      = W1 (ix3 (0 : Fin 3) v (⟨a.val * 128 + l.val, by have := a.isLt; have := l.isLt; omega⟩ : Fin 1024)))
    (hw1 : ∀ (v : Fin 32000) (a : Fin 8) (l : Fin 128), w1 (ix3 v a l)
      = W1 (ix3 (1 : Fin 3) v (⟨a.val * 128 + l.val, by have := a.isLt; have := l.isLt; omega⟩ : Fin 1024)))
    (hw2 : ∀ (v : Fin 32000) (a : Fin 8) (l : Fin 128), w2 (ix3 v a l)
      = W1 (ix3 (2 : Fin 3) v (⟨a.val * 128 + l.val, by have := a.isLt; have := l.isLt; omega⟩ : Fin 1024)))
    (hbb : ∀ (a : Fin 8) (l : Fin 128), bb (ix3 (0 : Fin 1) a l)
      = b1 (ix1 (⟨a.val * 128 + l.val, by have := a.isLt; have := l.isLt; omega⟩ : Fin 1024)))
    (hh3 : ∀ (r : Fin 2048) (a : Fin 8) (l : Fin 128), h3 (ix3 r a l)
      = Cert.Spec.act (w0 (ix3 (Cert.Spec.rowOf (tbl (ix2 (0 : Fin 3) r))) a l) + w1 (ix3 (Cert.Spec.rowOf (tbl (ix2 (1 : Fin 3) r))) a l)
          + w2 (ix3 (Cert.Spec.rowOf (tbl (ix2 (2 : Fin 3) r))) a l) + bb (ix3 (0 : Fin 1) a l)))
    (hhf : ∀ (r : Fin 2048) (e : Fin 1024), hf (ix2 r e)
      = h3 (ix3 r (⟨e.val / 128, by have := e.isLt; omega⟩ : Fin 8) (⟨e.val % 128, Nat.mod_lt _ (by decide)⟩ : Fin 128)))
    (hb2r : ∀ v : Fin 32000, b2r (ix2 (0 : Fin 1) v) = b2 (ix1 v))
    (ho2 : ∀ (r : Fin 2048) (v : Fin 32000), o2 (ix2 r v) = (∑ e : Fin 1024, hf (ix2 r e) * W2 (ix2 e v)) + b2r (ix2 (0 : Fin 1) v))
    (ho : ∀ (s : Fin 512) (b : Fin 4) (v : Fin 32000), o (ix3 s b v)
      = o2 (ix2 (⟨s.val * 4 + b.val, by have := s.isLt; have := b.isLt; omega⟩ : Fin 2048) v)) :
    o = Cert.Spec.logits tok W1 b1 W2 b2 := by
  funext i
  obtain ⟨s, b, v, rfl⟩ : ∃ (s : Fin 512) (b : Fin 4) (v : Fin 32000), i = ix3 s b v := ⟨i 0, i 1, i 2, eq_ix3 i⟩
  have hr : s.val * 4 + b.val < 2048 := by have := s.isLt; have := b.isLt; omega
  have ktbl : ∀ j : Fin 3, tbl (ix2 j (⟨s.val * 4 + b.val, hr⟩ : Fin 2048)) = Cert.Spec.ctxTok tok j s b := fun j => by
    rw [htbl]
    exact congrArg₂ (Cert.Spec.ctxTok tok j)
      (Fin.ext (by show (s.val * 4 + b.val) / 4 = s.val; have := b.isLt; omega))
      (Fin.ext (by show (s.val * 4 + b.val) % 4 = b.val; have := b.isLt; omega))
  have kw : ∀ (w : S32000x8x128.Idx → EReal) (j : Fin 3)
      (hw : ∀ (v : Fin 32000) (a : Fin 8) (l : Fin 128), w (ix3 v a l)
        = W1 (ix3 j v (⟨a.val * 128 + l.val, by have := a.isLt; have := l.isLt; omega⟩ : Fin 1024)))
      (v : Fin 32000) (e : Fin 1024),
      w (ix3 v (⟨e.val / 128, by have := e.isLt; omega⟩ : Fin 8) (⟨e.val % 128, Nat.mod_lt _ (by decide)⟩ : Fin 128)) = W1 (ix3 j v e) :=
    fun w j hw v e => by
      rw [hw]
      exact congrArg (fun x => W1 (ix3 j v x)) (Fin.ext (by show e.val / 128 * 128 + e.val % 128 = e.val; omega))
  have kb : ∀ e : Fin 1024,
      bb (ix3 (0 : Fin 1) (⟨e.val / 128, by have := e.isLt; omega⟩ : Fin 8) (⟨e.val % 128, Nat.mod_lt _ (by decide)⟩ : Fin 128)) = b1 (ix1 e) :=
    fun e => by
      rw [hbb]
      exact congrArg (fun x => b1 (ix1 x)) (Fin.ext (by show e.val / 128 * 128 + e.val % 128 = e.val; omega))
  rw [ho, ho2, hb2r]
  show _ = (∑ e : Fin 1024, Cert.Spec.act (Cert.Spec.hidden tok W1 b1 s b e) * W2 (ix2 e v)) + b2 (ix1 v)
  refine congrArg (· + b2 (ix1 v)) (Finset.sum_congr rfl fun e _ => ?_)
  rw [hhf, hh3, kw w0 0 hw0, kw w1 1 hw1, kw w2 2 hw2, kb, ktbl, ktbl, ktbl]
  rfl

/-! ## The whole program -/

section Chain
-- the buffers' contents at launch, when the first kernel returns, and when the second kernel returns
variable (U0 U4 U6 : Dev nD → Valuation τ sig (Elt Ideal))

/-- The contents the first kernel is entered with: the three stretches of array operations run from the launch contents. -/
abbrev U3 : Dev nD → Valuation τ sig (Elt Ideal) :=
  fun c => StableHlo.after hostOps0_2 (StableHlo.after hostOps0_1 (StableHlo.after hostOps0 (U0 c)))
/-- The contents the second kernel is entered with: the two reshapes run from the first kernel's return. -/
abbrev U5 : Dev nD → Valuation τ sig (Elt Ideal) := fun c => StableHlo.after hostOps1 (U4 c)
/-- The contents at the return: the last reshape run from the second kernel's return. -/
abbrev U7 : Dev nD → Valuation τ sig (Elt Ideal) := fun c => StableHlo.after hostOps2 (U6 c)
/-- The entry contents read at the TensorCore's references. -/
abbrev E3 : (c : Dev nD) → (b : Ref sig .tc) → Buf (Elt Ideal) ((c : Thread nD τ).loc b) := fun c b => U3 U0 c b
abbrev E5 : (c : Dev nD) → (b : Ref sig .tc) → Buf (Elt Ideal) ((c : Thread nD τ).loc b) := fun c b => U5 U4 c b

/-- An array no stretch before the first kernel writes is, at that kernel's entry, as launched. -/
theorem U3_of (c : Dev nD) (b : Ref sig .tc) (h0 : b ∉ hostOps0_W) (h1 : b ∉ hostOps0_1_W) (h2 : b ∉ hostOps0_2_W) :
    U3 U0 c (Proc.devRef .tc b) = U0 c (Proc.devRef .tc b) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

/-- THE PROGRAM'S RESULT. If the first kernel returns with its output array at what its write-backs leave and every
    array it has no window on as entered, and the second kernel returns with its output array at what its write-backs
    leave, then on token ids in range the result array at the return is the specified logits of the five arguments. -/
theorem program_value (c : Dev nD)
    (h22 : U4 c (Proc.devRef .tc main_v22) = (dat0 (F := Ideal) (E3 U0) c).arrAt (1 : Fin 2) (cfg0 (adm0 (E3 U0))).N)
    (h4 : ∀ b : Ref sig .tc, (∀ w, Pipeline.arrRef spec0 w ≠ b) → U4 c (Proc.devRef .tc b) = U3 U0 c (Proc.devRef .tc b))
    (h25 : U6 c (Proc.devRef .tc main_v25) = (dat1 (F := Ideal) (E5 U4) c).arrAt 3 cfg1.N)
    (hr : Cert.Spec.InRange (U0 c (Proc.devRef .tc main_arg0) : S512x4.Idx → BitVec 32)) :
    (U7 U6 c (Proc.devRef .tc main_v26) : S512x4x32000.Idx → EReal)
      = Cert.Spec.logits (U0 c (Proc.devRef .tc main_arg0) : S512x4.Idx → BitVec 32)
          (U0 c (Proc.devRef .tc main_arg1) : S3x32000x1024.Idx → EReal) (U0 c (Proc.devRef .tc main_arg2) : S1024.Idx → EReal)
          (U0 c (Proc.devRef .tc main_arg3) : S1024x32000.Idx → EReal) (U0 c (Proc.devRef .tc main_arg4) : S32000.Idx → EReal) := by
  -- the arguments where they are read
  have a1 : StableHlo.after hostOps0_1 (StableHlo.after hostOps0 (U0 c)) (Proc.devRef .tc main_arg1) = U0 c (Proc.devRef .tc main_arg1) :=
    (StableHlo.after_of_writes_sub hostOps0_1 _ hostOps0_1_writes (by decide)).trans
      (StableHlo.after_of_writes_sub hostOps0 _ hostOps0_writes (by decide))
  have a2 : StableHlo.after hostOps0_1 (StableHlo.after hostOps0 (U0 c)) (Proc.devRef .tc main_arg2) = U0 c (Proc.devRef .tc main_arg2) :=
    (StableHlo.after_of_writes_sub hostOps0_1 _ hostOps0_1_writes (by decide)).trans
      (StableHlo.after_of_writes_sub hostOps0 _ hostOps0_writes (by decide))
  have a3 : U5 U4 c (Proc.devRef .tc main_arg3) = U0 c (Proc.devRef .tc main_arg3) :=
    (StableHlo.after_of_writes_sub hostOps1 _ hostOps1_writes (by decide)).trans
      ((h4 main_arg3 (by decide)).trans (U3_of U0 c main_arg3 (by decide) (by decide) (by decide)))
  have a4 : U4 c (Proc.devRef .tc main_arg4) = U0 c (Proc.devRef .tc main_arg4) :=
    (h4 main_arg4 (by decide)).trans (U3_of U0 c main_arg4 (by decide) (by decide) (by decide))
  have t11 : U3 U0 c (Proc.devRef .tc main_v11)
      = StableHlo.after hostOps0_1 (StableHlo.after hostOps0 (U0 c)) (Proc.devRef .tc main_v11) :=
    StableHlo.after_of_writes_sub hostOps0_2 _ hostOps0_2_writes (by decide)
  refine logits_of_reads
    (U0 c (Proc.devRef .tc main_arg0) : S512x4.Idx → BitVec 32) (U0 c (Proc.devRef .tc main_arg1) : S3x32000x1024.Idx → EReal)
    (U0 c (Proc.devRef .tc main_arg2) : S1024.Idx → EReal) (U0 c (Proc.devRef .tc main_arg3) : S1024x32000.Idx → EReal)
    (U0 c (Proc.devRef .tc main_arg4) : S32000.Idx → EReal)
    (U3 U0 c (Proc.devRef .tc main_v11) : S3x2048.Idx → BitVec 32)
    (U3 U0 c (Proc.devRef .tc main_v14) : S32000x8x128.Idx → EReal) (U3 U0 c (Proc.devRef .tc main_v17) : S32000x8x128.Idx → EReal)
    (U3 U0 c (Proc.devRef .tc main_v20) : S32000x8x128.Idx → EReal) (U3 U0 c (Proc.devRef .tc main_v21) : S1x8x128.Idx → EReal)
    (U4 c (Proc.devRef .tc main_v22) : S2048x8x128.Idx → EReal) (U5 U4 c (Proc.devRef .tc main_v23) : S2048x1024.Idx → EReal)
    (U5 U4 c (Proc.devRef .tc main_v24) : S1x32000.Idx → EReal) (U6 c (Proc.devRef .tc main_v25) : S2048x32000.Idx → EReal)
    (U7 U6 c (Proc.devRef .tc main_v26) : S512x4x32000.Idx → EReal)
    ?_ ?_ ?_ ?_ ?_ ?_ ?_ ?_ ?_ ?_
  · intro j r
    rw [t11]
    exact tbl_read (U0 c) hr j r
  · intro v a l
    exact (wslice0_read _ v a l).trans (congrFun a1 _)
  · intro v a l
    exact (wslice1_read _ v a l).trans (congrFun a1 _)
  · intro v a l
    exact (wslice2_read _ v a l).trans (congrFun a1 _)
  · intro a l
    exact (b1blk_read _ a l).trans (congrFun a2 _)
  · intro r a l
    exact congrFun (h22.trans (region0_value (E3 U0) c)) (ix3 r a l)
  · intro r e
    exact hflat_read (U4 c) r e
  · intro v
    exact (b2row_read (U4 c) v).trans (congrFun a4 _)
  · intro r v
    refine (congrFun (h25.trans (region1_value (E5 U4) c)) (ix2 r v)).trans ?_
    show projOf (U5 U4 c (Proc.devRef .tc main_v23)) (U5 U4 c (Proc.devRef .tc main_arg3)) (U5 U4 c (Proc.devRef .tc main_v24)) (ix2 r v) = _
    rw [a3]
    rfl
  · intro s b v
    exact out_read (U6 c) s b v

end Chain

/-! ## The run's result -/

section Run
variable (m : (ℓ : Loc nD τ sig) → Buf (Elt Ideal) ℓ) (ρ : Dev nD → PrngReg)

/-- The result array at the last boundary of the run is the specified logits of the launch contents of the arguments. -/
theorem kernel_value (c : Dev nD)
    (hr : Cert.Spec.InRange (m ((c : Thread nD τ).loc main_arg0) : S512x4.Idx → BitVec 32)) :
    (W7 m ρ c (Proc.devRef .tc main_v26) : S512x4x32000.Idx → EReal)
      = Cert.Spec.logits (m ((c : Thread nD τ).loc main_arg0) : S512x4.Idx → BitVec 32)
          (m ((c : Thread nD τ).loc main_arg1) : S3x32000x1024.Idx → EReal) (m ((c : Thread nD τ).loc main_arg2) : S1024.Idx → EReal)
          (m ((c : Thread nD τ).loc main_arg3) : S1024x32000.Idx → EReal) (m ((c : Thread nD τ).loc main_arg4) : S32000.Idx → EReal) :=
  program_value (W0 m ρ) (W4 m ρ) (W6 m ρ) c (W4_arr m ρ c (1 : Fin 2)) (fun b hb => W4_of_ne m ρ c b hb) (W6_arr m ρ c 3) hr

end Run

end Cert.KernelIdeal.HandValue

end
-- ==== Proof.RefValue.lean ====
/-
  The value of the reference, index by index, over the extended reals.

  The reference pads the token sequence in front with three rows of zeros and reads it at rows s, s + 1, s + 2:
  that is the context of position (s, b), slot j holding the padded row s + j. A slot number and a token id in
  [0, 32000) are not negative as signed words, so the two normalisations (adding the axis length to a negative
  index) leave them as they are. The gather reads, for the index vector (j, id), the row of table j that id names:
  a start index is read signed and clamped so that the slice fits, and neither does anything to a slot number below
  3 or an id below 32000. The sum over the three slots starts from zero, so it is the sum of the three rows; the
  bias is added, then x goes to x times the quotient of one by one plus the exponential of -x, which is x times
  the logistic function of x; the product with the output matrix is the sum over the hidden features, and the last
  bias is added.
-/
import proofs.«403403_j35476429865350_3_alg».proof.Proof.RefReadP
import proofs.«403403_j35476429865350_3_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem

/-! ## Joined arrays at an index -/

section Pieces
variable {α : Type}

/-- The padded sequence at a row below the padding's extent: the padding. -/
theorem cat_pad_lo (z : S3x4.Idx → α) (x : S512x4.Idx → α) (r : Fin 515) (b : Fin 4) (hr : r.val < 3) :
    concatenate S515x4 0 [⟨S3x4, z⟩, ⟨S512x4, x⟩] concatenates_S3x4_S512x4_S515x4_d0 (ix2 r b)
      = z (ix2 (⟨r.val, hr⟩ : Fin 3) b) := by
  refine concatenate_pair_apply_left (0 : Fin S515x4.rank) z x concatenates_S3x4_S512x4_S515x4_d0 (ix2 r b) rfl
    (ix2 (⟨r.val, hr⟩ : Fin 3) b) (fun c => ?_)
  match c with
  | ⟨0, _⟩ => rfl
  | ⟨1, _⟩ => rfl

/-- The padded sequence at a row past the padding: the sequence, three rows earlier. -/
theorem cat_pad_hi (z : S3x4.Idx → α) (x : S512x4.Idx → α) (r : Fin 515) (b : Fin 4) (hr : 3 ≤ r.val) :
    concatenate S515x4 0 [⟨S3x4, z⟩, ⟨S512x4, x⟩] concatenates_S3x4_S512x4_S515x4_d0 (ix2 r b)
      = x (ix2 (⟨r.val - 3, by omega⟩ : Fin 512) b) := by
  refine concatenate_pair_apply_right (0 : Fin S515x4.rank) z x concatenates_S3x4_S512x4_S515x4_d0 (ix2 r b) rfl rfl
    (ix2 (⟨r.val - 3, by omega⟩ : Fin 512) b) (fun c hc => ?_) ?_
  · match c with
    | ⟨0, _⟩ => exact absurd rfl hc
    | ⟨1, _⟩ => rfl
  · show r.val - 3 + 3 = r.val
    omega

/-- The context array at slot k: piece k of the three. -/
theorem cat_ctx (f0 f1 f2 : S512x4x1.Idx → α) (s : Fin 512) (b : Fin 4) (k : Fin 3) (f : S512x4x1.Idx → α)
    (hf : [(⟨S512x4x1, f0⟩ : (s : Shape) × (s.Idx → α)), ⟨S512x4x1, f1⟩, ⟨S512x4x1, f2⟩][k.val]'(by simpa using k.isLt)
      = ⟨S512x4x1, f⟩) :
    concatenate S512x4x3 2 [⟨S512x4x1, f0⟩, ⟨S512x4x1, f1⟩, ⟨S512x4x1, f2⟩]
      concatenates_S512x4x1_S512x4x1_S512x4x1_S512x4x3_d2 (ix3 s b k) = f (ix3 s b (0 : Fin 1)) := by
  refine concatenate_apply_piece (2 : Fin S512x4x3.rank) [⟨S512x4x1, f0⟩, ⟨S512x4x1, f1⟩, ⟨S512x4x1, f2⟩]
    concatenates_S512x4x1_S512x4x1_S512x4x1_S512x4x3_d2 (ix3 s b k)
    k.val (by simpa using k.isLt) S512x4x1 f hf rfl k.val ?_ (ix3 s b (0 : Fin 1)) (fun c hc => ?_) ?_
  · match k with
    | ⟨0, _⟩ => rfl
    | ⟨1, _⟩ => rfl
    | ⟨2, _⟩ => rfl
  · match c with
    | ⟨0, _⟩ => rfl
    | ⟨1, _⟩ => rfl
    | ⟨2, _⟩ => exact absurd rfl hc
  · show k.val + 0 = k.val
    omega

/-- The index vectors' first component. -/
theorem cat_iv0 (g0 g1 : S512x4x3x1.Idx → α) (s : Fin 512) (b : Fin 4) (k : Fin 3) :
    concatenate S512x4x3x2 3 [⟨S512x4x3x1, g0⟩, ⟨S512x4x3x1, g1⟩] concatenates_S512x4x3x1_S512x4x3x1_S512x4x3x2_d3
      (ix4 s b k (0 : Fin 2)) = g0 (ix4 s b k (0 : Fin 1)) := by
  refine concatenate_pair_apply_left (3 : Fin S512x4x3x2.rank) g0 g1 concatenates_S512x4x3x1_S512x4x3x1_S512x4x3x2_d3
    (ix4 s b k (0 : Fin 2)) rfl (ix4 s b k (0 : Fin 1)) (fun c => ?_)
  match c with
  | ⟨0, _⟩ => rfl
  | ⟨1, _⟩ => rfl
  | ⟨2, _⟩ => rfl
  | ⟨3, _⟩ => rfl

/-- The index vectors' second component. -/
theorem cat_iv1 (g0 g1 : S512x4x3x1.Idx → α) (s : Fin 512) (b : Fin 4) (k : Fin 3) :
    concatenate S512x4x3x2 3 [⟨S512x4x3x1, g0⟩, ⟨S512x4x3x1, g1⟩] concatenates_S512x4x3x1_S512x4x3x1_S512x4x3x2_d3
      (ix4 s b k (1 : Fin 2)) = g1 (ix4 s b k (0 : Fin 1)) := by
  refine concatenate_pair_apply_right (3 : Fin S512x4x3x2.rank) g0 g1 concatenates_S512x4x3x1_S512x4x3x1_S512x4x3x2_d3
    (ix4 s b k (1 : Fin 2)) rfl rfl (ix4 s b k (0 : Fin 1)) (fun c hc => ?_) ?_
  · match c with
    | ⟨0, _⟩ => rfl
    | ⟨1, _⟩ => rfl
    | ⟨2, _⟩ => rfl
    | ⟨3, _⟩ => exact absurd rfl hc
  · rfl

/-! ## The gather at an index -/

abbrev gd : GatherDims S3x32000x1024 S512x4x3x2 S512x4x3x1024 :=
  gather_S3x32000x1024_S512x4x3x2_S512x4x3x1024_3_01_n_n_01_3_111024

/-- The gather at (s, b, k, e): the table at the two components of the index vector of (s, b, k), each read as a signed
    word and clamped to its axis, and at e on the last axis. -/
theorem gather_apply (x : S3x32000x1024.Idx → α) (idx : IVec S512x4x3x2 32)
    (s : Fin 512) (b : Fin 4) (k : Fin 3) (e : Fin 1024) (r0 : Fin 3) (r1 : Fin 32000)
    (h0 : min (idx (ix4 s b k (0 : Fin 2))).toInt.toNat 2 = r0.val)
    (h1 : min (idx (ix4 s b k (1 : Fin 2))).toInt.toNat 31999 = r1.val) :
    Host.gather gd x idx (ix4 s b k e) = x (ix3 r0 r1 e) := by
  have c0 : (gd.operandIdx (ix4 s b k e) idx (0 : Fin 3)).val = r0.val := by
    show gd.start (ix4 s b k e) idx 0 + gd.batchCoord (ix4 s b k e) 0 + gd.offCoord (ix4 s b k e) 0 = _
    rw [GatherDims.batchCoord_eq_zero _ _ _ List.not_mem_nil,
      GatherDims.offCoord_eq_zero _ _ _ (fun h => ((GatherDims.mem_sKept _ _).mp h).1 (by decide))]
    unfold GatherDims.start
    rw [dif_pos (show (0 : Fin 3) ∈ gd.startIndexMap by decide)]
    have hsi : gd.siIdx (ix4 s b k e) ⟨List.idxOf (0 : Fin 3) gd.startIndexMap,
        List.idxOf_lt_length_iff.2 (by decide)⟩ = ix4 s b k (0 : Fin 2) := by
      funext c; refine Fin.ext ?_
      match c with
      | ⟨0, _⟩ => rfl
      | ⟨1, _⟩ => rfl
      | ⟨2, _⟩ => rfl
      | ⟨3, _⟩ => rfl
    rw [hsi]
    exact h0
  have c1 : (gd.operandIdx (ix4 s b k e) idx (1 : Fin 3)).val = r1.val := by
    show gd.start (ix4 s b k e) idx 1 + gd.batchCoord (ix4 s b k e) 1 + gd.offCoord (ix4 s b k e) 1 = _
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 3) ∈ gd.startIndexMap by decide)]
    have hsi : gd.siIdx (ix4 s b k e) ⟨List.idxOf (1 : Fin 3) gd.startIndexMap,
        List.idxOf_lt_length_iff.2 (by decide)⟩ = ix4 s b k (1 : Fin 2) := by
      funext c; refine Fin.ext ?_
      match c with
      | ⟨0, _⟩ => rfl
      | ⟨1, _⟩ => rfl
      | ⟨2, _⟩ => rfl
      | ⟨3, _⟩ => rfl
    rw [hsi]
    exact h1
  have c2 : (gd.operandIdx (ix4 s b k e) idx (2 : Fin 3)).val = e.val := by
    show gd.start (ix4 s b k e) idx 2 + gd.batchCoord (ix4 s b k e) 2 + gd.offCoord (ix4 s b k e) 2 = _
    rw [GatherDims.batchCoord_eq_zero _ _ _ List.not_mem_nil]
    unfold GatherDims.start
    rw [dif_neg (show ¬ (2 : Fin 3) ∈ gd.startIndexMap by decide)]
    unfold GatherDims.offCoord
    rw [dif_pos (show (2 : Fin 3) ∈ gd.sKept by decide)]
    simp only [Nat.zero_add]
    have key : ∀ (a : Fin 4), a = 3 → (ix4 s b k e a).val = e.val := by
      intro a ha; subst ha; rfl
    exact key _ (by decide)
  unfold Host.gather
  congr 1
  funext a
  refine Fin.ext ?_
  match a with
  | ⟨0, _⟩ => exact c0
  | ⟨1, _⟩ => exact c1
  | ⟨2, _⟩ => exact c2

end Pieces

/-! ## Signed words that are not negative -/

/-- A slot number is not negative: normalising it leaves it. -/
theorem norm_iota : ∀ k : Fin 3,
    Scalar.select (IntOp.cmpi .slt (BitVec.ofNat 32 k.val) 0#32) (IntOp.addi (BitVec.ofNat 32 k.val) 3#32)
      (BitVec.ofNat 32 k.val) = BitVec.ofNat 32 k.val := by
  decide

/-- A slot number read as a signed word is itself. -/
theorem iota_toNat : ∀ k : Fin 3, (BitVec.ofNat 32 k.val).toInt.toNat = k.val := by
  decide

theorem toInt_of_lt (w : BitVec 32) (h : w.toNat < 32000) : w.toInt = (w.toNat : Int) :=
  BitVec.toInt_eq_toNat_of_lt (by omega)

/-- A row number read as a signed word is itself. -/
theorem tok_toNat (w : BitVec 32) (h : w.toNat < 32000) : w.toInt.toNat = w.toNat := by
  rw [toInt_of_lt w h]; exact Int.toNat_natCast _

/-- A row number is not negative: normalising it leaves it. -/
theorem norm_tok (w : BitVec 32) (h : w.toNat < 32000) :
    Scalar.select (IntOp.cmpi .slt w 0#32) (IntOp.addi w 32000#32) w = w := by
  have hs : w.slt 0#32 = false := by
    unfold BitVec.slt
    rw [toInt_of_lt w h]
    simp
  unfold IntOp.cmpi
  simp only [hs]
  exact ValueIdx.select_zero _ _

/-! ## The two constants and the activation -/

theorem bits_zero : Ideal.ofBits .f32 0x00000000#32 = 0 := by simp [Ideal.ofBits, Ideal.ieee]

theorem bits_one : Ideal.ofBits .f32 0x3F800000#32 = 1 := by
  simp [Ideal.ofBits, Ideal.ieee, -EReal.coe_mul]; norm_num

/-- x times the quotient of one by one plus the exponential of -x is x times the logistic function of x. -/
theorem silu_eq (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = x * Ideal.logistic x := by
  simp only [Ideal.mulf_def, Ideal.hostDivf_def, Ideal.addf_def, Ideal.hostUnary_exp_def, Ideal.hostNegf_def,
    Ideal.negf_def, Ideal.ofBits_def, bits_one, Ideal.logistic]

/-! ## The reference, stage by stage -/

abbrev Tok : Type := (⟨S512x4, .i32⟩ : BufTy).Contents (Elt Ideal)
abbrev TW1 : Type := (⟨S3x32000x1024, .f32⟩ : BufTy).Contents (Elt Ideal)
abbrev TB1 : Type := (⟨S1024, .f32⟩ : BufTy).Contents (Elt Ideal)
abbrev TW2 : Type := (⟨S1024x32000, .f32⟩ : BufTy).Contents (Elt Ideal)
abbrev TB2 : Type := (⟨S32000, .f32⟩ : BufTy).Contents (Elt Ideal)

/-- The padded sequence below row 3 is zero. -/
theorem v1_lo (x0 : Tok) (r : Fin 515) (b : Fin 4) (hr : r.val < 3) :
    val_main_v1 (F := Ideal) x0 (ix2 r b) = 0#32 := by
  unfold val_main_v1
  refine (cat_pad_lo _ _ r b hr).trans ?_
  rw [val_main_v0_apply, val_main_c_apply]

/-- The padded sequence from row 3 on is the sequence, three rows earlier. -/
theorem v1_hi (x0 : Tok) (r : Fin 515) (b : Fin 4) (hr : 3 ≤ r.val) :
    val_main_v1 (F := Ideal) x0 (ix2 r b) = x0 (ix2 (⟨r.val - 3, by omega⟩ : Fin 512) b) := by
  unfold val_main_v1
  exact cat_pad_hi _ _ r b hr

/-- The padded sequence at row s + j is the token in slot j of the context of (s, b). -/
theorem pad_eq_ctx (x0 : Tok) (s : Fin 512) (b : Fin 4) (j : Fin 3) (r : Fin 515) (hr : r.val = s.val + j.val) :
    val_main_v1 (F := Ideal) x0 (ix2 r b) = Cert.Spec.ctxTok x0 j s b := by
  unfold Cert.Spec.ctxTok
  by_cases h : 3 ≤ s.val + j.val
  · rw [dif_pos h, v1_hi x0 r b (by omega)]
    have e : (⟨r.val - 3, by omega⟩ : Fin 512) = ⟨s.val + j.val - 3, by omega⟩ :=
      Fin.ext (by show r.val - 3 = s.val + j.val - 3; omega)
    rw [e]
  · rw [dif_neg h, v1_lo x0 r b (by omega)]

theorem v2_eq (x0 : Tok) (s : Fin 512) (b : Fin 4) :
    val_main_v2 (F := Ideal) x0 (ix2 s b) = Cert.Spec.ctxTok x0 0 s b := by
  have e : idx_main_v2 (ix2 s b) = ix2 (⟨s.val, by omega⟩ : Fin 515) b :=
    funext fun a => Fin.ext (by match a with | ⟨0, _⟩ => rfl | ⟨1, _⟩ => rfl)
  exact (val_main_v2_apply x0 _).trans ((congrArg (val_main_v1 (F := Ideal) x0) e).trans
    (pad_eq_ctx x0 s b 0 _ (by show s.val = s.val + 0; omega)))

theorem v3_eq (x0 : Tok) (s : Fin 512) (b : Fin 4) :
    val_main_v3 (F := Ideal) x0 (ix2 s b) = Cert.Spec.ctxTok x0 1 s b := by
  have e : idx_main_v3 (ix2 s b) = ix2 (⟨1 + s.val, by omega⟩ : Fin 515) b :=
    funext fun a => Fin.ext (by match a with | ⟨0, _⟩ => rfl | ⟨1, _⟩ => rfl)
  exact (val_main_v3_apply x0 _).trans ((congrArg (val_main_v1 (F := Ideal) x0) e).trans
    (pad_eq_ctx x0 s b 1 _ (by show 1 + s.val = s.val + 1; omega)))

theorem v4_eq (x0 : Tok) (s : Fin 512) (b : Fin 4) :
    val_main_v4 (F := Ideal) x0 (ix2 s b) = Cert.Spec.ctxTok x0 2 s b := by
  have e : idx_main_v4 (ix2 s b) = ix2 (⟨2 + s.val, by omega⟩ : Fin 515) b :=
    funext fun a => Fin.ext (by match a with | ⟨0, _⟩ => rfl | ⟨1, _⟩ => rfl)
  exact (val_main_v4_apply x0 _).trans ((congrArg (val_main_v1 (F := Ideal) x0) e).trans
    (pad_eq_ctx x0 s b 2 _ (by show 2 + s.val = s.val + 2; omega)))

theorem v5_eq (x0 : Tok) (s : Fin 512) (b : Fin 4) :
    val_main_v5 (F := Ideal) x0 (ix3 s b (0 : Fin 1)) = Cert.Spec.ctxTok x0 0 s b := by
  have e : idx_main_v5 (ix3 s b (0 : Fin 1)) = ix2 s b :=
    funext fun a => Fin.ext (by match a with | ⟨0, _⟩ => rfl | ⟨1, _⟩ => rfl)
  exact (val_main_v5_apply x0 _).trans ((congrArg (val_main_v2 (F := Ideal) x0) e).trans (v2_eq x0 s b))

theorem v6_eq (x0 : Tok) (s : Fin 512) (b : Fin 4) :
    val_main_v6 (F := Ideal) x0 (ix3 s b (0 : Fin 1)) = Cert.Spec.ctxTok x0 1 s b := by
  have e : idx_main_v6 (ix3 s b (0 : Fin 1)) = ix2 s b :=
    funext fun a => Fin.ext (by match a with | ⟨0, _⟩ => rfl | ⟨1, _⟩ => rfl)
  exact (val_main_v6_apply x0 _).trans ((congrArg (val_main_v3 (F := Ideal) x0) e).trans (v3_eq x0 s b))

theorem v7_eq (x0 : Tok) (s : Fin 512) (b : Fin 4) :
    val_main_v7 (F := Ideal) x0 (ix3 s b (0 : Fin 1)) = Cert.Spec.ctxTok x0 2 s b := by
  have e : idx_main_v7 (ix3 s b (0 : Fin 1)) = ix2 s b :=
    funext fun a => Fin.ext (by match a with | ⟨0, _⟩ => rfl | ⟨1, _⟩ => rfl)
  exact (val_main_v7_apply x0 _).trans ((congrArg (val_main_v4 (F := Ideal) x0) e).trans (v4_eq x0 s b))

/-- The context array holds the context's tokens. -/
theorem v8_eq (x0 : Tok) (s : Fin 512) (b : Fin 4) (k : Fin 3) :
    val_main_v8 (F := Ideal) x0 (ix3 s b k) = Cert.Spec.ctxTok x0 k s b := by
  unfold val_main_v8
  match k with
  | ⟨0, hk⟩ =>
    exact (cat_ctx (val_main_v5 (F := Ideal) x0) (val_main_v6 (F := Ideal) x0) (val_main_v7 (F := Ideal) x0) s b ⟨0, hk⟩
      (val_main_v5 (F := Ideal) x0) rfl).trans (v5_eq x0 s b)
  | ⟨1, hk⟩ =>
    exact (cat_ctx (val_main_v5 (F := Ideal) x0) (val_main_v6 (F := Ideal) x0) (val_main_v7 (F := Ideal) x0) s b ⟨1, hk⟩
      (val_main_v6 (F := Ideal) x0) rfl).trans (v6_eq x0 s b)
  | ⟨2, hk⟩ =>
    exact (cat_ctx (val_main_v5 (F := Ideal) x0) (val_main_v6 (F := Ideal) x0) (val_main_v7 (F := Ideal) x0) s b ⟨2, hk⟩
      (val_main_v7 (F := Ideal) x0) rfl).trans (v7_eq x0 s b)

/-- Normalised, the context array is unchanged on ids in range. -/
theorem v19_eq (x0 : Tok) (hr : Cert.Spec.InRange x0) (s : Fin 512) (b : Fin 4) (k : Fin 3) :
    val_main_v19 (F := Ideal) x0 (ix3 s b k) = Cert.Spec.ctxTok x0 k s b := by
  rw [val_main_v19_apply, val_main_v16_apply, val_main_v18_apply, val_main_v15_apply, val_main_v17_apply,
    val_main_c_2_apply, val_main_c_3_apply, v8_eq]
  exact norm_tok _ (Cert.Spec.ctxTok_lt hr k s b)

/-- Normalised, the slot numbers are unchanged. -/
theorem v14_eq (k : Fin 3) : val_main_v14 (F := Ideal) (ix1 k) = BitVec.ofNat 32 k.val := by
  rw [val_main_v14_apply, val_main_v11_apply, val_main_v13_apply, val_main_v9_apply, val_main_v10_apply,
    val_main_v12_apply, val_main_c_0_apply, val_main_c_1_apply]
  exact norm_iota k

theorem v20_eq (s : Fin 512) (b : Fin 4) (k : Fin 3) :
    val_main_v20 (F := Ideal) (ix3 s b k) = BitVec.ofNat 32 k.val := by
  have e : idx_main_v20 (ix3 s b k) = ix1 k :=
    funext fun a => Fin.ext (by match a with | ⟨0, _⟩ => rfl)
  exact (val_main_v20_apply _).trans ((congrArg (val_main_v14 (F := Ideal)) e).trans (v14_eq k))

theorem v21_eq (s : Fin 512) (b : Fin 4) (k : Fin 3) :
    val_main_v21 (F := Ideal) (ix4 s b k (0 : Fin 1)) = BitVec.ofNat 32 k.val := by
  have e : idx_main_v21 (ix4 s b k (0 : Fin 1)) = ix3 s b k :=
    funext fun a => Fin.ext (by match a with | ⟨0, _⟩ => rfl | ⟨1, _⟩ => rfl | ⟨2, _⟩ => rfl)
  exact (val_main_v21_apply _).trans ((congrArg (val_main_v20 (F := Ideal)) e).trans (v20_eq s b k))

theorem v22_eq (x0 : Tok) (hr : Cert.Spec.InRange x0) (s : Fin 512) (b : Fin 4) (k : Fin 3) :
    val_main_v22 (F := Ideal) x0 (ix4 s b k (0 : Fin 1)) = Cert.Spec.ctxTok x0 k s b := by
  have e : idx_main_v22 (ix4 s b k (0 : Fin 1)) = ix3 s b k :=
    funext fun a => Fin.ext (by match a with | ⟨0, _⟩ => rfl | ⟨1, _⟩ => rfl | ⟨2, _⟩ => rfl)
  exact (val_main_v22_apply x0 _).trans ((congrArg (val_main_v19 (F := Ideal) x0) e).trans (v19_eq x0 hr s b k))

/-- The index vector of (s, b, k): the slot number, then the slot's token id. -/
theorem v23_0 (x0 : Tok) (s : Fin 512) (b : Fin 4) (k : Fin 3) :
    val_main_v23 (F := Ideal) x0 (ix4 s b k (0 : Fin 2)) = BitVec.ofNat 32 k.val := by
  unfold val_main_v23
  exact (cat_iv0 _ _ s b k).trans (v21_eq s b k)

theorem v23_1 (x0 : Tok) (hr : Cert.Spec.InRange x0) (s : Fin 512) (b : Fin 4) (k : Fin 3) :
    val_main_v23 (F := Ideal) x0 (ix4 s b k (1 : Fin 2)) = Cert.Spec.ctxTok x0 k s b := by
  unfold val_main_v23
  exact (cat_iv1 _ _ s b k).trans (v22_eq x0 hr s b k)

/-- The gathered row: table k at the row the token in slot k names. -/
theorem v24_eq (x0 : Tok) (hr : Cert.Spec.InRange x0) (x1 : TW1) (s : Fin 512) (b : Fin 4) (k : Fin 3) (e : Fin 1024) :
    val_main_v24 (F := Ideal) x0 x1 (ix4 s b k e) = x1 (ix3 k (Cert.Spec.rowOf (Cert.Spec.ctxTok x0 k s b)) e) := by
  unfold val_main_v24
  refine gather_apply x1 (val_main_v23 (F := Ideal) x0) s b k e k (Cert.Spec.rowOf (Cert.Spec.ctxTok x0 k s b)) ?_ ?_
  · rw [v23_0 x0 s b k, iota_toNat k]
    exact Nat.min_eq_left (by omega)
  · rw [v23_1 x0 hr s b k, tok_toNat _ (Cert.Spec.ctxTok_lt hr k s b)]
    rfl

/-- The sum of the three gathered rows. -/
theorem v25_eq (x0 : Tok) (hr : Cert.Spec.InRange x0) (x1 : TW1) (s : Fin 512) (b : Fin 4) (e : Fin 1024) :
    val_main_v25 (F := Ideal) x0 x1 (ix3 s b e)
      = x1 (ix3 (0 : Fin 3) (Cert.Spec.rowOf (Cert.Spec.ctxTok x0 0 s b)) e)
        + x1 (ix3 (1 : Fin 3) (Cert.Spec.rowOf (Cert.Spec.ctxTok x0 1 s b)) e)
        + x1 (ix3 (2 : Fin 3) (Cert.Spec.rowOf (Cert.Spec.ctxTok x0 2 s b)) e) := by
  have e0 : idx_main_v25 (ix3 s b e) (0 : Fin 3) = ix4 s b (0 : Fin 3) e :=
    funext fun a => Fin.ext (by match a with | ⟨0, _⟩ => rfl | ⟨1, _⟩ => rfl | ⟨2, _⟩ => rfl | ⟨3, _⟩ => rfl)
  have e1 : idx_main_v25 (ix3 s b e) (1 : Fin 3) = ix4 s b (1 : Fin 3) e :=
    funext fun a => Fin.ext (by match a with | ⟨0, _⟩ => rfl | ⟨1, _⟩ => rfl | ⟨2, _⟩ => rfl | ⟨3, _⟩ => rfl)
  have e2 : idx_main_v25 (ix3 s b e) (2 : Fin 3) = ix4 s b (2 : Fin 3) e :=
    funext fun a => Fin.ext (by match a with | ⟨0, _⟩ => rfl | ⟨1, _⟩ => rfl | ⟨2, _⟩ => rfl | ⟨3, _⟩ => rfl)
  rw [val_main_v25_apply, Fin.sum_univ_three, e0, e1, e2, v24_eq x0 hr x1 s b 0 e, v24_eq x0 hr x1 s b 1 e,
    v24_eq x0 hr x1 s b 2 e, val_main_cst_apply, Ideal.ofBits_def, bits_zero, zero_add]

theorem v27_eq (x2 : TB1) (s : Fin 512) (b : Fin 4) (e : Fin 1024) :
    val_main_v27 (F := Ideal) x2 (ix3 s b e) = x2 (ix1 e) := by
  have e27 : idx_main_v27 (ix3 s b e) = ix3 (0 : Fin 1) (0 : Fin 1) e :=
    funext fun a => Fin.ext (by match a with | ⟨0, _⟩ => rfl | ⟨1, _⟩ => rfl | ⟨2, _⟩ => rfl)
  have e26 : idx_main_v26 (ix3 (0 : Fin 1) (0 : Fin 1) e) = ix1 e :=
    funext fun a => Fin.ext (by match a with | ⟨0, _⟩ => rfl)
  exact (val_main_v27_apply x2 _).trans ((congrArg (val_main_v26 (F := Ideal) x2) e27).trans
    ((val_main_v26_apply x2 _).trans (congrArg x2 e26)))

/-- The hidden pre-activation. -/
theorem v28_eq (x0 : Tok) (hr : Cert.Spec.InRange x0) (x1 : TW1) (x2 : TB1) (s : Fin 512) (b : Fin 4) (e : Fin 1024) :
    val_main_v28 (F := Ideal) x0 x1 x2 (ix3 s b e) = Cert.Spec.hidden x0 x1 x2 s b e := by
  rw [val_main_v28_apply, v25_eq x0 hr x1 s b e, v27_eq x2 s b e]
  rfl

/-- The activation of the hidden pre-activation. -/
theorem v29_eq (x0 : Tok) (hr : Cert.Spec.InRange x0) (x1 : TW1) (x2 : TB1) (s : Fin 512) (b : Fin 4) (e : Fin 1024) :
    val_main_v29 (F := Ideal) x0 x1 x2 (ix3 s b e) = Cert.Spec.act (Cert.Spec.hidden x0 x1 x2 s b e) := by
  rw [val_main_v29_apply, val_main_call0_v5_apply, val_main_call0_v4_apply, val_main_call0_cst_0_apply,
    val_main_call0_v3_apply, val_main_call0_v2_apply, val_main_call0_cst_apply, val_main_call0_v1_apply,
    val_main_call0_v0_apply, v28_eq x0 hr x1 x2 s b e]
  exact silu_eq _

theorem v32_eq (x4 : TB2) (s : Fin 512) (b : Fin 4) (v : Fin 32000) :
    val_main_v32 (F := Ideal) x4 (ix3 s b v) = x4 (ix1 v) := by
  have e32 : idx_main_v32 (ix3 s b v) = ix3 (0 : Fin 1) (0 : Fin 1) v :=
    funext fun a => Fin.ext (by match a with | ⟨0, _⟩ => rfl | ⟨1, _⟩ => rfl | ⟨2, _⟩ => rfl)
  have e31 : idx_main_v31 (ix3 (0 : Fin 1) (0 : Fin 1) v) = ix1 v :=
    funext fun a => Fin.ext (by match a with | ⟨0, _⟩ => rfl)
  exact (val_main_v32_apply x4 _).trans ((congrArg (val_main_v31 (F := Ideal) x4) e32).trans
    ((val_main_v31_apply x4 _).trans (congrArg x4 e31)))

/-- One logit. -/
theorem v33_eq (x0 : Tok) (hr : Cert.Spec.InRange x0) (x1 : TW1) (x2 : TB1) (x3 : TW2) (x4 : TB2)
    (s : Fin 512) (b : Fin 4) (v : Fin 32000) :
    val_main_v33 (F := Ideal) x0 x1 x2 x3 x4 (ix3 s b v) = Cert.Spec.logitAt x0 x1 x2 x3 x4 s b v := by
  rw [val_main_v33_apply, val_main_v30_apply, v32_eq x4 s b v]
  unfold Cert.Spec.logitAt
  refine congrArg (fun t => t + x4 (ix1 v)) (Finset.sum_congr rfl fun k _ => ?_)
  have el : lidx_main_v30 (ix3 s b v) k = ix3 s b k :=
    funext fun a => Fin.ext (by match a with | ⟨0, _⟩ => rfl | ⟨1, _⟩ => rfl | ⟨2, _⟩ => rfl)
  have er : ridx_main_v30 (ix3 s b v) k = ix2 k v :=
    funext fun a => Fin.ext (by match a with | ⟨0, _⟩ => rfl | ⟨1, _⟩ => rfl)
  rw [el, er, v29_eq x0 hr x1 x2 s b k]

/-- The reference's last stage is the specification. -/
theorem stage_eq_spec (x0 : Tok) (hr : Cert.Spec.InRange x0) (x1 : TW1) (x2 : TB1) (x3 : TW2) (x4 : TB2) :
    val_main_v33 (F := Ideal) x0 x1 x2 x3 x4 = Cert.Spec.logits x0 x1 x2 x3 x4 := by
  funext i
  obtain ⟨s, b, v, rfl⟩ : ∃ (s : Fin 512) (b : Fin 4) (v : Fin 32000), i = ix3 s b v := ⟨i 0, i 1, i 2, eq_ix3 i⟩
  exact v33_eq x0 hr x1 x2 x3 x4 s b v

/-- The reference's result is the specification of its arguments, for token ids in range. -/
theorem ref_eq_spec (m : (ℓ : Loc Cert.ReferenceIdeal.nD Cert.ReferenceIdeal.τ Cert.ReferenceIdeal.sig) → Buf (Elt Ideal) ℓ)
    (c : Dev Cert.ReferenceIdeal.nD)
    (hr : Cert.Spec.InRange (m ((c.tc : Thread nD τ).loc main_arg0))) :
    Cert.ReferenceIdeal.ValueP.res_main_v33 (F := Ideal) m c
      = Cert.Spec.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v33_eq (F := Ideal) m c).trans (stage_eq_spec _ hr _ _ _ _)

end Cert.ReferenceIdeal.RefValue

end
-- ==== Proof.lean ====
/-
  The proof of the certificate's claim: the kernel program and the reference compute the same logits.

  Both programs take a token sequence (512 × 4 ids), three embedding tables stacked as one array (3 × 32000 × 1024),
  a hidden bias (1024), an output matrix (1024 × 32000) and an output bias (32000). A position (s, b) of the sequence
  has a context of three ids: the sequence padded in front with three zero rows, read at rows s, s + 1, s + 2. Slot j's
  id selects a row of the j-th table; the three rows are summed with the hidden bias, x goes to x · σ(x) (σ the logistic
  function), and the result is multiplied into the output matrix and the output bias is added:

    logits (s, b, v) = Σ_e act (W1 (0, id₀, e) + W1 (1, id₁, e) + W1 (2, id₂, e) + b1 e) · W2 (e, v) + b2 v.

  The kernel program clamps each id into [0, 31999] before it uses it as a row number. The reference first adds 32000
  to a negative id and then clamps the start index so that the slice fits. On an id in [-32000, -1] the two disagree
  (the kernel reads row 0, the reference row id + 32000), so the claim is made under the precondition that every token
  id is in [0, 32000) (and the float arguments finite), where both read row id.

  How the proof goes. The kernel program is seven stretches: array operations that build the 3 × 2048 table of context
  ids and lay out the operands, a first kernel that gathers the three rows of every position by copies it issues
  itself, sums them with the bias and applies the activation, a reshape, a second kernel that multiplies by the output
  matrix tile by tile and adds the bias, and a last reshape. Its run is stated stretch by stretch over the contents of
  every buffer at the eight boundaries, generically in the number family, so once for the bit-exact program and once
  for its idealization: every fair execution terminates, and at the end every buffer holds the last boundary's contents.
  No stretch writes an argument, so the arguments end as launched: the two frame claims. Over the extended reals the
  last boundary's contents of the result array, read index by index back through the stretches, are the logits above
  of the launch contents of the arguments. The reference is a straight line of array operations; its run leaves in its
  result array the composed term of its arguments, which index by index is the same function. From memories that
  agree on the arguments the two results are therefore equal. The idealization rewrote no operation, so what it
  preserves is nothing to prove.
-/
import proofs.«403403_j35476429865350_3_alg».proof.Defs
import proofs.«403403_j35476429865350_3_alg».proof.Proof.Gen.Kernel
import proofs.«403403_j35476429865350_3_alg».proof.Proof.Gen.KernelIdeal
import proofs.«403403_j35476429865350_3_alg».proof.Proof.Gen.ReferenceIdeal
import proofs.«403403_j35476429865350_3_alg».proof.Proof.Gen.Pre_finite_inputs
import proofs.«403403_j35476429865350_3_alg».proof.Proof.PreDecode
import proofs.«403403_j35476429865350_3_alg».proof.Proof.Spec
import proofs.«403403_j35476429865350_3_alg».proof.Proof.K.Frame
import proofs.«403403_j35476429865350_3_alg».proof.Proof.K.TblOk
import proofs.«403403_j35476429865350_3_alg».proof.Proof.KI.Frame
import proofs.«403403_j35476429865350_3_alg».proof.Proof.KI.TblOk
import proofs.«403403_j35476429865350_3_alg».proof.Proof.KI.Value
import proofs.«403403_j35476429865350_3_alg».proof.Proof.RefRun
import proofs.«403403_j35476429865350_3_alg».proof.Proof.RefValue

noncomputable section

namespace Cert.Proof

open Idealize.ShloMosaic Idealize.ShloMosaic.TcCoe Idealize.SL.Sem

/-! ## Token ids in range, from the precondition -/

/-- Under the precondition every token id the bit-exact program is launched with is in `[0, 32000)`. -/
theorem inRange_Kernel (m : (ℓ : Loc Cert.Kernel.nD Cert.Kernel.τ Cert.Kernel.sig) → Buf (Elt Bits) ℓ) (hpre : Cert.Pre_Kernel m)
    (c : Dev Cert.Kernel.nD) : Cert.Spec.InRange (m ((c.tc : Thread Cert.Kernel.nD Cert.Kernel.τ).loc Cert.Kernel.main_arg0)) :=
  Cert.PreDecode.inRange_of_pre (F := Bits) _ _ _ _ _ (hpre c)

/-- The same of the idealized program. -/
theorem inRange_KernelIdeal (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange (m ((c.tc : Thread Cert.KernelIdeal.nD Cert.KernelIdeal.τ).loc Cert.KernelIdeal.main_arg0)) :=
  Cert.PreDecode.inRange_of_pre (F := Ideal) _ _ _ _ _ (hpre c)

/-! ## The frame claims -/

/-- The bit-exact program runs and its arguments end as launched: the run leaves every unscoped buffer at the last
    boundary's contents, which at an argument are the launch contents. -/
theorem frame_Kernel : Cert.frame_Kernel := fun m ρ hpre =>
  (θ_run Cert.Kernel.defs _ _).mono (fun _ h c =>
      ⟨(h c _ (Cert.Kernel.Hand.mem_uc Cert.Kernel.main_arg0 (by decide))).trans (Cert.Kernel.Hand.W7_main_arg0 m ρ c),
       (h c _ (Cert.Kernel.Hand.mem_uc Cert.Kernel.main_arg1 (by decide))).trans (Cert.Kernel.Hand.W7_main_arg1 m ρ c),
       (h c _ (Cert.Kernel.Hand.mem_uc Cert.Kernel.main_arg2 (by decide))).trans (Cert.Kernel.Hand.W7_main_arg2 m ρ c),
       (h c _ (Cert.Kernel.Hand.mem_uc Cert.Kernel.main_arg3 (by decide))).trans (Cert.Kernel.Hand.W7_main_arg3 m ρ c),
       (h c _ (Cert.Kernel.Hand.mem_uc Cert.Kernel.main_arg4 (by decide))).trans (Cert.Kernel.Hand.W7_main_arg4 m ρ c)⟩)
    (Cert.Kernel.Hand.run_all (F := Bits) m ρ (Cert.Kernel.Hand.tblOk_of_inRange m ρ (inRange_Kernel m hpre)))

/-- The same of the idealized program. -/
theorem frame_KernelIdeal : Cert.frame_KernelIdeal := fun m ρ hpre =>
  (θ_run Cert.KernelIdeal.defs _ _).mono (fun _ h c =>
      ⟨(h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c)⟩)
    (Cert.KernelIdeal.Hand.run_all (F := Ideal) m ρ (Cert.KernelIdeal.Hand.tblOk_of_inRange m ρ (inRange_KernelIdeal m hpre)))

/-- The reference runs and its arguments end as launched: its run says so beside what its result holds. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-! ## The two results are equal -/

/-- Over the extended reals, from memories that agree on the arguments and token ids in range, both programs run, both
    leave their arguments as launched, and both result arrays end at the logits of the arguments: the kernel program's
    by the value of its last boundary, the reference's by the value of its composed term. -/
theorem algebraic : Cert.algebraic_KernelIdeal_ReferenceIdeal := by
  intro m ρ m' ρ' hpre hagree
  have hr := inRange_KernelIdeal m hpre
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c =>
        ⟨(h c _ (Cert.KernelIdeal.Hand.mem_uc Cert.KernelIdeal.main_v26 (by decide))).trans (Cert.KernelIdeal.HandValue.kernel_value m ρ c (hr c)),
         (h c _ (Cert.KernelIdeal.Hand.mem_uc Cert.KernelIdeal.main_arg0 (by decide))).trans (Cert.KernelIdeal.Hand.W7_main_arg0 m ρ c),
         (h c _ (Cert.KernelIdeal.Hand.mem_uc Cert.KernelIdeal.main_arg1 (by decide))).trans (Cert.KernelIdeal.Hand.W7_main_arg1 m ρ c),
         (h c _ (Cert.KernelIdeal.Hand.mem_uc Cert.KernelIdeal.main_arg2 (by decide))).trans (Cert.KernelIdeal.Hand.W7_main_arg2 m ρ c),
         (h c _ (Cert.KernelIdeal.Hand.mem_uc Cert.KernelIdeal.main_arg3 (by decide))).trans (Cert.KernelIdeal.Hand.W7_main_arg3 m ρ c),
         (h c _ (Cert.KernelIdeal.Hand.mem_uc Cert.KernelIdeal.main_arg4 (by decide))).trans (Cert.KernelIdeal.Hand.W7_main_arg4 m ρ c)⟩)
      (Cert.KernelIdeal.Hand.run_all (F := Ideal) m ρ (Cert.KernelIdeal.Hand.tblOk_of_inRange m ρ hr))
  · refine (θ_run Cert.ReferenceIdeal.defs _ _).mono (fun _ h c => ⟨(h c).1.trans ?_, (h c).2⟩)
      (Cert.ReferenceIdeal.ValueP.run (F := Ideal) m' ρ')
    have e := Cert.ReferenceIdeal.RefValue.ref_eq_spec m' c (by rw [(hagree c).1]; exact hr c)
    rw [(hagree c).1, (hagree c).2.1, (hagree c).2.2.1, (hagree c).2.2.2.1, (hagree c).2.2.2.2] at e
    exact e

/-! ## The claim -/

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
